-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v152)) (v1 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_v155) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_v414) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S16384x256 : Shape := ⟨2, ![16384, 256]⟩
abbrev S1x160x160x160 : Shape := ⟨4, ![1, 160, 160, 160]⟩
abbrev S3x160x160x160 : Shape := ⟨4, ![3, 160, 160, 160]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S1x160x160x160 : S_.BroadcastsInDim S1x160x160x160 (![] : Fin 0 → Fin S1x160x160x160.rank)
  reducesTo_S1x160x160x160_S_d0_1_2_3 : S1x160x160x160.ReducesTo [0, 1, 2, 3] S_
  bcast_S_S3x160x160x160 : S_.BroadcastsInDim S3x160x160x160 (![] : Fin 0 → Fin S3x160x160x160.rank)
  reducesTo_S3x160x160x160_S_d0_1_2_3 : S3x160x160x160.ReducesTo [0, 1, 2, 3] S_

variable [Facts]

def fn_part1 {F : FTy → Type} [FloatOps F] (main_arg4 : FVec F S3x160x160x160 .f32) (main_v13 : IVec S_ 1) (main_v16 : IVec S1x160x160x160 1) : IVec S_ 1 :=
  let main_c_5 : IVec S_ 1 := constantI S_ 1 1#1
  let main_v17 : IVec S_ 1 := (fun x v => Host.reduce IntOp.andi x v reducesTo_S1x160x160x160_S_d0_1_2_3 h_S_) main_v16 main_c_5
  let main_v18 : IVec S_ 1 := andi main_v13 main_v17
  let main_v19 : FVec F S3x160x160x160 .f32 := Host.absf main_arg4
  let main_cst_6 : FVec F S_ .f32 := constant S_ .f32 0x7F800000#32
  let main_v20 : FVec F S3x160x160x160 .f32 := broadcastInDim S3x160x160x160 ![] bcast_S_S3x160x160x160 main_cst_6
  let main_v21 : IVec S3x160x160x160 1 := cmpf .olt main_v19 main_v20
  let main_c_7 : IVec S_ 1 := constantI S_ 1 1#1
  let main_v22 : IVec S_ 1 := (fun x v => Host.reduce IntOp.andi x v reducesTo_S3x160x160x160_S_d0_1_2_3 h_S_) main_v21 main_c_7
  let main_v23 : IVec S_ 1 := andi main_v18 main_v22
  main_v23

def fn {F : FTy → Type} [FloatOps F] (main_arg0 : FVec F S16384x3 .f32) (main_arg1 : FVec F S16384x3 .f32) (main_arg2 : FVec F S16384x256 .f32) (main_arg3 : FVec F S1x160x160x160 .f32) (main_arg4 : FVec F S3x160x160x160 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  let main_v9 : FVec F S16384x256 .f32 := Host.absf main_arg2
  let main_cst_2 : FVec F S_ .f32 := constant S_ .f32 0x7F800000#32
  let main_v10 : FVec F S16384x256 .f32 := broadcastInDim S16384x256 ![] bcast_S_S16384x256 main_cst_2
  let main_v11 : IVec S16384x256 1 := cmpf .olt main_v9 main_v10
  let main_c_3 : IVec S_ 1 := constantI S_ 1 1#1
  let main_v12 : IVec S_ 1 := (fun x v => Host.reduce IntOp.andi x v reducesTo_S16384x256_S_d0_1 h_S_) main_v11 main_c_3
  let main_v13 : IVec S_ 1 := andi main_v8 main_v12
  let main_v14 : FVec F S1x160x160x160 .f32 := Host.absf main_arg3
  let main_cst_4 : FVec F S_ .f32 := constant S_ .f32 0x7F800000#32
  let main_v15 : FVec F S1x160x160x160 .f32 := broadcastInDim S1x160x160x160 ![] bcast_S_S1x160x160x160 main_cst_4
  let main_v16 : IVec S1x160x160x160 1 := cmpf .olt main_v14 main_v15
  fn_part1 (F := F) main_arg4 main_v13 main_v16
-- ==== Kernel.lean ====
abbrev S16384x3 : Shape := ⟨2, ![16384, 3]⟩
abbrev S16384x256 : Shape := ⟨2, ![16384, 256]⟩
abbrev S1x160x160x160 : Shape := ⟨4, ![1, 160, 160, 160]⟩
abbrev S3x160x160x160 : Shape := ⟨4, ![3, 160, 160, 160]⟩
abbrev S3 : Shape := ⟨1, ![3]⟩
abbrev S16384x1x3 : Shape := ⟨3, ![16384, 1, 3]⟩
abbrev S16384x256x1 : Shape := ⟨3, ![16384, 256, 1]⟩
abbrev S16384x256x3 : Shape := ⟨3, ![16384, 256, 3]⟩
abbrev S4194304x3 : Shape := ⟨2, ![4194304, 3]⟩
abbrev S_ : Shape := ⟨0, ![]⟩
abbrev S16384 : Shape := ⟨1, ![16384]⟩
abbrev S16384x1 : Shape := ⟨2, ![16384, 1]⟩
abbrev S1x4194304 : Shape := ⟨2, ![1, 4194304]⟩
abbrev S1x3 : Shape := ⟨2, ![1, 3]⟩
abbrev S4194304x1 : Shape := ⟨2, ![4194304, 1]⟩
abbrev S4194304 : Shape := ⟨1, ![4194304]⟩
abbrev S4x160x160x160 : Shape := ⟨4, ![4, 160, 160, 160]⟩
abbrev S4x4096000 : Shape := ⟨2, ![4, 4096000]⟩
abbrev S1 : Shape := ⟨1, ![1]⟩
abbrev S1x1 : Shape := ⟨2, ![1, 1]⟩
abbrev S4x4194304 : Shape := ⟨2, ![4, 4194304]⟩
abbrev S1x4x4194304 : Shape := ⟨3, ![1, 4, 4194304]⟩
abbrev S8x4x4194304 : Shape := ⟨3, ![8, 4, 4194304]⟩
abbrev S8x4194304 : Shape := ⟨2, ![8, 4194304]⟩
abbrev S8x4x32768 : Shape := ⟨3, ![8, 4, 32768]⟩
abbrev S8x32768 : Shape := ⟨2, ![8, 32768]⟩
abbrev S1x32768 : Shape := ⟨2, ![1, 32768]⟩
abbrev S4x32768 : Shape := ⟨2, ![4, 32768]⟩
abbrev S8x1x32768 : Shape := ⟨3, ![8, 1, 32768]⟩
abbrev S3x32768 : Shape := ⟨2, ![3, 32768]⟩
abbrev S3x4194304 : Shape := ⟨2, ![3, 4194304]⟩

abbrev nBuf : Space → Nat
  | .hbm => 369
  | .vmem => 8
  | .smem => 0
  | _ => 0

abbrev hbmTy0_0 (i : Nat) : BufTy := match i % 128 with
  | 0 => ⟨S16384x3, .f32⟩
  | 1 => ⟨S16384x3, .f32⟩
  | 2 => ⟨S16384x256, .f32⟩
  | 3 => ⟨S1x160x160x160, .f32⟩
  | 4 => ⟨S3x160x160x160, .f32⟩
  | 5 => ⟨S3, .f32⟩
  | 6 => ⟨S3, .i32⟩
  | 7 => ⟨S16384x1x3, .f32⟩
  | 8 => ⟨S16384x1x3, .f32⟩
  | 9 => ⟨S16384x256x1, .f32⟩
  | 10 => ⟨S16384x256x3, .f32⟩
  | 11 => ⟨S16384x256x3, .f32⟩
  | 12 => ⟨S16384x256x3, .f32⟩
  | 13 => ⟨S16384x256x3, .f32⟩
  | 14 => ⟨S16384x256x3, .f32⟩
  | 15 => ⟨S4194304x3, .f32⟩
  | 16 => ⟨S16384x3, .f32⟩
  | 17 => ⟨S_, .f32⟩
  | 18 => ⟨S16384, .f32⟩
  | 19 => ⟨S16384, .f32⟩
  | 20 => ⟨S16384x1, .f32⟩
  | 21 => ⟨S16384x256, .f32⟩
  | 22 => ⟨S1x4194304, .f32⟩
  | 23 => ⟨S_, .f32⟩
  | 24 => ⟨S4194304x3, .f32⟩
  | 25 => ⟨S4194304x3, .f32⟩
  | 26 => ⟨S_, .f32⟩
  | 27 => ⟨S4194304x3, .f32⟩
  | 28 => ⟨S4194304x3, .f32⟩
  | 29 => ⟨S_, .f32⟩
  | 30 => ⟨S3, .f32⟩
  | 31 => ⟨S3, .f32⟩
  | 32 => ⟨S1x3, .f32⟩
  | 33 => ⟨S4194304x3, .f32⟩
  | 34 => ⟨S4194304x3, .f32⟩
  | 35 => ⟨S4194304x3, .f32⟩
  | 36 => ⟨S4194304x3, .f32⟩
  | 37 => ⟨S_, .f32⟩
  | 38 => ⟨S4194304x3, .f32⟩
  | 39 => ⟨S4194304x3, .f32⟩
  | 40 => ⟨S4194304x3, .i32⟩
  | 41 => ⟨S_, .i32⟩
  | 42 => ⟨S_, .i32⟩
  | 43 => ⟨S4194304x3, .i32⟩
  | 44 => ⟨S4194304x3, .i32⟩
  | 45 => ⟨S1x3, .i32⟩
  | 46 => ⟨S4194304x3, .i32⟩
  | 47 => ⟨S4194304x3, .i32⟩
  | 48 => ⟨S_, .i32⟩
  | 49 => ⟨S4194304x3, .i32⟩
  | 50 => ⟨S4194304x3, .i32⟩
  | 51 => ⟨S1x3, .i32⟩
  | 52 => ⟨S4194304x3, .i32⟩
  | 53 => ⟨S4194304x3, .i32⟩
  | 54 => ⟨S4194304x1, .i32⟩
  | 55 => ⟨S4194304, .i32⟩
  | 56 => ⟨S4194304x1, .i32⟩
  | 57 => ⟨S4194304, .i32⟩
  | 58 => ⟨S4194304x1, .i32⟩
  | 59 => ⟨S4194304, .i32⟩
  | 60 => ⟨S4194304x1, .i32⟩
  | 61 => ⟨S4194304, .i32⟩
  | 62 => ⟨S4194304x1, .i32⟩
  | 63 => ⟨S4194304, .i32⟩
  | 64 => ⟨S4194304x1, .i32⟩
  | 65 => ⟨S4194304, .i32⟩
  | 66 => ⟨S4194304x1, .f32⟩
  | 67 => ⟨S4194304, .f32⟩
  | 68 => ⟨S4194304x1, .f32⟩
  | 69 => ⟨S4194304, .f32⟩
  | 70 => ⟨S4194304x1, .f32⟩
  | 71 => ⟨S4194304, .f32⟩
  | 72 => ⟨S4194304x1, .f32⟩
  | 73 => ⟨S4194304, .f32⟩
  | 74 => ⟨S4194304x1, .f32⟩
  | 75 => ⟨S4194304, .f32⟩
  | 76 => ⟨S4194304x1, .f32⟩
  | 77 => ⟨S4194304, .f32⟩
  | 78 => ⟨S4194304, .f32⟩
  | 79 => ⟨S4194304, .f32⟩
  | 80 => ⟨S4194304, .f32⟩
  | 81 => ⟨S4194304, .f32⟩
  | 82 => ⟨S4194304, .f32⟩
  | 83 => ⟨S4194304, .f32⟩
  | 84 => ⟨S4194304, .f32⟩
  | 85 => ⟨S4194304, .f32⟩
  | 86 => ⟨S4194304, .f32⟩
  | 87 => ⟨S4194304, .f32⟩
  | 88 => ⟨S4194304, .f32⟩
  | 89 => ⟨S4194304, .f32⟩
  | 90 => ⟨S4194304, .f32⟩
  | 91 => ⟨S4194304, .f32⟩
  | 92 => ⟨S4194304, .f32⟩
  | 93 => ⟨S4194304, .f32⟩
  | 94 => ⟨S4x160x160x160, .f32⟩
  | 95 => ⟨S4x4096000, .f32⟩
  | 96 => ⟨S_, .i32⟩
  | 97 => ⟨S4194304, .i32⟩
  | 98 => ⟨S4194304, .i32⟩
  | 99 => ⟨S4194304, .i32⟩
  | 100 => ⟨S_, .i32⟩
  | 101 => ⟨S4194304, .i32⟩
  | 102 => ⟨S4194304, .i32⟩
  | 103 => ⟨S4194304, .i32⟩
  | 104 => ⟨S_, .i32⟩
  | 105 => ⟨S4194304, .i32⟩
  | 106 => ⟨S4194304, .i1⟩
  | 107 => ⟨S_, .i32⟩
  | 108 => ⟨S4194304, .i32⟩
  | 109 => ⟨S4194304, .i32⟩
  | 110 => ⟨S4194304, .i32⟩
  | 111 => ⟨S4194304x1, .i32⟩
  | 112 => ⟨S1, .i32⟩
  | 113 => ⟨S_, .i32⟩
  | 114 => ⟨S4194304x1, .i32⟩
  | 115 => ⟨S4194304x1, .i1⟩
  | 116 => ⟨S1x1, .i32⟩
  | 117 => ⟨S4194304x1, .i32⟩
  | 118 => ⟨S4194304x1, .i1⟩
  | 119 => ⟨S4194304x1, .i1⟩
  | 120 => ⟨S_, .i1⟩
  | 121 => ⟨S4194304, .i1⟩
  | 122 => ⟨S4x4194304, .f32⟩
  | 123 => ⟨S4x4194304, .i1⟩
  | 124 => ⟨S_, .f32⟩
  | 125 => ⟨S4x4194304, .f32⟩
  | 126 => ⟨S4x4194304, .f32⟩
  | 127 => ⟨S_, .i32⟩
  | _ => ⟨S16384x3, .f32⟩

abbrev hbmTy0_1 (i : Nat) : BufTy := match i % 128 with
  | 0 => ⟨S4194304, .i32⟩
  | 1 => ⟨S4194304, .i32⟩
  | 2 => ⟨S4194304, .i32⟩
  | 3 => ⟨S_, .i32⟩
  | 4 => ⟨S4194304, .i32⟩
  | 5 => ⟨S4194304, .i32⟩
  | 6 => ⟨S4194304, .i32⟩
  | 7 => ⟨S_, .i32⟩
  | 8 => ⟨S4194304, .i32⟩
  | 9 => ⟨S4194304, .i1⟩
  | 10 => ⟨S_, .i32⟩
  | 11 => ⟨S4194304, .i32⟩
  | 12 => ⟨S4194304, .i32⟩
  | 13 => ⟨S4194304, .i32⟩
  | 14 => ⟨S4194304x1, .i32⟩
  | 15 => ⟨S1, .i32⟩
  | 16 => ⟨S_, .i32⟩
  | 17 => ⟨S4194304x1, .i32⟩
  | 18 => ⟨S4194304x1, .i1⟩
  | 19 => ⟨S1x1, .i32⟩
  | 20 => ⟨S4194304x1, .i32⟩
  | 21 => ⟨S4194304x1, .i1⟩
  | 22 => ⟨S4194304x1, .i1⟩
  | 23 => ⟨S_, .i1⟩
  | 24 => ⟨S4194304, .i1⟩
  | 25 => ⟨S4x4194304, .f32⟩
  | 26 => ⟨S4x4194304, .i1⟩
  | 27 => ⟨S_, .f32⟩
  | 28 => ⟨S4x4194304, .f32⟩
  | 29 => ⟨S4x4194304, .f32⟩
  | 30 => ⟨S_, .i32⟩
  | 31 => ⟨S4194304, .i32⟩
  | 32 => ⟨S4194304, .i32⟩
  | 33 => ⟨S4194304, .i32⟩
  | 34 => ⟨S_, .i32⟩
  | 35 => ⟨S4194304, .i32⟩
  | 36 => ⟨S4194304, .i32⟩
  | 37 => ⟨S4194304, .i32⟩
  | 38 => ⟨S_, .i32⟩
  | 39 => ⟨S4194304, .i32⟩
  | 40 => ⟨S4194304, .i1⟩
  | 41 => ⟨S_, .i32⟩
  | 42 => ⟨S4194304, .i32⟩
  | 43 => ⟨S4194304, .i32⟩
  | 44 => ⟨S4194304, .i32⟩
  | 45 => ⟨S4194304x1, .i32⟩
  | 46 => ⟨S1, .i32⟩
  | 47 => ⟨S_, .i32⟩
  | 48 => ⟨S4194304x1, .i32⟩
  | 49 => ⟨S4194304x1, .i1⟩
  | 50 => ⟨S1x1, .i32⟩
  | 51 => ⟨S4194304x1, .i32⟩
  | 52 => ⟨S4194304x1, .i1⟩
  | 53 => ⟨S4194304x1, .i1⟩
  | 54 => ⟨S_, .i1⟩
  | 55 => ⟨S4194304, .i1⟩
  | 56 => ⟨S4x4194304, .f32⟩
  | 57 => ⟨S4x4194304, .i1⟩
  | 58 => ⟨S_, .f32⟩
  | 59 => ⟨S4x4194304, .f32⟩
  | 60 => ⟨S4x4194304, .f32⟩
  | 61 => ⟨S_, .i32⟩
  | 62 => ⟨S4194304, .i32⟩
  | 63 => ⟨S4194304, .i32⟩
  | 64 => ⟨S4194304, .i32⟩
  | 65 => ⟨S_, .i32⟩
  | 66 => ⟨S4194304, .i32⟩
  | 67 => ⟨S4194304, .i32⟩
  | 68 => ⟨S4194304, .i32⟩
  | 69 => ⟨S_, .i32⟩
  | 70 => ⟨S4194304, .i32⟩
  | 71 => ⟨S4194304, .i1⟩
  | 72 => ⟨S_, .i32⟩
  | 73 => ⟨S4194304, .i32⟩
  | 74 => ⟨S4194304, .i32⟩
  | 75 => ⟨S4194304, .i32⟩
  | 76 => ⟨S4194304x1, .i32⟩
  | 77 => ⟨S1, .i32⟩
  | 78 => ⟨S_, .i32⟩
  | 79 => ⟨S4194304x1, .i32⟩
  | 80 => ⟨S4194304x1, .i1⟩
  | 81 => ⟨S1x1, .i32⟩
  | 82 => ⟨S4194304x1, .i32⟩
  | 83 => ⟨S4194304x1, .i1⟩
  | 84 => ⟨S4194304x1, .i1⟩
  | 85 => ⟨S_, .i1⟩
  | 86 => ⟨S4194304, .i1⟩
  | 87 => ⟨S4x4194304, .f32⟩
  | 88 => ⟨S4x4194304, .i1⟩
  | 89 => ⟨S_, .f32⟩
  | 90 => ⟨S4x4194304, .f32⟩
  | 91 => ⟨S4x4194304, .f32⟩
  | 92 => ⟨S_, .i32⟩
  | 93 => ⟨S4194304, .i32⟩
  | 94 => ⟨S4194304, .i32⟩
  | 95 => ⟨S4194304, .i32⟩
  | 96 => ⟨S_, .i32⟩
  | 97 => ⟨S4194304, .i32⟩
  | 98 => ⟨S4194304, .i32⟩
  | 99 => ⟨S4194304, .i32⟩
  | 100 => ⟨S_, .i32⟩
  | 101 => ⟨S4194304, .i32⟩
  | 102 => ⟨S4194304, .i1⟩
  | 103 => ⟨S_, .i32⟩
  | 104 => ⟨S4194304, .i32⟩
  | 105 => ⟨S4194304, .i32⟩
  | 106 => ⟨S4194304, .i32⟩
  | 107 => ⟨S4194304x1, .i32⟩
  | 108 => ⟨S1, .i32⟩
  | 109 => ⟨S_, .i32⟩
  | 110 => ⟨S4194304x1, .i32⟩
  | 111 => ⟨S4194304x1, .i1⟩
  | 112 => ⟨S1x1, .i32⟩
  | 113 => ⟨S4194304x1, .i32⟩
  | 114 => ⟨S4194304x1, .i1⟩
  | 115 => ⟨S4194304x1, .i1⟩
  | 116 => ⟨S_, .i1⟩
  | 117 => ⟨S4194304, .i1⟩
  | 118 => ⟨S4x4194304, .f32⟩
  | 119 => ⟨S4x4194304, .i1⟩
  | 120 => ⟨S_, .f32⟩
  | 121 => ⟨S4x4194304, .f32⟩
  | 122 => ⟨S4x4194304, .f32⟩
  | 123 => ⟨S_, .i32⟩
  | 124 => ⟨S4194304, .i32⟩
  | 125 => ⟨S4194304, .i32⟩
  | 126 => ⟨S4194304, .i32⟩
  | 127 => ⟨S_, .i32⟩
  | _ => ⟨S16384x3, .f32⟩

abbrev hbmTy0_2 (i : Nat) : BufTy := match i % 128 with
  | 0 => ⟨S4194304, .i32⟩
  | 1 => ⟨S4194304, .i32⟩
  | 2 => ⟨S4194304, .i32⟩
  | 3 => ⟨S_, .i32⟩
  | 4 => ⟨S4194304, .i32⟩
  | 5 => ⟨S4194304, .i1⟩
  | 6 => ⟨S_, .i32⟩
  | 7 => ⟨S4194304, .i32⟩
  | 8 => ⟨S4194304, .i32⟩
  | 9 => ⟨S4194304, .i32⟩
  | 10 => ⟨S4194304x1, .i32⟩
  | 11 => ⟨S1, .i32⟩
  | 12 => ⟨S_, .i32⟩
  | 13 => ⟨S4194304x1, .i32⟩
  | 14 => ⟨S4194304x1, .i1⟩
  | 15 => ⟨S1x1, .i32⟩
  | 16 => ⟨S4194304x1, .i32⟩
  | 17 => ⟨S4194304x1, .i1⟩
  | 18 => ⟨S4194304x1, .i1⟩
  | 19 => ⟨S_, .i1⟩
  | 20 => ⟨S4194304, .i1⟩
  | 21 => ⟨S4x4194304, .f32⟩
  | 22 => ⟨S4x4194304, .i1⟩
  | 23 => ⟨S_, .f32⟩
  | 24 => ⟨S4x4194304, .f32⟩
  | 25 => ⟨S4x4194304, .f32⟩
  | 26 => ⟨S_, .i32⟩
  | 27 => ⟨S4194304, .i32⟩
  | 28 => ⟨S4194304, .i32⟩
  | 29 => ⟨S4194304, .i32⟩
  | 30 => ⟨S_, .i32⟩
  | 31 => ⟨S4194304, .i32⟩
  | 32 => ⟨S4194304, .i32⟩
  | 33 => ⟨S4194304, .i32⟩
  | 34 => ⟨S_, .i32⟩
  | 35 => ⟨S4194304, .i32⟩
  | 36 => ⟨S4194304, .i1⟩
  | 37 => ⟨S_, .i32⟩
  | 38 => ⟨S4194304, .i32⟩
  | 39 => ⟨S4194304, .i32⟩
  | 40 => ⟨S4194304, .i32⟩
  | 41 => ⟨S4194304x1, .i32⟩
  | 42 => ⟨S1, .i32⟩
  | 43 => ⟨S_, .i32⟩
  | 44 => ⟨S4194304x1, .i32⟩
  | 45 => ⟨S4194304x1, .i1⟩
  | 46 => ⟨S1x1, .i32⟩
  | 47 => ⟨S4194304x1, .i32⟩
  | 48 => ⟨S4194304x1, .i1⟩
  | 49 => ⟨S4194304x1, .i1⟩
  | 50 => ⟨S_, .i1⟩
  | 51 => ⟨S4194304, .i1⟩
  | 52 => ⟨S4x4194304, .f32⟩
  | 53 => ⟨S4x4194304, .i1⟩
  | 54 => ⟨S_, .f32⟩
  | 55 => ⟨S4x4194304, .f32⟩
  | 56 => ⟨S4x4194304, .f32⟩
  | 57 => ⟨S_, .i32⟩
  | 58 => ⟨S4194304, .i32⟩
  | 59 => ⟨S4194304, .i32⟩
  | 60 => ⟨S4194304, .i32⟩
  | 61 => ⟨S_, .i32⟩
  | 62 => ⟨S4194304, .i32⟩
  | 63 => ⟨S4194304, .i32⟩
  | 64 => ⟨S4194304, .i32⟩
  | 65 => ⟨S_, .i32⟩
  | 66 => ⟨S4194304, .i32⟩
  | 67 => ⟨S4194304, .i1⟩
  | 68 => ⟨S_, .i32⟩
  | 69 => ⟨S4194304, .i32⟩
  | 70 => ⟨S4194304, .i32⟩
  | 71 => ⟨S4194304, .i32⟩
  | 72 => ⟨S4194304x1, .i32⟩
  | 73 => ⟨S1, .i32⟩
  | 74 => ⟨S_, .i32⟩
  | 75 => ⟨S4194304x1, .i32⟩
  | 76 => ⟨S4194304x1, .i1⟩
  | 77 => ⟨S1x1, .i32⟩
  | 78 => ⟨S4194304x1, .i32⟩
  | 79 => ⟨S4194304x1, .i1⟩
  | 80 => ⟨S4194304x1, .i1⟩
  | 81 => ⟨S_, .i1⟩
  | 82 => ⟨S4194304, .i1⟩
  | 83 => ⟨S4x4194304, .f32⟩
  | 84 => ⟨S4x4194304, .i1⟩
  | 85 => ⟨S_, .f32⟩
  | 86 => ⟨S4x4194304, .f32⟩
  | 87 => ⟨S4x4194304, .f32⟩
  | 88 => ⟨S1x4x4194304, .f32⟩
  | 89 => ⟨S1x4x4194304, .f32⟩
  | 90 => ⟨S1x4x4194304, .f32⟩
  | 91 => ⟨S1x4x4194304, .f32⟩
  | 92 => ⟨S1x4x4194304, .f32⟩
  | 93 => ⟨S1x4x4194304, .f32⟩
  | 94 => ⟨S1x4x4194304, .f32⟩
  | 95 => ⟨S1x4x4194304, .f32⟩
  | 96 => ⟨S8x4x4194304, .f32⟩
  | 97 => ⟨S1x4194304, .f32⟩
  | 98 => ⟨S1x4194304, .f32⟩
  | 99 => ⟨S1x4194304, .f32⟩
  | 100 => ⟨S1x4194304, .f32⟩
  | 101 => ⟨S1x4194304, .f32⟩
  | 102 => ⟨S1x4194304, .f32⟩
  | 103 => ⟨S1x4194304, .f32⟩
  | 104 => ⟨S1x4194304, .f32⟩
  | 105 => ⟨S8x4194304, .f32⟩
  | 106 => ⟨S4x4194304, .f32⟩
  | 107 => ⟨S1x4194304, .f32⟩
  | 108 => ⟨S4194304, .f32⟩
  | 109 => ⟨S16384x256x1, .f32⟩
  | 110 => ⟨S3x4194304, .f32⟩
  | 111 => ⟨S4194304x3, .f32⟩
  | 112 => ⟨S16384x256x3, .f32⟩
  | _ => ⟨S16384x3, .f32⟩

abbrev hbmTy (i : Nat) : BufTy := match i / 128 with
  | 0 => hbmTy0_0 i
  | 1 => hbmTy0_1 i
  | 2 => hbmTy0_2 i
  | _ => ⟨S16384x3, .f32⟩

abbrev bufTy : (tb : Table) → Fin (tcTables nBuf tb) → BufTy
  | .hbm, ⟨i, _⟩ => hbmTy i
  | .local _ .vmem, ⟨0, _⟩ => ⟨S8x4x32768, .f32⟩
  | .local _ .vmem, ⟨1, _⟩ => ⟨S8x4x32768, .f32⟩
  | .local _ .vmem, ⟨2, _⟩ => ⟨S8x32768, .f32⟩
  | .local _ .vmem, ⟨3, _⟩ => ⟨S8x32768, .f32⟩
  | .local _ .vmem, ⟨4, _⟩ => ⟨S1x32768, .f32⟩
  | .local _ .vmem, ⟨5, _⟩ => ⟨S1x32768, .f32⟩
  | .local _ .vmem, ⟨6, _⟩ => ⟨S4x32768, .f32⟩
  | .local _ .vmem, ⟨7, _⟩ => ⟨S4x32768, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_c_6 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_c_7 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_c_1 : Ref sig .tc := ⟨.hbm, 112, rfl⟩
abbrev main_call2_c_2 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_3 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_call2_cst : Ref sig .tc := ⟨.hbm, 124, rfl⟩
abbrev main_call2_v15 : Ref sig .tc := ⟨.hbm, 125, rfl⟩
abbrev main_v81 : Ref sig .tc := ⟨.hbm, 126, rfl⟩
abbrev main_c_8 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_c_9 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_call3_c : Ref sig .tc := ⟨.hbm, 135, rfl⟩
abbrev main_call3_v0 : Ref sig .tc := ⟨.hbm, 136, rfl⟩
abbrev main_call3_v1 : Ref sig .tc := ⟨.hbm, 137, rfl⟩
abbrev main_call3_c_0 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_c_1 : Ref sig .tc := ⟨.hbm, 143, rfl⟩
abbrev main_call3_c_2 : Ref sig .tc := ⟨.hbm, 144, rfl⟩
abbrev main_call3_v6 : Ref sig .tc := ⟨.hbm, 145, rfl⟩
abbrev main_call3_v7 : Ref sig .tc := ⟨.hbm, 146, rfl⟩
abbrev main_call3_v8 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_c_3 : Ref sig .tc := ⟨.hbm, 151, rfl⟩
abbrev main_call3_v12 : Ref sig .tc := ⟨.hbm, 152, rfl⟩
abbrev main_call3_v13 : Ref sig .tc := ⟨.hbm, 153, rfl⟩
abbrev main_call3_v14 : Ref sig .tc := ⟨.hbm, 154, rfl⟩
abbrev main_call3_cst : Ref sig .tc := ⟨.hbm, 155, rfl⟩
abbrev main_call3_v15 : Ref sig .tc := ⟨.hbm, 156, rfl⟩
abbrev main_v88 : Ref sig .tc := ⟨.hbm, 157, rfl⟩
abbrev main_c_10 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_c_11 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_call4_c : Ref sig .tc := ⟨.hbm, 166, rfl⟩
abbrev main_call4_v0 : Ref sig .tc := ⟨.hbm, 167, rfl⟩
abbrev main_call4_v1 : Ref sig .tc := ⟨.hbm, 168, rfl⟩
abbrev main_call4_c_0 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_call4_v5 : Ref sig .tc := ⟨.hbm, 173, rfl⟩
abbrev main_call4_c_1 : Ref sig .tc := ⟨.hbm, 174, rfl⟩
abbrev main_call4_c_2 : Ref sig .tc := ⟨.hbm, 175, rfl⟩
abbrev main_call4_v6 : Ref sig .tc := ⟨.hbm, 176, rfl⟩
abbrev main_call4_v7 : Ref sig .tc := ⟨.hbm, 177, rfl⟩
abbrev main_call4_v8 : Ref sig .tc := ⟨.hbm, 178, rfl⟩
abbrev main_call4_v9 : Ref sig .tc := ⟨.hbm, 179, rfl⟩
abbrev main_call4_v10 : Ref sig .tc := ⟨.hbm, 180, rfl⟩
abbrev main_call4_v11 : Ref sig .tc := ⟨.hbm, 181, rfl⟩
abbrev main_call4_c_3 : Ref sig .tc := ⟨.hbm, 182, rfl⟩
abbrev main_call4_v12 : Ref sig .tc := ⟨.hbm, 183, rfl⟩
abbrev main_call4_v13 : Ref sig .tc := ⟨.hbm, 184, rfl⟩
abbrev main_call4_v14 : Ref sig .tc := ⟨.hbm, 185, rfl⟩
abbrev main_call4_cst : Ref sig .tc := ⟨.hbm, 186, rfl⟩
abbrev main_call4_v15 : Ref sig .tc := ⟨.hbm, 187, rfl⟩
abbrev main_v95 : Ref sig .tc := ⟨.hbm, 188, rfl⟩
abbrev main_c_12 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_c_13 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_call5_c : Ref sig .tc := ⟨.hbm, 197, rfl⟩
abbrev main_call5_v0 : Ref sig .tc := ⟨.hbm, 198, rfl⟩
abbrev main_call5_v1 : Ref sig .tc := ⟨.hbm, 199, rfl⟩
abbrev main_call5_c_0 : Ref sig .tc := ⟨.hbm, 200, rfl⟩
abbrev main_call5_v2 : Ref sig .tc := ⟨.hbm, 201, rfl⟩
abbrev main_call5_v3 : Ref sig .tc := ⟨.hbm, 202, rfl⟩
abbrev main_call5_v4 : Ref sig .tc := ⟨.hbm, 203, rfl⟩
abbrev main_call5_v5 : Ref sig .tc := ⟨.hbm, 204, rfl⟩
abbrev main_call5_c_1 : Ref sig .tc := ⟨.hbm, 205, rfl⟩
abbrev main_call5_c_2 : Ref sig .tc := ⟨.hbm, 206, rfl⟩
abbrev main_call5_v6 : Ref sig .tc := ⟨.hbm, 207, rfl⟩
abbrev main_call5_v7 : Ref sig .tc := ⟨.hbm, 208, rfl⟩
abbrev main_call5_v8 : Ref sig .tc := ⟨.hbm, 209, rfl⟩
abbrev main_call5_v9 : Ref sig .tc := ⟨.hbm, 210, rfl⟩
abbrev main_call5_v10 : Ref sig .tc := ⟨.hbm, 211, rfl⟩
abbrev main_call5_v11 : Ref sig .tc := ⟨.hbm, 212, rfl⟩
abbrev main_call5_c_3 : Ref sig .tc := ⟨.hbm, 213, rfl⟩
abbrev main_call5_v12 : Ref sig .tc := ⟨.hbm, 214, rfl⟩
abbrev main_call5_v13 : Ref sig .tc := ⟨.hbm, 215, rfl⟩
abbrev main_call5_v14 : Ref sig .tc := ⟨.hbm, 216, rfl⟩
abbrev main_call5_cst : Ref sig .tc := ⟨.hbm, 217, rfl⟩
abbrev main_call5_v15 : Ref sig .tc := ⟨.hbm, 218, rfl⟩
abbrev main_v102 : Ref sig .tc := ⟨.hbm, 219, rfl⟩
abbrev main_c_14 : Ref sig .tc := ⟨.hbm, 220, rfl⟩
abbrev main_v103 : Ref sig .tc := ⟨.hbm, 221, rfl⟩
abbrev main_v104 : Ref sig .tc := ⟨.hbm, 222, rfl⟩
abbrev main_v105 : Ref sig .tc := ⟨.hbm, 223, rfl⟩
abbrev main_c_15 : Ref sig .tc := ⟨.hbm, 224, rfl⟩
abbrev main_v106 : Ref sig .tc := ⟨.hbm, 225, rfl⟩
abbrev main_v107 : Ref sig .tc := ⟨.hbm, 226, rfl⟩
abbrev main_v108 : Ref sig .tc := ⟨.hbm, 227, rfl⟩
abbrev main_call6_c : Ref sig .tc := ⟨.hbm, 228, rfl⟩
abbrev main_call6_v0 : Ref sig .tc := ⟨.hbm, 229, rfl⟩
abbrev main_call6_v1 : Ref sig .tc := ⟨.hbm, 230, rfl⟩
abbrev main_call6_c_0 : Ref sig .tc := ⟨.hbm, 231, rfl⟩
abbrev main_call6_v2 : Ref sig .tc := ⟨.hbm, 232, rfl⟩
abbrev main_call6_v3 : Ref sig .tc := ⟨.hbm, 233, rfl⟩
abbrev main_call6_v4 : Ref sig .tc := ⟨.hbm, 234, rfl⟩
abbrev main_call6_v5 : Ref sig .tc := ⟨.hbm, 235, rfl⟩
abbrev main_call6_c_1 : Ref sig .tc := ⟨.hbm, 236, rfl⟩
abbrev main_call6_c_2 : Ref sig .tc := ⟨.hbm, 237, rfl⟩
abbrev main_call6_v6 : Ref sig .tc := ⟨.hbm, 238, rfl⟩
abbrev main_call6_v7 : Ref sig .tc := ⟨.hbm, 239, rfl⟩
abbrev main_call6_v8 : Ref sig .tc := ⟨.hbm, 240, rfl⟩
abbrev main_call6_v9 : Ref sig .tc := ⟨.hbm, 241, rfl⟩
abbrev main_call6_v10 : Ref sig .tc := ⟨.hbm, 242, rfl⟩
abbrev main_call6_v11 : Ref sig .tc := ⟨.hbm, 243, rfl⟩
abbrev main_call6_c_3 : Ref sig .tc := ⟨.hbm, 244, rfl⟩
abbrev main_call6_v12 : Ref sig .tc := ⟨.hbm, 245, rfl⟩
abbrev main_call6_v13 : Ref sig .tc := ⟨.hbm, 246, rfl⟩
abbrev main_call6_v14 : Ref sig .tc := ⟨.hbm, 247, rfl⟩
abbrev main_call6_cst : Ref sig .tc := ⟨.hbm, 248, rfl⟩
abbrev main_call6_v15 : Ref sig .tc := ⟨.hbm, 249, rfl⟩
abbrev main_v109 : Ref sig .tc := ⟨.hbm, 250, rfl⟩
abbrev main_c_16 : Ref sig .tc := ⟨.hbm, 251, rfl⟩
abbrev main_v110 : Ref sig .tc := ⟨.hbm, 252, rfl⟩
abbrev main_v111 : Ref sig .tc := ⟨.hbm, 253, rfl⟩
abbrev main_v112 : Ref sig .tc := ⟨.hbm, 254, rfl⟩
abbrev main_c_17 : Ref sig .tc := ⟨.hbm, 255, rfl⟩
abbrev main_v113 : Ref sig .tc := ⟨.hbm, 256, rfl⟩
abbrev main_v114 : Ref sig .tc := ⟨.hbm, 257, rfl⟩
abbrev main_v115 : Ref sig .tc := ⟨.hbm, 258, rfl⟩
abbrev main_call7_c : Ref sig .tc := ⟨.hbm, 259, rfl⟩
abbrev main_call7_v0 : Ref sig .tc := ⟨.hbm, 260, rfl⟩
abbrev main_call7_v1 : Ref sig .tc := ⟨.hbm, 261, rfl⟩
abbrev main_call7_c_0 : Ref sig .tc := ⟨.hbm, 262, rfl⟩
abbrev main_call7_v2 : Ref sig .tc := ⟨.hbm, 263, rfl⟩
abbrev main_call7_v3 : Ref sig .tc := ⟨.hbm, 264, rfl⟩
abbrev main_call7_v4 : Ref sig .tc := ⟨.hbm, 265, rfl⟩
abbrev main_call7_v5 : Ref sig .tc := ⟨.hbm, 266, rfl⟩
abbrev main_call7_c_1 : Ref sig .tc := ⟨.hbm, 267, rfl⟩
abbrev main_call7_c_2 : Ref sig .tc := ⟨.hbm, 268, rfl⟩
abbrev main_call7_v6 : Ref sig .tc := ⟨.hbm, 269, rfl⟩
abbrev main_call7_v7 : Ref sig .tc := ⟨.hbm, 270, rfl⟩
abbrev main_call7_v8 : Ref sig .tc := ⟨.hbm, 271, rfl⟩
abbrev main_call7_v9 : Ref sig .tc := ⟨.hbm, 272, rfl⟩
abbrev main_call7_v10 : Ref sig .tc := ⟨.hbm, 273, rfl⟩
abbrev main_call7_v11 : Ref sig .tc := ⟨.hbm, 274, rfl⟩
abbrev main_call7_c_3 : Ref sig .tc := ⟨.hbm, 275, rfl⟩
abbrev main_call7_v12 : Ref sig .tc := ⟨.hbm, 276, rfl⟩
abbrev main_call7_v13 : Ref sig .tc := ⟨.hbm, 277, rfl⟩
abbrev main_call7_v14 : Ref sig .tc := ⟨.hbm, 278, rfl⟩
abbrev main_call7_cst : Ref sig .tc := ⟨.hbm, 279, rfl⟩
abbrev main_call7_v15 : Ref sig .tc := ⟨.hbm, 280, rfl⟩
abbrev main_v116 : Ref sig .tc := ⟨.hbm, 281, rfl⟩
abbrev main_c_18 : Ref sig .tc := ⟨.hbm, 282, rfl⟩
abbrev main_v117 : Ref sig .tc := ⟨.hbm, 283, rfl⟩
abbrev main_v118 : Ref sig .tc := ⟨.hbm, 284, rfl⟩
abbrev main_v119 : Ref sig .tc := ⟨.hbm, 285, rfl⟩
abbrev main_c_19 : Ref sig .tc := ⟨.hbm, 286, rfl⟩
abbrev main_v120 : Ref sig .tc := ⟨.hbm, 287, rfl⟩
abbrev main_v121 : Ref sig .tc := ⟨.hbm, 288, rfl⟩
abbrev main_v122 : Ref sig .tc := ⟨.hbm, 289, rfl⟩
abbrev main_call8_c : Ref sig .tc := ⟨.hbm, 290, rfl⟩
abbrev main_call8_v0 : Ref sig .tc := ⟨.hbm, 291, rfl⟩
abbrev main_call8_v1 : Ref sig .tc := ⟨.hbm, 292, rfl⟩
abbrev main_call8_c_0 : Ref sig .tc := ⟨.hbm, 293, rfl⟩
abbrev main_call8_v2 : Ref sig .tc := ⟨.hbm, 294, rfl⟩
abbrev main_call8_v3 : Ref sig .tc := ⟨.hbm, 295, rfl⟩
abbrev main_call8_v4 : Ref sig .tc := ⟨.hbm, 296, rfl⟩
abbrev main_call8_v5 : Ref sig .tc := ⟨.hbm, 297, rfl⟩
abbrev main_call8_c_1 : Ref sig .tc := ⟨.hbm, 298, rfl⟩
abbrev main_call8_c_2 : Ref sig .tc := ⟨.hbm, 299, rfl⟩
abbrev main_call8_v6 : Ref sig .tc := ⟨.hbm, 300, rfl⟩
abbrev main_call8_v7 : Ref sig .tc := ⟨.hbm, 301, rfl⟩
abbrev main_call8_v8 : Ref sig .tc := ⟨.hbm, 302, rfl⟩
abbrev main_call8_v9 : Ref sig .tc := ⟨.hbm, 303, rfl⟩
abbrev main_call8_v10 : Ref sig .tc := ⟨.hbm, 304, rfl⟩
abbrev main_call8_v11 : Ref sig .tc := ⟨.hbm, 305, rfl⟩
abbrev main_call8_c_3 : Ref sig .tc := ⟨.hbm, 306, rfl⟩
abbrev main_call8_v12 : Ref sig .tc := ⟨.hbm, 307, rfl⟩
abbrev main_call8_v13 : Ref sig .tc := ⟨.hbm, 308, rfl⟩
abbrev main_call8_v14 : Ref sig .tc := ⟨.hbm, 309, rfl⟩
abbrev main_call8_cst : Ref sig .tc := ⟨.hbm, 310, rfl⟩
abbrev main_call8_v15 : Ref sig .tc := ⟨.hbm, 311, rfl⟩
abbrev main_v123 : Ref sig .tc := ⟨.hbm, 312, rfl⟩
abbrev main_c_20 : Ref sig .tc := ⟨.hbm, 313, rfl⟩
abbrev main_v124 : Ref sig .tc := ⟨.hbm, 314, rfl⟩
abbrev main_v125 : Ref sig .tc := ⟨.hbm, 315, rfl⟩
abbrev main_v126 : Ref sig .tc := ⟨.hbm, 316, rfl⟩
abbrev main_c_21 : Ref sig .tc := ⟨.hbm, 317, rfl⟩
abbrev main_v127 : Ref sig .tc := ⟨.hbm, 318, rfl⟩
abbrev main_v128 : Ref sig .tc := ⟨.hbm, 319, rfl⟩
abbrev main_v129 : Ref sig .tc := ⟨.hbm, 320, rfl⟩
abbrev main_call9_c : Ref sig .tc := ⟨.hbm, 321, rfl⟩
abbrev main_call9_v0 : Ref sig .tc := ⟨.hbm, 322, rfl⟩
abbrev main_call9_v1 : Ref sig .tc := ⟨.hbm, 323, rfl⟩
abbrev main_call9_c_0 : Ref sig .tc := ⟨.hbm, 324, rfl⟩
abbrev main_call9_v2 : Ref sig .tc := ⟨.hbm, 325, rfl⟩
abbrev main_call9_v3 : Ref sig .tc := ⟨.hbm, 326, rfl⟩
abbrev main_call9_v4 : Ref sig .tc := ⟨.hbm, 327, rfl⟩
abbrev main_call9_v5 : Ref sig .tc := ⟨.hbm, 328, rfl⟩
abbrev main_call9_c_1 : Ref sig .tc := ⟨.hbm, 329, rfl⟩
abbrev main_call9_c_2 : Ref sig .tc := ⟨.hbm, 330, rfl⟩
abbrev main_call9_v6 : Ref sig .tc := ⟨.hbm, 331, rfl⟩
abbrev main_call9_v7 : Ref sig .tc := ⟨.hbm, 332, rfl⟩
abbrev main_call9_v8 : Ref sig .tc := ⟨.hbm, 333, rfl⟩
abbrev main_call9_v9 : Ref sig .tc := ⟨.hbm, 334, rfl⟩
abbrev main_call9_v10 : Ref sig .tc := ⟨.hbm, 335, rfl⟩
abbrev main_call9_v11 : Ref sig .tc := ⟨.hbm, 336, rfl⟩
abbrev main_call9_c_3 : Ref sig .tc := ⟨.hbm, 337, rfl⟩
abbrev main_call9_v12 : Ref sig .tc := ⟨.hbm, 338, rfl⟩
abbrev main_call9_v13 : Ref sig .tc := ⟨.hbm, 339, rfl⟩
abbrev main_call9_v14 : Ref sig .tc := ⟨.hbm, 340, rfl⟩
abbrev main_call9_cst : Ref sig .tc := ⟨.hbm, 341, rfl⟩
abbrev main_call9_v15 : Ref sig .tc := ⟨.hbm, 342, rfl⟩
abbrev main_v130 : Ref sig .tc := ⟨.hbm, 343, rfl⟩
abbrev main_v131 : Ref sig .tc := ⟨.hbm, 344, rfl⟩
abbrev main_v132 : Ref sig .tc := ⟨.hbm, 345, rfl⟩
abbrev main_v133 : Ref sig .tc := ⟨.hbm, 346, rfl⟩
abbrev main_v134 : Ref sig .tc := ⟨.hbm, 347, rfl⟩
abbrev main_v135 : Ref sig .tc := ⟨.hbm, 348, rfl⟩
abbrev main_v136 : Ref sig .tc := ⟨.hbm, 349, rfl⟩
abbrev main_v137 : Ref sig .tc := ⟨.hbm, 350, rfl⟩
abbrev main_v138 : Ref sig .tc := ⟨.hbm, 351, rfl⟩
abbrev main_v139 : Ref sig .tc := ⟨.hbm, 352, rfl⟩
abbrev main_v140 : Ref sig .tc := ⟨.hbm, 353, rfl⟩
abbrev main_v141 : Ref sig .tc := ⟨.hbm, 354, rfl⟩
abbrev main_v142 : Ref sig .tc := ⟨.hbm, 355, rfl⟩
abbrev main_v143 : Ref sig .tc := ⟨.hbm, 356, rfl⟩
abbrev main_v144 : Ref sig .tc := ⟨.hbm, 357, rfl⟩
abbrev main_v145 : Ref sig .tc := ⟨.hbm, 358, rfl⟩
abbrev main_v146 : Ref sig .tc := ⟨.hbm, 359, rfl⟩
abbrev main_v147 : Ref sig .tc := ⟨.hbm, 360, rfl⟩
abbrev main_v148 : Ref sig .tc := ⟨.hbm, 361, rfl⟩
abbrev main_v149 : Ref sig .tc := ⟨.hbm, 362, rfl⟩
abbrev main_v150 : Ref sig .tc := ⟨.hbm, 363, rfl⟩
abbrev main_v151 : Ref sig .tc := ⟨.hbm, 364, rfl⟩
abbrev main_v152 : Ref sig .tc := ⟨.hbm, 365, rfl⟩
abbrev main_v153 : Ref sig .tc := ⟨.hbm, 366, rfl⟩
abbrev main_v154 : Ref sig .tc := ⟨.hbm, 367, rfl⟩
abbrev main_v155 : Ref sig .tc := ⟨.hbm, 368, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x4x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S16384x3_S16384x1x3_0_2 : S16384x3.BroadcastsInDim S16384x1x3 (![0, 2] : Fin 2 → Fin S16384x1x3.rank)
  bcast_S16384x256_S16384x256x1_0_1 : S16384x256.BroadcastsInDim S16384x256x1 (![0, 1] : Fin 2 → Fin S16384x256x1.rank)
  bcast_S16384x1x3_S16384x256x3_0_1_2 : S16384x1x3.BroadcastsInDim S16384x256x3 (![0, 1, 2] : Fin 3 → Fin S16384x256x3.rank)
  bcast_S16384x256x1_S16384x256x3_0_1_2 : S16384x256x1.BroadcastsInDim S16384x256x3 (![0, 1, 2] : Fin 3 → Fin S16384x256x3.rank)
  shapeCasts_S16384x256x3_S4194304x3 : S16384x256x3.ShapeCasts S4194304x3
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  shapeCasts_S16384x256_S1x4194304 : S16384x256.ShapeCasts S1x4194304
  bcast_S_S4194304x3 : S_.BroadcastsInDim S4194304x3 (![] : Fin 0 → Fin S4194304x3.rank)
  bcast_S_S3 : S_.BroadcastsInDim S3 (![] : Fin 0 → Fin S3.rank)
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  slices_S4194304x3_S4194304x1_0_0 : S4194304x3.Slices ![0, 0] S4194304x1
  shapeCasts_S4194304x1_S4194304 : S4194304x1.ShapeCasts S4194304
  slices_S4194304x3_S4194304x1_0_1 : S4194304x3.Slices ![0, 1] S4194304x1
  slices_S4194304x3_S4194304x1_0_2 : S4194304x3.Slices ![0, 2] S4194304x1
  concatenates_S1x160x160x160_S3x160x160x160_S4x160x160x160_d0 : Shape.Concatenates [S1x160x160x160, S3x160x160x160] S4x160x160x160 0
  shapeCasts_S4x160x160x160_S4x4096000 : S4x160x160x160.ShapeCasts S4x4096000
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  reducesTo_S4194304x1_S4194304_d1 : S4194304x1.ReducesTo [1] S4194304
  bcast_S4194304_S4x4194304_1 : S4194304.BroadcastsInDim S4x4194304 (![1] : Fin 1 → Fin S4x4194304.rank)
  bcast_S_S4x4194304 : S_.BroadcastsInDim S4x4194304 (![] : Fin 0 → Fin S4x4194304.rank)
  bcast_S4x4194304_S1x4x4194304_1_2 : S4x4194304.BroadcastsInDim S1x4x4194304 (![1, 2] : Fin 2 → Fin S1x4x4194304.rank)
  concatenates_S1x4x4194304_S1x4x4194304_S1x4x4194304_S1x4x4194304_S1x4x4194304_S1x4x4194304_S1x4x4194304_S1x4x4194304_S8x4x4194304_d0 : Shape.Concatenates [S1x4x4194304, S1x4x4194304, S1x4x4194304, S1x4x4194304, S1x4x4194304, S1x4x4194304, S1x4x4194304, S1x4x4194304] S8x4x4194304 0
  bcast_S4194304_S1x4194304_1 : S4194304.BroadcastsInDim S1x4194304 (![1] : Fin 1 → Fin S1x4194304.rank)
  concatenates_S1x4194304_S1x4194304_S1x4194304_S1x4194304_S1x4194304_S1x4194304_S1x4194304_S1x4194304_S8x4194304_d0 : Shape.Concatenates [S1x4194304, S1x4194304, S1x4194304, S1x4194304, S1x4194304, S1x4194304, S1x4194304, S1x4194304] S8x4194304 0
  inb_S8x4x32768_S8x4x32768_0_0_0 : ∀ a, (![0, 0, 0] : Fin 3 → Nat) a + S8x4x32768.size a ≤ S8x4x32768.size a
  h_S8x4x32768 : 0 < S8x4x32768.numel
  shapeCasts_S8x4x32768_S8x4x32768 : S8x4x32768.ShapeCasts S8x4x32768
  inb_S8x32768_S8x32768_0_0 : ∀ a, (![0, 0] : Fin 2 → Nat) a + S8x32768.size a ≤ S8x32768.size a
  h_S8x32768 : 0 < S8x32768.numel
  shapeCasts_S8x32768_S8x32768 : S8x32768.ShapeCasts S8x32768
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  shapeCasts_S8x32768_S8x1x32768 : S8x32768.ShapeCasts S8x1x32768
  broadcasts_S8x1x32768_S8x4x32768 : S8x1x32768.Broadcasts S8x4x32768
  reduces_S8x4x32768_S4x32768 : S8x4x32768.Reduces [0] S4x32768
  slices_S4x32768_o0_0_S1x32768 : S4x32768.Slices ![0, 0] S1x32768
  slices_S4x32768_o1_0_S3x32768 : S4x32768.Slices ![1, 0] S3x32768
  inb_S4x32768_S1x32768_0_0 : ∀ a, (![0, 0] : Fin 2 → Nat) a + S1x32768.size a ≤ S4x32768.size a
  inb_S4x32768_S3x32768_1_0 : ∀ a, (![1, 0] : Fin 2 → Nat) a + S3x32768.size a ≤ S4x32768.size a
  h_S3x32768 : 0 < S3x32768.numel
  slices_S4x4194304_S1x4194304_0_0 : S4x4194304.Slices ![0, 0] S1x4194304
  shapeCasts_S1x4194304_S4194304 : S1x4194304.ShapeCasts S4194304
  shapeCasts_S4194304_S16384x256x1 : S4194304.ShapeCasts S16384x256x1
  slices_S4x4194304_S3x4194304_1_0 : S4x4194304.Slices ![1, 0] S3x4194304
  transposes_S3x4194304_S4194304x3_1_0 : S3x4194304.Transposes [1, 0] S4194304x3
  shapeCasts_S4194304x3_S16384x256x3 : S4194304x3.ShapeCasts S16384x256x3
  gather_S4x4096000_S4194304x1_S4x4194304_0_1_n_n_1_1_41_wf : GatherDims.WF S4x4096000 S4194304x1 S4x4194304 [0] [1] [] [1] [] 1 ![4, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4x32768.size a ≤ S8x4x4194304.size a
  hwx0_0 : ∀ i : grid0.Coords, EltTy.bits .f32 = 32 ∨ (Rect.block (s := S8x4x4194304) S8x4x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32768.size a ≤ S8x4194304.size a
  hwx0_1 : ∀ i : grid0.Coords, EltTy.bits .f32 = 32 ∨ (Rect.block (s := S8x4194304) S8x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32768.size a ≤ S1x4194304.size a
  hwx0_2 : ∀ i : grid0.Coords, EltTy.bits .f32 = 32 ∨ (Rect.block (s := S1x4194304) S1x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x32768.size a ≤ S4x4194304.size a
  hwx0_3 : ∀ i : grid0.Coords, EltTy.bits .f32 = 32 ∨ (Rect.block (s := S4x4194304) S4x32768.size (cc0_transform_3 i) (hinb0_3 i)).WholeWords (EltTy.packing .f32)

variable [Facts₀]

def gather_S4x4096000_S4194304x1_S4x4194304_0_1_n_n_1_1_41 : GatherDims S4x4096000 S4194304x1 S4x4194304 where
  offsetDims := [0]
  collapsedSliceDims := [1]
  operandBatchingDims := []
  startIndicesBatchingDims := []
  startIndexMap := [1]
  indexVectorDim := 1
  sliceSizes := ![4, 1]
  wf := gather_S4x4096000_S4194304x1_S4x4194304_0_1_n_n_1_1_41_wf

abbrev win0_0 : Pipeline.Window sig grid0 :=
  Pipeline.Window.ofSpec (Memref.whole main_v139) S8x4x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v148) S8x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v149) S4x32768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x3 : Shape := ⟨2, ![16384, 3]⟩
abbrev S16384x256 : Shape := ⟨2, ![16384, 256]⟩
abbrev S1x160x160x160 : Shape := ⟨4, ![1, 160, 160, 160]⟩
abbrev S3x160x160x160 : Shape := ⟨4, ![3, 160, 160, 160]⟩
abbrev S3 : Shape := ⟨1, ![3]⟩
abbrev S16384x1x3 : Shape := ⟨3, ![16384, 1, 3]⟩
abbrev S16384x256x1 : Shape := ⟨3, ![16384, 256, 1]⟩
abbrev S16384x256x3 : Shape := ⟨3, ![16384, 256, 3]⟩
abbrev S_ : Shape := ⟨0, ![]⟩
abbrev S16384 : Shape := ⟨1, ![16384]⟩
abbrev S16384x1x1 : Shape := ⟨3, ![16384, 1, 1]⟩
abbrev S4194304x3 : Shape := ⟨2, ![4194304, 3]⟩
abbrev S1x3 : Shape := ⟨2, ![1, 3]⟩
abbrev S4194304x1 : Shape := ⟨2, ![4194304, 1]⟩
abbrev S4194304 : Shape := ⟨1, ![4194304]⟩
abbrev S1x4096000 : Shape := ⟨2, ![1, 4096000]⟩
abbrev S1x4194304 : Shape := ⟨2, ![1, 4194304]⟩
abbrev S3x4096000 : Shape := ⟨2, ![3, 4096000]⟩
abbrev S3x4194304 : Shape := ⟨2, ![3, 4194304]⟩

abbrev nBuf : Space → Nat
  | .hbm => 518
  | .vmem => 0
  | .smem => 0
  | _ => 0

abbrev hbmTy0_0 (i : Nat) : BufTy := match i % 128 with
  | 0 => ⟨S16384x3, .f32⟩
  | 1 => ⟨S16384x3, .f32⟩
  | 2 => ⟨S16384x256, .f32⟩
  | 3 => ⟨S1x160x160x160, .f32⟩
  | 4 => ⟨S3x160x160x160, .f32⟩
  | 5 => ⟨S3, .f32⟩
  | 6 => ⟨S3, .i32⟩
  | 7 => ⟨S3, .f32⟩
  | 8 => ⟨S3, .i32⟩
  | 9 => ⟨S16384x1x3, .f32⟩
  | 10 => ⟨S16384x1x3, .f32⟩
  | 11 => ⟨S16384x256x1, .f32⟩
  | 12 => ⟨S16384x256x3, .f32⟩
  | 13 => ⟨S16384x256x3, .f32⟩
  | 14 => ⟨S16384x256x3, .f32⟩
  | 15 => ⟨S16384x256x3, .f32⟩
  | 16 => ⟨S16384x256x3, .f32⟩
  | 17 => ⟨S16384x3, .f32⟩
  | 18 => ⟨S_, .f32⟩
  | 19 => ⟨S16384, .f32⟩
  | 20 => ⟨S16384, .f32⟩
  | 21 => ⟨S16384x1x1, .f32⟩
  | 22 => ⟨S4194304x3, .f32⟩
  | 23 => ⟨S_, .f32⟩
  | 24 => ⟨S4194304x3, .f32⟩
  | 25 => ⟨S4194304x3, .f32⟩
  | 26 => ⟨S_, .f32⟩
  | 27 => ⟨S4194304x3, .f32⟩
  | 28 => ⟨S4194304x3, .f32⟩
  | 29 => ⟨S_, .f32⟩
  | 30 => ⟨S3, .f32⟩
  | 31 => ⟨S3, .f32⟩
  | 32 => ⟨S1x3, .f32⟩
  | 33 => ⟨S4194304x3, .f32⟩
  | 34 => ⟨S4194304x3, .f32⟩
  | 35 => ⟨S4194304x3, .f32⟩
  | 36 => ⟨S4194304x3, .f32⟩
  | 37 => ⟨S_, .f32⟩
  | 38 => ⟨S4194304x3, .f32⟩
  | 39 => ⟨S4194304x3, .f32⟩
  | 40 => ⟨S4194304x3, .i32⟩
  | 41 => ⟨S_, .i32⟩
  | 42 => ⟨S_, .i32⟩
  | 43 => ⟨S4194304x3, .i32⟩
  | 44 => ⟨S4194304x3, .i32⟩
  | 45 => ⟨S1x3, .i32⟩
  | 46 => ⟨S4194304x3, .i32⟩
  | 47 => ⟨S4194304x3, .i32⟩
  | 48 => ⟨S_, .i32⟩
  | 49 => ⟨S4194304x3, .i32⟩
  | 50 => ⟨S4194304x3, .i32⟩
  | 51 => ⟨S1x3, .i32⟩
  | 52 => ⟨S4194304x3, .i32⟩
  | 53 => ⟨S4194304x3, .i32⟩
  | 54 => ⟨S4194304x1, .i32⟩
  | 55 => ⟨S4194304, .i32⟩
  | 56 => ⟨S4194304x1, .i32⟩
  | 57 => ⟨S4194304, .i32⟩
  | 58 => ⟨S4194304x1, .i32⟩
  | 59 => ⟨S4194304, .i32⟩
  | 60 => ⟨S4194304x1, .i32⟩
  | 61 => ⟨S4194304, .i32⟩
  | 62 => ⟨S4194304x1, .i32⟩
  | 63 => ⟨S4194304, .i32⟩
  | 64 => ⟨S4194304x1, .i32⟩
  | 65 => ⟨S4194304, .i32⟩
  | 66 => ⟨S1x4096000, .f32⟩
  | 67 => ⟨S4194304x1, .f32⟩
  | 68 => ⟨S4194304, .f32⟩
  | 69 => ⟨S4194304x1, .f32⟩
  | 70 => ⟨S4194304, .f32⟩
  | 71 => ⟨S4194304x1, .f32⟩
  | 72 => ⟨S4194304, .f32⟩
  | 73 => ⟨S4194304x1, .f32⟩
  | 74 => ⟨S4194304, .f32⟩
  | 75 => ⟨S4194304x1, .f32⟩
  | 76 => ⟨S4194304, .f32⟩
  | 77 => ⟨S4194304x1, .f32⟩
  | 78 => ⟨S4194304, .f32⟩
  | 79 => ⟨S_, .i32⟩
  | 80 => ⟨S4194304, .i32⟩
  | 81 => ⟨S4194304, .i32⟩
  | 82 => ⟨S4194304, .i32⟩
  | 83 => ⟨S_, .i32⟩
  | 84 => ⟨S4194304, .i32⟩
  | 85 => ⟨S4194304, .i32⟩
  | 86 => ⟨S4194304, .i32⟩
  | 87 => ⟨S_, .i32⟩
  | 88 => ⟨S4194304, .i32⟩
  | 89 => ⟨S4194304, .i1⟩
  | 90 => ⟨S_, .i32⟩
  | 91 => ⟨S4194304, .i32⟩
  | 92 => ⟨S4194304, .i32⟩
  | 93 => ⟨S4194304, .i32⟩
  | 94 => ⟨S4194304x1, .i32⟩
  | 95 => ⟨S1x4194304, .f32⟩
  | 96 => ⟨S4194304, .f32⟩
  | 97 => ⟨S4194304, .f32⟩
  | 98 => ⟨S1x4194304, .f32⟩
  | 99 => ⟨S1x4194304, .f32⟩
  | 100 => ⟨S_, .i32⟩
  | 101 => ⟨S4194304, .i32⟩
  | 102 => ⟨S4194304, .i32⟩
  | 103 => ⟨S4194304, .i32⟩
  | 104 => ⟨S_, .i32⟩
  | 105 => ⟨S4194304, .i32⟩
  | 106 => ⟨S4194304, .i32⟩
  | 107 => ⟨S4194304, .i32⟩
  | 108 => ⟨S_, .i32⟩
  | 109 => ⟨S4194304, .i32⟩
  | 110 => ⟨S4194304, .i1⟩
  | 111 => ⟨S_, .i32⟩
  | 112 => ⟨S4194304, .i32⟩
  | 113 => ⟨S4194304, .i32⟩
  | 114 => ⟨S4194304, .i32⟩
  | 115 => ⟨S4194304x1, .i32⟩
  | 116 => ⟨S1x4194304, .f32⟩
  | 117 => ⟨S4194304, .f32⟩
  | 118 => ⟨S4194304, .f32⟩
  | 119 => ⟨S1x4194304, .f32⟩
  | 120 => ⟨S1x4194304, .f32⟩
  | 121 => ⟨S1x4194304, .f32⟩
  | 122 => ⟨S_, .i32⟩
  | 123 => ⟨S4194304, .i32⟩
  | 124 => ⟨S4194304, .i32⟩
  | 125 => ⟨S4194304, .i32⟩
  | 126 => ⟨S_, .i32⟩
  | 127 => ⟨S4194304, .i32⟩
  | _ => ⟨S16384x3, .f32⟩

abbrev hbmTy0_1 (i : Nat) : BufTy := match i % 128 with
  | 0 => ⟨S4194304, .i32⟩
  | 1 => ⟨S4194304, .i32⟩
  | 2 => ⟨S_, .i32⟩
  | 3 => ⟨S4194304, .i32⟩
  | 4 => ⟨S4194304, .i1⟩
  | 5 => ⟨S_, .i32⟩
  | 6 => ⟨S4194304, .i32⟩
  | 7 => ⟨S4194304, .i32⟩
  | 8 => ⟨S4194304, .i32⟩
  | 9 => ⟨S4194304x1, .i32⟩
  | 10 => ⟨S1x4194304, .f32⟩
  | 11 => ⟨S4194304, .f32⟩
  | 12 => ⟨S4194304, .f32⟩
  | 13 => ⟨S1x4194304, .f32⟩
  | 14 => ⟨S1x4194304, .f32⟩
  | 15 => ⟨S1x4194304, .f32⟩
  | 16 => ⟨S_, .i32⟩
  | 17 => ⟨S4194304, .i32⟩
  | 18 => ⟨S4194304, .i32⟩
  | 19 => ⟨S4194304, .i32⟩
  | 20 => ⟨S_, .i32⟩
  | 21 => ⟨S4194304, .i32⟩
  | 22 => ⟨S4194304, .i32⟩
  | 23 => ⟨S4194304, .i32⟩
  | 24 => ⟨S_, .i32⟩
  | 25 => ⟨S4194304, .i32⟩
  | 26 => ⟨S4194304, .i1⟩
  | 27 => ⟨S_, .i32⟩
  | 28 => ⟨S4194304, .i32⟩
  | 29 => ⟨S4194304, .i32⟩
  | 30 => ⟨S4194304, .i32⟩
  | 31 => ⟨S4194304x1, .i32⟩
  | 32 => ⟨S1x4194304, .f32⟩
  | 33 => ⟨S4194304, .f32⟩
  | 34 => ⟨S4194304, .f32⟩
  | 35 => ⟨S1x4194304, .f32⟩
  | 36 => ⟨S1x4194304, .f32⟩
  | 37 => ⟨S1x4194304, .f32⟩
  | 38 => ⟨S_, .i32⟩
  | 39 => ⟨S4194304, .i32⟩
  | 40 => ⟨S4194304, .i32⟩
  | 41 => ⟨S4194304, .i32⟩
  | 42 => ⟨S_, .i32⟩
  | 43 => ⟨S4194304, .i32⟩
  | 44 => ⟨S4194304, .i32⟩
  | 45 => ⟨S4194304, .i32⟩
  | 46 => ⟨S_, .i32⟩
  | 47 => ⟨S4194304, .i32⟩
  | 48 => ⟨S4194304, .i1⟩
  | 49 => ⟨S_, .i32⟩
  | 50 => ⟨S4194304, .i32⟩
  | 51 => ⟨S4194304, .i32⟩
  | 52 => ⟨S4194304, .i32⟩
  | 53 => ⟨S4194304x1, .i32⟩
  | 54 => ⟨S1x4194304, .f32⟩
  | 55 => ⟨S4194304, .f32⟩
  | 56 => ⟨S4194304, .f32⟩
  | 57 => ⟨S1x4194304, .f32⟩
  | 58 => ⟨S1x4194304, .f32⟩
  | 59 => ⟨S1x4194304, .f32⟩
  | 60 => ⟨S_, .i32⟩
  | 61 => ⟨S4194304, .i32⟩
  | 62 => ⟨S4194304, .i32⟩
  | 63 => ⟨S4194304, .i32⟩
  | 64 => ⟨S_, .i32⟩
  | 65 => ⟨S4194304, .i32⟩
  | 66 => ⟨S4194304, .i32⟩
  | 67 => ⟨S4194304, .i32⟩
  | 68 => ⟨S_, .i32⟩
  | 69 => ⟨S4194304, .i32⟩
  | 70 => ⟨S4194304, .i1⟩
  | 71 => ⟨S_, .i32⟩
  | 72 => ⟨S4194304, .i32⟩
  | 73 => ⟨S4194304, .i32⟩
  | 74 => ⟨S4194304, .i32⟩
  | 75 => ⟨S4194304x1, .i32⟩
  | 76 => ⟨S1x4194304, .f32⟩
  | 77 => ⟨S4194304, .f32⟩
  | 78 => ⟨S4194304, .f32⟩
  | 79 => ⟨S1x4194304, .f32⟩
  | 80 => ⟨S1x4194304, .f32⟩
  | 81 => ⟨S1x4194304, .f32⟩
  | 82 => ⟨S_, .i32⟩
  | 83 => ⟨S4194304, .i32⟩
  | 84 => ⟨S4194304, .i32⟩
  | 85 => ⟨S4194304, .i32⟩
  | 86 => ⟨S_, .i32⟩
  | 87 => ⟨S4194304, .i32⟩
  | 88 => ⟨S4194304, .i32⟩
  | 89 => ⟨S4194304, .i32⟩
  | 90 => ⟨S_, .i32⟩
  | 91 => ⟨S4194304, .i32⟩
  | 92 => ⟨S4194304, .i1⟩
  | 93 => ⟨S_, .i32⟩
  | 94 => ⟨S4194304, .i32⟩
  | 95 => ⟨S4194304, .i32⟩
  | 96 => ⟨S4194304, .i32⟩
  | 97 => ⟨S4194304x1, .i32⟩
  | 98 => ⟨S1x4194304, .f32⟩
  | 99 => ⟨S4194304, .f32⟩
  | 100 => ⟨S4194304, .f32⟩
  | 101 => ⟨S1x4194304, .f32⟩
  | 102 => ⟨S1x4194304, .f32⟩
  | 103 => ⟨S1x4194304, .f32⟩
  | 104 => ⟨S_, .i32⟩
  | 105 => ⟨S4194304, .i32⟩
  | 106 => ⟨S4194304, .i32⟩
  | 107 => ⟨S4194304, .i32⟩
  | 108 => ⟨S_, .i32⟩
  | 109 => ⟨S4194304, .i32⟩
  | 110 => ⟨S4194304, .i32⟩
  | 111 => ⟨S4194304, .i32⟩
  | 112 => ⟨S_, .i32⟩
  | 113 => ⟨S4194304, .i32⟩
  | 114 => ⟨S4194304, .i1⟩
  | 115 => ⟨S_, .i32⟩
  | 116 => ⟨S4194304, .i32⟩
  | 117 => ⟨S4194304, .i32⟩
  | 118 => ⟨S4194304, .i32⟩
  | 119 => ⟨S4194304x1, .i32⟩
  | 120 => ⟨S1x4194304, .f32⟩
  | 121 => ⟨S4194304, .f32⟩
  | 122 => ⟨S4194304, .f32⟩
  | 123 => ⟨S1x4194304, .f32⟩
  | 124 => ⟨S1x4194304, .f32⟩
  | 125 => ⟨S1x4194304, .f32⟩
  | 126 => ⟨S4194304x1, .f32⟩
  | 127 => ⟨S16384x256x1, .f32⟩
  | _ => ⟨S16384x3, .f32⟩

abbrev hbmTy0_2 (i : Nat) : BufTy := match i % 128 with
  | 0 => ⟨S_, .f32⟩
  | 1 => ⟨S16384x256x1, .f32⟩
  | 2 => ⟨S16384x256x1, .f32⟩
  | 3 => ⟨S16384x256x1, .f32⟩
  | 4 => ⟨S_, .f32⟩
  | 5 => ⟨S16384x256x1, .f32⟩
  | 6 => ⟨S16384x256x1, .f32⟩
  | 7 => ⟨S16384x1x1, .f32⟩
  | 8 => ⟨S16384x256x1, .f32⟩
  | 9 => ⟨S16384x256x1, .f32⟩
  | 10 => ⟨S_, .f32⟩
  | 11 => ⟨S16384x256x1, .f32⟩
  | 12 => ⟨S16384x256x1, .f32⟩
  | 13 => ⟨S_, .f32⟩
  | 14 => ⟨S4194304x3, .f32⟩
  | 15 => ⟨S4194304x3, .f32⟩
  | 16 => ⟨S_, .f32⟩
  | 17 => ⟨S4194304x3, .f32⟩
  | 18 => ⟨S4194304x3, .f32⟩
  | 19 => ⟨S_, .f32⟩
  | 20 => ⟨S3, .f32⟩
  | 21 => ⟨S3, .f32⟩
  | 22 => ⟨S1x3, .f32⟩
  | 23 => ⟨S4194304x3, .f32⟩
  | 24 => ⟨S4194304x3, .f32⟩
  | 25 => ⟨S4194304x3, .f32⟩
  | 26 => ⟨S4194304x3, .f32⟩
  | 27 => ⟨S_, .f32⟩
  | 28 => ⟨S4194304x3, .f32⟩
  | 29 => ⟨S4194304x3, .f32⟩
  | 30 => ⟨S4194304x3, .i32⟩
  | 31 => ⟨S_, .i32⟩
  | 32 => ⟨S_, .i32⟩
  | 33 => ⟨S4194304x3, .i32⟩
  | 34 => ⟨S4194304x3, .i32⟩
  | 35 => ⟨S1x3, .i32⟩
  | 36 => ⟨S4194304x3, .i32⟩
  | 37 => ⟨S4194304x3, .i32⟩
  | 38 => ⟨S_, .i32⟩
  | 39 => ⟨S4194304x3, .i32⟩
  | 40 => ⟨S4194304x3, .i32⟩
  | 41 => ⟨S1x3, .i32⟩
  | 42 => ⟨S4194304x3, .i32⟩
  | 43 => ⟨S4194304x3, .i32⟩
  | 44 => ⟨S4194304x1, .i32⟩
  | 45 => ⟨S4194304, .i32⟩
  | 46 => ⟨S4194304x1, .i32⟩
  | 47 => ⟨S4194304, .i32⟩
  | 48 => ⟨S4194304x1, .i32⟩
  | 49 => ⟨S4194304, .i32⟩
  | 50 => ⟨S4194304x1, .i32⟩
  | 51 => ⟨S4194304, .i32⟩
  | 52 => ⟨S4194304x1, .i32⟩
  | 53 => ⟨S4194304, .i32⟩
  | 54 => ⟨S4194304x1, .i32⟩
  | 55 => ⟨S4194304, .i32⟩
  | 56 => ⟨S3x4096000, .f32⟩
  | 57 => ⟨S4194304x1, .f32⟩
  | 58 => ⟨S4194304, .f32⟩
  | 59 => ⟨S4194304x1, .f32⟩
  | 60 => ⟨S4194304, .f32⟩
  | 61 => ⟨S4194304x1, .f32⟩
  | 62 => ⟨S4194304, .f32⟩
  | 63 => ⟨S4194304x1, .f32⟩
  | 64 => ⟨S4194304, .f32⟩
  | 65 => ⟨S4194304x1, .f32⟩
  | 66 => ⟨S4194304, .f32⟩
  | 67 => ⟨S4194304x1, .f32⟩
  | 68 => ⟨S4194304, .f32⟩
  | 69 => ⟨S_, .i32⟩
  | 70 => ⟨S4194304, .i32⟩
  | 71 => ⟨S4194304, .i32⟩
  | 72 => ⟨S4194304, .i32⟩
  | 73 => ⟨S_, .i32⟩
  | 74 => ⟨S4194304, .i32⟩
  | 75 => ⟨S4194304, .i32⟩
  | 76 => ⟨S4194304, .i32⟩
  | 77 => ⟨S_, .i32⟩
  | 78 => ⟨S4194304, .i32⟩
  | 79 => ⟨S4194304, .i1⟩
  | 80 => ⟨S_, .i32⟩
  | 81 => ⟨S4194304, .i32⟩
  | 82 => ⟨S4194304, .i32⟩
  | 83 => ⟨S4194304, .i32⟩
  | 84 => ⟨S4194304x1, .i32⟩
  | 85 => ⟨S3x4194304, .f32⟩
  | 86 => ⟨S4194304, .f32⟩
  | 87 => ⟨S4194304, .f32⟩
  | 88 => ⟨S1x4194304, .f32⟩
  | 89 => ⟨S3x4194304, .f32⟩
  | 90 => ⟨S3x4194304, .f32⟩
  | 91 => ⟨S_, .i32⟩
  | 92 => ⟨S4194304, .i32⟩
  | 93 => ⟨S4194304, .i32⟩
  | 94 => ⟨S4194304, .i32⟩
  | 95 => ⟨S_, .i32⟩
  | 96 => ⟨S4194304, .i32⟩
  | 97 => ⟨S4194304, .i32⟩
  | 98 => ⟨S4194304, .i32⟩
  | 99 => ⟨S_, .i32⟩
  | 100 => ⟨S4194304, .i32⟩
  | 101 => ⟨S4194304, .i1⟩
  | 102 => ⟨S_, .i32⟩
  | 103 => ⟨S4194304, .i32⟩
  | 104 => ⟨S4194304, .i32⟩
  | 105 => ⟨S4194304, .i32⟩
  | 106 => ⟨S4194304x1, .i32⟩
  | 107 => ⟨S3x4194304, .f32⟩
  | 108 => ⟨S4194304, .f32⟩
  | 109 => ⟨S4194304, .f32⟩
  | 110 => ⟨S1x4194304, .f32⟩
  | 111 => ⟨S3x4194304, .f32⟩
  | 112 => ⟨S3x4194304, .f32⟩
  | 113 => ⟨S3x4194304, .f32⟩
  | 114 => ⟨S_, .i32⟩
  | 115 => ⟨S4194304, .i32⟩
  | 116 => ⟨S4194304, .i32⟩
  | 117 => ⟨S4194304, .i32⟩
  | 118 => ⟨S_, .i32⟩
  | 119 => ⟨S4194304, .i32⟩
  | 120 => ⟨S4194304, .i32⟩
  | 121 => ⟨S4194304, .i32⟩
  | 122 => ⟨S_, .i32⟩
  | 123 => ⟨S4194304, .i32⟩
  | 124 => ⟨S4194304, .i1⟩
  | 125 => ⟨S_, .i32⟩
  | 126 => ⟨S4194304, .i32⟩
  | 127 => ⟨S4194304, .i32⟩
  | _ => ⟨S16384x3, .f32⟩

abbrev hbmTy0_3 (i : Nat) : BufTy := match i % 128 with
  | 0 => ⟨S4194304, .i32⟩
  | 1 => ⟨S4194304x1, .i32⟩
  | 2 => ⟨S3x4194304, .f32⟩
  | 3 => ⟨S4194304, .f32⟩
  | 4 => ⟨S4194304, .f32⟩
  | 5 => ⟨S1x4194304, .f32⟩
  | 6 => ⟨S3x4194304, .f32⟩
  | 7 => ⟨S3x4194304, .f32⟩
  | 8 => ⟨S3x4194304, .f32⟩
  | 9 => ⟨S_, .i32⟩
  | 10 => ⟨S4194304, .i32⟩
  | 11 => ⟨S4194304, .i32⟩
  | 12 => ⟨S4194304, .i32⟩
  | 13 => ⟨S_, .i32⟩
  | 14 => ⟨S4194304, .i32⟩
  | 15 => ⟨S4194304, .i32⟩
  | 16 => ⟨S4194304, .i32⟩
  | 17 => ⟨S_, .i32⟩
  | 18 => ⟨S4194304, .i32⟩
  | 19 => ⟨S4194304, .i1⟩
  | 20 => ⟨S_, .i32⟩
  | 21 => ⟨S4194304, .i32⟩
  | 22 => ⟨S4194304, .i32⟩
  | 23 => ⟨S4194304, .i32⟩
  | 24 => ⟨S4194304x1, .i32⟩
  | 25 => ⟨S3x4194304, .f32⟩
  | 26 => ⟨S4194304, .f32⟩
  | 27 => ⟨S4194304, .f32⟩
  | 28 => ⟨S1x4194304, .f32⟩
  | 29 => ⟨S3x4194304, .f32⟩
  | 30 => ⟨S3x4194304, .f32⟩
  | 31 => ⟨S3x4194304, .f32⟩
  | 32 => ⟨S_, .i32⟩
  | 33 => ⟨S4194304, .i32⟩
  | 34 => ⟨S4194304, .i32⟩
  | 35 => ⟨S4194304, .i32⟩
  | 36 => ⟨S_, .i32⟩
  | 37 => ⟨S4194304, .i32⟩
  | 38 => ⟨S4194304, .i32⟩
  | 39 => ⟨S4194304, .i32⟩
  | 40 => ⟨S_, .i32⟩
  | 41 => ⟨S4194304, .i32⟩
  | 42 => ⟨S4194304, .i1⟩
  | 43 => ⟨S_, .i32⟩
  | 44 => ⟨S4194304, .i32⟩
  | 45 => ⟨S4194304, .i32⟩
  | 46 => ⟨S4194304, .i32⟩
  | 47 => ⟨S4194304x1, .i32⟩
  | 48 => ⟨S3x4194304, .f32⟩
  | 49 => ⟨S4194304, .f32⟩
  | 50 => ⟨S4194304, .f32⟩
  | 51 => ⟨S1x4194304, .f32⟩
  | 52 => ⟨S3x4194304, .f32⟩
  | 53 => ⟨S3x4194304, .f32⟩
  | 54 => ⟨S3x4194304, .f32⟩
  | 55 => ⟨S_, .i32⟩
  | 56 => ⟨S4194304, .i32⟩
  | 57 => ⟨S4194304, .i32⟩
  | 58 => ⟨S4194304, .i32⟩
  | 59 => ⟨S_, .i32⟩
  | 60 => ⟨S4194304, .i32⟩
  | 61 => ⟨S4194304, .i32⟩
  | 62 => ⟨S4194304, .i32⟩
  | 63 => ⟨S_, .i32⟩
  | 64 => ⟨S4194304, .i32⟩
  | 65 => ⟨S4194304, .i1⟩
  | 66 => ⟨S_, .i32⟩
  | 67 => ⟨S4194304, .i32⟩
  | 68 => ⟨S4194304, .i32⟩
  | 69 => ⟨S4194304, .i32⟩
  | 70 => ⟨S4194304x1, .i32⟩
  | 71 => ⟨S3x4194304, .f32⟩
  | 72 => ⟨S4194304, .f32⟩
  | 73 => ⟨S4194304, .f32⟩
  | 74 => ⟨S1x4194304, .f32⟩
  | 75 => ⟨S3x4194304, .f32⟩
  | 76 => ⟨S3x4194304, .f32⟩
  | 77 => ⟨S3x4194304, .f32⟩
  | 78 => ⟨S_, .i32⟩
  | 79 => ⟨S4194304, .i32⟩
  | 80 => ⟨S4194304, .i32⟩
  | 81 => ⟨S4194304, .i32⟩
  | 82 => ⟨S_, .i32⟩
  | 83 => ⟨S4194304, .i32⟩
  | 84 => ⟨S4194304, .i32⟩
  | 85 => ⟨S4194304, .i32⟩
  | 86 => ⟨S_, .i32⟩
  | 87 => ⟨S4194304, .i32⟩
  | 88 => ⟨S4194304, .i1⟩
  | 89 => ⟨S_, .i32⟩
  | 90 => ⟨S4194304, .i32⟩
  | 91 => ⟨S4194304, .i32⟩
  | 92 => ⟨S4194304, .i32⟩
  | 93 => ⟨S4194304x1, .i32⟩
  | 94 => ⟨S3x4194304, .f32⟩
  | 95 => ⟨S4194304, .f32⟩
  | 96 => ⟨S4194304, .f32⟩
  | 97 => ⟨S1x4194304, .f32⟩
  | 98 => ⟨S3x4194304, .f32⟩
  | 99 => ⟨S3x4194304, .f32⟩
  | 100 => ⟨S3x4194304, .f32⟩
  | 101 => ⟨S_, .i32⟩
  | 102 => ⟨S4194304, .i32⟩
  | 103 => ⟨S4194304, .i32⟩
  | 104 => ⟨S4194304, .i32⟩
  | 105 => ⟨S_, .i32⟩
  | 106 => ⟨S4194304, .i32⟩
  | 107 => ⟨S4194304, .i32⟩
  | 108 => ⟨S4194304, .i32⟩
  | 109 => ⟨S_, .i32⟩
  | 110 => ⟨S4194304, .i32⟩
  | 111 => ⟨S4194304, .i1⟩
  | 112 => ⟨S_, .i32⟩
  | 113 => ⟨S4194304, .i32⟩
  | 114 => ⟨S4194304, .i32⟩
  | 115 => ⟨S4194304, .i32⟩
  | 116 => ⟨S4194304x1, .i32⟩
  | 117 => ⟨S3x4194304, .f32⟩
  | 118 => ⟨S4194304, .f32⟩
  | 119 => ⟨S4194304, .f32⟩
  | 120 => ⟨S1x4194304, .f32⟩
  | 121 => ⟨S3x4194304, .f32⟩
  | 122 => ⟨S3x4194304, .f32⟩
  | 123 => ⟨S3x4194304, .f32⟩
  | 124 => ⟨S4194304x3, .f32⟩
  | 125 => ⟨S16384x256x3, .f32⟩
  | 126 => ⟨S16384x256x3, .f32⟩
  | 127 => ⟨S16384x256x3, .f32⟩
  | _ => ⟨S16384x3, .f32⟩

abbrev hbmTy0_4 (i : Nat) : BufTy := match i % 128 with
  | 0 => ⟨S_, .f32⟩
  | 1 => ⟨S16384x256x3, .f32⟩
  | 2 => ⟨S16384x256x3, .f32⟩
  | 3 => ⟨S_, .f32⟩
  | 4 => ⟨S16384x256x3, .f32⟩
  | 5 => ⟨S16384x256x3, .f32⟩
  | _ => ⟨S16384x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x3, .f32⟩

abbrev bufTy : (tb : Table) → Fin (tcTables nBuf tb) → BufTy
  | .hbm, ⟨i, _⟩ => hbmTy i
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_cst_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v25 : Ref sig .tc := ⟨.hbm, 47, rfl⟩
abbrev main_c_7 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_10 : Ref sig .tc := ⟨.hbm, 87, rfl⟩
abbrev main_v62 : Ref sig .tc := ⟨.hbm, 88, rfl⟩
abbrev main_v63 : Ref sig .tc := ⟨.hbm, 89, rfl⟩
abbrev main_c_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_12 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_13 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_14 : Ref sig .tc := ⟨.hbm, 108, rfl⟩
abbrev main_v79 : Ref sig .tc := ⟨.hbm, 109, rfl⟩
abbrev main_v80 : Ref sig .tc := ⟨.hbm, 110, rfl⟩
abbrev main_c_15 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_16 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_17 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_18 : Ref sig .tc := ⟨.hbm, 130, rfl⟩
abbrev main_v97 : Ref sig .tc := ⟨.hbm, 131, rfl⟩
abbrev main_v98 : Ref sig .tc := ⟨.hbm, 132, rfl⟩
abbrev main_c_19 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_20 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_c_21 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_c_22 : Ref sig .tc := ⟨.hbm, 152, rfl⟩
abbrev main_v115 : Ref sig .tc := ⟨.hbm, 153, rfl⟩
abbrev main_v116 : Ref sig .tc := ⟨.hbm, 154, rfl⟩
abbrev main_c_23 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_c_24 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_c_25 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_c_26 : Ref sig .tc := ⟨.hbm, 174, rfl⟩
abbrev main_v133 : Ref sig .tc := ⟨.hbm, 175, rfl⟩
abbrev main_v134 : Ref sig .tc := ⟨.hbm, 176, rfl⟩
abbrev main_c_27 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_c_28 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_c_29 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_c_30 : Ref sig .tc := ⟨.hbm, 196, rfl⟩
abbrev main_v151 : Ref sig .tc := ⟨.hbm, 197, rfl⟩
abbrev main_v152 : Ref sig .tc := ⟨.hbm, 198, rfl⟩
abbrev main_c_31 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_c_32 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_c_33 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_c_34 : Ref sig .tc := ⟨.hbm, 218, rfl⟩
abbrev main_v169 : Ref sig .tc := ⟨.hbm, 219, rfl⟩
abbrev main_v170 : Ref sig .tc := ⟨.hbm, 220, rfl⟩
abbrev main_c_35 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_c_36 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_c_37 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_c_38 : Ref sig .tc := ⟨.hbm, 240, rfl⟩
abbrev main_v187 : Ref sig .tc := ⟨.hbm, 241, rfl⟩
abbrev main_v188 : Ref sig .tc := ⟨.hbm, 242, rfl⟩
abbrev main_c_39 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_cst_40 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_cst_41 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_cst_42 : Ref sig .tc := ⟨.hbm, 266, rfl⟩
abbrev main_v209 : Ref sig .tc := ⟨.hbm, 267, rfl⟩
abbrev main_v210 : Ref sig .tc := ⟨.hbm, 268, rfl⟩
abbrev main_cst_43 : Ref sig .tc := ⟨.hbm, 269, rfl⟩
abbrev main_v211 : Ref sig .tc := ⟨.hbm, 270, rfl⟩
abbrev main_v212 : Ref sig .tc := ⟨.hbm, 271, rfl⟩
abbrev main_cst_44 : Ref sig .tc := ⟨.hbm, 272, rfl⟩
abbrev main_v213 : Ref sig .tc := ⟨.hbm, 273, rfl⟩
abbrev main_v214 : Ref sig .tc := ⟨.hbm, 274, rfl⟩
abbrev main_cst_45 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_cst_46 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_c_47 : Ref sig .tc := ⟨.hbm, 287, rfl⟩
abbrev main_call2_v0 : Ref sig .tc := ⟨.hbm, 288, rfl⟩
abbrev main_call2_v1 : Ref sig .tc := ⟨.hbm, 289, rfl⟩
abbrev main_call2_v2 : Ref sig .tc := ⟨.hbm, 290, rfl⟩
abbrev main_call2_v3 : Ref sig .tc := ⟨.hbm, 291, rfl⟩
abbrev main_call2_v4 : Ref sig .tc := ⟨.hbm, 292, rfl⟩
abbrev main_v225 : Ref sig .tc := ⟨.hbm, 293, rfl⟩
abbrev main_c_48 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_c_49 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_c_50 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_c_51 : Ref sig .tc := ⟨.hbm, 333, rfl⟩
abbrev main_v262 : Ref sig .tc := ⟨.hbm, 334, rfl⟩
abbrev main_v263 : Ref sig .tc := ⟨.hbm, 335, rfl⟩
abbrev main_c_52 : Ref sig .tc := ⟨.hbm, 336, rfl⟩
abbrev main_v264 : Ref sig .tc := ⟨.hbm, 337, rfl⟩
abbrev main_v265 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_v273 : Ref sig .tc := ⟨.hbm, 346, rfl⟩
abbrev main_c_53 : Ref sig .tc := ⟨.hbm, 347, rfl⟩
abbrev main_v274 : Ref sig .tc := ⟨.hbm, 348, rfl⟩
abbrev main_v275 : Ref sig .tc := ⟨.hbm, 349, rfl⟩
abbrev main_v276 : Ref sig .tc := ⟨.hbm, 350, rfl⟩
abbrev main_c_54 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_c_55 : Ref sig .tc := ⟨.hbm, 355, rfl⟩
abbrev main_v280 : Ref sig .tc := ⟨.hbm, 356, rfl⟩
abbrev main_v281 : Ref sig .tc := ⟨.hbm, 357, rfl⟩
abbrev main_c_56 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_v290 : Ref sig .tc := ⟨.hbm, 367, rfl⟩
abbrev main_v291 : Ref sig .tc := ⟨.hbm, 368, rfl⟩
abbrev main_v292 : Ref sig .tc := ⟨.hbm, 369, rfl⟩
abbrev main_c_57 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_c_58 : Ref sig .tc := ⟨.hbm, 374, rfl⟩
abbrev main_v296 : Ref sig .tc := ⟨.hbm, 375, rfl⟩
abbrev main_v297 : Ref sig .tc := ⟨.hbm, 376, rfl⟩
abbrev main_v298 : Ref sig .tc := ⟨.hbm, 377, rfl⟩
abbrev main_c_59 : Ref sig .tc := ⟨.hbm, 378, rfl⟩
abbrev main_v299 : Ref sig .tc := ⟨.hbm, 379, rfl⟩
abbrev main_v300 : Ref sig .tc := ⟨.hbm, 380, rfl⟩
abbrev main_c_60 : Ref sig .tc := ⟨.hbm, 381, rfl⟩
abbrev main_v301 : Ref sig .tc := ⟨.hbm, 382, rfl⟩
abbrev main_v302 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_v310 : Ref sig .tc := ⟨.hbm, 391, rfl⟩
abbrev main_v311 : Ref sig .tc := ⟨.hbm, 392, rfl⟩
abbrev main_c_61 : Ref sig .tc := ⟨.hbm, 393, rfl⟩
abbrev main_v312 : Ref sig .tc := ⟨.hbm, 394, rfl⟩
abbrev main_v313 : Ref sig .tc := ⟨.hbm, 395, rfl⟩
abbrev main_v314 : Ref sig .tc := ⟨.hbm, 396, rfl⟩
abbrev main_c_62 : Ref sig .tc := ⟨.hbm, 397, rfl⟩
abbrev main_v315 : Ref sig .tc := ⟨.hbm, 398, rfl⟩
abbrev main_v316 : Ref sig .tc := ⟨.hbm, 399, rfl⟩
abbrev main_v317 : Ref sig .tc := ⟨.hbm, 400, rfl⟩
abbrev main_c_63 : Ref sig .tc := ⟨.hbm, 401, rfl⟩
abbrev main_v318 : Ref sig .tc := ⟨.hbm, 402, rfl⟩
abbrev main_v319 : Ref sig .tc := ⟨.hbm, 403, rfl⟩
abbrev main_c_64 : Ref sig .tc := ⟨.hbm, 404, rfl⟩
abbrev main_v320 : Ref sig .tc := ⟨.hbm, 405, rfl⟩
abbrev main_v321 : Ref sig .tc := ⟨.hbm, 406, rfl⟩
abbrev main_v322 : Ref sig .tc := ⟨.hbm, 407, rfl⟩
abbrev main_v323 : Ref sig .tc := ⟨.hbm, 408, rfl⟩
abbrev main_v324 : Ref sig .tc := ⟨.hbm, 409, rfl⟩
abbrev main_v325 : Ref sig .tc := ⟨.hbm, 410, rfl⟩
abbrev main_v326 : Ref sig .tc := ⟨.hbm, 411, rfl⟩
abbrev main_v327 : Ref sig .tc := ⟨.hbm, 412, rfl⟩
abbrev main_v328 : Ref sig .tc := ⟨.hbm, 413, rfl⟩
abbrev main_v329 : Ref sig .tc := ⟨.hbm, 414, rfl⟩
abbrev main_v330 : Ref sig .tc := ⟨.hbm, 415, rfl⟩
abbrev main_c_65 : Ref sig .tc := ⟨.hbm, 416, rfl⟩
abbrev main_v331 : Ref sig .tc := ⟨.hbm, 417, rfl⟩
abbrev main_v332 : Ref sig .tc := ⟨.hbm, 418, rfl⟩
abbrev main_v333 : Ref sig .tc := ⟨.hbm, 419, rfl⟩
abbrev main_c_66 : Ref sig .tc := ⟨.hbm, 420, rfl⟩
abbrev main_v334 : Ref sig .tc := ⟨.hbm, 421, rfl⟩
abbrev main_v335 : Ref sig .tc := ⟨.hbm, 422, rfl⟩
abbrev main_v336 : Ref sig .tc := ⟨.hbm, 423, rfl⟩
abbrev main_c_67 : Ref sig .tc := ⟨.hbm, 424, rfl⟩
abbrev main_v337 : Ref sig .tc := ⟨.hbm, 425, rfl⟩
abbrev main_v338 : Ref sig .tc := ⟨.hbm, 426, rfl⟩
abbrev main_c_68 : Ref sig .tc := ⟨.hbm, 427, rfl⟩
abbrev main_v339 : Ref sig .tc := ⟨.hbm, 428, rfl⟩
abbrev main_v340 : Ref sig .tc := ⟨.hbm, 429, rfl⟩
abbrev main_v341 : Ref sig .tc := ⟨.hbm, 430, rfl⟩
abbrev main_v342 : Ref sig .tc := ⟨.hbm, 431, rfl⟩
abbrev main_v343 : Ref sig .tc := ⟨.hbm, 432, rfl⟩
abbrev main_v344 : Ref sig .tc := ⟨.hbm, 433, rfl⟩
abbrev main_v345 : Ref sig .tc := ⟨.hbm, 434, rfl⟩
abbrev main_v346 : Ref sig .tc := ⟨.hbm, 435, rfl⟩
abbrev main_v347 : Ref sig .tc := ⟨.hbm, 436, rfl⟩
abbrev main_v348 : Ref sig .tc := ⟨.hbm, 437, rfl⟩
abbrev main_v349 : Ref sig .tc := ⟨.hbm, 438, rfl⟩
abbrev main_c_69 : Ref sig .tc := ⟨.hbm, 439, rfl⟩
abbrev main_v350 : Ref sig .tc := ⟨.hbm, 440, rfl⟩
abbrev main_v351 : Ref sig .tc := ⟨.hbm, 441, rfl⟩
abbrev main_v352 : Ref sig .tc := ⟨.hbm, 442, rfl⟩
abbrev main_c_70 : Ref sig .tc := ⟨.hbm, 443, rfl⟩
abbrev main_v353 : Ref sig .tc := ⟨.hbm, 444, rfl⟩
abbrev main_v354 : Ref sig .tc := ⟨.hbm, 445, rfl⟩
abbrev main_v355 : Ref sig .tc := ⟨.hbm, 446, rfl⟩
abbrev main_c_71 : Ref sig .tc := ⟨.hbm, 447, rfl⟩
abbrev main_v356 : Ref sig .tc := ⟨.hbm, 448, rfl⟩
abbrev main_v357 : Ref sig .tc := ⟨.hbm, 449, rfl⟩
abbrev main_c_72 : Ref sig .tc := ⟨.hbm, 450, rfl⟩
abbrev main_v358 : Ref sig .tc := ⟨.hbm, 451, rfl⟩
abbrev main_v359 : Ref sig .tc := ⟨.hbm, 452, rfl⟩
abbrev main_v360 : Ref sig .tc := ⟨.hbm, 453, rfl⟩
abbrev main_v361 : Ref sig .tc := ⟨.hbm, 454, rfl⟩
abbrev main_v362 : Ref sig .tc := ⟨.hbm, 455, rfl⟩
abbrev main_v363 : Ref sig .tc := ⟨.hbm, 456, rfl⟩
abbrev main_v364 : Ref sig .tc := ⟨.hbm, 457, rfl⟩
abbrev main_v365 : Ref sig .tc := ⟨.hbm, 458, rfl⟩
abbrev main_v366 : Ref sig .tc := ⟨.hbm, 459, rfl⟩
abbrev main_v367 : Ref sig .tc := ⟨.hbm, 460, rfl⟩
abbrev main_v368 : Ref sig .tc := ⟨.hbm, 461, rfl⟩
abbrev main_c_73 : Ref sig .tc := ⟨.hbm, 462, rfl⟩
abbrev main_v369 : Ref sig .tc := ⟨.hbm, 463, rfl⟩
abbrev main_v370 : Ref sig .tc := ⟨.hbm, 464, rfl⟩
abbrev main_v371 : Ref sig .tc := ⟨.hbm, 465, rfl⟩
abbrev main_c_74 : Ref sig .tc := ⟨.hbm, 466, rfl⟩
abbrev main_v372 : Ref sig .tc := ⟨.hbm, 467, rfl⟩
abbrev main_v373 : Ref sig .tc := ⟨.hbm, 468, rfl⟩
abbrev main_v374 : Ref sig .tc := ⟨.hbm, 469, rfl⟩
abbrev main_c_75 : Ref sig .tc := ⟨.hbm, 470, rfl⟩
abbrev main_v375 : Ref sig .tc := ⟨.hbm, 471, rfl⟩
abbrev main_v376 : Ref sig .tc := ⟨.hbm, 472, rfl⟩
abbrev main_c_76 : Ref sig .tc := ⟨.hbm, 473, rfl⟩
abbrev main_v377 : Ref sig .tc := ⟨.hbm, 474, rfl⟩
abbrev main_v378 : Ref sig .tc := ⟨.hbm, 475, rfl⟩
abbrev main_v379 : Ref sig .tc := ⟨.hbm, 476, rfl⟩
abbrev main_v380 : Ref sig .tc := ⟨.hbm, 477, rfl⟩
abbrev main_v381 : Ref sig .tc := ⟨.hbm, 478, rfl⟩
abbrev main_v382 : Ref sig .tc := ⟨.hbm, 479, rfl⟩
abbrev main_v383 : Ref sig .tc := ⟨.hbm, 480, rfl⟩
abbrev main_v384 : Ref sig .tc := ⟨.hbm, 481, rfl⟩
abbrev main_v385 : Ref sig .tc := ⟨.hbm, 482, rfl⟩
abbrev main_v386 : Ref sig .tc := ⟨.hbm, 483, rfl⟩
abbrev main_v387 : Ref sig .tc := ⟨.hbm, 484, rfl⟩
abbrev main_c_77 : Ref sig .tc := ⟨.hbm, 485, rfl⟩
abbrev main_v388 : Ref sig .tc := ⟨.hbm, 486, rfl⟩
abbrev main_v389 : Ref sig .tc := ⟨.hbm, 487, rfl⟩
abbrev main_v390 : Ref sig .tc := ⟨.hbm, 488, rfl⟩
abbrev main_c_78 : Ref sig .tc := ⟨.hbm, 489, rfl⟩
abbrev main_v391 : Ref sig .tc := ⟨.hbm, 490, rfl⟩
abbrev main_v392 : Ref sig .tc := ⟨.hbm, 491, rfl⟩
abbrev main_v393 : Ref sig .tc := ⟨.hbm, 492, rfl⟩
abbrev main_c_79 : Ref sig .tc := ⟨.hbm, 493, rfl⟩
abbrev main_v394 : Ref sig .tc := ⟨.hbm, 494, rfl⟩
abbrev main_v395 : Ref sig .tc := ⟨.hbm, 495, rfl⟩
abbrev main_c_80 : Ref sig .tc := ⟨.hbm, 496, rfl⟩
abbrev main_v396 : Ref sig .tc := ⟨.hbm, 497, rfl⟩
abbrev main_v397 : Ref sig .tc := ⟨.hbm, 498, rfl⟩
abbrev main_v398 : Ref sig .tc := ⟨.hbm, 499, rfl⟩
abbrev main_v399 : Ref sig .tc := ⟨.hbm, 500, rfl⟩
abbrev main_v400 : Ref sig .tc := ⟨.hbm, 501, rfl⟩
abbrev main_v401 : Ref sig .tc := ⟨.hbm, 502, rfl⟩
abbrev main_v402 : Ref sig .tc := ⟨.hbm, 503, rfl⟩
abbrev main_v403 : Ref sig .tc := ⟨.hbm, 504, rfl⟩
abbrev main_v404 : Ref sig .tc := ⟨.hbm, 505, rfl⟩
abbrev main_v405 : Ref sig .tc := ⟨.hbm, 506, rfl⟩
abbrev main_v406 : Ref sig .tc := ⟨.hbm, 507, rfl⟩
abbrev main_v407 : Ref sig .tc := ⟨.hbm, 508, rfl⟩
abbrev main_v408 : Ref sig .tc := ⟨.hbm, 509, rfl⟩
abbrev main_v409 : Ref sig .tc := ⟨.hbm, 510, rfl⟩
abbrev main_v410 : Ref sig .tc := ⟨.hbm, 511, rfl⟩
abbrev main_cst_81 : Ref sig .tc := ⟨.hbm, 512, rfl⟩
abbrev main_v411 : Ref sig .tc := ⟨.hbm, 513, rfl⟩
abbrev main_v412 : Ref sig .tc := ⟨.hbm, 514, rfl⟩
abbrev main_cst_82 : Ref sig .tc := ⟨.hbm, 515, rfl⟩
abbrev main_v413 : Ref sig .tc := ⟨.hbm, 516, rfl⟩
abbrev main_v414 : Ref sig .tc := ⟨.hbm, 517, rfl⟩

abbrev nD : Nat := 1
abbrev τ : Topo := Topo.v7x

variable {F : FTy → Type} [FloatOps F]

class Facts₀ : Prop where
  bcast_S16384x3_S16384x1x3_0_2 : S16384x3.BroadcastsInDim S16384x1x3 (![0, 2] : Fin 2 → Fin S16384x1x3.rank)
  bcast_S16384x256_S16384x256x1_0_1 : S16384x256.BroadcastsInDim S16384x256x1 (![0, 1] : Fin 2 → Fin S16384x256x1.rank)
  bcast_S16384x1x3_S16384x256x3_0_1_2 : S16384x1x3.BroadcastsInDim S16384x256x3 (![0, 1, 2] : Fin 3 → Fin S16384x256x3.rank)
  bcast_S16384x256x1_S16384x256x3_0_1_2 : S16384x256x1.BroadcastsInDim S16384x256x3 (![0, 1, 2] : Fin 3 → Fin S16384x256x3.rank)
  reducesTo_S16384x3_S16384_d1 : S16384x3.ReducesTo [1] S16384
  h_S_ : 0 < S_.numel
  bcast_S16384_S16384x1x1_0 : S16384.BroadcastsInDim S16384x1x1 (![0] : Fin 1 → Fin S16384x1x1.rank)
  shapeCasts_S16384x256x3_S4194304x3 : S16384x256x3.ShapeCasts S4194304x3
  bcast_S_S4194304x3 : S_.BroadcastsInDim S4194304x3 (![] : Fin 0 → Fin S4194304x3.rank)
  bcast_S_S3 : S_.BroadcastsInDim S3 (![] : Fin 0 → Fin S3.rank)
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  slices_S4194304x3_S4194304x1_0_0 : S4194304x3.Slices ![0, 0] S4194304x1
  shapeCasts_S4194304x1_S4194304 : S4194304x1.ShapeCasts S4194304
  slices_S4194304x3_S4194304x1_0_1 : S4194304x3.Slices ![0, 1] S4194304x1
  slices_S4194304x3_S4194304x1_0_2 : S4194304x3.Slices ![0, 2] S4194304x1
  shapeCasts_S1x160x160x160_S1x4096000 : S1x160x160x160.ShapeCasts S1x4096000
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304_S1x4194304_1 : S4194304.BroadcastsInDim S1x4194304 (![1] : Fin 1 → Fin S1x4194304.rank)
  transposes_S1x4194304_S4194304x1_1_0 : S1x4194304.Transposes [1, 0] S4194304x1
  shapeCasts_S4194304x1_S16384x256x1 : S4194304x1.ShapeCasts S16384x256x1
  bcast_S_S16384x256x1 : S_.BroadcastsInDim S16384x256x1 (![] : Fin 0 → Fin S16384x256x1.rank)
  bcast_S16384x1x1_S16384x256x1_0_1_2 : S16384x1x1.BroadcastsInDim S16384x256x1 (![0, 1, 2] : Fin 3 → Fin S16384x256x1.rank)
  shapeCasts_S3x160x160x160_S3x4096000 : S3x160x160x160.ShapeCasts S3x4096000
  bcast_S1x4194304_S3x4194304_0_1 : S1x4194304.BroadcastsInDim S3x4194304 (![0, 1] : Fin 2 → Fin S3x4194304.rank)
  transposes_S3x4194304_S4194304x3_1_0 : S3x4194304.Transposes [1, 0] S4194304x3
  shapeCasts_S4194304x3_S16384x256x3 : S4194304x3.ShapeCasts S16384x256x3
  bcast_S_S16384x256x3 : S_.BroadcastsInDim S16384x256x3 (![] : Fin 0 → Fin S16384x256x3.rank)
  gather_S1x4096000_S4194304x1_S1x4194304_0_1_n_n_1_1_11_wf : GatherDims.WF S1x4096000 S4194304x1 S1x4194304 [0] [1] [] [1] [] 1 ![1, 1]
  gather_S3x4096000_S4194304x1_S3x4194304_0_1_n_n_1_1_31_wf : GatherDims.WF S3x4096000 S4194304x1 S3x4194304 [0] [1] [] [1] [] 1 ![3, 1]

variable [Facts₀]

def gather_S1x4096000_S4194304x1_S1x4194304_0_1_n_n_1_1_11 : GatherDims S1x4096000 S4194304x1 S1x4194304 where
  offsetDims := [0]
  collapsedSliceDims := [1]
  operandBatchingDims := []
  startIndicesBatchingDims := []
  startIndexMap := [1]
  indexVectorDim := 1
  sliceSizes := ![1, 1]
  wf := gather_S1x4096000_S4194304x1_S1x4194304_0_1_n_n_1_1_11_wf
def gather_S3x4096000_S4194304x1_S3x4194304_0_1_n_n_1_1_31 : GatherDims S3x4096000 S4194304x1 S3x4194304 where
  offsetDims := [0]
  collapsedSliceDims := [1]
  operandBatchingDims := []
  startIndicesBatchingDims := []
  startIndexMap := [1]
  indexVectorDim := 1
  sliceSizes := ![3, 1]
  wf := gather_S3x4096000_S4194304x1_S3x4194304_0_1_n_n_1_1_31_wf

class Facts : Prop extends Facts₀ where

variable [Facts]
-- ==== Proof.KVB.lean ====
/-
  The TensorCore buffers' contents when the one kernel region of `Kernel`'s @main is entered: the launch
  contents pushed through the host operations that stand before the region (twenty-one stretches, the
  called functions' operations listed at their call sites), as a valuation, and the same read at a reference.
-/
import proofs.«123153_j77008763617691_1_alg».proof.Proof.Gen.Kernel.Launch

noncomputable section

namespace Cert.Kernel.Fr

open Idealize.ShloMosaic Idealize.ShloMosaic.TcCoe Idealize.SL.Sem
open Cert.Kernel Cert.Kernel.Gen

variable {F : FTy → Type} [FloatOps F]

/-- The host operations before the region, stretch by stretch, in program order. -/
abbrev hostPre : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18,
   hostOps0_19, hostOps0_20]

variable (m : (ℓ : Loc nD τ sig) → Buf (Elt F) ℓ)

/-- Core `c`'s buffer contents at the region's entry. -/
abbrev V0 (c : Dev nD) : Valuation τ sig (Elt F) := StableHlo.after (List.flatten hostPre) (fun b => m (c, b))

/-- The same, read at a TensorCore reference. -/
abbrev V (c : Dev nD) (b : Ref sig .tc) : Buf (Elt F) ((c : Thread nD τ).loc b) := V0 m c (Proc.devRef .tc b)

end Cert.Kernel.Fr

end
-- ==== Proof.KFrameB.lean ====
/-
  The frame of `Kernel`'s @main, at any float family: twenty-one stretches of host lines, one kernel region
  over a grid of 128 points, a closing stretch of host lines. No host line has an argument array as its result, and
  none is a window's array, so the arguments bypass the region and end as launched. The region's body reads its three
  input blocks whole and fills the output block by two stores, rows [0,1) and rows [1,4), which tile it: what it
  leaves there is a closed function of the three input blocks.
-/
import proofs.«123153_j77008763617691_1_alg».proof.Proof.KVB
import proofs.«123153_j77008763617691_1_alg».proof.Proof.Gen.Kernel.Skeleton
import proofs.«123153_j77008763617691_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The host lines and the argument arrays

No host line, before the region or after it, has an argument array as its result: each line writes only the
buffer of the value it defines. Stated stretch by stretch, then for all of them at once. -/

/-- The program's argument arrays. -/
abbrev argRefs : List (Ref sig .tc) := [main_arg0, main_arg1, main_arg2, main_arg3, main_arg4]

/-- A stretch of host operations none of which writes an argument array. -/
abbrev SparesArgs (ops : List (HloOp τ sig (Elt F))) : Prop :=
  ops.Forall fun op => argRefs.Forall fun r => Proc.devRef (τ := τ) .tc r ∉ op.writes

set_option maxHeartbeats 4000000 in
theorem spare_0 : SparesArgs (F := F) hostOps0 := by
  simp only [SparesArgs, argRefs, hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_1 : SparesArgs (F := F) hostOps0_1 := by
  simp only [SparesArgs, argRefs, hostOps0_1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_2 : SparesArgs (F := F) hostOps0_2 := by
  simp only [SparesArgs, argRefs, hostOps0_2, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_3 : SparesArgs (F := F) hostOps0_3 := by
  simp only [SparesArgs, argRefs, hostOps0_3, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_4 : SparesArgs (F := F) hostOps0_4 := by
  simp only [SparesArgs, argRefs, hostOps0_4, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_5 : SparesArgs (F := F) hostOps0_5 := by
  simp only [SparesArgs, argRefs, hostOps0_5, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_6 : SparesArgs (F := F) hostOps0_6 := by
  simp only [SparesArgs, argRefs, hostOps0_6, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_7 : SparesArgs (F := F) hostOps0_7 := by
  simp only [SparesArgs, argRefs, hostOps0_7, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_8 : SparesArgs (F := F) hostOps0_8 := by
  simp only [SparesArgs, argRefs, hostOps0_8, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_9 : SparesArgs (F := F) hostOps0_9 := by
  simp only [SparesArgs, argRefs, hostOps0_9, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_10 : SparesArgs (F := F) hostOps0_10 := by
  simp only [SparesArgs, argRefs, hostOps0_10, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_11 : SparesArgs (F := F) hostOps0_11 := by
  simp only [SparesArgs, argRefs, hostOps0_11, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_12 : SparesArgs (F := F) hostOps0_12 := by
  simp only [SparesArgs, argRefs, hostOps0_12, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_13 : SparesArgs (F := F) hostOps0_13 := by
  simp only [SparesArgs, argRefs, hostOps0_13, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_14 : SparesArgs (F := F) hostOps0_14 := by
  simp only [SparesArgs, argRefs, hostOps0_14, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_15 : SparesArgs (F := F) hostOps0_15 := by
  simp only [SparesArgs, argRefs, hostOps0_15, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_16 : SparesArgs (F := F) hostOps0_16 := by
  simp only [SparesArgs, argRefs, hostOps0_16, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_17 : SparesArgs (F := F) hostOps0_17 := by
  simp only [SparesArgs, argRefs, hostOps0_17, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_18 : SparesArgs (F := F) hostOps0_18 := by
  simp only [SparesArgs, argRefs, hostOps0_18, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_19 : SparesArgs (F := F) hostOps0_19 := by
  simp only [SparesArgs, argRefs, hostOps0_19, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_20 : SparesArgs (F := F) hostOps0_20 := by
  simp only [SparesArgs, argRefs, hostOps0_20, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_t : SparesArgs (F := F) hostOps1 := by
  simp only [SparesArgs, argRefs, hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

/-- Every stretch before the region spares the arguments. -/
theorem pre_spares : (hostPre (F := F)).Forall fun ops => SparesArgs ops :=
  ⟨spare_0, spare_1, spare_2, spare_3, spare_4, spare_5, spare_6, spare_7, spare_8, spare_9, spare_10, spare_11, spare_12, spare_13, spare_14, spare_15, spare_16, spare_17, spare_18, spare_19, spare_20⟩

/-- Lines that spare the arguments leave each argument array as they found it. -/
theorem after_spares (opss : List (List (HloOp τ sig (Elt F)))) (h : opss.Forall fun ops => SparesArgs ops)
    (X : Valuation τ sig (Elt F)) (r : Ref sig .tc) (hr : r ∈ argRefs) :
    StableHlo.after opss.flatten X (Proc.devRef .tc r) = X (Proc.devRef .tc r) :=
  StableHlo.after_of_forall_not_mem _ _ fun op hop => by
    obtain ⟨ops, hops, hop'⟩ := List.mem_flatten.mp hop
    exact List.forall_iff_forall_mem.mp (List.forall_iff_forall_mem.mp (List.forall_iff_forall_mem.mp h ops hops) op hop') r hr

/-! ## No host line allocates -/

theorem nofresh_0 : (hostOps0 : List (HloOp τ sig (Elt F))).Forall fun op => op.fresh = ∅ := by
  simp only [hostOps0, List.Forall]; repeat' constructor
theorem nofresh_1 : (hostOps0_1 : List (HloOp τ sig (Elt F))).Forall fun op => op.fresh = ∅ := by
  simp only [hostOps0_1, List.Forall]; repeat' constructor
theorem nofresh_2 : (hostOps0_2 : List (HloOp τ sig (Elt F))).Forall fun op => op.fresh = ∅ := by
  simp only [hostOps0_2, List.Forall]; repeat' constructor
theorem nofresh_3 : (hostOps0_3 : List (HloOp τ sig (Elt F))).Forall fun op => op.fresh = ∅ := by
  simp only [hostOps0_3, List.Forall]; repeat' constructor
theorem nofresh_4 : (hostOps0_4 : List (HloOp τ sig (Elt F))).Forall fun op => op.fresh = ∅ := by
  simp only [hostOps0_4, List.Forall]; repeat' constructor
theorem nofresh_5 : (hostOps0_5 : List (HloOp τ sig (Elt F))).Forall fun op => op.fresh = ∅ := by
  simp only [hostOps0_5, List.Forall]; repeat' constructor
theorem nofresh_6 : (hostOps0_6 : List (HloOp τ sig (Elt F))).Forall fun op => op.fresh = ∅ := by
  simp only [hostOps0_6, List.Forall]; repeat' constructor
theorem nofresh_7 : (hostOps0_7 : List (HloOp τ sig (Elt F))).Forall fun op => op.fresh = ∅ := by
  simp only [hostOps0_7, List.Forall]; repeat' constructor
theorem nofresh_8 : (hostOps0_8 : List (HloOp τ sig (Elt F))).Forall fun op => op.fresh = ∅ := by
  simp only [hostOps0_8, List.Forall]; repeat' constructor
theorem nofresh_9 : (hostOps0_9 : List (HloOp τ sig (Elt F))).Forall fun op => op.fresh = ∅ := by
  simp only [hostOps0_9, List.Forall]; repeat' constructor
theorem nofresh_10 : (hostOps0_10 : List (HloOp τ sig (Elt F))).Forall fun op => op.fresh = ∅ := by
  simp only [hostOps0_10, List.Forall]; repeat' constructor
theorem nofresh_11 : (hostOps0_11 : List (HloOp τ sig (Elt F))).Forall fun op => op.fresh = ∅ := by
  simp only [hostOps0_11, List.Forall]; repeat' constructor
theorem nofresh_12 : (hostOps0_12 : List (HloOp τ sig (Elt F))).Forall fun op => op.fresh = ∅ := by
  simp only [hostOps0_12, List.Forall]; repeat' constructor
theorem nofresh_13 : (hostOps0_13 : List (HloOp τ sig (Elt F))).Forall fun op => op.fresh = ∅ := by
  simp only [hostOps0_13, List.Forall]; repeat' constructor
theorem nofresh_14 : (hostOps0_14 : List (HloOp τ sig (Elt F))).Forall fun op => op.fresh = ∅ := by
  simp only [hostOps0_14, List.Forall]; repeat' constructor
theorem nofresh_15 : (hostOps0_15 : List (HloOp τ sig (Elt F))).Forall fun op => op.fresh = ∅ := by
  simp only [hostOps0_15, List.Forall]; repeat' constructor
theorem nofresh_16 : (hostOps0_16 : List (HloOp τ sig (Elt F))).Forall fun op => op.fresh = ∅ := by
  simp only [hostOps0_16, List.Forall]; repeat' constructor
theorem nofresh_17 : (hostOps0_17 : List (HloOp τ sig (Elt F))).Forall fun op => op.fresh = ∅ := by
  simp only [hostOps0_17, List.Forall]; repeat' constructor
theorem nofresh_18 : (hostOps0_18 : List (HloOp τ sig (Elt F))).Forall fun op => op.fresh = ∅ := by
  simp only [hostOps0_18, List.Forall]; repeat' constructor
theorem nofresh_19 : (hostOps0_19 : List (HloOp τ sig (Elt F))).Forall fun op => op.fresh = ∅ := by
  simp only [hostOps0_19, List.Forall]; repeat' constructor
theorem nofresh_20 : (hostOps0_20 : List (HloOp τ sig (Elt F))).Forall fun op => op.fresh = ∅ := by
  simp only [hostOps0_20, List.Forall]; repeat' constructor
theorem nofresh_t : (hostOps1 : List (HloOp τ sig (Elt F))).Forall fun op => op.fresh = ∅ := by
  simp only [hostOps1, List.Forall]; repeat' constructor

theorem pre_fresh : (hostPre (F := F)).Forall fun ops => ops.Forall fun op => op.fresh = ∅ :=
  ⟨nofresh_0, nofresh_1, nofresh_2, nofresh_3, nofresh_4, nofresh_5, nofresh_6, nofresh_7, nofresh_8, nofresh_9, nofresh_10, nofresh_11, nofresh_12, nofresh_13, nofresh_14, nofresh_15, nofresh_16, nofresh_17, nofresh_18, nofresh_19, nofresh_20⟩

/-- Every line before the region touches TensorCore references only. -/
theorem pre_sub : (hostPre (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩

variable (m : (ℓ : Loc nD τ sig) → Buf (Elt F) ℓ) (ρ : Dev nD → PrngReg)

/-! ## @main around its region -/

/-- @main is the twenty-one stretches of host lines, the region, and the closing stretch: it reduces to the region
    continued by the closing stretch, entered at the contents the earlier lines leave (`V`). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main hostPre [hostOps1] pre_sub pre_fresh main_chain

/-- An argument array is found by the region as it was launched. -/
theorem V_arg (c : Dev nD) (r : Ref sig .tc) (hr : r ∈ argRefs) : V m c r = m ((c : Thread nD τ).loc r) :=
  after_spares hostPre pre_spares (fun b => m (c, b)) r hr

theorem V_main_arg0 (c : Dev nD) : V m c main_arg0 = m ((c : Thread nD τ).loc main_arg0) := V_arg m c main_arg0 (by decide)
theorem V_main_arg1 (c : Dev nD) : V m c main_arg1 = m ((c : Thread nD τ).loc main_arg1) := V_arg m c main_arg1 (by decide)
theorem V_main_arg2 (c : Dev nD) : V m c main_arg2 = m ((c : Thread nD τ).loc main_arg2) := V_arg m c main_arg2 (by decide)
theorem V_main_arg3 (c : Dev nD) : V m c main_arg3 = m ((c : Thread nD τ).loc main_arg3) := V_arg m c main_arg3 (by decide)
theorem V_main_arg4 (c : Dev nD) : V m c main_arg4 = m ((c : Thread nD τ).loc main_arg4) := V_arg m c main_arg4 (by decide)

/-! ## The closing stretch -/

/-- Its lines touch only the windows' arrays and the buffers that bypass the region: with nothing prefetched these are
    all the unscoped TensorCore references. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op (List.forall_iff_forall_mem.mp hostOps1_sub op hop)

/-- They allocate nothing. -/
theorem sfx_fresh : ∀ ops ∈ ([hostOps1] : List (List (HloOp τ sig (Elt F)))), ∀ op ∈ ops, op.fresh = ∅ := by
  intro ops hops op hop
  obtain rfl := List.mem_singleton.mp hops
  exact List.forall_iff_forall_mem.mp nofresh_t op hop

/-- No window's array is the result of one of them. -/
theorem tail_keeps : (hostOps1 : List (HloOp τ sig (Elt F))).Forall fun op =>
    ∀ w : Fin 4, Proc.devRef (τ := τ) .tc (Pipeline.arrRef spec0 w) ∉ op.writes := by
  simp only [hostOps1, List.Forall, StableHlo.nullary_writes, StableHlo.unary_writes, StableHlo.binary_writes,
    StableHlo.ternary_writes, StableHlo.reshape_writes, StableHlo.nary_writes, Finset.mem_singleton]
  refine ⟨?_, ?_, ?_, ?_, ?_, ?_⟩ <;> intro w <;> exact StableHlo.devRef_ne_of_ne (by revert w; decide)

theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  exact List.forall_iff_forall_mem.mp tail_keeps op hop

/-- No argument array is a window's array. -/
theorem arg_no_array : ∀ r ∈ argRefs, ∀ w : Fin 4, Pipeline.arrRef spec0 w ≠ r := by decide

/-- An argument array ends as launched: the closing stretch spares it, the region bypasses it, the earlier lines spare it. -/
theorem W_arg (dats : (p : Fin 1) → (c : Dev nD) → Dat τ (Elt F) Unit ℕ (UR sig nD τ) ℕ (cfgs p) c) (c : Dev nD)
    (r : Ref sig .tc) (hr : r ∈ argRefs) :
    Pipeline.afterTail₀ cfgs dats 0 (V0 m) [hostOps1] c r = m ((c : Thread nD τ).loc r) := by
  unfold Pipeline.afterTail₀
  rw [after_spares [hostOps1] spare_t _ r hr, Pipeline.withArrays_of_ne _ c (V0 m c) _ r (arg_no_array r hr)]
  exact V_arg m c r hr

theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := W_arg m dats c main_arg0 (by decide)
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := W_arg m dats c main_arg1 (by decide)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := W_arg m dats c main_arg2 (by decide)
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := W_arg m dats c main_arg3 (by decide)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := W_arg m dats c main_arg4 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

/-- Rows [0,1) of the output block. -/
abbrev rDens : Rect S4x32768 := Rect.unit (s := S4x32768) ![0, 0] S1x32768.size inb_S4x32768_S1x32768_0_0
/-- Rows [1,4) of the output block. -/
abbrev rCol : Rect S4x32768 := Rect.unit (s := S4x32768) ![1, 0] S3x32768.size inb_S4x32768_S3x32768_1_0
/-- The three input blocks, whole. -/
abbrev rGrid : Rect S8x4x32768 := Rect.unit (s := S8x4x32768) ![0, 0, 0] S8x4x32768.size inb_S8x4x32768_S8x4x32768_0_0_0
abbrev rWts : Rect S8x32768 := Rect.unit (s := S8x32768) ![0, 0] S8x32768.size inb_S8x32768_S8x32768_0_0
abbrev rLen : Rect S1x32768 := Rect.unit (s := S1x32768) ![0, 0] S1x32768.size inb_S1x32768_S1x32768_0_0

/-- What the body leaves in the output window's buffer, from the three input blocks: its two stores as pieces, LAST FIRST. -/
def outBlock (x0 : Vec F S8x4x32768 .f32) (x1 : Vec F S8x32768 .f32) (x2 : Vec F S1x32768 .f32) : Vec F S4x32768 .f32 :=
  View.canon [⟨rCol, k0_pay3 (View.ld x0 rGrid) (View.ld x1 rWts)⟩,
    ⟨rDens, k0_pay2 (View.ld x0 rGrid) (View.ld x1 rWts) (View.ld x2 rLen)⟩]

/-- The two stores' rectangles, cut into single rows, are the four rows of the block: every index lies in one. -/
theorem out_cover (p3 : FVec F S3x32768 .f32) (p2 : FVec F S1x32768 .f32) (y : S4x32768.Idx) :
    ∃ pc ∈ ([⟨rCol, p3⟩, ⟨rDens, p2⟩] : List (View.Piece (Elt F) S4x32768 .f32)), y ∈ pc.1.set :=
  View.cover_of_tiledBy ([⟨rCol, p3⟩, ⟨rDens, p2⟩] : List (View.Piece (Elt F) S4x32768 .f32)) S1x32768.size (by sl_kernel_rfl) y

/-! ## The body's triple -/

set_option maxHeartbeats 2000000 in
/-- The body on whole staging memrefs — the inputs' read `x0`, `x1`, `x2`, the output's holding anything — runs to its
    return with the inputs' as they were and the output's at `outBlock` of them. -/
theorem body_triple (c : Dev nD) (E : Set ℕ) (i : grid0.Coords)
    (a1 : Memref sig .tc .vmem S8x4x32768 .f32) (h1 : a1.IsWhole) (a2 : Memref sig .tc .vmem S8x32768 .f32) (h2 : a2.IsWhole)
    (a3 : Memref sig .tc .vmem S1x32768 .f32) (h3 : a3.IsWhole) (a4 : Memref sig .tc .vmem S4x32768 .f32) (h4 : a4.IsWhole)
    (x0 : Vec F S8x4x32768 .f32) (x1 : Vec F S8x32768 .f32) (x2 : Vec F S1x32768 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (outBlock x0 x1 x2)) -∗ K ⟨⟩))
      ⊢ wp frame (wpE (defs₀ (F := F)) Variants.none c none) E (cc0__fused_kernel i a1 h1 a2 h2 a3 h3 a4 h4) K := by
  simp only [cc0__fused_kernel_eq_skeleton]; unfold cc0__fused_kernel_skel
  unfold owns
  iintro ⟨⟨%f0, %hf0, H0⟩, ⟨%f1, %hf1, H1⟩, ⟨%f2, %hf2, H2⟩, ⟨%d, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  unfold outBlock
  exact View.read_writes_eq_canon _ _ _ (out_cover _ _)

/-! ## The pipeline's proof data -/

/-- The proof data of the one pipeline on core `c`: the arrays as the region finds them; after the body at point `t`
    each input's buffer at its block, the output's at `outBlock` of the three input blocks; the invariant the scoped
    rest and the generator register, which the body leaves alone; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) :
    (dats m 0 c).after 3 t = outBlock (iblk m c 0 t) (iblk m c 1 t) (iblk m c 2 t) := by dsimp only [dats]

/-! ## What the body finds in the input buffers

An input window is uncut and never idle, and the body leaves its block in place: whether or not the pipeline fetched
it at a point, its current buffer holds the window's block there. -/

theorem found_0 (c : Dev nD) (t : Fin cfg0.N) (d) : (dats m 0 c).before 0 t d = iblk m c 0 t := by
  have hk : ∀ t, (cfg0.win 0).cut (cfg0.grid.coords t) ((dats m 0 c).after 0 t) = (dats m 0 c).blockOf 0 t := fun t => by
    rw [after_in0]; unfold Dat.blockOf iblk; rw [A_eq]; try rfl
  rw [(dats m 0 c).before_in_eq_fetched 0 rfl (fun _ => rfl) (fun _ _ _ => rfl) hk t d]
  unfold Dat.fetched Dat.blockOf iblk; rw [A_eq]; try rfl
theorem found_1 (c : Dev nD) (t : Fin cfg0.N) (d) : (dats m 0 c).before 1 t d = iblk m c 1 t := by
  have hk : ∀ t, (cfg0.win 1).cut (cfg0.grid.coords t) ((dats m 0 c).after 1 t) = (dats m 0 c).blockOf 1 t := fun t => by
    rw [after_in1]; unfold Dat.blockOf iblk; rw [A_eq]; try rfl
  rw [(dats m 0 c).before_in_eq_fetched 1 rfl (fun _ => rfl) (fun _ _ _ => rfl) hk t d]
  unfold Dat.fetched Dat.blockOf iblk; rw [A_eq]; try rfl
theorem found_2 (c : Dev nD) (t : Fin cfg0.N) (d) : (dats m 0 c).before 2 t d = iblk m c 2 t := by
  have hk : ∀ t, (cfg0.win 2).cut (cfg0.grid.coords t) ((dats m 0 c).after 2 t) = (dats m 0 c).blockOf 2 t := fun t => by
    rw [after_in2]; unfold Dat.blockOf iblk; rw [A_eq]; try rfl
  rw [(dats m 0 c).before_in_eq_fetched 2 rfl (fun _ => rfl) (fun _ _ _ => rfl) hk t d]
  unfold Dat.fetched Dat.blockOf iblk; rw [A_eq]; try rfl

/-! ## The body obligation -/

/-- What the pipeline hands the body at point `t`: the invariant, the core's dues, each window's current buffer. -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: its input buffers hold the three blocks, so the triple applies; the invariant and the dues pass
    through untouched. -/
theorem at_point (c : Dev nD) (t : Fin cfg0.N) :
    handed m c t ⊢ wp frame (wpE (defs₀ (F := F)) Variants.none c none) Set.univ (bodyAt0 t) (fun _ => returned m c t) := by
  unfold handed returned bodyAt0
  simp only [found_0, found_1, found_2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (body_triple c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point of the grid. -/
theorem body_ok (c : Dev nD) : BodyObligation (dats (F := F) m 0 c) (defs₀ (F := F)) Variants.none () Set.univ := fun t => by
  rw [bigSep_W0, bigSep_W0]
  exact at_point m c t

/-! ## The run and the frame -/

set_option backward.isDefEq.respectTransparency.types false in
/-- From any memory with zero counters every weakly fair execution of @main on the TensorCores terminates, and in every
    final state each array of the pipeline holds what the library computes from the proof data and every other unscoped
    buffer what the closing stretch leaves. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_ok m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- An argument array is unscoped. -/
theorem arg_unscoped : ∀ r ∈ argRefs, r.isScoped = false := by decide

/-- THE FRAME: @main runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    have ends : ∀ b ∈ argRefs, _ = m ((c.tc : Thread nD τ).loc b) := fun b hb =>
      ((h c).2 b (Pipeline.mem_restRefs_of b (arg_unscoped b hb) (arg_no_array b hb))).trans (W_arg m (dats m) c b hb)
    ⟨ends main_arg0 (by decide), ends main_arg1 (by decide), ends main_arg2 (by decide), ends main_arg3 (by decide),
      ends main_arg4 (by decide)⟩) (run_main m ρ)

end Cert.Kernel.Fr

end
-- ==== Proof.KV.lean ====
/-
  The TensorCore buffers' contents when the one kernel region of `KernelIdeal`'s @main is entered: the launch
  contents pushed through the host operations that stand before the region (twenty-one stretches, the
  called functions' operations listed at their call sites), as a valuation, and the same read at a reference.
-/
import proofs.«123153_j77008763617691_1_alg».proof.Proof.Gen.KernelIdeal.Launch

noncomputable section

namespace Cert.KernelIdeal.Fr

open Idealize.ShloMosaic Idealize.ShloMosaic.TcCoe Idealize.SL.Sem
open Cert.KernelIdeal Cert.KernelIdeal.Gen

variable {F : FTy → Type} [FloatOps F]

/-- The host operations before the region, stretch by stretch, in program order. -/
abbrev hostPre : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18,
   hostOps0_19, hostOps0_20]

variable (m : (ℓ : Loc nD τ sig) → Buf (Elt F) ℓ)

/-- Core `c`'s buffer contents at the region's entry. -/
abbrev V0 (c : Dev nD) : Valuation τ sig (Elt F) := StableHlo.after (List.flatten hostPre) (fun b => m (c, b))

/-- The same, read at a TensorCore reference. -/
abbrev V (c : Dev nD) (b : Ref sig .tc) : Buf (Elt F) ((c : Thread nD τ).loc b) := V0 m c (Proc.devRef .tc b)

end Cert.KernelIdeal.Fr

end
-- ==== Proof.KDefs.lean ====
/-
  Two host-side quantities of `KernelIdeal`'s @main, as functions: the table the corners are gathered from —
  the density grid and the three color grids stacked along the channel axis and flattened to
  [4, 160³] —, and one call of the column lookup (a negative linear index is first wrapped by 160³;
  the entries at an index outside [0, 160³ − 1] are filled with the not-a-number word, the others
  gathered from the table's columns), composed operation by operation as @main applies them.
-/
import proofs.«123153_j77008763617691_1_alg».proof.Proof.Gen.KernelIdeal

noncomputable section

namespace Cert.KernelIdeal.Fr

open Idealize.ShloMosaic Idealize.ShloMosaic.TcCoe
open Cert.KernelIdeal Cert.KernelIdeal.Gen

variable {F : FTy → Type} [FloatOps F]

/-- The four channels' voxels as one table [4, 160³]. -/
def GF4 (x3 : (⟨S1x160x160x160, .f32⟩ : BufTy).Contents (Elt F)) (x4 : (⟨S3x160x160x160, .f32⟩ : BufTy).Contents (Elt F)) :
    (⟨S4x4096000, .f32⟩ : BufTy).Contents (Elt F) :=
  shapeCast _ (concatenate S4x160x160x160 0 [⟨S1x160x160x160, x3⟩, ⟨S3x160x160x160, x4⟩] concatenates_S1x160x160x160_S3x160x160x160_S4x160x160x160_d0)
    shapeCasts_S4x160x160x160_S4x4096000

/-- The linear index with a negative value wrapped by the number of voxels. -/
def WRAP (lin : (⟨S4194304, .i32⟩ : BufTy).Contents (Elt F)) : (⟨S4194304, .i32⟩ : BufTy).Contents (Elt F) :=
  select (cmpi .slt lin (broadcastInDim S4194304 ![] bcast_S_S4194304 (constantI S_ 32 0#32)))
    (addi lin (broadcastInDim S4194304 ![] bcast_S_S4194304 (constantI S_ 32 4096000#32))) lin

/-- One column lookup: all four channels at the (wrapped) linear indices, filled where out of range. -/
def TAKE (gf : (⟨S4x4096000, .f32⟩ : BufTy).Contents (Elt F)) (lin : (⟨S4194304, .i32⟩ : BufTy).Contents (Elt F)) :
    (⟨S4x4194304, .f32⟩ : BufTy).Contents (Elt F) :=
  select
    (broadcastInDim S4x4194304 ![1] bcast_S4194304_S4x4194304_1
      (Host.reduce IntOp.andi
        (andi (cmpi .sge (broadcastInDim S4194304x1 ![0] bcast_S4194304_S4194304x1_0 (WRAP (F := F) lin))
                (broadcastInDim S4194304x1 ![] bcast_S_S4194304x1 (constantI S_ 32 0#32)))
              (cmpi .sle (broadcastInDim S4194304x1 ![0] bcast_S4194304_S4194304x1_0 (WRAP (F := F) lin))
                (broadcastInDim S4194304x1 ![0, 1] bcast_S1x1_S4194304x1_0_1 (broadcastInDim S1x1 ![1] bcast_S1_S1x1_1 (constantI S1 32 4095999#32)))))
        (constantI S_ 1 1#1) reducesTo_S4194304x1_S4194304_d1 h_S_))
    (Host.gather gather_S4x4096000_S4194304x1_S4x4194304_0_1_n_n_1_1_41 gf
      (broadcastInDim S4194304x1 ![0] bcast_S4194304_S4194304x1_0 (WRAP (F := F) lin)))
    (broadcastInDim S4x4194304 ![] bcast_S_S4x4194304 (constant S_ .f32 0x7FC00000#32))

end Cert.KernelIdeal.Fr

end
-- ==== Proof.Stages.lean ====
/-
  The eight trilinear corners' quantities, as families over the corner's number k = 0 … 7 (corner k has
  z-, y-, x-offsets the bits of k, most significant first): the corner's weight (a product of three of the
  fractional parts w or 1 − w), its linear index (z·160 + y)·160 + x into a channel's 160³ voxels, and
  that index after the wrap of a negative value. The reference computes them once for the density channel
  and once more for the three color channels; both copies are named here, over the reference's stages.
-/
import proofs.«123153_j77008763617691_1_alg».proof.Proof.RefRead

noncomputable section

namespace Cert.Spec

open Idealize.ShloMosaic Cert.ReferenceIdeal Cert.ReferenceIdeal.ReadP

variable {F : FTy → Type} [FloatOps F]

/-- Corner k's weight (the density half's stage). -/
def Wst (k : Fin 8) (x0 x1 : (⟨S16384x3, .f32⟩ : BufTy).Contents (Elt F)) (x2 : (⟨S16384x256, .f32⟩ : BufTy).Contents (Elt F)) : (⟨S4194304, .f32⟩ : BufTy).Contents (Elt F) :=
  match k with
  | ⟨0, _⟩ => val_main_v70 (F := F) x0 x1 x2
  | ⟨1, _⟩ => val_main_v87 (F := F) x0 x1 x2
  | ⟨2, _⟩ => val_main_v105 (F := F) x0 x1 x2
  | ⟨3, _⟩ => val_main_v123 (F := F) x0 x1 x2
  | ⟨4, _⟩ => val_main_v141 (F := F) x0 x1 x2
  | ⟨5, _⟩ => val_main_v159 (F := F) x0 x1 x2
  | ⟨6, _⟩ => val_main_v177 (F := F) x0 x1 x2
  | ⟨7, _⟩ => val_main_v195 (F := F) x0 x1 x2
  | ⟨_ + 8, h⟩ => absurd h (Nat.not_lt.2 (Nat.le_add_left _ _))

/-- Corner k's linear voxel index (the density half's stage). -/
def LINst (k : Fin 8) (x0 x1 : (⟨S16384x3, .f32⟩ : BufTy).Contents (Elt F)) (x2 : (⟨S16384x256, .f32⟩ : BufTy).Contents (Elt F)) : (⟨S4194304, .i32⟩ : BufTy).Contents (Elt F) :=
  match k with
  | ⟨0, _⟩ => val_main_v61 (F := F) x0 x1 x2
  | ⟨1, _⟩ => val_main_v78 (F := F) x0 x1 x2
  | ⟨2, _⟩ => val_main_v96 (F := F) x0 x1 x2
  | ⟨3, _⟩ => val_main_v114 (F := F) x0 x1 x2
  | ⟨4, _⟩ => val_main_v132 (F := F) x0 x1 x2
  | ⟨5, _⟩ => val_main_v150 (F := F) x0 x1 x2
  | ⟨6, _⟩ => val_main_v168 (F := F) x0 x1 x2
  | ⟨7, _⟩ => val_main_v186 (F := F) x0 x1 x2
  | ⟨_ + 8, h⟩ => absurd h (Nat.not_lt.2 (Nat.le_add_left _ _))

/-- Corner k's linear voxel index after the wrap of a negative value (the density half's stage). -/
def IDXst (k : Fin 8) (x0 x1 : (⟨S16384x3, .f32⟩ : BufTy).Contents (Elt F)) (x2 : (⟨S16384x256, .f32⟩ : BufTy).Contents (Elt F)) : (⟨S4194304, .i32⟩ : BufTy).Contents (Elt F) :=
  match k with
  | ⟨0, _⟩ => val_main_v66 (F := F) x0 x1 x2
  | ⟨1, _⟩ => val_main_v83 (F := F) x0 x1 x2
  | ⟨2, _⟩ => val_main_v101 (F := F) x0 x1 x2
  | ⟨3, _⟩ => val_main_v119 (F := F) x0 x1 x2
  | ⟨4, _⟩ => val_main_v137 (F := F) x0 x1 x2
  | ⟨5, _⟩ => val_main_v155 (F := F) x0 x1 x2
  | ⟨6, _⟩ => val_main_v173 (F := F) x0 x1 x2
  | ⟨7, _⟩ => val_main_v191 (F := F) x0 x1 x2
  | ⟨_ + 8, h⟩ => absurd h (Nat.not_lt.2 (Nat.le_add_left _ _))

/-- Corner k's weight, as the color half computes it again. -/
def Wc (k : Fin 8) (x0 x1 : (⟨S16384x3, .f32⟩ : BufTy).Contents (Elt F)) (x2 : (⟨S16384x256, .f32⟩ : BufTy).Contents (Elt F)) : (⟨S4194304, .f32⟩ : BufTy).Contents (Elt F) :=
  match k with
  | ⟨0, _⟩ => val_main_v270 (F := F) x0 x1 x2
  | ⟨1, _⟩ => val_main_v288 (F := F) x0 x1 x2
  | ⟨2, _⟩ => val_main_v307 (F := F) x0 x1 x2
  | ⟨3, _⟩ => val_main_v326 (F := F) x0 x1 x2
  | ⟨4, _⟩ => val_main_v345 (F := F) x0 x1 x2
  | ⟨5, _⟩ => val_main_v364 (F := F) x0 x1 x2
  | ⟨6, _⟩ => val_main_v383 (F := F) x0 x1 x2
  | ⟨7, _⟩ => val_main_v402 (F := F) x0 x1 x2
  | ⟨_ + 8, h⟩ => absurd h (Nat.not_lt.2 (Nat.le_add_left _ _))

/-- Corner k's linear voxel index, as the color half computes it again. -/
def LINc (k : Fin 8) (x0 x1 : (⟨S16384x3, .f32⟩ : BufTy).Contents (Elt F)) (x2 : (⟨S16384x256, .f32⟩ : BufTy).Contents (Elt F)) : (⟨S4194304, .i32⟩ : BufTy).Contents (Elt F) :=
  match k with
  | ⟨0, _⟩ => val_main_v261 (F := F) x0 x1 x2
  | ⟨1, _⟩ => val_main_v279 (F := F) x0 x1 x2
  | ⟨2, _⟩ => val_main_v298 (F := F) x0 x1 x2
  | ⟨3, _⟩ => val_main_v317 (F := F) x0 x1 x2
  | ⟨4, _⟩ => val_main_v336 (F := F) x0 x1 x2
  | ⟨5, _⟩ => val_main_v355 (F := F) x0 x1 x2
  | ⟨6, _⟩ => val_main_v374 (F := F) x0 x1 x2
  | ⟨7, _⟩ => val_main_v393 (F := F) x0 x1 x2
  | ⟨_ + 8, h⟩ => absurd h (Nat.not_lt.2 (Nat.le_add_left _ _))

/-- Corner k's wrapped linear voxel index, as the color half computes it again. -/
def IDXc (k : Fin 8) (x0 x1 : (⟨S16384x3, .f32⟩ : BufTy).Contents (Elt F)) (x2 : (⟨S16384x256, .f32⟩ : BufTy).Contents (Elt F)) : (⟨S4194304, .i32⟩ : BufTy).Contents (Elt F) :=
  match k with
  | ⟨0, _⟩ => val_main_v266 (F := F) x0 x1 x2
  | ⟨1, _⟩ => val_main_v284 (F := F) x0 x1 x2
  | ⟨2, _⟩ => val_main_v303 (F := F) x0 x1 x2
  | ⟨3, _⟩ => val_main_v322 (F := F) x0 x1 x2
  | ⟨4, _⟩ => val_main_v341 (F := F) x0 x1 x2
  | ⟨5, _⟩ => val_main_v360 (F := F) x0 x1 x2
  | ⟨6, _⟩ => val_main_v379 (F := F) x0 x1 x2
  | ⟨7, _⟩ => val_main_v398 (F := F) x0 x1 x2
  | ⟨_ + 8, h⟩ => absurd h (Nat.not_lt.2 (Nat.le_add_left _ _))

end Cert.Spec

end
-- ==== Proof.KHostA.lean ====
/-
  What the host operations before the kernel region leave in the arrays the region reads, as equations between
  whole arrays (part one: everything but the eight column lookups).

  The host code runs in twenty-one stretches. `Wn m c k` is core `c`'s buffer contents after the first `k` of them.
  A reference that the stretches `k … k' − 1` do not write holds after `k'` stretches what it held after `k`
  (`Wn_keep`, from the list of the references each stretch writes). For each stretch, the buffers a later stretch or
  the region reads are named as functions of the five arguments: the sample points, the grid positions with their
  floors and fractional parts, the clipped lower and upper corners, the six index columns, the eight corner weights
  (products of three fractional parts or their complements), the eight linear voxel indices (z·160 + y)·160 + x, and
  the table of the four channels' voxels. Each is the reference program's stage of the same name, since the two
  programs apply the same operations to the same arguments in the same order. The last stretch stacks the eight
  lookups and the eight weights along a new leading axis.
-/
import proofs.«123153_j77008763617691_1_alg».proof.Proof.KV
import proofs.«123153_j77008763617691_1_alg».proof.Proof.KDefs
import proofs.«123153_j77008763617691_1_alg».proof.Proof.Stages
import Idealize.ShloMosaic.Lib.StableHlo.Run
import Idealize.ShloMosaic.Lib.Pipeline.Frame
import Mathlib.Data.List.Forall2

noncomputable section

namespace Cert.KernelIdeal.Fr

open Idealize.ShloMosaic Idealize.ShloMosaic.TcCoe Idealize.SL.Sem Idealize.ShloMosaic.StableHlo
open Cert.KernelIdeal Cert.KernelIdeal.Gen

variable {F : FTy → Type} [FloatOps F]

/-! ## The contents after the first k stretches -/

section General

variable {Val : EltTy → Type}

/-- The contents after the first `k` of the stretches `opss`, from `V`. -/
def runTo (opss : List (List (HloOp τ sig Val))) (V : Valuation τ sig Val) (k : Nat) : Valuation τ sig Val :=
  after (List.flatten (opss.take k)) V

theorem runTo_zero (opss : List (List (HloOp τ sig Val))) (V : Valuation τ sig Val) : runTo opss V 0 = V := rfl

theorem runTo_succ (opss : List (List (HloOp τ sig Val))) (V : Valuation τ sig Val) (k : Nat) (ops : List (HloOp τ sig Val))
    (h : opss[k]? = some ops) : runTo opss V (k + 1) = after ops (runTo opss V k) := by
  unfold runTo
  rw [List.take_succ, h, Option.toList_some, List.flatten_append, after_append, List.flatten_singleton]

theorem runTo_all (opss : List (List (HloOp τ sig Val))) (V : Valuation τ sig Val) (k : Nat) (h : opss.length ≤ k) :
    runTo opss V k = after (List.flatten opss) V := by
  unfold runTo; rw [List.take_of_length_le h]

/-- Stretch by stretch, the references written are among the listed ones. -/
abbrev WritesIn (opss : List (List (HloOp τ sig Val))) (Ws : List (List (Ref sig .tc))) : Prop :=
  List.Forall₂ (fun ops W => ops.Forall fun op => op.writes ⊆ (W.map (Proc.devRef (τ := τ) .tc)).toFinset) opss Ws

/-- A reference none of the stretches writes keeps its contents through all of them. -/
theorem after_flatten_keep {r : Ref sig .tc} {opss : List (List (HloOp τ sig Val))} {Ws : List (List (Ref sig .tc))}
    (h : WritesIn opss Ws) : ∀ (V : Valuation τ sig Val), r ∉ Ws.flatten →
      after opss.flatten V (Proc.devRef .tc r) = V (Proc.devRef .tc r) := by
  induction h with
  | nil => intro V _; rfl
  | cons h1 _ ih =>
    intro V hr
    rw [List.flatten_cons, List.mem_append, not_or] at hr
    rw [List.flatten_cons, after_append, ih _ hr.2, after_of_writes_sub _ _ h1 hr.1]

/-- A reference the stretches `k … k' − 1` do not write holds after `k'` stretches what it held after `k`. -/
theorem runTo_keep {opss : List (List (HloOp τ sig Val))} {Ws : List (List (Ref sig .tc))} (h : WritesIn opss Ws)
    (V : Valuation τ sig Val) (k k' : Nat) (hk : k ≤ k') {r : Ref sig .tc} (hr : r ∉ ((Ws.take k').drop k).flatten) :
    runTo opss V k' (Proc.devRef .tc r) = runTo opss V k (Proc.devRef .tc r) := by
  unfold runTo
  have e : opss.take k' = opss.take k ++ (opss.take k').drop k := by
    conv_lhs => rw [← List.take_append_drop k (opss.take k'), List.take_take, Nat.min_eq_left hk]
  rw [e, List.flatten_append, after_append]
  exact after_flatten_keep (List.forall₂_drop k (List.forall₂_take k' h)) _ hr

end General

/-- A line of operations run as its first `n` then the rest. -/
theorem after_split {Val : EltTy → Type} (ops : List (HloOp τ sig Val)) (n : Nat) (V : Valuation τ sig Val) :
    after ops V = after (ops.drop n) (after (ops.take n) V) := by
  rw [← after_append, List.take_append_drop]

section Nary8

variable {Val : EltTy → Type} {x0 x1 x2 x3 x4 x5 x6 x7 y : Ref sig .tc}

/-- An operation over a literal family of eight references: its result with each operand's contents at its own reference. -/
theorem nary8_result
    (f : ((k : Fin 8) → ((![x0, x1, x2, x3, x4, x5, x6, x7] : Fin 8 → Ref sig .tc) k).ty.Contents Val) → y.ty.Contents Val) (hxs hy)
    (G : Valuation τ sig Val) :
    (nary (τ := τ) ![x0, x1, x2, x3, x4, x5, x6, x7] y f hxs hy).result G (Proc.devRef .tc y)
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (Fin.cons (G (Proc.devRef .tc x7)) (fun i => i.elim0))))))))) := by
  rw [nary_result]; congr 1; funext k; fin_cases k <;> rfl

theorem nary8_result'
    (f : ((k : Fin 8) → ((![x0, x1, x2, x3, x4, x5, x6, x7] : Fin 8 → Ref sig .tc) k).ty.Contents Val) → y.ty.Contents Val) (hxs hy)
    (G : Valuation τ sig Val) :
    (nary (τ := τ) ![x0, x1, x2, x3, x4, x5, x6, x7] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (Fin.cons (G (Proc.devRef .tc x7)) (fun i => i.elim0))))))))) :=
  nary8_result f hxs hy G

end Nary8

/-- One operation's written reference is in the stretch's list. -/
local macro "wr_one" : tactic => `(tactic| (simp only [StableHlo.nullary_writes, StableHlo.unary_writes, StableHlo.binary_writes, StableHlo.ternary_writes, StableHlo.quaternary_writes, StableHlo.reshape_writes, StableHlo.nary_writes, Finset.singleton_subset_iff, List.mem_toFinset]; exact List.mem_map_of_mem (by decide)))

/-! ## The references each stretch writes -/

/-- What stretch 0 writes. -/
abbrev wr0 : List (Ref sig .tc) := [main_cst, main_c, main_v0, main_v1, main_v2, main_v3, main_v4, main_v5, main_v6, main_v7, main_v8]
theorem writes0 : (hostOps0 : List (HloOp τ sig (Elt F))).Forall fun op => op.writes ⊆ ((wr0).map (Proc.devRef (τ := τ) .tc)).toFinset := by
  simp only [List.Forall]
  exact ⟨by wr_one, by wr_one, by wr_one, by wr_one, by wr_one, by wr_one, by wr_one, by wr_one, by wr_one, by wr_one, by wr_one⟩
/-- What stretch 1 writes. -/
abbrev wr1 : List (Ref sig .tc) := [main_call0_v0, main_call0_cst, main_call0_v1, main_v9]
theorem writes1 : (hostOps0_1 : List (HloOp τ sig (Elt F))).Forall fun op => op.writes ⊆ ((wr1).map (Proc.devRef (τ := τ) .tc)).toFinset := by
  simp only [List.Forall]
  exact ⟨by wr_one, by wr_one, by wr_one, by wr_one⟩
/-- What stretch 2 writes. -/
abbrev wr2 : List (Ref sig .tc) := [main_v10, main_v11, main_v12, main_cst_0, main_v13, main_v14, main_cst_1, main_v15, main_v16, main_cst_2, main_v17, main_v18, main_v19, main_v20, main_v21, main_v22, main_v23, main_cst_3, main_v24, main_v25, main_v26, main_c_4]
theorem writes2 : (hostOps0_2 : List (HloOp τ sig (Elt F))).Forall fun op => op.writes ⊆ ((wr2).map (Proc.devRef (τ := τ) .tc)).toFinset := by
  simp only [List.Forall]
  exact ⟨by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one⟩
/-- What stretch 3 writes. -/
abbrev wr3 : List (Ref sig .tc) := [main_call1_v0, main_call1_v1, main_call1_v2, main_call1_v3, main_call1_v4, main_v27]
theorem writes3 : (hostOps0_3 : List (HloOp τ sig (Elt F))).Forall fun op => op.writes ⊆ ((wr3).map (Proc.devRef (τ := τ) .tc)).toFinset := by
  simp only [List.Forall]
  exact ⟨by wr_one, by wr_one, by wr_one, by wr_one, by wr_one, by wr_one⟩
/-- What stretch 4 writes. -/
abbrev wr4 : List (Ref sig .tc) := [main_c_5, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_c_6, main_v75, main_v76, main_v77, main_c_7, main_v78, main_v79, main_v80]
theorem writes4 : (hostOps0_4 : List (HloOp τ sig (Elt F))).Forall fun op => op.writes ⊆ ((wr4).map (Proc.devRef (τ := τ) .tc)).toFinset := by
  simp only [List.Forall]
  exact ⟨by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one⟩
/-- What stretch 5 writes. -/
abbrev wr5 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v81]
theorem writes5 : (hostOps0_5 : List (HloOp τ sig (Elt F))).Forall fun op => op.writes ⊆ ((wr5).map (Proc.devRef (τ := τ) .tc)).toFinset := by
  simp only [List.Forall]
  exact ⟨by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one⟩
/-- What stretch 6 writes. -/
abbrev wr6 : List (Ref sig .tc) := [main_c_8, main_v82, main_v83, main_v84, main_c_9, main_v85, main_v86, main_v87]
theorem writes6 : (hostOps0_6 : List (HloOp τ sig (Elt F))).Forall fun op => op.writes ⊆ ((wr6).map (Proc.devRef (τ := τ) .tc)).toFinset := by
  simp only [List.Forall]
  exact ⟨by wr_one, by wr_one, by wr_one, by wr_one, by wr_one, by wr_one, by wr_one, by wr_one⟩
/-- What stretch 7 writes. -/
abbrev wr7 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v88]
theorem writes7 : (hostOps0_7 : List (HloOp τ sig (Elt F))).Forall fun op => op.writes ⊆ ((wr7).map (Proc.devRef (τ := τ) .tc)).toFinset := by
  simp only [List.Forall]
  exact ⟨by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one⟩
/-- What stretch 8 writes. -/
abbrev wr8 : List (Ref sig .tc) := [main_c_10, main_v89, main_v90, main_v91, main_c_11, main_v92, main_v93, main_v94]
theorem writes8 : (hostOps0_8 : List (HloOp τ sig (Elt F))).Forall fun op => op.writes ⊆ ((wr8).map (Proc.devRef (τ := τ) .tc)).toFinset := by
  simp only [List.Forall]
  exact ⟨by wr_one, by wr_one, by wr_one, by wr_one, by wr_one, by wr_one, by wr_one, by wr_one⟩
/-- What stretch 9 writes. -/
abbrev wr9 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v95]
theorem writes9 : (hostOps0_9 : List (HloOp τ sig (Elt F))).Forall fun op => op.writes ⊆ ((wr9).map (Proc.devRef (τ := τ) .tc)).toFinset := by
  simp only [List.Forall]
  exact ⟨by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one⟩
/-- What stretch 10 writes. -/
abbrev wr10 : List (Ref sig .tc) := [main_c_12, main_v96, main_v97, main_v98, main_c_13, main_v99, main_v100, main_v101]
theorem writes10 : (hostOps0_10 : List (HloOp τ sig (Elt F))).Forall fun op => op.writes ⊆ ((wr10).map (Proc.devRef (τ := τ) .tc)).toFinset := by
  simp only [List.Forall]
  exact ⟨by wr_one, by wr_one, by wr_one, by wr_one, by wr_one, by wr_one, by wr_one, by wr_one⟩
/-- What stretch 11 writes. -/
abbrev wr11 : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v102]
theorem writes11 : (hostOps0_11 : List (HloOp τ sig (Elt F))).Forall fun op => op.writes ⊆ ((wr11).map (Proc.devRef (τ := τ) .tc)).toFinset := by
  simp only [List.Forall]
  exact ⟨by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one⟩
/-- What stretch 12 writes. -/
abbrev wr12 : List (Ref sig .tc) := [main_c_14, main_v103, main_v104, main_v105, main_c_15, main_v106, main_v107, main_v108]
theorem writes12 : (hostOps0_12 : List (HloOp τ sig (Elt F))).Forall fun op => op.writes ⊆ ((wr12).map (Proc.devRef (τ := τ) .tc)).toFinset := by
  simp only [List.Forall]
  exact ⟨by wr_one, by wr_one, by wr_one, by wr_one, by wr_one, by wr_one, by wr_one, by wr_one⟩
/-- What stretch 13 writes. -/
abbrev wr13 : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v109]
theorem writes13 : (hostOps0_13 : List (HloOp τ sig (Elt F))).Forall fun op => op.writes ⊆ ((wr13).map (Proc.devRef (τ := τ) .tc)).toFinset := by
  simp only [List.Forall]
  exact ⟨by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one⟩
/-- What stretch 14 writes. -/
abbrev wr14 : List (Ref sig .tc) := [main_c_16, main_v110, main_v111, main_v112, main_c_17, main_v113, main_v114, main_v115]
theorem writes14 : (hostOps0_14 : List (HloOp τ sig (Elt F))).Forall fun op => op.writes ⊆ ((wr14).map (Proc.devRef (τ := τ) .tc)).toFinset := by
  simp only [List.Forall]
  exact ⟨by wr_one, by wr_one, by wr_one, by wr_one, by wr_one, by wr_one, by wr_one, by wr_one⟩
/-- What stretch 15 writes. -/
abbrev wr15 : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v116]
theorem writes15 : (hostOps0_15 : List (HloOp τ sig (Elt F))).Forall fun op => op.writes ⊆ ((wr15).map (Proc.devRef (τ := τ) .tc)).toFinset := by
  simp only [List.Forall]
  exact ⟨by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one⟩
/-- What stretch 16 writes. -/
abbrev wr16 : List (Ref sig .tc) := [main_c_18, main_v117, main_v118, main_v119, main_c_19, main_v120, main_v121, main_v122]
theorem writes16 : (hostOps0_16 : List (HloOp τ sig (Elt F))).Forall fun op => op.writes ⊆ ((wr16).map (Proc.devRef (τ := τ) .tc)).toFinset := by
  simp only [List.Forall]
  exact ⟨by wr_one, by wr_one, by wr_one, by wr_one, by wr_one, by wr_one, by wr_one, by wr_one⟩
/-- What stretch 17 writes. -/
abbrev wr17 : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v123]
theorem writes17 : (hostOps0_17 : List (HloOp τ sig (Elt F))).Forall fun op => op.writes ⊆ ((wr17).map (Proc.devRef (τ := τ) .tc)).toFinset := by
  simp only [List.Forall]
  exact ⟨by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one⟩
/-- What stretch 18 writes. -/
abbrev wr18 : List (Ref sig .tc) := [main_c_20, main_v124, main_v125, main_v126, main_c_21, main_v127, main_v128, main_v129]
theorem writes18 : (hostOps0_18 : List (HloOp τ sig (Elt F))).Forall fun op => op.writes ⊆ ((wr18).map (Proc.devRef (τ := τ) .tc)).toFinset := by
  simp only [List.Forall]
  exact ⟨by wr_one, by wr_one, by wr_one, by wr_one, by wr_one, by wr_one, by wr_one, by wr_one⟩
/-- What stretch 19 writes. -/
abbrev wr19 : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v130]
theorem writes19 : (hostOps0_19 : List (HloOp τ sig (Elt F))).Forall fun op => op.writes ⊆ ((wr19).map (Proc.devRef (τ := τ) .tc)).toFinset := by
  simp only [List.Forall]
  exact ⟨by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one, by wr_one⟩
/-- What stretch 20 writes. -/
abbrev wr20 : List (Ref sig .tc) := [main_v131, main_v132, main_v133, main_v134, main_v135, main_v136, main_v137, main_v138, main_v139, main_v140, main_v141, main_v142, main_v143, main_v144, main_v145, main_v146, main_v147, main_v148]
theorem writes20 : (hostOps0_20 : List (HloOp τ sig (Elt F))).Forall fun op => op.writes ⊆ ((wr20).map (Proc.devRef (τ := τ) .tc)).toFinset := by
  simp only [List.Forall]
  exact ⟨by wr_one, by wr_one, by wr_one, by wr_one, by wr_one, by wr_one, by wr_one, by wr_one, by wr_one, by wr_one, by wr_one, by wr_one, by wr_one, by wr_one, by wr_one, by wr_one, by wr_one, by wr_one⟩

/-! ## This program's stretches -/

/-- The references each stretch writes, in order. -/
abbrev wrAll : List (List (Ref sig .tc)) := [wr0, wr1, wr2, wr3, wr4, wr5, wr6, wr7, wr8, wr9, wr10, wr11, wr12, wr13, wr14, wr15, wr16, wr17, wr18, wr19, wr20]

theorem writesAll : WritesIn (hostPre (F := F)) wrAll :=
  .cons writes0 (.cons writes1 (.cons writes2 (.cons writes3 (.cons writes4 (.cons writes5 (.cons writes6 (.cons writes7 (.cons writes8 (.cons writes9 (.cons writes10 (.cons writes11 (.cons writes12 (.cons writes13 (.cons writes14 (.cons writes15 (.cons writes16 (.cons writes17 (.cons writes18 (.cons writes19 (.cons writes20 (.nil)))))))))))))))))))))

variable (m : (ℓ : Loc nD τ sig) → Buf (Elt F) ℓ) (c : Dev nD)

/-- Core `c`'s contents after the first `k` stretches of host operations. -/
def Wn (k : Nat) : Valuation τ sig (Elt F) := runTo hostPre (fun b => m (c, b)) k

theorem Wn_zero : Wn m c 0 = fun b => m (c, b) := rfl

theorem V0_eq : V0 m c = Wn m c 21 := (runTo_all hostPre _ 21 (Nat.le_refl 21)).symm

theorem Wn_keep (k k' : Nat) (hk : k ≤ k') {r : Ref sig .tc} (hr : r ∉ ((wrAll.take k').drop k).flatten) :
    Wn m c k' (Proc.devRef .tc r) = Wn m c k (Proc.devRef .tc r) :=
  runTo_keep writesAll _ k k' hk hr

theorem Wn_1 : Wn m c 1 = after hostOps0 (Wn m c 0) := runTo_succ _ _ 0 _ rfl
theorem Wn_2 : Wn m c 2 = after hostOps0_1 (Wn m c 1) := runTo_succ _ _ 1 _ rfl
theorem Wn_3 : Wn m c 3 = after hostOps0_2 (Wn m c 2) := runTo_succ _ _ 2 _ rfl
theorem Wn_4 : Wn m c 4 = after hostOps0_3 (Wn m c 3) := runTo_succ _ _ 3 _ rfl
theorem Wn_5 : Wn m c 5 = after hostOps0_4 (Wn m c 4) := runTo_succ _ _ 4 _ rfl
theorem Wn_6 : Wn m c 6 = after hostOps0_5 (Wn m c 5) := runTo_succ _ _ 5 _ rfl
theorem Wn_7 : Wn m c 7 = after hostOps0_6 (Wn m c 6) := runTo_succ _ _ 6 _ rfl
theorem Wn_8 : Wn m c 8 = after hostOps0_7 (Wn m c 7) := runTo_succ _ _ 7 _ rfl
theorem Wn_9 : Wn m c 9 = after hostOps0_8 (Wn m c 8) := runTo_succ _ _ 8 _ rfl
theorem Wn_10 : Wn m c 10 = after hostOps0_9 (Wn m c 9) := runTo_succ _ _ 9 _ rfl
theorem Wn_11 : Wn m c 11 = after hostOps0_10 (Wn m c 10) := runTo_succ _ _ 10 _ rfl
theorem Wn_12 : Wn m c 12 = after hostOps0_11 (Wn m c 11) := runTo_succ _ _ 11 _ rfl
theorem Wn_13 : Wn m c 13 = after hostOps0_12 (Wn m c 12) := runTo_succ _ _ 12 _ rfl
theorem Wn_14 : Wn m c 14 = after hostOps0_13 (Wn m c 13) := runTo_succ _ _ 13 _ rfl
theorem Wn_15 : Wn m c 15 = after hostOps0_14 (Wn m c 14) := runTo_succ _ _ 14 _ rfl
theorem Wn_16 : Wn m c 16 = after hostOps0_15 (Wn m c 15) := runTo_succ _ _ 15 _ rfl
theorem Wn_17 : Wn m c 17 = after hostOps0_16 (Wn m c 16) := runTo_succ _ _ 16 _ rfl
theorem Wn_18 : Wn m c 18 = after hostOps0_17 (Wn m c 17) := runTo_succ _ _ 17 _ rfl
theorem Wn_19 : Wn m c 19 = after hostOps0_18 (Wn m c 18) := runTo_succ _ _ 18 _ rfl
theorem Wn_20 : Wn m c 20 = after hostOps0_19 (Wn m c 19) := runTo_succ _ _ 19 _ rfl
theorem Wn_21 : Wn m c 21 = after hostOps0_20 (Wn m c 20) := runTo_succ _ _ 20 _ rfl

/-- The five arguments' contents. -/
abbrev inp0 : (⟨S16384x3, .f32⟩ : BufTy).Contents (Elt F) := m ((c : Thread nD τ).loc main_arg0)
abbrev inp1 : (⟨S16384x3, .f32⟩ : BufTy).Contents (Elt F) := m ((c : Thread nD τ).loc main_arg1)
abbrev inp2 : (⟨S16384x256, .f32⟩ : BufTy).Contents (Elt F) := m ((c : Thread nD τ).loc main_arg2)
abbrev inp3 : (⟨S1x160x160x160, .f32⟩ : BufTy).Contents (Elt F) := m ((c : Thread nD τ).loc main_arg3)
abbrev inp4 : (⟨S3x160x160x160, .f32⟩ : BufTy).Contents (Elt F) := m ((c : Thread nD τ).loc main_arg4)

/-- No stretch writes an argument. -/
theorem Wn_arg (k : Nat) {r : Ref sig .tc} (hr : r ∉ ((wrAll.take k).drop 0).flatten) :
    Wn m c k (Proc.devRef .tc r) = m ((c : Thread nD τ).loc r) :=
  Wn_keep m c 0 k (Nat.zero_le k) hr

/-! ## Stretch 0: the sample points -/

theorem W1_cst : Wn m c 1 (Proc.devRef .tc main_cst) = Cert.ReferenceIdeal.ReadP.val_main_cst (F := F) := by
  rw [Wn_1]; after_results_simp; rfl

theorem W1_c : Wn m c 1 (Proc.devRef .tc main_c) = Cert.ReferenceIdeal.ReadP.val_main_c (F := F) := by
  rw [Wn_1]; after_results_simp; rfl

theorem W1_v8 : Wn m c 1 (Proc.devRef .tc main_v8) = Cert.ReferenceIdeal.ReadP.val_main_v10 (F := F) (inp0 m c) (inp1 m c) (inp2 m c) := by
  rw [Wn_1]; after_results_simp; rfl

/-! ## Stretch 1: the rays' norms -/

theorem W2_v9 : Wn m c 2 (Proc.devRef .tc main_v9) = Cert.ReferenceIdeal.ReadP.val_main_v8 (F := F) (inp1 m c) := by
  rw [Wn_2]; after_results_simp
  rw [Wn_arg m c 1 (r := main_arg1) (by decide)]
  rfl

/-! ## Stretch 2: the interval, the grid positions, their floors and fractional parts -/

theorem W2_v8 : Wn m c 2 (Proc.devRef .tc main_v8) = Cert.ReferenceIdeal.ReadP.val_main_v10 (F := F) (inp0 m c) (inp1 m c) (inp2 m c) :=
  (Wn_keep m c 1 2 (by decide) (by decide)).trans (W1_v8 m c)
theorem W2_cst : Wn m c 2 (Proc.devRef .tc main_cst) = Cert.ReferenceIdeal.ReadP.val_main_cst (F := F) :=
  (Wn_keep m c 1 2 (by decide) (by decide)).trans (W1_cst m c)

theorem W3_v12 : Wn m c 3 (Proc.devRef .tc main_v12)
    = shapeCast S1x4194304 (broadcastInDim S16384x256 ![0, 1] bcast_S16384x1_S16384x256_0_1
        (broadcastInDim S16384x1 ![0] bcast_S16384_S16384x1_0 (Cert.ReferenceIdeal.ReadP.val_main_v8 (F := F) (inp1 m c)))) shapeCasts_S16384x256_S1x4194304 := by
  rw [Wn_3]; after_results_simp
  rw [W2_v9]
  rfl

theorem W3_v21 : Wn m c 3 (Proc.devRef .tc main_v21) = Cert.ReferenceIdeal.ReadP.val_main_v19 (F := F) (inp0 m c) (inp1 m c) (inp2 m c) := by
  rw [Wn_3]; after_results_simp
  rw [W2_v8, W2_cst]
  rfl

theorem W3_v23 : Wn m c 3 (Proc.devRef .tc main_v23) = Cert.ReferenceIdeal.ReadP.val_main_v21 (F := F) (inp0 m c) (inp1 m c) (inp2 m c) := by
  rw [Wn_3]; after_results_simp
  rw [W2_v8, W2_cst]
  rfl

theorem W3_v25 : Wn m c 3 (Proc.devRef .tc main_v25) = Cert.ReferenceIdeal.ReadP.val_main_v23 (F := F) (inp0 m c) (inp1 m c) (inp2 m c) := by
  rw [Wn_3]; after_results_simp
  rw [W2_v8, W2_cst]
  rfl

theorem W3_v26 : Wn m c 3 (Proc.devRef .tc main_v26) = Cert.ReferenceIdeal.ReadP.val_main_v24 (F := F) (inp0 m c) (inp1 m c) (inp2 m c) := by
  rw [Wn_3]; after_results_simp
  rw [W2_v8, W2_cst]
  rfl

theorem W3_c_4 : Wn m c 3 (Proc.devRef .tc main_c_4) = Cert.ReferenceIdeal.ReadP.val_main_c_6 (F := F) := by
  rw [Wn_3]; after_results_simp; rfl

theorem W3_c : Wn m c 3 (Proc.devRef .tc main_c) = Cert.ReferenceIdeal.ReadP.val_main_c (F := F) :=
  (Wn_keep m c 1 3 (by decide) (by decide)).trans (W1_c m c)

/-! ## Stretch 3: the lower corner, clipped to the grid -/

theorem W4_v27 : Wn m c 4 (Proc.devRef .tc main_v27) = Cert.ReferenceIdeal.ReadP.val_main_v25 (F := F) (inp0 m c) (inp1 m c) (inp2 m c) := by
  rw [Wn_4]; after_results_simp
  rw [W3_v26, W3_c_4, W3_c]
  rfl

/-! ## Stretch 4: the six index columns, the eight corner weights, the table, the first linear index -/

theorem W4_c : Wn m c 4 (Proc.devRef .tc main_c) = Cert.ReferenceIdeal.ReadP.val_main_c (F := F) :=
  (Wn_keep m c 1 4 (by decide) (by decide)).trans (W1_c m c)
theorem W4_v23 : Wn m c 4 (Proc.devRef .tc main_v23) = Cert.ReferenceIdeal.ReadP.val_main_v21 (F := F) (inp0 m c) (inp1 m c) (inp2 m c) :=
  (Wn_keep m c 3 4 (by decide) (by decide)).trans (W3_v23 m c)
theorem W4_v25 : Wn m c 4 (Proc.devRef .tc main_v25) = Cert.ReferenceIdeal.ReadP.val_main_v23 (F := F) (inp0 m c) (inp1 m c) (inp2 m c) :=
  (Wn_keep m c 3 4 (by decide) (by decide)).trans (W3_v25 m c)

set_option maxHeartbeats 1000000 in
theorem W5_v34 : Wn m c 5 (Proc.devRef .tc main_v34) = Cert.ReferenceIdeal.ReadP.val_main_v32 (F := F) (inp0 m c) (inp1 m c) (inp2 m c) := by
  rw [Wn_5]; after_results_simp
  (try rw [W4_v27]); (try rw [W4_c])
  rfl

set_option maxHeartbeats 1000000 in
theorem W5_v36 : Wn m c 5 (Proc.devRef .tc main_v36) = Cert.ReferenceIdeal.ReadP.val_main_v34 (F := F) (inp0 m c) (inp1 m c) (inp2 m c) := by
  rw [Wn_5]; after_results_simp
  (try rw [W4_v27]); (try rw [W4_c])
  rfl

set_option maxHeartbeats 1000000 in
theorem W5_v38 : Wn m c 5 (Proc.devRef .tc main_v38) = Cert.ReferenceIdeal.ReadP.val_main_v36 (F := F) (inp0 m c) (inp1 m c) (inp2 m c) := by
  rw [Wn_5]; after_results_simp
  (try rw [W4_v27]); (try rw [W4_c])
  rfl

set_option maxHeartbeats 1000000 in
theorem W5_v40 : Wn m c 5 (Proc.devRef .tc main_v40) = Cert.ReferenceIdeal.ReadP.val_main_v38 (F := F) (inp0 m c) (inp1 m c) (inp2 m c) := by
  rw [Wn_5]; after_results_simp
  (try rw [W4_v27]); (try rw [W4_c])
  rfl

set_option maxHeartbeats 1000000 in
theorem W5_v42 : Wn m c 5 (Proc.devRef .tc main_v42) = Cert.ReferenceIdeal.ReadP.val_main_v40 (F := F) (inp0 m c) (inp1 m c) (inp2 m c) := by
  rw [Wn_5]; after_results_simp
  (try rw [W4_v27]); (try rw [W4_c])
  rfl

set_option maxHeartbeats 1000000 in
theorem W5_v44 : Wn m c 5 (Proc.devRef .tc main_v44) = Cert.ReferenceIdeal.ReadP.val_main_v42 (F := F) (inp0 m c) (inp1 m c) (inp2 m c) := by
  rw [Wn_5]; after_results_simp
  (try rw [W4_v27]); (try rw [W4_c])
  rfl

set_option maxHeartbeats 1000000 in
theorem W5_v58 : Wn m c 5 (Proc.devRef .tc main_v58) = Cert.ReferenceIdeal.ReadP.val_main_v70 (F := F) (inp0 m c) (inp1 m c) (inp2 m c) := by
  rw [Wn_5]; after_results_simp
  (try rw [W4_v25]); (try rw [W4_v23])
  rfl

set_option maxHeartbeats 1000000 in
theorem W5_v60 : Wn m c 5 (Proc.devRef .tc main_v60) = Cert.ReferenceIdeal.ReadP.val_main_v87 (F := F) (inp0 m c) (inp1 m c) (inp2 m c) := by
  rw [Wn_5]; after_results_simp
  (try rw [W4_v25]); (try rw [W4_v23])
  rfl

set_option maxHeartbeats 1000000 in
theorem W5_v62 : Wn m c 5 (Proc.devRef .tc main_v62) = Cert.ReferenceIdeal.ReadP.val_main_v105 (F := F) (inp0 m c) (inp1 m c) (inp2 m c) := by
  rw [Wn_5]; after_results_simp
  (try rw [W4_v25]); (try rw [W4_v23])
  rfl

set_option maxHeartbeats 1000000 in
theorem W5_v64 : Wn m c 5 (Proc.devRef .tc main_v64) = Cert.ReferenceIdeal.ReadP.val_main_v123 (F := F) (inp0 m c) (inp1 m c) (inp2 m c) := by
  rw [Wn_5]; after_results_simp
  (try rw [W4_v25]); (try rw [W4_v23])
  rfl

set_option maxHeartbeats 1000000 in
theorem W5_v66 : Wn m c 5 (Proc.devRef .tc main_v66) = Cert.ReferenceIdeal.ReadP.val_main_v141 (F := F) (inp0 m c) (inp1 m c) (inp2 m c) := by
  rw [Wn_5]; after_results_simp
  (try rw [W4_v25]); (try rw [W4_v23])
  rfl

set_option maxHeartbeats 1000000 in
theorem W5_v68 : Wn m c 5 (Proc.devRef .tc main_v68) = Cert.ReferenceIdeal.ReadP.val_main_v159 (F := F) (inp0 m c) (inp1 m c) (inp2 m c) := by
  rw [Wn_5]; after_results_simp
  (try rw [W4_v25]); (try rw [W4_v23])
  rfl

set_option maxHeartbeats 1000000 in
theorem W5_v70 : Wn m c 5 (Proc.devRef .tc main_v70) = Cert.ReferenceIdeal.ReadP.val_main_v177 (F := F) (inp0 m c) (inp1 m c) (inp2 m c) := by
  rw [Wn_5]; after_results_simp
  (try rw [W4_v25]); (try rw [W4_v23])
  rfl

set_option maxHeartbeats 1000000 in
theorem W5_v72 : Wn m c 5 (Proc.devRef .tc main_v72) = Cert.ReferenceIdeal.ReadP.val_main_v195 (F := F) (inp0 m c) (inp1 m c) (inp2 m c) := by
  rw [Wn_5]; after_results_simp
  (try rw [W4_v25]); (try rw [W4_v23])
  rfl

/-- The contents after the first forty-six operations of stretch 4 (all before the table is put together). -/
def G46 : Valuation τ sig (Elt F) := after ((hostOps0_4 (F := F)).take 46) (Wn m c 4)

theorem W5_split46 : Wn m c 5 = after ((hostOps0_4 (F := F)).drop 46) (G46 m c) := by
  rw [Wn_5, after_split _ 46]; rfl

set_option maxHeartbeats 1000000 in
theorem G46_arg3 : G46 m c (Proc.devRef .tc main_arg3) = inp3 m c := by
  unfold G46; simp only [hostOps0_4, List.take_succ_cons, List.take_zero]; after_results_simp
  exact Wn_arg m c 4 (r := main_arg3) (by decide)

set_option maxHeartbeats 1000000 in
theorem G46_arg4 : G46 m c (Proc.devRef .tc main_arg4) = inp4 m c := by
  unfold G46; simp only [hostOps0_4, List.take_succ_cons, List.take_zero]; after_results_simp
  exact Wn_arg m c 4 (r := main_arg4) (by decide)

set_option maxHeartbeats 1000000 in
theorem W5_v74 : Wn m c 5 (Proc.devRef .tc main_v74) = GF4 (F := F) (inp3 m c) (inp4 m c) := by
  rw [W5_split46]; simp only [hostOps0_4, List.drop_succ_cons, List.drop_zero]; after_results_simp
  rw [G46_arg3, G46_arg4]
  rfl

set_option maxHeartbeats 1000000 in
theorem W5_v80 : Wn m c 5 (Proc.devRef .tc main_v80) = Cert.ReferenceIdeal.ReadP.val_main_v61 (F := F) (inp0 m c) (inp1 m c) (inp2 m c) := by
  rw [Wn_5]; after_results_simp
  (try rw [W4_v27]); (try rw [W4_c])
  rfl

/-! ## Stretches 6, 8, …, 18: the seven further linear indices -/

theorem W7_v87 : Wn m c 7 (Proc.devRef .tc main_v87) = Cert.ReferenceIdeal.ReadP.val_main_v78 (F := F) (inp0 m c) (inp1 m c) (inp2 m c) := by
  rw [Wn_7]; after_results_simp
  rw [Wn_keep m c 5 6 (by decide) (by decide) (r := main_v38), Wn_keep m c 5 6 (by decide) (by decide) (r := main_v36), Wn_keep m c 5 6 (by decide) (by decide) (r := main_v40), W5_v38, W5_v36, W5_v40]
  rfl

theorem W9_v94 : Wn m c 9 (Proc.devRef .tc main_v94) = Cert.ReferenceIdeal.ReadP.val_main_v96 (F := F) (inp0 m c) (inp1 m c) (inp2 m c) := by
  rw [Wn_9]; after_results_simp
  rw [Wn_keep m c 5 8 (by decide) (by decide) (r := main_v38), Wn_keep m c 5 8 (by decide) (by decide) (r := main_v42), Wn_keep m c 5 8 (by decide) (by decide) (r := main_v34), W5_v38, W5_v42, W5_v34]
  rfl

theorem W11_v101 : Wn m c 11 (Proc.devRef .tc main_v101) = Cert.ReferenceIdeal.ReadP.val_main_v114 (F := F) (inp0 m c) (inp1 m c) (inp2 m c) := by
  rw [Wn_11]; after_results_simp
  rw [Wn_keep m c 5 10 (by decide) (by decide) (r := main_v38), Wn_keep m c 5 10 (by decide) (by decide) (r := main_v42), Wn_keep m c 5 10 (by decide) (by decide) (r := main_v40), W5_v38, W5_v42, W5_v40]
  rfl

theorem W13_v108 : Wn m c 13 (Proc.devRef .tc main_v108) = Cert.ReferenceIdeal.ReadP.val_main_v132 (F := F) (inp0 m c) (inp1 m c) (inp2 m c) := by
  rw [Wn_13]; after_results_simp
  rw [Wn_keep m c 5 12 (by decide) (by decide) (r := main_v44), Wn_keep m c 5 12 (by decide) (by decide) (r := main_v36), Wn_keep m c 5 12 (by decide) (by decide) (r := main_v34), W5_v44, W5_v36, W5_v34]
  rfl

theorem W15_v115 : Wn m c 15 (Proc.devRef .tc main_v115) = Cert.ReferenceIdeal.ReadP.val_main_v150 (F := F) (inp0 m c) (inp1 m c) (inp2 m c) := by
  rw [Wn_15]; after_results_simp
  rw [Wn_keep m c 5 14 (by decide) (by decide) (r := main_v44), Wn_keep m c 5 14 (by decide) (by decide) (r := main_v36), Wn_keep m c 5 14 (by decide) (by decide) (r := main_v40), W5_v44, W5_v36, W5_v40]
  rfl

theorem W17_v122 : Wn m c 17 (Proc.devRef .tc main_v122) = Cert.ReferenceIdeal.ReadP.val_main_v168 (F := F) (inp0 m c) (inp1 m c) (inp2 m c) := by
  rw [Wn_17]; after_results_simp
  rw [Wn_keep m c 5 16 (by decide) (by decide) (r := main_v44), Wn_keep m c 5 16 (by decide) (by decide) (r := main_v42), Wn_keep m c 5 16 (by decide) (by decide) (r := main_v34), W5_v44, W5_v42, W5_v34]
  rfl

theorem W19_v129 : Wn m c 19 (Proc.devRef .tc main_v129) = Cert.ReferenceIdeal.ReadP.val_main_v186 (F := F) (inp0 m c) (inp1 m c) (inp2 m c) := by
  rw [Wn_19]; after_results_simp
  rw [Wn_keep m c 5 18 (by decide) (by decide) (r := main_v44), Wn_keep m c 5 18 (by decide) (by decide) (r := main_v42), Wn_keep m c 5 18 (by decide) (by decide) (r := main_v40), W5_v44, W5_v42, W5_v40]
  rfl

/-! ## Stretch 20: the eight lookups stacked, the eight weights stacked -/

/-- The contents after the first eight operations of stretch 20 (the lookups given their unit axis). -/
def G8 : Valuation τ sig (Elt F) := after ((hostOps0_20 (F := F)).take 8) (Wn m c 20)
/-- The contents after the first seventeen operations of stretch 20 (all but the second stacking). -/
def G17 : Valuation τ sig (Elt F) := after ((hostOps0_20 (F := F)).take 17) (Wn m c 20)

theorem W21_split8 : Wn m c 21 = after ((hostOps0_20 (F := F)).drop 8) (G8 m c) := by
  rw [Wn_21, after_split _ 8]; rfl
theorem W21_split17 : Wn m c 21 = after ((hostOps0_20 (F := F)).drop 17) (G17 m c) := by
  rw [Wn_21, after_split _ 17]; rfl

theorem G8_v131 : G8 m c (Proc.devRef .tc main_v131)
    = broadcastInDim S1x4x4194304 ![1, 2] bcast_S4x4194304_S1x4x4194304_1_2 (Wn m c 20 (Proc.devRef .tc main_v81)) := by
  unfold G8; simp only [hostOps0_20, List.take_succ_cons, List.take_zero]; after_results_simp

theorem G8_v132 : G8 m c (Proc.devRef .tc main_v132)
    = broadcastInDim S1x4x4194304 ![1, 2] bcast_S4x4194304_S1x4x4194304_1_2 (Wn m c 20 (Proc.devRef .tc main_v88)) := by
  unfold G8; simp only [hostOps0_20, List.take_succ_cons, List.take_zero]; after_results_simp

theorem G8_v133 : G8 m c (Proc.devRef .tc main_v133)
    = broadcastInDim S1x4x4194304 ![1, 2] bcast_S4x4194304_S1x4x4194304_1_2 (Wn m c 20 (Proc.devRef .tc main_v95)) := by
  unfold G8; simp only [hostOps0_20, List.take_succ_cons, List.take_zero]; after_results_simp

theorem G8_v134 : G8 m c (Proc.devRef .tc main_v134)
    = broadcastInDim S1x4x4194304 ![1, 2] bcast_S4x4194304_S1x4x4194304_1_2 (Wn m c 20 (Proc.devRef .tc main_v102)) := by
  unfold G8; simp only [hostOps0_20, List.take_succ_cons, List.take_zero]; after_results_simp

theorem G8_v135 : G8 m c (Proc.devRef .tc main_v135)
    = broadcastInDim S1x4x4194304 ![1, 2] bcast_S4x4194304_S1x4x4194304_1_2 (Wn m c 20 (Proc.devRef .tc main_v109)) := by
  unfold G8; simp only [hostOps0_20, List.take_succ_cons, List.take_zero]; after_results_simp

theorem G8_v136 : G8 m c (Proc.devRef .tc main_v136)
    = broadcastInDim S1x4x4194304 ![1, 2] bcast_S4x4194304_S1x4x4194304_1_2 (Wn m c 20 (Proc.devRef .tc main_v116)) := by
  unfold G8; simp only [hostOps0_20, List.take_succ_cons, List.take_zero]; after_results_simp

theorem G8_v137 : G8 m c (Proc.devRef .tc main_v137)
    = broadcastInDim S1x4x4194304 ![1, 2] bcast_S4x4194304_S1x4x4194304_1_2 (Wn m c 20 (Proc.devRef .tc main_v123)) := by
  unfold G8; simp only [hostOps0_20, List.take_succ_cons, List.take_zero]; after_results_simp

theorem G8_v138 : G8 m c (Proc.devRef .tc main_v138)
    = broadcastInDim S1x4x4194304 ![1, 2] bcast_S4x4194304_S1x4x4194304_1_2 (Wn m c 20 (Proc.devRef .tc main_v130)) := by
  unfold G8; simp only [hostOps0_20, List.take_succ_cons, List.take_zero]; after_results_simp

theorem G17_v140 : G17 m c (Proc.devRef .tc main_v140)
    = broadcastInDim S1x4194304 ![1] bcast_S4194304_S1x4194304_1 (Wn m c 20 (Proc.devRef .tc main_v58)) := by
  unfold G17; simp only [hostOps0_20, List.take_succ_cons, List.take_zero]; after_results_simp

theorem G17_v141 : G17 m c (Proc.devRef .tc main_v141)
    = broadcastInDim S1x4194304 ![1] bcast_S4194304_S1x4194304_1 (Wn m c 20 (Proc.devRef .tc main_v60)) := by
  unfold G17; simp only [hostOps0_20, List.take_succ_cons, List.take_zero]; after_results_simp

theorem G17_v142 : G17 m c (Proc.devRef .tc main_v142)
    = broadcastInDim S1x4194304 ![1] bcast_S4194304_S1x4194304_1 (Wn m c 20 (Proc.devRef .tc main_v62)) := by
  unfold G17; simp only [hostOps0_20, List.take_succ_cons, List.take_zero]; after_results_simp

theorem G17_v143 : G17 m c (Proc.devRef .tc main_v143)
    = broadcastInDim S1x4194304 ![1] bcast_S4194304_S1x4194304_1 (Wn m c 20 (Proc.devRef .tc main_v64)) := by
  unfold G17; simp only [hostOps0_20, List.take_succ_cons, List.take_zero]; after_results_simp

theorem G17_v144 : G17 m c (Proc.devRef .tc main_v144)
    = broadcastInDim S1x4194304 ![1] bcast_S4194304_S1x4194304_1 (Wn m c 20 (Proc.devRef .tc main_v66)) := by
  unfold G17; simp only [hostOps0_20, List.take_succ_cons, List.take_zero]; after_results_simp

theorem G17_v145 : G17 m c (Proc.devRef .tc main_v145)
    = broadcastInDim S1x4194304 ![1] bcast_S4194304_S1x4194304_1 (Wn m c 20 (Proc.devRef .tc main_v68)) := by
  unfold G17; simp only [hostOps0_20, List.take_succ_cons, List.take_zero]; after_results_simp

theorem G17_v146 : G17 m c (Proc.devRef .tc main_v146)
    = broadcastInDim S1x4194304 ![1] bcast_S4194304_S1x4194304_1 (Wn m c 20 (Proc.devRef .tc main_v70)) := by
  unfold G17; simp only [hostOps0_20, List.take_succ_cons, List.take_zero]; after_results_simp

theorem G17_v147 : G17 m c (Proc.devRef .tc main_v147)
    = broadcastInDim S1x4194304 ![1] bcast_S4194304_S1x4194304_1 (Wn m c 20 (Proc.devRef .tc main_v72)) := by
  unfold G17; simp only [hostOps0_20, List.take_succ_cons, List.take_zero]; after_results_simp

set_option maxHeartbeats 1000000 in
theorem W21_v139 : Wn m c 21 (Proc.devRef .tc main_v139)
    = concatenate S8x4x4194304 0
        [⟨S1x4x4194304, broadcastInDim S1x4x4194304 ![1, 2] bcast_S4x4194304_S1x4x4194304_1_2 (Wn m c 20 (Proc.devRef .tc main_v81))⟩,
        ⟨S1x4x4194304, broadcastInDim S1x4x4194304 ![1, 2] bcast_S4x4194304_S1x4x4194304_1_2 (Wn m c 20 (Proc.devRef .tc main_v88))⟩,
        ⟨S1x4x4194304, broadcastInDim S1x4x4194304 ![1, 2] bcast_S4x4194304_S1x4x4194304_1_2 (Wn m c 20 (Proc.devRef .tc main_v95))⟩,
        ⟨S1x4x4194304, broadcastInDim S1x4x4194304 ![1, 2] bcast_S4x4194304_S1x4x4194304_1_2 (Wn m c 20 (Proc.devRef .tc main_v102))⟩,
        ⟨S1x4x4194304, broadcastInDim S1x4x4194304 ![1, 2] bcast_S4x4194304_S1x4x4194304_1_2 (Wn m c 20 (Proc.devRef .tc main_v109))⟩,
        ⟨S1x4x4194304, broadcastInDim S1x4x4194304 ![1, 2] bcast_S4x4194304_S1x4x4194304_1_2 (Wn m c 20 (Proc.devRef .tc main_v116))⟩,
        ⟨S1x4x4194304, broadcastInDim S1x4x4194304 ![1, 2] bcast_S4x4194304_S1x4x4194304_1_2 (Wn m c 20 (Proc.devRef .tc main_v123))⟩,
        ⟨S1x4x4194304, broadcastInDim S1x4x4194304 ![1, 2] bcast_S4x4194304_S1x4x4194304_1_2 (Wn m c 20 (Proc.devRef .tc main_v130))⟩]
        concatenates_S1x4x4194304_S1x4x4194304_S1x4x4194304_S1x4x4194304_S1x4x4194304_S1x4x4194304_S1x4x4194304_S1x4x4194304_S8x4x4194304_d0 := by
  rw [W21_split8]; simp only [hostOps0_20, List.drop_succ_cons, List.drop_zero]
  simp (disch := decide) only [after_cons, after_nil, unary_result_ne', nary_result_ne', nary8_result']
  rw [G8_v131, G8_v132, G8_v133, G8_v134, G8_v135, G8_v136, G8_v137, G8_v138]
  rfl

set_option maxHeartbeats 1000000 in
theorem W21_v148 : Wn m c 21 (Proc.devRef .tc main_v148)
    = concatenate S8x4194304 0
        [⟨S1x4194304, broadcastInDim S1x4194304 ![1] bcast_S4194304_S1x4194304_1 (Wn m c 20 (Proc.devRef .tc main_v58))⟩,
        ⟨S1x4194304, broadcastInDim S1x4194304 ![1] bcast_S4194304_S1x4194304_1 (Wn m c 20 (Proc.devRef .tc main_v60))⟩,
        ⟨S1x4194304, broadcastInDim S1x4194304 ![1] bcast_S4194304_S1x4194304_1 (Wn m c 20 (Proc.devRef .tc main_v62))⟩,
        ⟨S1x4194304, broadcastInDim S1x4194304 ![1] bcast_S4194304_S1x4194304_1 (Wn m c 20 (Proc.devRef .tc main_v64))⟩,
        ⟨S1x4194304, broadcastInDim S1x4194304 ![1] bcast_S4194304_S1x4194304_1 (Wn m c 20 (Proc.devRef .tc main_v66))⟩,
        ⟨S1x4194304, broadcastInDim S1x4194304 ![1] bcast_S4194304_S1x4194304_1 (Wn m c 20 (Proc.devRef .tc main_v68))⟩,
        ⟨S1x4194304, broadcastInDim S1x4194304 ![1] bcast_S4194304_S1x4194304_1 (Wn m c 20 (Proc.devRef .tc main_v70))⟩,
        ⟨S1x4194304, broadcastInDim S1x4194304 ![1] bcast_S4194304_S1x4194304_1 (Wn m c 20 (Proc.devRef .tc main_v72))⟩]
        concatenates_S1x4194304_S1x4194304_S1x4194304_S1x4194304_S1x4194304_S1x4194304_S1x4194304_S1x4194304_S8x4194304_d0 := by
  rw [W21_split17]; simp only [hostOps0_20, List.drop_succ_cons, List.drop_zero]
  simp (disch := decide) only [after_cons, after_nil, nary8_result']
  rw [G17_v140, G17_v141, G17_v142, G17_v143, G17_v144, G17_v145, G17_v146, G17_v147]
  rfl

/-! ## The region's entry -/

theorem V_eq (b : Ref sig .tc) : V m c b = Wn m c 21 (Proc.devRef .tc b) := congrFun (V0_eq m c) _

/-- What a reference holds at the entry it held after `k` stretches, when none of the later stretches writes it. -/
theorem V_at (k : Nat) (hk : k ≤ 21) {b : Ref sig .tc} (hb : b ∉ ((wrAll.take 21).drop k).flatten) :
    V m c b = Wn m c k (Proc.devRef .tc b) :=
  (V_eq m c b).trans (Wn_keep m c k 21 hk hb)

/-- The intervals: each ray's norm, repeated along its 256 samples, flattened to [1, 4194304]. -/
theorem V_interval : V m c main_v12
    = shapeCast S1x4194304 (broadcastInDim S16384x256 ![0, 1] bcast_S16384x1_S16384x256_0_1
        (broadcastInDim S16384x1 ![0] bcast_S16384_S16384x1_0 (Cert.ReferenceIdeal.ReadP.val_main_v8 (F := F) (inp1 m c)))) shapeCasts_S16384x256_S1x4194304 :=
  (V_at m c 3 (by decide) (by decide)).trans (W3_v12 m c)

/-- The table the corners are gathered from. -/
theorem V_table : V m c main_v74 = GF4 (F := F) (inp3 m c) (inp4 m c) :=
  (V_at m c 5 (by decide) (by decide)).trans (W5_v74 m c)

/-- Corner 0's weight. -/
theorem V_weight_0 : V m c main_v58 = Cert.Spec.Wst (F := F) 0 (inp0 m c) (inp1 m c) (inp2 m c) :=
  (V_at m c 5 (by decide) (by decide)).trans (W5_v58 m c)

/-- Corner 1's weight. -/
theorem V_weight_1 : V m c main_v60 = Cert.Spec.Wst (F := F) 1 (inp0 m c) (inp1 m c) (inp2 m c) :=
  (V_at m c 5 (by decide) (by decide)).trans (W5_v60 m c)

/-- Corner 2's weight. -/
theorem V_weight_2 : V m c main_v62 = Cert.Spec.Wst (F := F) 2 (inp0 m c) (inp1 m c) (inp2 m c) :=
  (V_at m c 5 (by decide) (by decide)).trans (W5_v62 m c)

/-- Corner 3's weight. -/
theorem V_weight_3 : V m c main_v64 = Cert.Spec.Wst (F := F) 3 (inp0 m c) (inp1 m c) (inp2 m c) :=
  (V_at m c 5 (by decide) (by decide)).trans (W5_v64 m c)

/-- Corner 4's weight. -/
theorem V_weight_4 : V m c main_v66 = Cert.Spec.Wst (F := F) 4 (inp0 m c) (inp1 m c) (inp2 m c) :=
  (V_at m c 5 (by decide) (by decide)).trans (W5_v66 m c)

/-- Corner 5's weight. -/
theorem V_weight_5 : V m c main_v68 = Cert.Spec.Wst (F := F) 5 (inp0 m c) (inp1 m c) (inp2 m c) :=
  (V_at m c 5 (by decide) (by decide)).trans (W5_v68 m c)

/-- Corner 6's weight. -/
theorem V_weight_6 : V m c main_v70 = Cert.Spec.Wst (F := F) 6 (inp0 m c) (inp1 m c) (inp2 m c) :=
  (V_at m c 5 (by decide) (by decide)).trans (W5_v70 m c)

/-- Corner 7's weight. -/
theorem V_weight_7 : V m c main_v72 = Cert.Spec.Wst (F := F) 7 (inp0 m c) (inp1 m c) (inp2 m c) :=
  (V_at m c 5 (by decide) (by decide)).trans (W5_v72 m c)

/-- Corner 0's linear voxel index. -/
theorem V_lin_0 : V m c main_v80 = Cert.Spec.LINst (F := F) 0 (inp0 m c) (inp1 m c) (inp2 m c) :=
  (V_at m c 5 (by decide) (by decide)).trans (W5_v80 m c)

/-- Corner 1's linear voxel index. -/
theorem V_lin_1 : V m c main_v87 = Cert.Spec.LINst (F := F) 1 (inp0 m c) (inp1 m c) (inp2 m c) :=
  (V_at m c 7 (by decide) (by decide)).trans (W7_v87 m c)

/-- Corner 2's linear voxel index. -/
theorem V_lin_2 : V m c main_v94 = Cert.Spec.LINst (F := F) 2 (inp0 m c) (inp1 m c) (inp2 m c) :=
  (V_at m c 9 (by decide) (by decide)).trans (W9_v94 m c)

/-- Corner 3's linear voxel index. -/
theorem V_lin_3 : V m c main_v101 = Cert.Spec.LINst (F := F) 3 (inp0 m c) (inp1 m c) (inp2 m c) :=
  (V_at m c 11 (by decide) (by decide)).trans (W11_v101 m c)

/-- Corner 4's linear voxel index. -/
theorem V_lin_4 : V m c main_v108 = Cert.Spec.LINst (F := F) 4 (inp0 m c) (inp1 m c) (inp2 m c) :=
  (V_at m c 13 (by decide) (by decide)).trans (W13_v108 m c)

/-- Corner 5's linear voxel index. -/
theorem V_lin_5 : V m c main_v115 = Cert.Spec.LINst (F := F) 5 (inp0 m c) (inp1 m c) (inp2 m c) :=
  (V_at m c 15 (by decide) (by decide)).trans (W15_v115 m c)

/-- Corner 6's linear voxel index. -/
theorem V_lin_6 : V m c main_v122 = Cert.Spec.LINst (F := F) 6 (inp0 m c) (inp1 m c) (inp2 m c) :=
  (V_at m c 17 (by decide) (by decide)).trans (W17_v122 m c)

/-- Corner 7's linear voxel index. -/
theorem V_lin_7 : V m c main_v129 = Cert.Spec.LINst (F := F) 7 (inp0 m c) (inp1 m c) (inp2 m c) :=
  (V_at m c 19 (by decide) (by decide)).trans (W19_v129 m c)

/-- The eight lookups, each given a unit leading axis, stacked along it. -/
theorem V_corners : V m c main_v139
    = concatenate S8x4x4194304 0
        [⟨S1x4x4194304, broadcastInDim S1x4x4194304 ![1, 2] bcast_S4x4194304_S1x4x4194304_1_2 (V m c main_v81)⟩,
        ⟨S1x4x4194304, broadcastInDim S1x4x4194304 ![1, 2] bcast_S4x4194304_S1x4x4194304_1_2 (V m c main_v88)⟩,
        ⟨S1x4x4194304, broadcastInDim S1x4x4194304 ![1, 2] bcast_S4x4194304_S1x4x4194304_1_2 (V m c main_v95)⟩,
        ⟨S1x4x4194304, broadcastInDim S1x4x4194304 ![1, 2] bcast_S4x4194304_S1x4x4194304_1_2 (V m c main_v102)⟩,
        ⟨S1x4x4194304, broadcastInDim S1x4x4194304 ![1, 2] bcast_S4x4194304_S1x4x4194304_1_2 (V m c main_v109)⟩,
        ⟨S1x4x4194304, broadcastInDim S1x4x4194304 ![1, 2] bcast_S4x4194304_S1x4x4194304_1_2 (V m c main_v116)⟩,
        ⟨S1x4x4194304, broadcastInDim S1x4x4194304 ![1, 2] bcast_S4x4194304_S1x4x4194304_1_2 (V m c main_v123)⟩,
        ⟨S1x4x4194304, broadcastInDim S1x4x4194304 ![1, 2] bcast_S4x4194304_S1x4x4194304_1_2 (V m c main_v130)⟩]
        concatenates_S1x4x4194304_S1x4x4194304_S1x4x4194304_S1x4x4194304_S1x4x4194304_S1x4x4194304_S1x4x4194304_S1x4x4194304_S8x4x4194304_d0 := by
  rw [V_eq m c main_v139, W21_v139, V_at m c 20 (by decide) (by decide) (b := main_v81), V_at m c 20 (by decide) (by decide) (b := main_v88), V_at m c 20 (by decide) (by decide) (b := main_v95), V_at m c 20 (by decide) (by decide) (b := main_v102), V_at m c 20 (by decide) (by decide) (b := main_v109), V_at m c 20 (by decide) (by decide) (b := main_v116), V_at m c 20 (by decide) (by decide) (b := main_v123), V_at m c 20 (by decide) (by decide) (b := main_v130)]

/-- The eight weights, each given a unit leading axis, stacked along it. -/
theorem V_weights : V m c main_v148
    = concatenate S8x4194304 0
        [⟨S1x4194304, broadcastInDim S1x4194304 ![1] bcast_S4194304_S1x4194304_1 (V m c main_v58)⟩,
        ⟨S1x4194304, broadcastInDim S1x4194304 ![1] bcast_S4194304_S1x4194304_1 (V m c main_v60)⟩,
        ⟨S1x4194304, broadcastInDim S1x4194304 ![1] bcast_S4194304_S1x4194304_1 (V m c main_v62)⟩,
        ⟨S1x4194304, broadcastInDim S1x4194304 ![1] bcast_S4194304_S1x4194304_1 (V m c main_v64)⟩,
        ⟨S1x4194304, broadcastInDim S1x4194304 ![1] bcast_S4194304_S1x4194304_1 (V m c main_v66)⟩,
        ⟨S1x4194304, broadcastInDim S1x4194304 ![1] bcast_S4194304_S1x4194304_1 (V m c main_v68)⟩,
        ⟨S1x4194304, broadcastInDim S1x4194304 ![1] bcast_S4194304_S1x4194304_1 (V m c main_v70)⟩,
        ⟨S1x4194304, broadcastInDim S1x4194304 ![1] bcast_S4194304_S1x4194304_1 (V m c main_v72)⟩]
        concatenates_S1x4194304_S1x4194304_S1x4194304_S1x4194304_S1x4194304_S1x4194304_S1x4194304_S1x4194304_S8x4194304_d0 := by
  rw [V_eq m c main_v148, W21_v148, V_at m c 20 (by decide) (by decide) (b := main_v58), V_at m c 20 (by decide) (by decide) (b := main_v60), V_at m c 20 (by decide) (by decide) (b := main_v62), V_at m c 20 (by decide) (by decide) (b := main_v64), V_at m c 20 (by decide) (by decide) (b := main_v66), V_at m c 20 (by decide) (by decide) (b := main_v68), V_at m c 20 (by decide) (by decide) (b := main_v70), V_at m c 20 (by decide) (by decide) (b := main_v72)]

end Cert.KernelIdeal.Fr
end
-- ==== Proof.KHost.lean ====
/-
  What the host operations before the kernel region leave in the arrays the region reads (part two: the eight
  column lookups).

  Each lookup is one stretch of twenty-three operations on a linear index column `lin` and the table `gf` of the four
  channels' voxels: a negative index is wrapped by the number of voxels 160³; the wrapped column is given a unit
  trailing axis; the mask of the entries in [0, 160³ − 1] is formed; the table's columns are gathered at the wrapped
  indices; and where the mask fails the entries are replaced by the not-a-number word. The stretch is cut after its
  8th, 18th and 19th operation — the wrapped index column, the mask, the gathered columns — and each cut's contents
  named, so that the result is `TAKE gf lin` by comparison of short terms.
-/
import proofs.«123153_j77008763617691_1_alg».proof.Proof.KHostA

noncomputable section

namespace Cert.KernelIdeal.Fr

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (c : Dev nD)

/-- Contents moved between a buffer's own type and the literal type it reduces to are the contents. -/
local macro "strip_casts" : tactic => `(tactic| (dsimp only [TRef.ofBuf, TRef.toBuf]; repeat rw [cast_eq]))

/-- The first `j'` operations run as the first `j` then the next `j' − j`. -/
theorem after_take_take {Val : EltTy → Type} (ops : List (HloOp τ sig Val)) (j j' : Nat) (h : j ≤ j') (V : Valuation τ sig Val) :
    after (ops.take j') V = after ((ops.take j').drop j) (after (ops.take j) V) := by
  rw [after_split (ops.take j') j, List.take_take, Nat.min_eq_left h]

/-! ## The eight lookups -/

/-! ### Lookup 0 (stretch 5) -/

/-- The contents after the stretch's first 8, 18, 19 operations: the wrapped index column; the in-range mask; the gathered columns. -/
def Ta0 : Valuation τ sig (Elt F) := after ((hostOps0_5 (F := F)).take 8) (Wn m c 5)
def Tb0 : Valuation τ sig (Elt F) := after ((hostOps0_5 (F := F)).take 18) (Wn m c 5)
def Tc0 : Valuation τ sig (Elt F) := after ((hostOps0_5 (F := F)).take 19) (Wn m c 5)

theorem Tb0_eq : Tb0 m c = after (((hostOps0_5 (F := F)).take 18).drop 8) (Ta0 m c) := after_take_take _ 8 18 (by decide) _
theorem Tc0_eq : Tc0 m c = after (((hostOps0_5 (F := F)).take 19).drop 18) (Tb0 m c) := after_take_take _ 18 19 (by decide) _
theorem Wn6_eq : Wn m c 6 = after ((hostOps0_5 (F := F)).drop 19) (Tc0 m c) := by
  rw [Wn_6, after_split _ 19]; rfl

theorem Ta0_idx : Ta0 m c (Proc.devRef .tc main_call2_v5) = (broadcastInDim S4194304x1 ![0] bcast_S4194304_S4194304x1_0 (WRAP (F := F) (Cert.ReferenceIdeal.ReadP.val_main_v61 (F := F) (inp0 m c) (inp1 m c) (inp2 m c)))) := by
  unfold Ta0; simp only [hostOps0_5, List.take_succ_cons, List.take_zero]; after_results_simp
  rw [W5_v80]; simp only [TRef.ofBuf, TRef.toBuf, cast_eq]
  unfold WRAP; rfl

theorem Ta0_tab : Ta0 m c (Proc.devRef .tc main_v74) = (GF4 (F := F) (inp3 m c) (inp4 m c)) := by
  unfold Ta0; simp only [hostOps0_5, List.take_succ_cons, List.take_zero]; after_results_simp
  exact W5_v74 m c

theorem Tb0_idx : Tb0 m c (Proc.devRef .tc main_call2_v5) = (broadcastInDim S4194304x1 ![0] bcast_S4194304_S4194304x1_0 (WRAP (F := F) (Cert.ReferenceIdeal.ReadP.val_main_v61 (F := F) (inp0 m c) (inp1 m c) (inp2 m c)))) := by
  rw [Tb0_eq]; simp only [hostOps0_5, List.take_succ_cons, List.take_zero, List.drop_succ_cons, List.drop_zero]; after_results_simp
  exact Ta0_idx m c

theorem Tb0_tab : Tb0 m c (Proc.devRef .tc main_v74) = (GF4 (F := F) (inp3 m c) (inp4 m c)) := by
  rw [Tb0_eq]; simp only [hostOps0_5, List.take_succ_cons, List.take_zero, List.drop_succ_cons, List.drop_zero]; after_results_simp
  exact Ta0_tab m c

theorem Tb0_mask : Tb0 m c (Proc.devRef .tc main_call2_v12) = (Host.reduce IntOp.andi
      (andi (cmpi .sge (broadcastInDim S4194304x1 ![0] bcast_S4194304_S4194304x1_0 (WRAP (F := F) (Cert.ReferenceIdeal.ReadP.val_main_v61 (F := F) (inp0 m c) (inp1 m c) (inp2 m c)))) (broadcastInDim S4194304x1 ![] bcast_S_S4194304x1 (constantI S_ 32 0#32)))
            (cmpi .sle (broadcastInDim S4194304x1 ![0] bcast_S4194304_S4194304x1_0 (WRAP (F := F) (Cert.ReferenceIdeal.ReadP.val_main_v61 (F := F) (inp0 m c) (inp1 m c) (inp2 m c)))) (broadcastInDim S4194304x1 ![0, 1] bcast_S1x1_S4194304x1_0_1 (broadcastInDim S1x1 ![1] bcast_S1_S1x1_1 (constantI S1 32 4095999#32)))))
      (constantI S_ 1 1#1) reducesTo_S4194304x1_S4194304_d1 h_S_) := by
  rw [Tb0_eq]; simp only [hostOps0_5, List.take_succ_cons, List.take_zero, List.drop_succ_cons, List.drop_zero]; after_results_simp
  rw [Ta0_idx]; simp only [TRef.ofBuf, TRef.toBuf, cast_eq]

theorem Tc0_mask : Tc0 m c (Proc.devRef .tc main_call2_v12) = (Host.reduce IntOp.andi
      (andi (cmpi .sge (broadcastInDim S4194304x1 ![0] bcast_S4194304_S4194304x1_0 (WRAP (F := F) (Cert.ReferenceIdeal.ReadP.val_main_v61 (F := F) (inp0 m c) (inp1 m c) (inp2 m c)))) (broadcastInDim S4194304x1 ![] bcast_S_S4194304x1 (constantI S_ 32 0#32)))
            (cmpi .sle (broadcastInDim S4194304x1 ![0] bcast_S4194304_S4194304x1_0 (WRAP (F := F) (Cert.ReferenceIdeal.ReadP.val_main_v61 (F := F) (inp0 m c) (inp1 m c) (inp2 m c)))) (broadcastInDim S4194304x1 ![0, 1] bcast_S1x1_S4194304x1_0_1 (broadcastInDim S1x1 ![1] bcast_S1_S1x1_1 (constantI S1 32 4095999#32)))))
      (constantI S_ 1 1#1) reducesTo_S4194304x1_S4194304_d1 h_S_) := by
  rw [Tc0_eq]; simp only [hostOps0_5, List.take_succ_cons, List.take_zero, List.drop_succ_cons, List.drop_zero]; after_results_simp
  exact Tb0_mask m c

theorem Tc0_gath : Tc0 m c (Proc.devRef .tc main_call2_v13) = (Host.gather gather_S4x4096000_S4194304x1_S4x4194304_0_1_n_n_1_1_41 (GF4 (F := F) (inp3 m c) (inp4 m c)) (broadcastInDim S4194304x1 ![0] bcast_S4194304_S4194304x1_0 (WRAP (F := F) (Cert.ReferenceIdeal.ReadP.val_main_v61 (F := F) (inp0 m c) (inp1 m c) (inp2 m c))))) := by
  rw [Tc0_eq]; simp only [hostOps0_5, List.take_succ_cons, List.take_zero, List.drop_succ_cons, List.drop_zero]; after_results_simp
  rw [Tb0_tab, Tb0_idx]; strip_casts

theorem W6_v81 : Wn m c 6 (Proc.devRef .tc main_v81) = TAKE (F := F) (GF4 (F := F) (inp3 m c) (inp4 m c)) (Cert.ReferenceIdeal.ReadP.val_main_v61 (F := F) (inp0 m c) (inp1 m c) (inp2 m c)) := by
  rw [Wn6_eq]; simp only [hostOps0_5, List.drop_succ_cons, List.drop_zero]; after_results_simp
  rw [Tc0_mask, Tc0_gath]; strip_casts
  unfold TAKE; rfl

/-! ### Lookup 1 (stretch 7) -/

/-- The contents after the stretch's first 8, 18, 19 operations: the wrapped index column; the in-range mask; the gathered columns. -/
def Ta1 : Valuation τ sig (Elt F) := after ((hostOps0_7 (F := F)).take 8) (Wn m c 7)
def Tb1 : Valuation τ sig (Elt F) := after ((hostOps0_7 (F := F)).take 18) (Wn m c 7)
def Tc1 : Valuation τ sig (Elt F) := after ((hostOps0_7 (F := F)).take 19) (Wn m c 7)

theorem Tb1_eq : Tb1 m c = after (((hostOps0_7 (F := F)).take 18).drop 8) (Ta1 m c) := after_take_take _ 8 18 (by decide) _
theorem Tc1_eq : Tc1 m c = after (((hostOps0_7 (F := F)).take 19).drop 18) (Tb1 m c) := after_take_take _ 18 19 (by decide) _
theorem Wn8_eq : Wn m c 8 = after ((hostOps0_7 (F := F)).drop 19) (Tc1 m c) := by
  rw [Wn_8, after_split _ 19]; rfl

theorem Ta1_idx : Ta1 m c (Proc.devRef .tc main_call3_v5) = (broadcastInDim S4194304x1 ![0] bcast_S4194304_S4194304x1_0 (WRAP (F := F) (Cert.ReferenceIdeal.ReadP.val_main_v78 (F := F) (inp0 m c) (inp1 m c) (inp2 m c)))) := by
  unfold Ta1; simp only [hostOps0_7, List.take_succ_cons, List.take_zero]; after_results_simp
  rw [W7_v87]; simp only [TRef.ofBuf, TRef.toBuf, cast_eq]
  unfold WRAP; rfl

theorem Ta1_tab : Ta1 m c (Proc.devRef .tc main_v74) = (GF4 (F := F) (inp3 m c) (inp4 m c)) := by
  unfold Ta1; simp only [hostOps0_7, List.take_succ_cons, List.take_zero]; after_results_simp
  exact (Wn_keep m c 5 7 (by decide) (by decide) (r := main_v74)).trans (W5_v74 m c)

theorem Tb1_idx : Tb1 m c (Proc.devRef .tc main_call3_v5) = (broadcastInDim S4194304x1 ![0] bcast_S4194304_S4194304x1_0 (WRAP (F := F) (Cert.ReferenceIdeal.ReadP.val_main_v78 (F := F) (inp0 m c) (inp1 m c) (inp2 m c)))) := by
  rw [Tb1_eq]; simp only [hostOps0_7, List.take_succ_cons, List.take_zero, List.drop_succ_cons, List.drop_zero]; after_results_simp
  exact Ta1_idx m c

theorem Tb1_tab : Tb1 m c (Proc.devRef .tc main_v74) = (GF4 (F := F) (inp3 m c) (inp4 m c)) := by
  rw [Tb1_eq]; simp only [hostOps0_7, List.take_succ_cons, List.take_zero, List.drop_succ_cons, List.drop_zero]; after_results_simp
  exact Ta1_tab m c

theorem Tb1_mask : Tb1 m c (Proc.devRef .tc main_call3_v12) = (Host.reduce IntOp.andi
      (andi (cmpi .sge (broadcastInDim S4194304x1 ![0] bcast_S4194304_S4194304x1_0 (WRAP (F := F) (Cert.ReferenceIdeal.ReadP.val_main_v78 (F := F) (inp0 m c) (inp1 m c) (inp2 m c)))) (broadcastInDim S4194304x1 ![] bcast_S_S4194304x1 (constantI S_ 32 0#32)))
            (cmpi .sle (broadcastInDim S4194304x1 ![0] bcast_S4194304_S4194304x1_0 (WRAP (F := F) (Cert.ReferenceIdeal.ReadP.val_main_v78 (F := F) (inp0 m c) (inp1 m c) (inp2 m c)))) (broadcastInDim S4194304x1 ![0, 1] bcast_S1x1_S4194304x1_0_1 (broadcastInDim S1x1 ![1] bcast_S1_S1x1_1 (constantI S1 32 4095999#32)))))
      (constantI S_ 1 1#1) reducesTo_S4194304x1_S4194304_d1 h_S_) := by
  rw [Tb1_eq]; simp only [hostOps0_7, List.take_succ_cons, List.take_zero, List.drop_succ_cons, List.drop_zero]; after_results_simp
  rw [Ta1_idx]; simp only [TRef.ofBuf, TRef.toBuf, cast_eq]

theorem Tc1_mask : Tc1 m c (Proc.devRef .tc main_call3_v12) = (Host.reduce IntOp.andi
      (andi (cmpi .sge (broadcastInDim S4194304x1 ![0] bcast_S4194304_S4194304x1_0 (WRAP (F := F) (Cert.ReferenceIdeal.ReadP.val_main_v78 (F := F) (inp0 m c) (inp1 m c) (inp2 m c)))) (broadcastInDim S4194304x1 ![] bcast_S_S4194304x1 (constantI S_ 32 0#32)))
            (cmpi .sle (broadcastInDim S4194304x1 ![0] bcast_S4194304_S4194304x1_0 (WRAP (F := F) (Cert.ReferenceIdeal.ReadP.val_main_v78 (F := F) (inp0 m c) (inp1 m c) (inp2 m c)))) (broadcastInDim S4194304x1 ![0, 1] bcast_S1x1_S4194304x1_0_1 (broadcastInDim S1x1 ![1] bcast_S1_S1x1_1 (constantI S1 32 4095999#32)))))
      (constantI S_ 1 1#1) reducesTo_S4194304x1_S4194304_d1 h_S_) := by
  rw [Tc1_eq]; simp only [hostOps0_7, List.take_succ_cons, List.take_zero, List.drop_succ_cons, List.drop_zero]; after_results_simp
  exact Tb1_mask m c

theorem Tc1_gath : Tc1 m c (Proc.devRef .tc main_call3_v13) = (Host.gather gather_S4x4096000_S4194304x1_S4x4194304_0_1_n_n_1_1_41 (GF4 (F := F) (inp3 m c) (inp4 m c)) (broadcastInDim S4194304x1 ![0] bcast_S4194304_S4194304x1_0 (WRAP (F := F) (Cert.ReferenceIdeal.ReadP.val_main_v78 (F := F) (inp0 m c) (inp1 m c) (inp2 m c))))) := by
  rw [Tc1_eq]; simp only [hostOps0_7, List.take_succ_cons, List.take_zero, List.drop_succ_cons, List.drop_zero]; after_results_simp
  rw [Tb1_tab, Tb1_idx]; strip_casts

theorem W8_v88 : Wn m c 8 (Proc.devRef .tc main_v88) = TAKE (F := F) (GF4 (F := F) (inp3 m c) (inp4 m c)) (Cert.ReferenceIdeal.ReadP.val_main_v78 (F := F) (inp0 m c) (inp1 m c) (inp2 m c)) := by
  rw [Wn8_eq]; simp only [hostOps0_7, List.drop_succ_cons, List.drop_zero]; after_results_simp
  rw [Tc1_mask, Tc1_gath]; strip_casts
  unfold TAKE; rfl

/-! ### Lookup 2 (stretch 9) -/

/-- The contents after the stretch's first 8, 18, 19 operations: the wrapped index column; the in-range mask; the gathered columns. -/
def Ta2 : Valuation τ sig (Elt F) := after ((hostOps0_9 (F := F)).take 8) (Wn m c 9)
def Tb2 : Valuation τ sig (Elt F) := after ((hostOps0_9 (F := F)).take 18) (Wn m c 9)
def Tc2 : Valuation τ sig (Elt F) := after ((hostOps0_9 (F := F)).take 19) (Wn m c 9)

theorem Tb2_eq : Tb2 m c = after (((hostOps0_9 (F := F)).take 18).drop 8) (Ta2 m c) := after_take_take _ 8 18 (by decide) _
theorem Tc2_eq : Tc2 m c = after (((hostOps0_9 (F := F)).take 19).drop 18) (Tb2 m c) := after_take_take _ 18 19 (by decide) _
theorem Wn10_eq : Wn m c 10 = after ((hostOps0_9 (F := F)).drop 19) (Tc2 m c) := by
  rw [Wn_10, after_split _ 19]; rfl

theorem Ta2_idx : Ta2 m c (Proc.devRef .tc main_call4_v5) = (broadcastInDim S4194304x1 ![0] bcast_S4194304_S4194304x1_0 (WRAP (F := F) (Cert.ReferenceIdeal.ReadP.val_main_v96 (F := F) (inp0 m c) (inp1 m c) (inp2 m c)))) := by
  unfold Ta2; simp only [hostOps0_9, List.take_succ_cons, List.take_zero]; after_results_simp
  rw [W9_v94]; simp only [TRef.ofBuf, TRef.toBuf, cast_eq]
  unfold WRAP; rfl

theorem Ta2_tab : Ta2 m c (Proc.devRef .tc main_v74) = (GF4 (F := F) (inp3 m c) (inp4 m c)) := by
  unfold Ta2; simp only [hostOps0_9, List.take_succ_cons, List.take_zero]; after_results_simp
  exact (Wn_keep m c 5 9 (by decide) (by decide) (r := main_v74)).trans (W5_v74 m c)

theorem Tb2_idx : Tb2 m c (Proc.devRef .tc main_call4_v5) = (broadcastInDim S4194304x1 ![0] bcast_S4194304_S4194304x1_0 (WRAP (F := F) (Cert.ReferenceIdeal.ReadP.val_main_v96 (F := F) (inp0 m c) (inp1 m c) (inp2 m c)))) := by
  rw [Tb2_eq]; simp only [hostOps0_9, List.take_succ_cons, List.take_zero, List.drop_succ_cons, List.drop_zero]; after_results_simp
  exact Ta2_idx m c

theorem Tb2_tab : Tb2 m c (Proc.devRef .tc main_v74) = (GF4 (F := F) (inp3 m c) (inp4 m c)) := by
  rw [Tb2_eq]; simp only [hostOps0_9, List.take_succ_cons, List.take_zero, List.drop_succ_cons, List.drop_zero]; after_results_simp
  exact Ta2_tab m c

theorem Tb2_mask : Tb2 m c (Proc.devRef .tc main_call4_v12) = (Host.reduce IntOp.andi
      (andi (cmpi .sge (broadcastInDim S4194304x1 ![0] bcast_S4194304_S4194304x1_0 (WRAP (F := F) (Cert.ReferenceIdeal.ReadP.val_main_v96 (F := F) (inp0 m c) (inp1 m c) (inp2 m c)))) (broadcastInDim S4194304x1 ![] bcast_S_S4194304x1 (constantI S_ 32 0#32)))
            (cmpi .sle (broadcastInDim S4194304x1 ![0] bcast_S4194304_S4194304x1_0 (WRAP (F := F) (Cert.ReferenceIdeal.ReadP.val_main_v96 (F := F) (inp0 m c) (inp1 m c) (inp2 m c)))) (broadcastInDim S4194304x1 ![0, 1] bcast_S1x1_S4194304x1_0_1 (broadcastInDim S1x1 ![1] bcast_S1_S1x1_1 (constantI S1 32 4095999#32)))))
      (constantI S_ 1 1#1) reducesTo_S4194304x1_S4194304_d1 h_S_) := by
  rw [Tb2_eq]; simp only [hostOps0_9, List.take_succ_cons, List.take_zero, List.drop_succ_cons, List.drop_zero]; after_results_simp
  rw [Ta2_idx]; simp only [TRef.ofBuf, TRef.toBuf, cast_eq]

theorem Tc2_mask : Tc2 m c (Proc.devRef .tc main_call4_v12) = (Host.reduce IntOp.andi
      (andi (cmpi .sge (broadcastInDim S4194304x1 ![0] bcast_S4194304_S4194304x1_0 (WRAP (F := F) (Cert.ReferenceIdeal.ReadP.val_main_v96 (F := F) (inp0 m c) (inp1 m c) (inp2 m c)))) (broadcastInDim S4194304x1 ![] bcast_S_S4194304x1 (constantI S_ 32 0#32)))
            (cmpi .sle (broadcastInDim S4194304x1 ![0] bcast_S4194304_S4194304x1_0 (WRAP (F := F) (Cert.ReferenceIdeal.ReadP.val_main_v96 (F := F) (inp0 m c) (inp1 m c) (inp2 m c)))) (broadcastInDim S4194304x1 ![0, 1] bcast_S1x1_S4194304x1_0_1 (broadcastInDim S1x1 ![1] bcast_S1_S1x1_1 (constantI S1 32 4095999#32)))))
      (constantI S_ 1 1#1) reducesTo_S4194304x1_S4194304_d1 h_S_) := by
  rw [Tc2_eq]; simp only [hostOps0_9, List.take_succ_cons, List.take_zero, List.drop_succ_cons, List.drop_zero]; after_results_simp
  exact Tb2_mask m c

theorem Tc2_gath : Tc2 m c (Proc.devRef .tc main_call4_v13) = (Host.gather gather_S4x4096000_S4194304x1_S4x4194304_0_1_n_n_1_1_41 (GF4 (F := F) (inp3 m c) (inp4 m c)) (broadcastInDim S4194304x1 ![0] bcast_S4194304_S4194304x1_0 (WRAP (F := F) (Cert.ReferenceIdeal.ReadP.val_main_v96 (F := F) (inp0 m c) (inp1 m c) (inp2 m c))))) := by
  rw [Tc2_eq]; simp only [hostOps0_9, List.take_succ_cons, List.take_zero, List.drop_succ_cons, List.drop_zero]; after_results_simp
  rw [Tb2_tab, Tb2_idx]; strip_casts

theorem W10_v95 : Wn m c 10 (Proc.devRef .tc main_v95) = TAKE (F := F) (GF4 (F := F) (inp3 m c) (inp4 m c)) (Cert.ReferenceIdeal.ReadP.val_main_v96 (F := F) (inp0 m c) (inp1 m c) (inp2 m c)) := by
  rw [Wn10_eq]; simp only [hostOps0_9, List.drop_succ_cons, List.drop_zero]; after_results_simp
  rw [Tc2_mask, Tc2_gath]; strip_casts
  unfold TAKE; rfl

/-! ### Lookup 3 (stretch 11) -/

/-- The contents after the stretch's first 8, 18, 19 operations: the wrapped index column; the in-range mask; the gathered columns. -/
def Ta3 : Valuation τ sig (Elt F) := after ((hostOps0_11 (F := F)).take 8) (Wn m c 11)
def Tb3 : Valuation τ sig (Elt F) := after ((hostOps0_11 (F := F)).take 18) (Wn m c 11)
def Tc3 : Valuation τ sig (Elt F) := after ((hostOps0_11 (F := F)).take 19) (Wn m c 11)

theorem Tb3_eq : Tb3 m c = after (((hostOps0_11 (F := F)).take 18).drop 8) (Ta3 m c) := after_take_take _ 8 18 (by decide) _
theorem Tc3_eq : Tc3 m c = after (((hostOps0_11 (F := F)).take 19).drop 18) (Tb3 m c) := after_take_take _ 18 19 (by decide) _
theorem Wn12_eq : Wn m c 12 = after ((hostOps0_11 (F := F)).drop 19) (Tc3 m c) := by
  rw [Wn_12, after_split _ 19]; rfl

theorem Ta3_idx : Ta3 m c (Proc.devRef .tc main_call5_v5) = (broadcastInDim S4194304x1 ![0] bcast_S4194304_S4194304x1_0 (WRAP (F := F) (Cert.ReferenceIdeal.ReadP.val_main_v114 (F := F) (inp0 m c) (inp1 m c) (inp2 m c)))) := by
  unfold Ta3; simp only [hostOps0_11, List.take_succ_cons, List.take_zero]; after_results_simp
  rw [W11_v101]; simp only [TRef.ofBuf, TRef.toBuf, cast_eq]
  unfold WRAP; rfl

theorem Ta3_tab : Ta3 m c (Proc.devRef .tc main_v74) = (GF4 (F := F) (inp3 m c) (inp4 m c)) := by
  unfold Ta3; simp only [hostOps0_11, List.take_succ_cons, List.take_zero]; after_results_simp
  exact (Wn_keep m c 5 11 (by decide) (by decide) (r := main_v74)).trans (W5_v74 m c)

theorem Tb3_idx : Tb3 m c (Proc.devRef .tc main_call5_v5) = (broadcastInDim S4194304x1 ![0] bcast_S4194304_S4194304x1_0 (WRAP (F := F) (Cert.ReferenceIdeal.ReadP.val_main_v114 (F := F) (inp0 m c) (inp1 m c) (inp2 m c)))) := by
  rw [Tb3_eq]; simp only [hostOps0_11, List.take_succ_cons, List.take_zero, List.drop_succ_cons, List.drop_zero]; after_results_simp
  exact Ta3_idx m c

theorem Tb3_tab : Tb3 m c (Proc.devRef .tc main_v74) = (GF4 (F := F) (inp3 m c) (inp4 m c)) := by
  rw [Tb3_eq]; simp only [hostOps0_11, List.take_succ_cons, List.take_zero, List.drop_succ_cons, List.drop_zero]; after_results_simp
  exact Ta3_tab m c

theorem Tb3_mask : Tb3 m c (Proc.devRef .tc main_call5_v12) = (Host.reduce IntOp.andi
      (andi (cmpi .sge (broadcastInDim S4194304x1 ![0] bcast_S4194304_S4194304x1_0 (WRAP (F := F) (Cert.ReferenceIdeal.ReadP.val_main_v114 (F := F) (inp0 m c) (inp1 m c) (inp2 m c)))) (broadcastInDim S4194304x1 ![] bcast_S_S4194304x1 (constantI S_ 32 0#32)))
            (cmpi .sle (broadcastInDim S4194304x1 ![0] bcast_S4194304_S4194304x1_0 (WRAP (F := F) (Cert.ReferenceIdeal.ReadP.val_main_v114 (F := F) (inp0 m c) (inp1 m c) (inp2 m c)))) (broadcastInDim S4194304x1 ![0, 1] bcast_S1x1_S4194304x1_0_1 (broadcastInDim S1x1 ![1] bcast_S1_S1x1_1 (constantI S1 32 4095999#32)))))
      (constantI S_ 1 1#1) reducesTo_S4194304x1_S4194304_d1 h_S_) := by
  rw [Tb3_eq]; simp only [hostOps0_11, List.take_succ_cons, List.take_zero, List.drop_succ_cons, List.drop_zero]; after_results_simp
  rw [Ta3_idx]; simp only [TRef.ofBuf, TRef.toBuf, cast_eq]

theorem Tc3_mask : Tc3 m c (Proc.devRef .tc main_call5_v12) = (Host.reduce IntOp.andi
      (andi (cmpi .sge (broadcastInDim S4194304x1 ![0] bcast_S4194304_S4194304x1_0 (WRAP (F := F) (Cert.ReferenceIdeal.ReadP.val_main_v114 (F := F) (inp0 m c) (inp1 m c) (inp2 m c)))) (broadcastInDim S4194304x1 ![] bcast_S_S4194304x1 (constantI S_ 32 0#32)))
            (cmpi .sle (broadcastInDim S4194304x1 ![0] bcast_S4194304_S4194304x1_0 (WRAP (F := F) (Cert.ReferenceIdeal.ReadP.val_main_v114 (F := F) (inp0 m c) (inp1 m c) (inp2 m c)))) (broadcastInDim S4194304x1 ![0, 1] bcast_S1x1_S4194304x1_0_1 (broadcastInDim S1x1 ![1] bcast_S1_S1x1_1 (constantI S1 32 4095999#32)))))
      (constantI S_ 1 1#1) reducesTo_S4194304x1_S4194304_d1 h_S_) := by
  rw [Tc3_eq]; simp only [hostOps0_11, List.take_succ_cons, List.take_zero, List.drop_succ_cons, List.drop_zero]; after_results_simp
  exact Tb3_mask m c

theorem Tc3_gath : Tc3 m c (Proc.devRef .tc main_call5_v13) = (Host.gather gather_S4x4096000_S4194304x1_S4x4194304_0_1_n_n_1_1_41 (GF4 (F := F) (inp3 m c) (inp4 m c)) (broadcastInDim S4194304x1 ![0] bcast_S4194304_S4194304x1_0 (WRAP (F := F) (Cert.ReferenceIdeal.ReadP.val_main_v114 (F := F) (inp0 m c) (inp1 m c) (inp2 m c))))) := by
  rw [Tc3_eq]; simp only [hostOps0_11, List.take_succ_cons, List.take_zero, List.drop_succ_cons, List.drop_zero]; after_results_simp
  rw [Tb3_tab, Tb3_idx]; strip_casts

theorem W12_v102 : Wn m c 12 (Proc.devRef .tc main_v102) = TAKE (F := F) (GF4 (F := F) (inp3 m c) (inp4 m c)) (Cert.ReferenceIdeal.ReadP.val_main_v114 (F := F) (inp0 m c) (inp1 m c) (inp2 m c)) := by
  rw [Wn12_eq]; simp only [hostOps0_11, List.drop_succ_cons, List.drop_zero]; after_results_simp
  rw [Tc3_mask, Tc3_gath]; strip_casts
  unfold TAKE; rfl

/-! ### Lookup 4 (stretch 13) -/

/-- The contents after the stretch's first 8, 18, 19 operations: the wrapped index column; the in-range mask; the gathered columns. -/
def Ta4 : Valuation τ sig (Elt F) := after ((hostOps0_13 (F := F)).take 8) (Wn m c 13)
def Tb4 : Valuation τ sig (Elt F) := after ((hostOps0_13 (F := F)).take 18) (Wn m c 13)
def Tc4 : Valuation τ sig (Elt F) := after ((hostOps0_13 (F := F)).take 19) (Wn m c 13)

theorem Tb4_eq : Tb4 m c = after (((hostOps0_13 (F := F)).take 18).drop 8) (Ta4 m c) := after_take_take _ 8 18 (by decide) _
theorem Tc4_eq : Tc4 m c = after (((hostOps0_13 (F := F)).take 19).drop 18) (Tb4 m c) := after_take_take _ 18 19 (by decide) _
theorem Wn14_eq : Wn m c 14 = after ((hostOps0_13 (F := F)).drop 19) (Tc4 m c) := by
  rw [Wn_14, after_split _ 19]; rfl

theorem Ta4_idx : Ta4 m c (Proc.devRef .tc main_call6_v5) = (broadcastInDim S4194304x1 ![0] bcast_S4194304_S4194304x1_0 (WRAP (F := F) (Cert.ReferenceIdeal.ReadP.val_main_v132 (F := F) (inp0 m c) (inp1 m c) (inp2 m c)))) := by
  unfold Ta4; simp only [hostOps0_13, List.take_succ_cons, List.take_zero]; after_results_simp
  rw [W13_v108]; simp only [TRef.ofBuf, TRef.toBuf, cast_eq]
  unfold WRAP; rfl

theorem Ta4_tab : Ta4 m c (Proc.devRef .tc main_v74) = (GF4 (F := F) (inp3 m c) (inp4 m c)) := by
  unfold Ta4; simp only [hostOps0_13, List.take_succ_cons, List.take_zero]; after_results_simp
  exact (Wn_keep m c 5 13 (by decide) (by decide) (r := main_v74)).trans (W5_v74 m c)

theorem Tb4_idx : Tb4 m c (Proc.devRef .tc main_call6_v5) = (broadcastInDim S4194304x1 ![0] bcast_S4194304_S4194304x1_0 (WRAP (F := F) (Cert.ReferenceIdeal.ReadP.val_main_v132 (F := F) (inp0 m c) (inp1 m c) (inp2 m c)))) := by
  rw [Tb4_eq]; simp only [hostOps0_13, List.take_succ_cons, List.take_zero, List.drop_succ_cons, List.drop_zero]; after_results_simp
  exact Ta4_idx m c

theorem Tb4_tab : Tb4 m c (Proc.devRef .tc main_v74) = (GF4 (F := F) (inp3 m c) (inp4 m c)) := by
  rw [Tb4_eq]; simp only [hostOps0_13, List.take_succ_cons, List.take_zero, List.drop_succ_cons, List.drop_zero]; after_results_simp
  exact Ta4_tab m c

theorem Tb4_mask : Tb4 m c (Proc.devRef .tc main_call6_v12) = (Host.reduce IntOp.andi
      (andi (cmpi .sge (broadcastInDim S4194304x1 ![0] bcast_S4194304_S4194304x1_0 (WRAP (F := F) (Cert.ReferenceIdeal.ReadP.val_main_v132 (F := F) (inp0 m c) (inp1 m c) (inp2 m c)))) (broadcastInDim S4194304x1 ![] bcast_S_S4194304x1 (constantI S_ 32 0#32)))
            (cmpi .sle (broadcastInDim S4194304x1 ![0] bcast_S4194304_S4194304x1_0 (WRAP (F := F) (Cert.ReferenceIdeal.ReadP.val_main_v132 (F := F) (inp0 m c) (inp1 m c) (inp2 m c)))) (broadcastInDim S4194304x1 ![0, 1] bcast_S1x1_S4194304x1_0_1 (broadcastInDim S1x1 ![1] bcast_S1_S1x1_1 (constantI S1 32 4095999#32)))))
      (constantI S_ 1 1#1) reducesTo_S4194304x1_S4194304_d1 h_S_) := by
  rw [Tb4_eq]; simp only [hostOps0_13, List.take_succ_cons, List.take_zero, List.drop_succ_cons, List.drop_zero]; after_results_simp
  rw [Ta4_idx]; simp only [TRef.ofBuf, TRef.toBuf, cast_eq]

theorem Tc4_mask : Tc4 m c (Proc.devRef .tc main_call6_v12) = (Host.reduce IntOp.andi
      (andi (cmpi .sge (broadcastInDim S4194304x1 ![0] bcast_S4194304_S4194304x1_0 (WRAP (F := F) (Cert.ReferenceIdeal.ReadP.val_main_v132 (F := F) (inp0 m c) (inp1 m c) (inp2 m c)))) (broadcastInDim S4194304x1 ![] bcast_S_S4194304x1 (constantI S_ 32 0#32)))
            (cmpi .sle (broadcastInDim S4194304x1 ![0] bcast_S4194304_S4194304x1_0 (WRAP (F := F) (Cert.ReferenceIdeal.ReadP.val_main_v132 (F := F) (inp0 m c) (inp1 m c) (inp2 m c)))) (broadcastInDim S4194304x1 ![0, 1] bcast_S1x1_S4194304x1_0_1 (broadcastInDim S1x1 ![1] bcast_S1_S1x1_1 (constantI S1 32 4095999#32)))))
      (constantI S_ 1 1#1) reducesTo_S4194304x1_S4194304_d1 h_S_) := by
  rw [Tc4_eq]; simp only [hostOps0_13, List.take_succ_cons, List.take_zero, List.drop_succ_cons, List.drop_zero]; after_results_simp
  exact Tb4_mask m c

theorem Tc4_gath : Tc4 m c (Proc.devRef .tc main_call6_v13) = (Host.gather gather_S4x4096000_S4194304x1_S4x4194304_0_1_n_n_1_1_41 (GF4 (F := F) (inp3 m c) (inp4 m c)) (broadcastInDim S4194304x1 ![0] bcast_S4194304_S4194304x1_0 (WRAP (F := F) (Cert.ReferenceIdeal.ReadP.val_main_v132 (F := F) (inp0 m c) (inp1 m c) (inp2 m c))))) := by
  rw [Tc4_eq]; simp only [hostOps0_13, List.take_succ_cons, List.take_zero, List.drop_succ_cons, List.drop_zero]; after_results_simp
  rw [Tb4_tab, Tb4_idx]; strip_casts

theorem W14_v109 : Wn m c 14 (Proc.devRef .tc main_v109) = TAKE (F := F) (GF4 (F := F) (inp3 m c) (inp4 m c)) (Cert.ReferenceIdeal.ReadP.val_main_v132 (F := F) (inp0 m c) (inp1 m c) (inp2 m c)) := by
  rw [Wn14_eq]; simp only [hostOps0_13, List.drop_succ_cons, List.drop_zero]; after_results_simp
  rw [Tc4_mask, Tc4_gath]; strip_casts
  unfold TAKE; rfl

/-! ### Lookup 5 (stretch 15) -/

/-- The contents after the stretch's first 8, 18, 19 operations: the wrapped index column; the in-range mask; the gathered columns. -/
def Ta5 : Valuation τ sig (Elt F) := after ((hostOps0_15 (F := F)).take 8) (Wn m c 15)
def Tb5 : Valuation τ sig (Elt F) := after ((hostOps0_15 (F := F)).take 18) (Wn m c 15)
def Tc5 : Valuation τ sig (Elt F) := after ((hostOps0_15 (F := F)).take 19) (Wn m c 15)

theorem Tb5_eq : Tb5 m c = after (((hostOps0_15 (F := F)).take 18).drop 8) (Ta5 m c) := after_take_take _ 8 18 (by decide) _
theorem Tc5_eq : Tc5 m c = after (((hostOps0_15 (F := F)).take 19).drop 18) (Tb5 m c) := after_take_take _ 18 19 (by decide) _
theorem Wn16_eq : Wn m c 16 = after ((hostOps0_15 (F := F)).drop 19) (Tc5 m c) := by
  rw [Wn_16, after_split _ 19]; rfl

theorem Ta5_idx : Ta5 m c (Proc.devRef .tc main_call7_v5) = (broadcastInDim S4194304x1 ![0] bcast_S4194304_S4194304x1_0 (WRAP (F := F) (Cert.ReferenceIdeal.ReadP.val_main_v150 (F := F) (inp0 m c) (inp1 m c) (inp2 m c)))) := by
  unfold Ta5; simp only [hostOps0_15, List.take_succ_cons, List.take_zero]; after_results_simp
  rw [W15_v115]; simp only [TRef.ofBuf, TRef.toBuf, cast_eq]
  unfold WRAP; rfl

theorem Ta5_tab : Ta5 m c (Proc.devRef .tc main_v74) = (GF4 (F := F) (inp3 m c) (inp4 m c)) := by
  unfold Ta5; simp only [hostOps0_15, List.take_succ_cons, List.take_zero]; after_results_simp
  exact (Wn_keep m c 5 15 (by decide) (by decide) (r := main_v74)).trans (W5_v74 m c)

theorem Tb5_idx : Tb5 m c (Proc.devRef .tc main_call7_v5) = (broadcastInDim S4194304x1 ![0] bcast_S4194304_S4194304x1_0 (WRAP (F := F) (Cert.ReferenceIdeal.ReadP.val_main_v150 (F := F) (inp0 m c) (inp1 m c) (inp2 m c)))) := by
  rw [Tb5_eq]; simp only [hostOps0_15, List.take_succ_cons, List.take_zero, List.drop_succ_cons, List.drop_zero]; after_results_simp
  exact Ta5_idx m c

theorem Tb5_tab : Tb5 m c (Proc.devRef .tc main_v74) = (GF4 (F := F) (inp3 m c) (inp4 m c)) := by
  rw [Tb5_eq]; simp only [hostOps0_15, List.take_succ_cons, List.take_zero, List.drop_succ_cons, List.drop_zero]; after_results_simp
  exact Ta5_tab m c

theorem Tb5_mask : Tb5 m c (Proc.devRef .tc main_call7_v12) = (Host.reduce IntOp.andi
      (andi (cmpi .sge (broadcastInDim S4194304x1 ![0] bcast_S4194304_S4194304x1_0 (WRAP (F := F) (Cert.ReferenceIdeal.ReadP.val_main_v150 (F := F) (inp0 m c) (inp1 m c) (inp2 m c)))) (broadcastInDim S4194304x1 ![] bcast_S_S4194304x1 (constantI S_ 32 0#32)))
            (cmpi .sle (broadcastInDim S4194304x1 ![0] bcast_S4194304_S4194304x1_0 (WRAP (F := F) (Cert.ReferenceIdeal.ReadP.val_main_v150 (F := F) (inp0 m c) (inp1 m c) (inp2 m c)))) (broadcastInDim S4194304x1 ![0, 1] bcast_S1x1_S4194304x1_0_1 (broadcastInDim S1x1 ![1] bcast_S1_S1x1_1 (constantI S1 32 4095999#32)))))
      (constantI S_ 1 1#1) reducesTo_S4194304x1_S4194304_d1 h_S_) := by
  rw [Tb5_eq]; simp only [hostOps0_15, List.take_succ_cons, List.take_zero, List.drop_succ_cons, List.drop_zero]; after_results_simp
  rw [Ta5_idx]; simp only [TRef.ofBuf, TRef.toBuf, cast_eq]

theorem Tc5_mask : Tc5 m c (Proc.devRef .tc main_call7_v12) = (Host.reduce IntOp.andi
      (andi (cmpi .sge (broadcastInDim S4194304x1 ![0] bcast_S4194304_S4194304x1_0 (WRAP (F := F) (Cert.ReferenceIdeal.ReadP.val_main_v150 (F := F) (inp0 m c) (inp1 m c) (inp2 m c)))) (broadcastInDim S4194304x1 ![] bcast_S_S4194304x1 (constantI S_ 32 0#32)))
            (cmpi .sle (broadcastInDim S4194304x1 ![0] bcast_S4194304_S4194304x1_0 (WRAP (F := F) (Cert.ReferenceIdeal.ReadP.val_main_v150 (F := F) (inp0 m c) (inp1 m c) (inp2 m c)))) (broadcastInDim S4194304x1 ![0, 1] bcast_S1x1_S4194304x1_0_1 (broadcastInDim S1x1 ![1] bcast_S1_S1x1_1 (constantI S1 32 4095999#32)))))
      (constantI S_ 1 1#1) reducesTo_S4194304x1_S4194304_d1 h_S_) := by
  rw [Tc5_eq]; simp only [hostOps0_15, List.take_succ_cons, List.take_zero, List.drop_succ_cons, List.drop_zero]; after_results_simp
  exact Tb5_mask m c

theorem Tc5_gath : Tc5 m c (Proc.devRef .tc main_call7_v13) = (Host.gather gather_S4x4096000_S4194304x1_S4x4194304_0_1_n_n_1_1_41 (GF4 (F := F) (inp3 m c) (inp4 m c)) (broadcastInDim S4194304x1 ![0] bcast_S4194304_S4194304x1_0 (WRAP (F := F) (Cert.ReferenceIdeal.ReadP.val_main_v150 (F := F) (inp0 m c) (inp1 m c) (inp2 m c))))) := by
  rw [Tc5_eq]; simp only [hostOps0_15, List.take_succ_cons, List.take_zero, List.drop_succ_cons, List.drop_zero]; after_results_simp
  rw [Tb5_tab, Tb5_idx]; strip_casts

theorem W16_v116 : Wn m c 16 (Proc.devRef .tc main_v116) = TAKE (F := F) (GF4 (F := F) (inp3 m c) (inp4 m c)) (Cert.ReferenceIdeal.ReadP.val_main_v150 (F := F) (inp0 m c) (inp1 m c) (inp2 m c)) := by
  rw [Wn16_eq]; simp only [hostOps0_15, List.drop_succ_cons, List.drop_zero]; after_results_simp
  rw [Tc5_mask, Tc5_gath]; strip_casts
  unfold TAKE; rfl

/-! ### Lookup 6 (stretch 17) -/

/-- The contents after the stretch's first 8, 18, 19 operations: the wrapped index column; the in-range mask; the gathered columns. -/
def Ta6 : Valuation τ sig (Elt F) := after ((hostOps0_17 (F := F)).take 8) (Wn m c 17)
def Tb6 : Valuation τ sig (Elt F) := after ((hostOps0_17 (F := F)).take 18) (Wn m c 17)
def Tc6 : Valuation τ sig (Elt F) := after ((hostOps0_17 (F := F)).take 19) (Wn m c 17)

theorem Tb6_eq : Tb6 m c = after (((hostOps0_17 (F := F)).take 18).drop 8) (Ta6 m c) := after_take_take _ 8 18 (by decide) _
theorem Tc6_eq : Tc6 m c = after (((hostOps0_17 (F := F)).take 19).drop 18) (Tb6 m c) := after_take_take _ 18 19 (by decide) _
theorem Wn18_eq : Wn m c 18 = after ((hostOps0_17 (F := F)).drop 19) (Tc6 m c) := by
  rw [Wn_18, after_split _ 19]; rfl

theorem Ta6_idx : Ta6 m c (Proc.devRef .tc main_call8_v5) = (broadcastInDim S4194304x1 ![0] bcast_S4194304_S4194304x1_0 (WRAP (F := F) (Cert.ReferenceIdeal.ReadP.val_main_v168 (F := F) (inp0 m c) (inp1 m c) (inp2 m c)))) := by
  unfold Ta6; simp only [hostOps0_17, List.take_succ_cons, List.take_zero]; after_results_simp
  rw [W17_v122]; simp only [TRef.ofBuf, TRef.toBuf, cast_eq]
  unfold WRAP; rfl

theorem Ta6_tab : Ta6 m c (Proc.devRef .tc main_v74) = (GF4 (F := F) (inp3 m c) (inp4 m c)) := by
  unfold Ta6; simp only [hostOps0_17, List.take_succ_cons, List.take_zero]; after_results_simp
  exact (Wn_keep m c 5 17 (by decide) (by decide) (r := main_v74)).trans (W5_v74 m c)

theorem Tb6_idx : Tb6 m c (Proc.devRef .tc main_call8_v5) = (broadcastInDim S4194304x1 ![0] bcast_S4194304_S4194304x1_0 (WRAP (F := F) (Cert.ReferenceIdeal.ReadP.val_main_v168 (F := F) (inp0 m c) (inp1 m c) (inp2 m c)))) := by
  rw [Tb6_eq]; simp only [hostOps0_17, List.take_succ_cons, List.take_zero, List.drop_succ_cons, List.drop_zero]; after_results_simp
  exact Ta6_idx m c

theorem Tb6_tab : Tb6 m c (Proc.devRef .tc main_v74) = (GF4 (F := F) (inp3 m c) (inp4 m c)) := by
  rw [Tb6_eq]; simp only [hostOps0_17, List.take_succ_cons, List.take_zero, List.drop_succ_cons, List.drop_zero]; after_results_simp
  exact Ta6_tab m c

theorem Tb6_mask : Tb6 m c (Proc.devRef .tc main_call8_v12) = (Host.reduce IntOp.andi
      (andi (cmpi .sge (broadcastInDim S4194304x1 ![0] bcast_S4194304_S4194304x1_0 (WRAP (F := F) (Cert.ReferenceIdeal.ReadP.val_main_v168 (F := F) (inp0 m c) (inp1 m c) (inp2 m c)))) (broadcastInDim S4194304x1 ![] bcast_S_S4194304x1 (constantI S_ 32 0#32)))
            (cmpi .sle (broadcastInDim S4194304x1 ![0] bcast_S4194304_S4194304x1_0 (WRAP (F := F) (Cert.ReferenceIdeal.ReadP.val_main_v168 (F := F) (inp0 m c) (inp1 m c) (inp2 m c)))) (broadcastInDim S4194304x1 ![0, 1] bcast_S1x1_S4194304x1_0_1 (broadcastInDim S1x1 ![1] bcast_S1_S1x1_1 (constantI S1 32 4095999#32)))))
      (constantI S_ 1 1#1) reducesTo_S4194304x1_S4194304_d1 h_S_) := by
  rw [Tb6_eq]; simp only [hostOps0_17, List.take_succ_cons, List.take_zero, List.drop_succ_cons, List.drop_zero]; after_results_simp
  rw [Ta6_idx]; simp only [TRef.ofBuf, TRef.toBuf, cast_eq]

theorem Tc6_mask : Tc6 m c (Proc.devRef .tc main_call8_v12) = (Host.reduce IntOp.andi
      (andi (cmpi .sge (broadcastInDim S4194304x1 ![0] bcast_S4194304_S4194304x1_0 (WRAP (F := F) (Cert.ReferenceIdeal.ReadP.val_main_v168 (F := F) (inp0 m c) (inp1 m c) (inp2 m c)))) (broadcastInDim S4194304x1 ![] bcast_S_S4194304x1 (constantI S_ 32 0#32)))
            (cmpi .sle (broadcastInDim S4194304x1 ![0] bcast_S4194304_S4194304x1_0 (WRAP (F := F) (Cert.ReferenceIdeal.ReadP.val_main_v168 (F := F) (inp0 m c) (inp1 m c) (inp2 m c)))) (broadcastInDim S4194304x1 ![0, 1] bcast_S1x1_S4194304x1_0_1 (broadcastInDim S1x1 ![1] bcast_S1_S1x1_1 (constantI S1 32 4095999#32)))))
      (constantI S_ 1 1#1) reducesTo_S4194304x1_S4194304_d1 h_S_) := by
  rw [Tc6_eq]; simp only [hostOps0_17, List.take_succ_cons, List.take_zero, List.drop_succ_cons, List.drop_zero]; after_results_simp
  exact Tb6_mask m c

theorem Tc6_gath : Tc6 m c (Proc.devRef .tc main_call8_v13) = (Host.gather gather_S4x4096000_S4194304x1_S4x4194304_0_1_n_n_1_1_41 (GF4 (F := F) (inp3 m c) (inp4 m c)) (broadcastInDim S4194304x1 ![0] bcast_S4194304_S4194304x1_0 (WRAP (F := F) (Cert.ReferenceIdeal.ReadP.val_main_v168 (F := F) (inp0 m c) (inp1 m c) (inp2 m c))))) := by
  rw [Tc6_eq]; simp only [hostOps0_17, List.take_succ_cons, List.take_zero, List.drop_succ_cons, List.drop_zero]; after_results_simp
  rw [Tb6_tab, Tb6_idx]; strip_casts

theorem W18_v123 : Wn m c 18 (Proc.devRef .tc main_v123) = TAKE (F := F) (GF4 (F := F) (inp3 m c) (inp4 m c)) (Cert.ReferenceIdeal.ReadP.val_main_v168 (F := F) (inp0 m c) (inp1 m c) (inp2 m c)) := by
  rw [Wn18_eq]; simp only [hostOps0_17, List.drop_succ_cons, List.drop_zero]; after_results_simp
  rw [Tc6_mask, Tc6_gath]; strip_casts
  unfold TAKE; rfl

/-! ### Lookup 7 (stretch 19) -/

/-- The contents after the stretch's first 8, 18, 19 operations: the wrapped index column; the in-range mask; the gathered columns. -/
def Ta7 : Valuation τ sig (Elt F) := after ((hostOps0_19 (F := F)).take 8) (Wn m c 19)
def Tb7 : Valuation τ sig (Elt F) := after ((hostOps0_19 (F := F)).take 18) (Wn m c 19)
def Tc7 : Valuation τ sig (Elt F) := after ((hostOps0_19 (F := F)).take 19) (Wn m c 19)

theorem Tb7_eq : Tb7 m c = after (((hostOps0_19 (F := F)).take 18).drop 8) (Ta7 m c) := after_take_take _ 8 18 (by decide) _
theorem Tc7_eq : Tc7 m c = after (((hostOps0_19 (F := F)).take 19).drop 18) (Tb7 m c) := after_take_take _ 18 19 (by decide) _
theorem Wn20_eq : Wn m c 20 = after ((hostOps0_19 (F := F)).drop 19) (Tc7 m c) := by
  rw [Wn_20, after_split _ 19]; rfl

theorem Ta7_idx : Ta7 m c (Proc.devRef .tc main_call9_v5) = (broadcastInDim S4194304x1 ![0] bcast_S4194304_S4194304x1_0 (WRAP (F := F) (Cert.ReferenceIdeal.ReadP.val_main_v186 (F := F) (inp0 m c) (inp1 m c) (inp2 m c)))) := by
  unfold Ta7; simp only [hostOps0_19, List.take_succ_cons, List.take_zero]; after_results_simp
  rw [W19_v129]; simp only [TRef.ofBuf, TRef.toBuf, cast_eq]
  unfold WRAP; rfl

theorem Ta7_tab : Ta7 m c (Proc.devRef .tc main_v74) = (GF4 (F := F) (inp3 m c) (inp4 m c)) := by
  unfold Ta7; simp only [hostOps0_19, List.take_succ_cons, List.take_zero]; after_results_simp
  exact (Wn_keep m c 5 19 (by decide) (by decide) (r := main_v74)).trans (W5_v74 m c)

theorem Tb7_idx : Tb7 m c (Proc.devRef .tc main_call9_v5) = (broadcastInDim S4194304x1 ![0] bcast_S4194304_S4194304x1_0 (WRAP (F := F) (Cert.ReferenceIdeal.ReadP.val_main_v186 (F := F) (inp0 m c) (inp1 m c) (inp2 m c)))) := by
  rw [Tb7_eq]; simp only [hostOps0_19, List.take_succ_cons, List.take_zero, List.drop_succ_cons, List.drop_zero]; after_results_simp
  exact Ta7_idx m c

theorem Tb7_tab : Tb7 m c (Proc.devRef .tc main_v74) = (GF4 (F := F) (inp3 m c) (inp4 m c)) := by
  rw [Tb7_eq]; simp only [hostOps0_19, List.take_succ_cons, List.take_zero, List.drop_succ_cons, List.drop_zero]; after_results_simp
  exact Ta7_tab m c

theorem Tb7_mask : Tb7 m c (Proc.devRef .tc main_call9_v12) = (Host.reduce IntOp.andi
      (andi (cmpi .sge (broadcastInDim S4194304x1 ![0] bcast_S4194304_S4194304x1_0 (WRAP (F := F) (Cert.ReferenceIdeal.ReadP.val_main_v186 (F := F) (inp0 m c) (inp1 m c) (inp2 m c)))) (broadcastInDim S4194304x1 ![] bcast_S_S4194304x1 (constantI S_ 32 0#32)))
            (cmpi .sle (broadcastInDim S4194304x1 ![0] bcast_S4194304_S4194304x1_0 (WRAP (F := F) (Cert.ReferenceIdeal.ReadP.val_main_v186 (F := F) (inp0 m c) (inp1 m c) (inp2 m c)))) (broadcastInDim S4194304x1 ![0, 1] bcast_S1x1_S4194304x1_0_1 (broadcastInDim S1x1 ![1] bcast_S1_S1x1_1 (constantI S1 32 4095999#32)))))
      (constantI S_ 1 1#1) reducesTo_S4194304x1_S4194304_d1 h_S_) := by
  rw [Tb7_eq]; simp only [hostOps0_19, List.take_succ_cons, List.take_zero, List.drop_succ_cons, List.drop_zero]; after_results_simp
  rw [Ta7_idx]; simp only [TRef.ofBuf, TRef.toBuf, cast_eq]

theorem Tc7_mask : Tc7 m c (Proc.devRef .tc main_call9_v12) = (Host.reduce IntOp.andi
      (andi (cmpi .sge (broadcastInDim S4194304x1 ![0] bcast_S4194304_S4194304x1_0 (WRAP (F := F) (Cert.ReferenceIdeal.ReadP.val_main_v186 (F := F) (inp0 m c) (inp1 m c) (inp2 m c)))) (broadcastInDim S4194304x1 ![] bcast_S_S4194304x1 (constantI S_ 32 0#32)))
            (cmpi .sle (broadcastInDim S4194304x1 ![0] bcast_S4194304_S4194304x1_0 (WRAP (F := F) (Cert.ReferenceIdeal.ReadP.val_main_v186 (F := F) (inp0 m c) (inp1 m c) (inp2 m c)))) (broadcastInDim S4194304x1 ![0, 1] bcast_S1x1_S4194304x1_0_1 (broadcastInDim S1x1 ![1] bcast_S1_S1x1_1 (constantI S1 32 4095999#32)))))
      (constantI S_ 1 1#1) reducesTo_S4194304x1_S4194304_d1 h_S_) := by
  rw [Tc7_eq]; simp only [hostOps0_19, List.take_succ_cons, List.take_zero, List.drop_succ_cons, List.drop_zero]; after_results_simp
  exact Tb7_mask m c

theorem Tc7_gath : Tc7 m c (Proc.devRef .tc main_call9_v13) = (Host.gather gather_S4x4096000_S4194304x1_S4x4194304_0_1_n_n_1_1_41 (GF4 (F := F) (inp3 m c) (inp4 m c)) (broadcastInDim S4194304x1 ![0] bcast_S4194304_S4194304x1_0 (WRAP (F := F) (Cert.ReferenceIdeal.ReadP.val_main_v186 (F := F) (inp0 m c) (inp1 m c) (inp2 m c))))) := by
  rw [Tc7_eq]; simp only [hostOps0_19, List.take_succ_cons, List.take_zero, List.drop_succ_cons, List.drop_zero]; after_results_simp
  rw [Tb7_tab, Tb7_idx]; strip_casts

theorem W20_v130 : Wn m c 20 (Proc.devRef .tc main_v130) = TAKE (F := F) (GF4 (F := F) (inp3 m c) (inp4 m c)) (Cert.ReferenceIdeal.ReadP.val_main_v186 (F := F) (inp0 m c) (inp1 m c) (inp2 m c)) := by
  rw [Wn20_eq]; simp only [hostOps0_19, List.drop_succ_cons, List.drop_zero]; after_results_simp
  rw [Tc7_mask, Tc7_gath]; strip_casts
  unfold TAKE; rfl

/-! ## The lookups at the region's entry -/

/-- Corner 0's column lookup. -/
theorem V_take_0 : V m c main_v81 = TAKE (F := F) (GF4 (F := F) (inp3 m c) (inp4 m c)) (Cert.Spec.LINst (F := F) 0 (inp0 m c) (inp1 m c) (inp2 m c)) :=
  (V_at m c 6 (by decide) (by decide)).trans (W6_v81 m c)

/-- Corner 1's column lookup. -/
theorem V_take_1 : V m c main_v88 = TAKE (F := F) (GF4 (F := F) (inp3 m c) (inp4 m c)) (Cert.Spec.LINst (F := F) 1 (inp0 m c) (inp1 m c) (inp2 m c)) :=
  (V_at m c 8 (by decide) (by decide)).trans (W8_v88 m c)

/-- Corner 2's column lookup. -/
theorem V_take_2 : V m c main_v95 = TAKE (F := F) (GF4 (F := F) (inp3 m c) (inp4 m c)) (Cert.Spec.LINst (F := F) 2 (inp0 m c) (inp1 m c) (inp2 m c)) :=
  (V_at m c 10 (by decide) (by decide)).trans (W10_v95 m c)

/-- Corner 3's column lookup. -/
theorem V_take_3 : V m c main_v102 = TAKE (F := F) (GF4 (F := F) (inp3 m c) (inp4 m c)) (Cert.Spec.LINst (F := F) 3 (inp0 m c) (inp1 m c) (inp2 m c)) :=
  (V_at m c 12 (by decide) (by decide)).trans (W12_v102 m c)

/-- Corner 4's column lookup. -/
theorem V_take_4 : V m c main_v109 = TAKE (F := F) (GF4 (F := F) (inp3 m c) (inp4 m c)) (Cert.Spec.LINst (F := F) 4 (inp0 m c) (inp1 m c) (inp2 m c)) :=
  (V_at m c 14 (by decide) (by decide)).trans (W14_v109 m c)

/-- Corner 5's column lookup. -/
theorem V_take_5 : V m c main_v116 = TAKE (F := F) (GF4 (F := F) (inp3 m c) (inp4 m c)) (Cert.Spec.LINst (F := F) 5 (inp0 m c) (inp1 m c) (inp2 m c)) :=
  (V_at m c 16 (by decide) (by decide)).trans (W16_v116 m c)

/-- Corner 6's column lookup. -/
theorem V_take_6 : V m c main_v123 = TAKE (F := F) (GF4 (F := F) (inp3 m c) (inp4 m c)) (Cert.Spec.LINst (F := F) 6 (inp0 m c) (inp1 m c) (inp2 m c)) :=
  (V_at m c 18 (by decide) (by decide)).trans (W18_v123 m c)

/-- Corner 7's column lookup. -/
theorem V_take_7 : V m c main_v130 = TAKE (F := F) (GF4 (F := F) (inp3 m c) (inp4 m c)) (Cert.Spec.LINst (F := F) 7 (inp0 m c) (inp1 m c) (inp2 m c)) :=
  (V_at m c 20 (by decide) (by decide)).trans (W20_v130 m c)

end Cert.KernelIdeal.Fr
end
-- ==== Proof.KFrame.lean ====
/-
  The frame of `KernelIdeal`'s @main, at any float family: twenty-one stretches of host lines, one kernel region
  over a grid of 128 points, a closing stretch of host lines. No host line has an argument array as its result, and
  none is a window's array, so the arguments bypass the region and end as launched. The region's body reads its three
  input blocks whole and fills the output block by two stores, rows [0,1) and rows [1,4), which tile it: what it
  leaves there is a closed function of the three input blocks.
-/
import proofs.«123153_j77008763617691_1_alg».proof.Proof.KV
import proofs.«123153_j77008763617691_1_alg».proof.Proof.Gen.KernelIdeal.Skeleton
import proofs.«123153_j77008763617691_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The host lines and the argument arrays

No host line, before the region or after it, has an argument array as its result: each line writes only the
buffer of the value it defines. Stated stretch by stretch, then for all of them at once. -/

/-- The program's argument arrays. -/
abbrev argRefs : List (Ref sig .tc) := [main_arg0, main_arg1, main_arg2, main_arg3, main_arg4]

/-- A stretch of host operations none of which writes an argument array. -/
abbrev SparesArgs (ops : List (HloOp τ sig (Elt F))) : Prop :=
  ops.Forall fun op => argRefs.Forall fun r => Proc.devRef (τ := τ) .tc r ∉ op.writes

set_option maxHeartbeats 4000000 in
theorem spare_0 : SparesArgs (F := F) hostOps0 := by
  simp only [SparesArgs, argRefs, hostOps0, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_1 : SparesArgs (F := F) hostOps0_1 := by
  simp only [SparesArgs, argRefs, hostOps0_1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_2 : SparesArgs (F := F) hostOps0_2 := by
  simp only [SparesArgs, argRefs, hostOps0_2, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_3 : SparesArgs (F := F) hostOps0_3 := by
  simp only [SparesArgs, argRefs, hostOps0_3, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_4 : SparesArgs (F := F) hostOps0_4 := by
  simp only [SparesArgs, argRefs, hostOps0_4, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_5 : SparesArgs (F := F) hostOps0_5 := by
  simp only [SparesArgs, argRefs, hostOps0_5, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_6 : SparesArgs (F := F) hostOps0_6 := by
  simp only [SparesArgs, argRefs, hostOps0_6, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_7 : SparesArgs (F := F) hostOps0_7 := by
  simp only [SparesArgs, argRefs, hostOps0_7, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_8 : SparesArgs (F := F) hostOps0_8 := by
  simp only [SparesArgs, argRefs, hostOps0_8, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_9 : SparesArgs (F := F) hostOps0_9 := by
  simp only [SparesArgs, argRefs, hostOps0_9, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_10 : SparesArgs (F := F) hostOps0_10 := by
  simp only [SparesArgs, argRefs, hostOps0_10, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_11 : SparesArgs (F := F) hostOps0_11 := by
  simp only [SparesArgs, argRefs, hostOps0_11, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_12 : SparesArgs (F := F) hostOps0_12 := by
  simp only [SparesArgs, argRefs, hostOps0_12, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_13 : SparesArgs (F := F) hostOps0_13 := by
  simp only [SparesArgs, argRefs, hostOps0_13, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_14 : SparesArgs (F := F) hostOps0_14 := by
  simp only [SparesArgs, argRefs, hostOps0_14, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_15 : SparesArgs (F := F) hostOps0_15 := by
  simp only [SparesArgs, argRefs, hostOps0_15, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_16 : SparesArgs (F := F) hostOps0_16 := by
  simp only [SparesArgs, argRefs, hostOps0_16, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_17 : SparesArgs (F := F) hostOps0_17 := by
  simp only [SparesArgs, argRefs, hostOps0_17, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_18 : SparesArgs (F := F) hostOps0_18 := by
  simp only [SparesArgs, argRefs, hostOps0_18, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_19 : SparesArgs (F := F) hostOps0_19 := by
  simp only [SparesArgs, argRefs, hostOps0_19, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_20 : SparesArgs (F := F) hostOps0_20 := by
  simp only [SparesArgs, argRefs, hostOps0_20, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

set_option maxHeartbeats 4000000 in
theorem spare_t : SparesArgs (F := F) hostOps1 := by
  simp only [SparesArgs, argRefs, hostOps1, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)

/-- Every stretch before the region spares the arguments. -/
theorem pre_spares : (hostPre (F := F)).Forall fun ops => SparesArgs ops :=
  ⟨spare_0, spare_1, spare_2, spare_3, spare_4, spare_5, spare_6, spare_7, spare_8, spare_9, spare_10, spare_11, spare_12, spare_13, spare_14, spare_15, spare_16, spare_17, spare_18, spare_19, spare_20⟩

/-- Lines that spare the arguments leave each argument array as they found it. -/
theorem after_spares (opss : List (List (HloOp τ sig (Elt F)))) (h : opss.Forall fun ops => SparesArgs ops)
    (X : Valuation τ sig (Elt F)) (r : Ref sig .tc) (hr : r ∈ argRefs) :
    StableHlo.after opss.flatten X (Proc.devRef .tc r) = X (Proc.devRef .tc r) :=
  StableHlo.after_of_forall_not_mem _ _ fun op hop => by
    obtain ⟨ops, hops, hop'⟩ := List.mem_flatten.mp hop
    exact List.forall_iff_forall_mem.mp (List.forall_iff_forall_mem.mp (List.forall_iff_forall_mem.mp h ops hops) op hop') r hr

/-! ## No host line allocates -/

theorem nofresh_0 : (hostOps0 : List (HloOp τ sig (Elt F))).Forall fun op => op.fresh = ∅ := by
  simp only [hostOps0, List.Forall]; repeat' constructor
theorem nofresh_1 : (hostOps0_1 : List (HloOp τ sig (Elt F))).Forall fun op => op.fresh = ∅ := by
  simp only [hostOps0_1, List.Forall]; repeat' constructor
theorem nofresh_2 : (hostOps0_2 : List (HloOp τ sig (Elt F))).Forall fun op => op.fresh = ∅ := by
  simp only [hostOps0_2, List.Forall]; repeat' constructor
theorem nofresh_3 : (hostOps0_3 : List (HloOp τ sig (Elt F))).Forall fun op => op.fresh = ∅ := by
  simp only [hostOps0_3, List.Forall]; repeat' constructor
theorem nofresh_4 : (hostOps0_4 : List (HloOp τ sig (Elt F))).Forall fun op => op.fresh = ∅ := by
  simp only [hostOps0_4, List.Forall]; repeat' constructor
theorem nofresh_5 : (hostOps0_5 : List (HloOp τ sig (Elt F))).Forall fun op => op.fresh = ∅ := by
  simp only [hostOps0_5, List.Forall]; repeat' constructor
theorem nofresh_6 : (hostOps0_6 : List (HloOp τ sig (Elt F))).Forall fun op => op.fresh = ∅ := by
  simp only [hostOps0_6, List.Forall]; repeat' constructor
theorem nofresh_7 : (hostOps0_7 : List (HloOp τ sig (Elt F))).Forall fun op => op.fresh = ∅ := by
  simp only [hostOps0_7, List.Forall]; repeat' constructor
theorem nofresh_8 : (hostOps0_8 : List (HloOp τ sig (Elt F))).Forall fun op => op.fresh = ∅ := by
  simp only [hostOps0_8, List.Forall]; repeat' constructor
theorem nofresh_9 : (hostOps0_9 : List (HloOp τ sig (Elt F))).Forall fun op => op.fresh = ∅ := by
  simp only [hostOps0_9, List.Forall]; repeat' constructor
theorem nofresh_10 : (hostOps0_10 : List (HloOp τ sig (Elt F))).Forall fun op => op.fresh = ∅ := by
  simp only [hostOps0_10, List.Forall]; repeat' constructor
theorem nofresh_11 : (hostOps0_11 : List (HloOp τ sig (Elt F))).Forall fun op => op.fresh = ∅ := by
  simp only [hostOps0_11, List.Forall]; repeat' constructor
theorem nofresh_12 : (hostOps0_12 : List (HloOp τ sig (Elt F))).Forall fun op => op.fresh = ∅ := by
  simp only [hostOps0_12, List.Forall]; repeat' constructor
theorem nofresh_13 : (hostOps0_13 : List (HloOp τ sig (Elt F))).Forall fun op => op.fresh = ∅ := by
  simp only [hostOps0_13, List.Forall]; repeat' constructor
theorem nofresh_14 : (hostOps0_14 : List (HloOp τ sig (Elt F))).Forall fun op => op.fresh = ∅ := by
  simp only [hostOps0_14, List.Forall]; repeat' constructor
theorem nofresh_15 : (hostOps0_15 : List (HloOp τ sig (Elt F))).Forall fun op => op.fresh = ∅ := by
  simp only [hostOps0_15, List.Forall]; repeat' constructor
theorem nofresh_16 : (hostOps0_16 : List (HloOp τ sig (Elt F))).Forall fun op => op.fresh = ∅ := by
  simp only [hostOps0_16, List.Forall]; repeat' constructor
theorem nofresh_17 : (hostOps0_17 : List (HloOp τ sig (Elt F))).Forall fun op => op.fresh = ∅ := by
  simp only [hostOps0_17, List.Forall]; repeat' constructor
theorem nofresh_18 : (hostOps0_18 : List (HloOp τ sig (Elt F))).Forall fun op => op.fresh = ∅ := by
  simp only [hostOps0_18, List.Forall]; repeat' constructor
theorem nofresh_19 : (hostOps0_19 : List (HloOp τ sig (Elt F))).Forall fun op => op.fresh = ∅ := by
  simp only [hostOps0_19, List.Forall]; repeat' constructor
theorem nofresh_20 : (hostOps0_20 : List (HloOp τ sig (Elt F))).Forall fun op => op.fresh = ∅ := by
  simp only [hostOps0_20, List.Forall]; repeat' constructor
theorem nofresh_t : (hostOps1 : List (HloOp τ sig (Elt F))).Forall fun op => op.fresh = ∅ := by
  simp only [hostOps1, List.Forall]; repeat' constructor

theorem pre_fresh : (hostPre (F := F)).Forall fun ops => ops.Forall fun op => op.fresh = ∅ :=
  ⟨nofresh_0, nofresh_1, nofresh_2, nofresh_3, nofresh_4, nofresh_5, nofresh_6, nofresh_7, nofresh_8, nofresh_9, nofresh_10, nofresh_11, nofresh_12, nofresh_13, nofresh_14, nofresh_15, nofresh_16, nofresh_17, nofresh_18, nofresh_19, nofresh_20⟩

/-- Every line before the region touches TensorCore references only. -/
theorem pre_sub : (hostPre (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩

variable (m : (ℓ : Loc nD τ sig) → Buf (Elt F) ℓ) (ρ : Dev nD → PrngReg)

/-! ## @main around its region -/

/-- @main is the twenty-one stretches of host lines, the region, and the closing stretch: it reduces to the region
    continued by the closing stretch, entered at the contents the earlier lines leave (`V`). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main hostPre [hostOps1] pre_sub pre_fresh main_chain

/-- An argument array is found by the region as it was launched. -/
theorem V_arg (c : Dev nD) (r : Ref sig .tc) (hr : r ∈ argRefs) : V m c r = m ((c : Thread nD τ).loc r) :=
  after_spares hostPre pre_spares (fun b => m (c, b)) r hr

theorem V_main_arg0 (c : Dev nD) : V m c main_arg0 = m ((c : Thread nD τ).loc main_arg0) := V_arg m c main_arg0 (by decide)
theorem V_main_arg1 (c : Dev nD) : V m c main_arg1 = m ((c : Thread nD τ).loc main_arg1) := V_arg m c main_arg1 (by decide)
theorem V_main_arg2 (c : Dev nD) : V m c main_arg2 = m ((c : Thread nD τ).loc main_arg2) := V_arg m c main_arg2 (by decide)
theorem V_main_arg3 (c : Dev nD) : V m c main_arg3 = m ((c : Thread nD τ).loc main_arg3) := V_arg m c main_arg3 (by decide)
theorem V_main_arg4 (c : Dev nD) : V m c main_arg4 = m ((c : Thread nD τ).loc main_arg4) := V_arg m c main_arg4 (by decide)

/-! ## The closing stretch -/

/-- Its lines touch only the windows' arrays and the buffers that bypass the region: with nothing prefetched these are
    all the unscoped TensorCore references. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op (List.forall_iff_forall_mem.mp hostOps1_sub op hop)

/-- They allocate nothing. -/
theorem sfx_fresh : ∀ ops ∈ ([hostOps1] : List (List (HloOp τ sig (Elt F)))), ∀ op ∈ ops, op.fresh = ∅ := by
  intro ops hops op hop
  obtain rfl := List.mem_singleton.mp hops
  exact List.forall_iff_forall_mem.mp nofresh_t op hop

/-- No window's array is the result of one of them. -/
theorem tail_keeps : (hostOps1 : List (HloOp τ sig (Elt F))).Forall fun op =>
    ∀ w : Fin 4, Proc.devRef (τ := τ) .tc (Pipeline.arrRef spec0 w) ∉ op.writes := by
  simp only [hostOps1, List.Forall, StableHlo.nullary_writes, StableHlo.unary_writes, StableHlo.binary_writes,
    StableHlo.ternary_writes, StableHlo.reshape_writes, StableHlo.nary_writes, Finset.mem_singleton]
  refine ⟨?_, ?_, ?_, ?_, ?_, ?_⟩ <;> intro w <;> exact StableHlo.devRef_ne_of_ne (by revert w; decide)

theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  exact List.forall_iff_forall_mem.mp tail_keeps op hop

/-- No argument array is a window's array. -/
theorem arg_no_array : ∀ r ∈ argRefs, ∀ w : Fin 4, Pipeline.arrRef spec0 w ≠ r := by decide

/-- An argument array ends as launched: the closing stretch spares it, the region bypasses it, the earlier lines spare it. -/
theorem W_arg (dats : (p : Fin 1) → (c : Dev nD) → Dat τ (Elt F) Unit ℕ (UR sig nD τ) ℕ (cfgs p) c) (c : Dev nD)
    (r : Ref sig .tc) (hr : r ∈ argRefs) :
    Pipeline.afterTail₀ cfgs dats 0 (V0 m) [hostOps1] c r = m ((c : Thread nD τ).loc r) := by
  unfold Pipeline.afterTail₀
  rw [after_spares [hostOps1] spare_t _ r hr, Pipeline.withArrays_of_ne _ c (V0 m c) _ r (arg_no_array r hr)]
  exact V_arg m c r hr

theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := W_arg m dats c main_arg0 (by decide)
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := W_arg m dats c main_arg1 (by decide)
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := W_arg m dats c main_arg2 (by decide)
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := W_arg m dats c main_arg3 (by decide)
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := W_arg m dats c main_arg4 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

/-- Rows [0,1) of the output block. -/
abbrev rDens : Rect S4x32768 := Rect.unit (s := S4x32768) ![0, 0] S1x32768.size inb_S4x32768_S1x32768_0_0
/-- Rows [1,4) of the output block. -/
abbrev rCol : Rect S4x32768 := Rect.unit (s := S4x32768) ![1, 0] S3x32768.size inb_S4x32768_S3x32768_1_0
/-- The three input blocks, whole. -/
abbrev rGrid : Rect S8x4x32768 := Rect.unit (s := S8x4x32768) ![0, 0, 0] S8x4x32768.size inb_S8x4x32768_S8x4x32768_0_0_0
abbrev rWts : Rect S8x32768 := Rect.unit (s := S8x32768) ![0, 0] S8x32768.size inb_S8x32768_S8x32768_0_0
abbrev rLen : Rect S1x32768 := Rect.unit (s := S1x32768) ![0, 0] S1x32768.size inb_S1x32768_S1x32768_0_0

/-- What the body leaves in the output window's buffer, from the three input blocks: its two stores as pieces, LAST FIRST. -/
def outBlock (x0 : Vec F S8x4x32768 .f32) (x1 : Vec F S8x32768 .f32) (x2 : Vec F S1x32768 .f32) : Vec F S4x32768 .f32 :=
  View.canon [⟨rCol, k0_pay3 (View.ld x0 rGrid) (View.ld x1 rWts)⟩,
    ⟨rDens, k0_pay2 (View.ld x0 rGrid) (View.ld x1 rWts) (View.ld x2 rLen)⟩]

/-- The two stores' rectangles, cut into single rows, are the four rows of the block: every index lies in one. -/
theorem out_cover (p3 : FVec F S3x32768 .f32) (p2 : FVec F S1x32768 .f32) (y : S4x32768.Idx) :
    ∃ pc ∈ ([⟨rCol, p3⟩, ⟨rDens, p2⟩] : List (View.Piece (Elt F) S4x32768 .f32)), y ∈ pc.1.set :=
  View.cover_of_tiledBy ([⟨rCol, p3⟩, ⟨rDens, p2⟩] : List (View.Piece (Elt F) S4x32768 .f32)) S1x32768.size (by sl_kernel_rfl) y

/-! ## The body's triple -/

set_option maxHeartbeats 2000000 in
/-- The body on whole staging memrefs — the inputs' read `x0`, `x1`, `x2`, the output's holding anything — runs to its
    return with the inputs' as they were and the output's at `outBlock` of them. -/
theorem body_triple (c : Dev nD) (E : Set ℕ) (i : grid0.Coords)
    (a1 : Memref sig .tc .vmem S8x4x32768 .f32) (h1 : a1.IsWhole) (a2 : Memref sig .tc .vmem S8x32768 .f32) (h2 : a2.IsWhole)
    (a3 : Memref sig .tc .vmem S1x32768 .f32) (h3 : a3.IsWhole) (a4 : Memref sig .tc .vmem S4x32768 .f32) (h4 : a4.IsWhole)
    (x0 : Vec F S8x4x32768 .f32) (x1 : Vec F S8x32768 .f32) (x2 : Vec F S1x32768 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (outBlock x0 x1 x2)) -∗ K ⟨⟩))
      ⊢ wp frame (wpE (defs₀ (F := F)) Variants.none c none) E (cc0__fused_kernel i a1 h1 a2 h2 a3 h3 a4 h4) K := by
  simp only [cc0__fused_kernel_eq_skeleton]; unfold cc0__fused_kernel_skel
  unfold owns
  iintro ⟨⟨%f0, %hf0, H0⟩, ⟨%f1, %hf1, H1⟩, ⟨%f2, %hf2, H2⟩, ⟨%d, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  unfold outBlock
  exact View.read_writes_eq_canon _ _ _ (out_cover _ _)

/-! ## The pipeline's proof data -/

/-- The proof data of the one pipeline on core `c`: the arrays as the region finds them; after the body at point `t`
    each input's buffer at its block, the output's at `outBlock` of the three input blocks; the invariant the scoped
    rest and the generator register, which the body leaves alone; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) :
    (dats m 0 c).after 3 t = outBlock (iblk m c 0 t) (iblk m c 1 t) (iblk m c 2 t) := by dsimp only [dats]

/-! ## What the body finds in the input buffers

An input window is uncut and never idle, and the body leaves its block in place: whether or not the pipeline fetched
it at a point, its current buffer holds the window's block there. -/

theorem found_0 (c : Dev nD) (t : Fin cfg0.N) (d) : (dats m 0 c).before 0 t d = iblk m c 0 t := by
  have hk : ∀ t, (cfg0.win 0).cut (cfg0.grid.coords t) ((dats m 0 c).after 0 t) = (dats m 0 c).blockOf 0 t := fun t => by
    rw [after_in0]; unfold Dat.blockOf iblk; rw [A_eq]; try rfl
  rw [(dats m 0 c).before_in_eq_fetched 0 rfl (fun _ => rfl) (fun _ _ _ => rfl) hk t d]
  unfold Dat.fetched Dat.blockOf iblk; rw [A_eq]; try rfl
theorem found_1 (c : Dev nD) (t : Fin cfg0.N) (d) : (dats m 0 c).before 1 t d = iblk m c 1 t := by
  have hk : ∀ t, (cfg0.win 1).cut (cfg0.grid.coords t) ((dats m 0 c).after 1 t) = (dats m 0 c).blockOf 1 t := fun t => by
    rw [after_in1]; unfold Dat.blockOf iblk; rw [A_eq]; try rfl
  rw [(dats m 0 c).before_in_eq_fetched 1 rfl (fun _ => rfl) (fun _ _ _ => rfl) hk t d]
  unfold Dat.fetched Dat.blockOf iblk; rw [A_eq]; try rfl
theorem found_2 (c : Dev nD) (t : Fin cfg0.N) (d) : (dats m 0 c).before 2 t d = iblk m c 2 t := by
  have hk : ∀ t, (cfg0.win 2).cut (cfg0.grid.coords t) ((dats m 0 c).after 2 t) = (dats m 0 c).blockOf 2 t := fun t => by
    rw [after_in2]; unfold Dat.blockOf iblk; rw [A_eq]; try rfl
  rw [(dats m 0 c).before_in_eq_fetched 2 rfl (fun _ => rfl) (fun _ _ _ => rfl) hk t d]
  unfold Dat.fetched Dat.blockOf iblk; rw [A_eq]; try rfl

/-! ## The body obligation -/

/-- What the pipeline hands the body at point `t`: the invariant, the core's dues, each window's current buffer. -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: its input buffers hold the three blocks, so the triple applies; the invariant and the dues pass
    through untouched. -/
theorem at_point (c : Dev nD) (t : Fin cfg0.N) :
    handed m c t ⊢ wp frame (wpE (defs₀ (F := F)) Variants.none c none) Set.univ (bodyAt0 t) (fun _ => returned m c t) := by
  unfold handed returned bodyAt0
  simp only [found_0, found_1, found_2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (body_triple c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point of the grid. -/
theorem body_ok (c : Dev nD) : BodyObligation (dats (F := F) m 0 c) (defs₀ (F := F)) Variants.none () Set.univ := fun t => by
  rw [bigSep_W0, bigSep_W0]
  exact at_point m c t

/-! ## The run and the frame -/

set_option backward.isDefEq.respectTransparency.types false in
/-- From any memory with zero counters every weakly fair execution of @main on the TensorCores terminates, and in every
    final state each array of the pipeline holds what the library computes from the proof data and every other unscoped
    buffer what the closing stretch leaves. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_ok m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- An argument array is unscoped. -/
theorem arg_unscoped : ∀ r ∈ argRefs, r.isScoped = false := by decide

/-- THE FRAME: @main runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    have ends : ∀ b ∈ argRefs, _ = m ((c.tc : Thread nD τ).loc b) := fun b hb =>
      ((h c).2 b (Pipeline.mem_restRefs_of b (arg_unscoped b hb) (arg_no_array b hb))).trans (W_arg m (dats m) c b hb)
    ⟨ends main_arg0 (by decide), ends main_arg1 (by decide), ends main_arg2 (by decide), ends main_arg3 (by decide),
      ends main_arg4 (by decide)⟩) (run_main m ρ)

end Cert.KernelIdeal.Fr

end
-- ==== Proof.KTail.lean ====
/-
  The closing host lines of the kernel program, as two functions of the region's output array: the first result
  is row 0 of the [4, 4194304] array laid out as [16384, 256, 1]; the second is rows 1..3, transposed to
  [4194304, 3] and laid out as [16384, 256, 3]. Read index by index: entry (r, p, ·) of either result comes from
  column r * 256 + p of the array.
-/
import proofs.«123153_j77008763617691_1_alg».proof.Proof.Gen.KernelIdeal
import Idealize.ShloMosaic.Lib.Pipeline.Value
import Idealize.ShloMosaic.Lib.ValueIdx

noncomputable section

namespace Cert.KernelIdeal.KVal

open Idealize.ShloMosaic Idealize.ShloMosaic.ValueIdx
open Cert.KernelIdeal Cert.KernelIdeal.Gen

variable {F : FTy → Type} [FloatOps F]

/-- Row 0 of the output array, flattened, then laid out as [16384, 256, 1]. -/
def RES0 (o : (⟨S4x4194304, .f32⟩ : BufTy).Contents (Elt F)) : (⟨S16384x256x1, .f32⟩ : BufTy).Contents (Elt F) :=
  shapeCast _ (shapeCast _ (extractStridedSlice S1x4194304 ![0, 0] o slices_S4x4194304_S1x4194304_0_0)
    shapeCasts_S1x4194304_S4194304) shapeCasts_S4194304_S16384x256x1

/-- Rows 1..3 of the output array, transposed to [4194304, 3], then laid out as [16384, 256, 3]. -/
def RES1 (o : (⟨S4x4194304, .f32⟩ : BufTy).Contents (Elt F)) : (⟨S16384x256x3, .f32⟩ : BufTy).Contents (Elt F) :=
  shapeCast _ (transpose S4194304x3 [1, 0] (extractStridedSlice S3x4194304 ![1, 0] o slices_S4x4194304_S3x4194304_1_0)
    transposes_S3x4194304_S4194304x3_1_0) shapeCasts_S4194304x3_S16384x256x3

/-- The column of the array that entry (r, p) of a result comes from. -/
abbrev col (r : Fin 16384) (p : Fin 256) : Fin 4194304 := ⟨r.val * 256 + p.val, by have := r.isLt; have := p.isLt; omega⟩

/-- Entry (r, p, 0) of the first result is row 0, column r * 256 + p of the array. -/
theorem RES0_apply (o : (⟨S4x4194304, .f32⟩ : BufTy).Contents (Elt F)) (r : Fin 16384) (p : Fin 256) :
    RES0 o (ix3 r p (0 : Fin 1)) = o (ix2 (0 : Fin 4) (col r p)) := by
  unfold RES0
  refine (shapeCast_apply _ _ (ix3 r p (0 : Fin 1)) (ix1 (col r p)) ?_).trans ?_
  · rw [Shape.rowMajor_val_three, Shape.rowMajor_val_one]
    show r.val * 256 + p.val = (r.val * 256 + p.val) * 1 + 0
    omega
  refine (shapeCast_apply _ _ (ix1 (col r p)) (ix2 (0 : Fin 1) (col r p)) ?_).trans ?_
  · rw [Shape.rowMajor_val_two, Shape.rowMajor_val_one]
    show 0 * 4194304 + (r.val * 256 + p.val) = r.val * 256 + p.val
    omega
  refine extractStridedSlice_apply _ _ _ (ix2 (0 : Fin 1) (col r p)) (ix2 (0 : Fin 4) (col r p)) fun a => ?_
  match a with
  | ⟨0, _⟩ => rfl
  | ⟨1, _⟩ => show r.val * 256 + p.val = 0 + (r.val * 256 + p.val); omega

/-- Entry (r, p, k) of the second result is row k + 1, column r * 256 + p of the array. -/
theorem RES1_apply (o : (⟨S4x4194304, .f32⟩ : BufTy).Contents (Elt F)) (r : Fin 16384) (p : Fin 256) (cc : Fin 3) :
    RES1 o (ix3 r p cc) = o (ix2 (⟨cc.val + 1, by have := cc.isLt; omega⟩ : Fin 4) (col r p)) := by
  unfold RES1
  refine (shapeCast_apply _ _ (ix3 r p cc) (ix2 (col r p) cc) ?_).trans ?_
  · rw [Shape.rowMajor_val_three, Shape.rowMajor_val_two]
    show (r.val * 256 + p.val) * 3 + cc.val = (r.val * 256 + p.val) * 3 + cc.val
    rfl
  refine (transpose_apply _ _ _ (ix2 (col r p) cc) (ix2 cc (col r p)) fun b => ?_).trans ?_
  · match b with
    | ⟨0, _⟩ => rfl
    | ⟨1, _⟩ => rfl
  refine extractStridedSlice_apply _ _ _ (ix2 cc (col r p)) (ix2 (⟨cc.val + 1, by have := cc.isLt; omega⟩ : Fin 4) (col r p)) fun a => ?_
  match a with
  | ⟨0, _⟩ => show cc.val + 1 = 1 + cc.val; omega
  | ⟨1, _⟩ => show r.val * 256 + p.val = 0 + (r.val * 256 + p.val); omega

end Cert.KernelIdeal.KVal

end
-- ==== Proof.KValue.lean ====
/-
  The value of the kernel program: from the run of its one region to what the two result buffers hold, index by
  index, at any float family (only layout is read here; no arithmetic).

  The region walks a grid of 128 points. At point t it reads block t, along the last axis, of three arrays of
  4194304 columns (shapes [8, 4, ·], [8, ·], [1, ·]; a block is 32768 columns, all leading rows) and writes block t
  of the [4, 4194304] output array: what the body makes of the three input blocks. So the output array, at
  column q, is that function of the blocks number q / 32768, read at column q % 32768; the 128 blocks tile the
  array, so this describes all of it. The closing host lines then lay row 0 out as [16384, 256, 1] and rows 1..3,
  transposed, as [16384, 256, 3].
-/
import proofs.«123153_j77008763617691_1_alg».proof.Proof.KFrame
import proofs.«123153_j77008763617691_1_alg».proof.Proof.KTail
import Idealize.ShloMosaic.Lib.StableHlo.Run
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

variable {F : FTy → Type} [FloatOps F]
variable (m : (ℓ : Loc nD τ sig) → Buf (Elt F) ℓ) (ρ : Dev nD → PrngReg)

/-- The three input arrays and the output array, as the region finds them, at their literal types. -/
abbrev A0 (c : Dev nD) : Vec F S8x4x4194304 .f32 := V m c main_v139
abbrev A1 (c : Dev nD) : Vec F S8x4194304 .f32 := V m c main_v148
abbrev A2 (c : Dev nD) : Vec F S1x4194304 .f32 := V m c main_v12

/-- Column `y` of block `t` along the last axis: `t * 32768 + y`. -/
abbrev gcol (t : Fin 128) (y : Fin 32768) : Fin 4194304 := ⟨t.val * 32768 + y.val, by have := t.isLt; have := y.isLt; omega⟩

/-- Block `t` of each input array: the last axis cut into 128 stretches of 32768 columns. -/
def B0 (c : Dev nD) (t : Fin 128) : Vec F S8x4x32768 .f32 := fun y => A0 m c (ix3 (y 0) (y 1) (gcol t (y 2)))
def B1 (c : Dev nD) (t : Fin 128) : Vec F S8x32768 .f32 := fun y => A1 m c (ix2 (y 0) (gcol t (y 1)))
def B2 (c : Dev nD) (t : Fin 128) : Vec F S1x32768 .f32 := fun y => A2 m c (ix2 (y 0) (gcol t (y 1)))

/-- The blocks at explicit coordinates. -/
theorem B0_apply (c : Dev nD) (t : Fin 128) (a : Fin 8) (b : Fin 4) (y : Fin 32768) :
    B0 m c t (ix3 a b y) = A0 m c (ix3 a b (gcol t y)) := rfl
theorem B1_apply (c : Dev nD) (t : Fin 128) (a : Fin 8) (y : Fin 32768) :
    B1 m c t (ix2 a y) = A1 m c (ix2 a (gcol t y)) := rfl
theorem B2_apply (c : Dev nD) (t : Fin 128) (a : Fin 1) (y : Fin 32768) :
    B2 m c t (ix2 a y) = A2 m c (ix2 a (gcol t y)) := rfl

/-- A grid point as a number below 128. -/
abbrev pt (t : Fin cfg0.N) : Fin 128 := t.cast N_0

/-- The printed index maps over the grid: every window sits at block 0 on its leading axes and at block `t` on its last. -/
theorem idx_facts : ∀ t : Fin cfg0.N,
    win0_0.index t (0 : Fin 3) = 0 ∧ win0_0.index t (1 : Fin 3) = 0 ∧ win0_0.index t (2 : Fin 3) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem iblk0_eq (c : Dev nD) (t : Fin cfg0.N) : (iblk m c 0 t : Vec F S8x4x32768 .f32) = B0 m c (pt t) := by
  obtain ⟨e0, e1, e2, -⟩ := idx_facts t
  funext y
  unfold iblk B0
  rw [View.read_apply]
  show V m c main_v139 _ = V m c main_v139 _
  congr 1
  funext a
  apply Fin.ext
  match a with
  | ⟨0, _⟩ => show win0_0.index t (0 : Fin 3) * 8 + 1 * (y 0).val = (y 0).val; rw [e0]; omega
  | ⟨1, _⟩ => show win0_0.index t (1 : Fin 3) * 4 + 1 * (y 1).val = (y 1).val; rw [e1]; omega
  | ⟨2, _⟩ => show win0_0.index t (2 : Fin 3) * 32768 + 1 * (y 2).val = t.val * 32768 + (y 2).val; rw [e2]; omega

theorem iblk1_eq (c : Dev nD) (t : Fin cfg0.N) : (iblk m c 1 t : Vec F S8x32768 .f32) = B1 m c (pt t) := by
  obtain ⟨-, -, -, e0, e1, -⟩ := idx_facts t
  funext y
  unfold iblk B1
  rw [View.read_apply]
  show V m c main_v148 _ = V m c main_v148 _
  congr 1
  funext a
  apply Fin.ext
  match a with
  | ⟨0, _⟩ => show win0_1.index t (0 : Fin 2) * 8 + 1 * (y 0).val = (y 0).val; rw [e0]; omega
  | ⟨1, _⟩ => show win0_1.index t (1 : Fin 2) * 32768 + 1 * (y 1).val = t.val * 32768 + (y 1).val; rw [e1]; omega

theorem iblk2_eq (c : Dev nD) (t : Fin cfg0.N) : (iblk m c 2 t : Vec F S1x32768 .f32) = B2 m c (pt t) := by
  obtain ⟨-, -, -, -, -, e0, e1, -⟩ := idx_facts t
  funext y
  unfold iblk B2
  rw [View.read_apply]
  show V m c main_v12 _ = V m c main_v12 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 32768 + 1 * (y 1).val = t.val * 32768 + (y 1).val; rw [e1]; omega

/-- The block that holds column `q`, and the column's place inside it. -/
abbrev blkOf (q : Fin 4194304) : Fin 128 := ⟨q.val / 32768, by have := q.isLt; omega⟩
abbrev inBlk (q : Fin 4194304) : Fin 32768 := ⟨q.val % 32768, Nat.mod_lt _ (by decide)⟩

/-- The whole output array after the region: column `q` of it is column `q % 32768` of what the body makes of the
    three input blocks number `q / 32768`. -/
def OUT (c : Dev nD) : (⟨S4x4194304, .f32⟩ : BufTy).Contents (Elt F) := fun j =>
  outBlock (B0 m c (blkOf (j 1))) (B1 m c (blkOf (j 1))) (B2 m c (blkOf (j 1))) (ix2 (j 0 : Fin 4) (inBlk (j 1)))

/-- The array at row `a`, column `q`. -/
theorem OUT_apply (c : Dev nD) (a : Fin 4) (q : Fin 4194304) :
    OUT m c (ix2 a q) = outBlock (B0 m c (blkOf q)) (B1 m c (blkOf q)) (B2 m c (blkOf q)) (ix2 a (inBlk q)) := rfl

/-- The array at the index that sits at place `y` of block `t`. -/
theorem OUT_at (c : Dev nD) (t : Fin 128) (y : S4x32768.Idx) (k : S4x4194304.Idx)
    (h0 : (k 0).val = (y 0).val) (h1 : (k 1).val = t.val * 32768 + (y 1).val) :
    OUT m c k = outBlock (B0 m c t) (B1 m c t) (B2 m c t) y := by
  have hy : (y 1).val < 32768 := (y 1).isLt
  have hb : blkOf (k 1) = t := Fin.ext (by show (k 1).val / 32768 = t.val; rw [h1]; omega)
  have hi : ix2 (k 0 : Fin 4) (inBlk (k 1)) = y := by
    funext a; apply Fin.ext
    match a with
    | ⟨0, _⟩ => exact h0
    | ⟨1, _⟩ => show (k 1).val % 32768 = (y 1).val; rw [h1]; omega
  show outBlock (B0 m c (blkOf (k 1))) (B1 m c (blkOf (k 1))) (B2 m c (blkOf (k 1))) (ix2 (k 0 : Fin 4) (inBlk (k 1))) = _
  rw [hb]
  exact congrArg (outBlock (B0 m c t) (B1 m c t) (B2 m c t)) hi

/-- Reading any contents of the output array through point `t`'s block: place `y` of the block is the array at the
    index the block's rectangle sends `y` to. -/
theorem read_blk3 (G : (⟨S4x4194304, .f32⟩ : BufTy).Contents (Elt F)) (t : Fin cfg0.N)
    (y : ((cfg0.win 3).xblock (cfg0.grid.coords t)).Idx) :
    ((cfg0.win 3).blk t).view.read (Elt F) G y = G (((cfg0.win 3).blk t).view.emb y) := rfl

/-- What point `t` writes back is block `t` of `OUT`. -/
theorem flushed3_eq (c : Dev nD) (t : Fin cfg0.N) :
    (dats m 0 c).flushed 3 t = ((cfg0.win 3).blk t).view.read (Elt F) (OUT m c) := by
  show (cfg0.win 3).cut (grid0.coords t) ((dats m 0 c).after 3 t) = _
  rw [after_out, iblk0_eq, iblk1_eq, iblk2_eq]
  obtain ⟨-, -, -, -, -, -, -, e0, e1⟩ := idx_facts t
  funext y
  refine Eq.trans ?_ (read_blk3 (OUT m c) t y).symm
  refine (OUT_at m c (pt t) ((cfg0.win 3).xinj (grid0.coords t) y) (((cfg0.win 3).blk t).view.emb y) ?_ ?_).symm
  · show win0_3.index t (0 : Fin 2) * 4 + 1 * (y 0).val = (y 0).val; rw [e0]; omega
  · show win0_3.index t (1 : Fin 2) * 32768 + 1 * (y 1).val = t.val * 32768 + (y 1).val; rw [e1]; omega

/-- An index of the array is in point `t`'s block iff each coordinate is in the block's range on its axis. -/
theorem mem_blk3 (t : Fin cfg0.N) (i : S4x4194304.Idx) :
    i ∈ ((cfg0.win 3).blk t).view.set ↔ ∀ a : Fin 2, win0_3.index t a * S4x32768.size a ≤ (i a).val
      ∧ (i a).val < win0_3.index t a * S4x32768.size a + S4x32768.size a := by
  show i ∈ ((View.whole main_v149).slice (win0_3.rect t)).set ↔ _
  rw [View.set_slice_whole, Rect.mem_set_unit]
  exact Iff.rfl

/-- The 128 blocks tile the array: column `q` is in block `q / 32768`. -/
theorem cover3 (i : S4x4194304.Idx) : ∃ t : Fin cfg0.N, (cfg0.win 3).flush t = true ∧ i ∈ ((cfg0.win 3).blk t).view.set := by
  have hi0 : (i 0).val < 4 := (i 0).isLt
  have hi1 : (i 1).val < 4194304 := (i 1).isLt
  have hN : cfg0.N = 128 := N_0
  obtain ⟨t, ht⟩ : ∃ t : Fin cfg0.N, t.val = (i 1).val / 32768 := ⟨⟨(i 1).val / 32768, by rw [hN]; omega⟩, rfl⟩
  obtain ⟨-, -, -, -, -, -, -, e0, e1⟩ := idx_facts t
  refine ⟨t, flush0_3 t, ?_⟩
  rw [mem_blk3]
  intro a
  match a with
  | ⟨0, _⟩ => show win0_3.index t (0 : Fin 2) * 4 ≤ (i 0).val ∧ (i 0).val < win0_3.index t (0 : Fin 2) * 4 + 4; rw [e0]; omega
  | ⟨1, _⟩ => show win0_3.index t (1 : Fin 2) * 32768 ≤ (i 1).val ∧ (i 1).val < win0_3.index t (1 : Fin 2) * 32768 + 32768; rw [e1, ht]; omega

/-- The output array after the run. -/
theorem final3 (c : Dev nD) : (dats m 0 c).arrAt 3 cfg0.N = OUT m c :=
  (dats m 0 c).arrAt_eq_of_cover 3 (OUT m c) (fun t _ => flushed3_eq m c t) cover3

/-! ## The closing host lines over the output array -/

/-- The first result buffer after the closing stretch. -/
theorem tail0 (c : Dev nD) : Pipeline.afterTail₀ cfgs (dats m) 0 (V0 m) [hostOps1] c main_v152 = RES0 (OUT m c) := by
  unfold Pipeline.afterTail₀
  show StableHlo.after hostOps1 _ (Proc.devRef .tc main_v152) = _
  after_results
  exact congrArg RES0 ((Pipeline.withArrays_arr spec0 launch0.win.arr_inj c _ _ 3).trans (final3 m c))

/-- The second result buffer after the closing stretch. -/
theorem tail1 (c : Dev nD) : Pipeline.afterTail₀ cfgs (dats m) 0 (V0 m) [hostOps1] c main_v155 = RES1 (OUT m c) := by
  unfold Pipeline.afterTail₀
  show StableHlo.after hostOps1 _ (Proc.devRef .tc main_v155) = _
  after_results
  exact congrArg RES1 ((Pipeline.withArrays_arr spec0 launch0.win.arr_inj c _ _ 3).trans (final3 m c))

/-- Neither result buffer is scoped or a window's array. -/
theorem res_unscoped : main_v152.isScoped = false ∧ main_v155.isScoped = false := by decide
theorem res_no_array : (∀ w : Fin 4, Pipeline.arrRef spec0 w ≠ main_v152) ∧ (∀ w : Fin 4, Pipeline.arrRef spec0 w ≠ main_v155) := by decide

/-- THE KERNEL PROGRAM'S RUN, READ: the two result buffers hold the two layouts of the output array, and every
    argument array ends as launched. -/
theorem kernel_run : θ_run defs (onTc (τ := τ) (main (F := F))) ⟨m, fun _ => 0, ρ⟩ (fun r => ∀ c : Dev nD,
      r.2.mem ((c.tc : Thread nD τ).loc main_v152) = RES0 (OUT m c)
      ∧ r.2.mem ((c.tc : Thread nD τ).loc main_v155) = RES1 (OUT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    have ends : ∀ b ∈ argRefs, _ = m ((c.tc : Thread nD τ).loc b) := fun b hb =>
      ((h c).2 b (Pipeline.mem_restRefs_of b (arg_unscoped b hb) (arg_no_array b hb))).trans (W_arg m (dats m) c b hb)
    ⟨((h c).2 main_v152 (Pipeline.mem_restRefs_of main_v152 res_unscoped.1 res_no_array.1)).trans (tail0 m c),
      ((h c).2 main_v155 (Pipeline.mem_restRefs_of main_v155 res_unscoped.2 res_no_array.2)).trans (tail1 m c),
      ends main_arg0 (by decide), ends main_arg1 (by decide), ends main_arg2 (by decide), ends main_arg3 (by decide),
      ends main_arg4 (by decide)⟩) (run_main m ρ)

end Cert.KernelIdeal.KVal

end
-- ==== Proof.KOut.lean ====
/-
  The output block of `KernelIdeal`'s kernel body read at an index: what the body leaves in the output window's
  buffer is the canon of its two stores, so row 0 reads the first store's value and rows 1 to 3 the second's, each
  over the three input blocks themselves (a load through a block's whole rectangle reads the block).
-/
import proofs.«123153_j77008763617691_1_alg».proof.Proof.KFrame
import Idealize.ShloMosaic.Lib.ValueIdx
import Idealize.ShloMosaic.Lib.Pipeline.Value

set_option maxRecDepth 16384

noncomputable section

namespace Cert.KernelIdeal.Fr

open Idealize.ShloMosaic Idealize.ShloMosaic.TcCoe Idealize.ShloMosaic.ValueIdx
open Cert.KernelIdeal Cert.KernelIdeal.Gen

variable {F : FTy → Type} [FloatOps F]

/-! ## The whole-block loads -/

/-- A load through the whole rectangle of a block reads the block. -/
theorem ld_grid (x0 : Vec F S8x4x32768 .f32) : View.ld x0 rGrid = x0 :=
  View.ld_unit_zero (by funext a; fin_cases a <;> rfl) _ x0
theorem ld_wts (x1 : Vec F S8x32768 .f32) : View.ld x1 rWts = x1 :=
  View.ld_unit_zero (by funext a; fin_cases a <;> rfl) _ x1
theorem ld_len (x2 : Vec F S1x32768 .f32) : View.ld x2 rLen = x2 :=
  View.ld_unit_zero (by funext a; fin_cases a <;> rfl) _ x2

/-! ## The two stores' places in the output block -/

/-- Column `q` of the one-row store lands at row 0, column `q`. -/
theorem rDens_emb (q : Fin 32768) : rDens.emb (ix2 (0 : Fin 1) q) = ix2 (0 : Fin 4) q := by
  funext a
  refine Fin.ext ?_
  rw [Rect.emb_apply]
  fin_cases a
  · rfl
  · show (0 : ℕ) + 1 * (q : ℕ) = q; omega

/-- Row `cc`, column `q` of the three-row store lands at row `cc + 1`, column `q`. -/
theorem rCol_emb (cc : Fin 3) (q : Fin 32768) :
    rCol.emb (ix2 cc q) = ix2 (⟨cc.val + 1, Nat.succ_lt_succ cc.isLt⟩ : Fin 4) q := by
  funext a
  refine Fin.ext ?_
  rw [Rect.emb_apply]
  fin_cases a
  · show (1 : ℕ) + 1 * (cc : ℕ) = cc.val + 1; omega
  · show (0 : ℕ) + 1 * (q : ℕ) = q; omega

/-- Row 0 is outside the three-row store. -/
theorem row0_not_col (q : Fin 32768) : ix2 (0 : Fin 4) q ∉ rCol.set := fun h =>
  Nat.not_succ_le_zero 0 ((Rect.mem_set_unit.mp h 0).1)

/-! ## The output block read at an index -/

/-- Row 0 of what the body leaves is the first store's value. -/
theorem outBlock_dens (x0 : Vec F S8x4x32768 .f32) (x1 : Vec F S8x32768 .f32) (x2 : Vec F S1x32768 .f32) (q : Fin 32768) :
    outBlock x0 x1 x2 (ix2 (0 : Fin 4) q) = Gen.k0_pay2 x0 x1 x2 (ix2 (0 : Fin 1) q) := by
  unfold outBlock
  rw [ld_grid, ld_wts, ld_len]
  have below : View.canon ([⟨rCol, k0_pay3 x0 x1⟩, ⟨rDens, k0_pay2 x0 x1 x2⟩] : List (View.Piece (Elt F) S4x32768 .f32)) (ix2 (0 : Fin 4) q)
      = View.canon ([⟨rDens, k0_pay2 x0 x1 x2⟩] : List (View.Piece (Elt F) S4x32768 .f32)) (ix2 (0 : Fin 4) q) :=
    View.canon_cons_of_not_mem (⟨rCol, k0_pay3 x0 x1⟩ : View.Piece (Elt F) S4x32768 .f32) [⟨rDens, k0_pay2 x0 x1 x2⟩] (row0_not_col q)
  rw [below, ← rDens_emb q, View.canon_cons_emb]

/-- Rows 1 to 3 are the second store's value, the last store made. -/
theorem outBlock_col (x0 : Vec F S8x4x32768 .f32) (x1 : Vec F S8x32768 .f32) (x2 : Vec F S1x32768 .f32) (cc : Fin 3) (q : Fin 32768) :
    outBlock x0 x1 x2 (ix2 (⟨cc.val + 1, Nat.succ_lt_succ cc.isLt⟩ : Fin 4) q) = Gen.k0_pay3 x0 x1 (ix2 cc q) := by
  unfold outBlock
  rw [ld_grid, ld_wts, ld_len, ← rCol_emb cc q, View.canon_cons_emb]

end Cert.KernelIdeal.Fr

end
-- ==== Proof.Preds.lean ====
/-
  Two predicates on arrays, used throughout: every entry of a float array (read at the ideal
  instance, where a float is an extended real) is a real number; every entry of a 32-bit integer
  array, read signed, lies in an interval.
-/
import Idealize.ShloMosaic.PureOps.Ideal

noncomputable section

namespace Cert.Spec

open Idealize.ShloMosaic

/-- Every entry is a real number (neither infinity). -/
def AllReal {S : Shape} (v : S.Idx → EReal) : Prop := ∀ i, ∃ r : ℝ, v i = (r : EReal)

/-- Every entry, read as a signed integer, lies in `[lo, hi]`. -/
def IntIn {S : Shape} (lo hi : Int) (v : S.Idx → BitVec 32) : Prop := ∀ i, lo ≤ (v i).toInt ∧ (v i).toInt ≤ hi

/-- The eight-term sum in the order a left-nested chain of additions takes it:
    `((((((f 0 + f 1) + f 2) + f 3) + f 4) + f 5) + f 6) + f 7`. -/
def nest8 (f : Fin 8 → EReal) : EReal := f 0 + f 1 + f 2 + f 3 + f 4 + f 5 + f 6 + f 7

end Cert.Spec

end
-- ==== Proof.Acts.lean ====
/-
  The two activations of the reference, on one element, at the ideal instance (a float is an
  extended real): the density  1 − (1 + e^(s + shift))^(−I)  of a raw trilinear sum `s` and a ray's
  interval `I`, and the color  1 / (1 + e^(−s)),  each spelt operation by operation as the reference's
  host program applies them (the shift is the one f32 word both programs carry).
-/
import Idealize.ShloMosaic.PureOps.Ideal

noncomputable section

namespace Cert.Spec

open Idealize.ShloMosaic

/-- `1 − (1 + exp (s + shift)) ^ (−I)`. -/
def REFDENS (I s : Ideal .f32) : Ideal .f32 :=
  FloatOps.subf (FloatOps.ofBits .f32 0x3F800000#32)
    (FloatOps.hostPowf (FloatOps.addf (FloatOps.ofBits .f32 0x3F800000#32)
        (FloatOps.hostUnary .exp (FloatOps.addf s (FloatOps.ofBits .f32 0xC15D0C54#32))))
      (FloatOps.hostNegf I))

/-- `1 / (1 + exp (−s))`. -/
def REFSIG (s : Ideal .f32) : Ideal .f32 :=
  FloatOps.hostDivf (FloatOps.ofBits .f32 0x3F800000#32)
    (FloatOps.addf (FloatOps.ofBits .f32 0x3F800000#32) (FloatOps.hostUnary .exp (FloatOps.hostNegf s)))

end Cert.Spec

end
-- ==== Proof.KPay.lean ====
/-
  The three values the kernel body computes, read at one index, with every float an extended real.

  * the eight-corner weighted sum  raw[ch, n] = Σ_{k<8} corners[k, ch, n] · weights[k, n]  in the
    order a left-nested chain of additions takes it;
  * the density  1 − exp(−I · softplus(raw₀ + c))  with softplus written  max(y, 0) + log1p(exp(−|y|)),
    shown equal to the closed form  1 − (1 + exp(raw₀ + c)) ^ (−I)  for real raw₀ and I;
  * the colour  logistic(raw_{1..3}) = 1 / (1 + exp(−raw)).
-/
import proofs.«123153_j77008763617691_1_alg».proof.Proof.Gen.KernelIdeal.Skeleton
import proofs.«123153_j77008763617691_1_alg».proof.Proof.Preds
import proofs.«123153_j77008763617691_1_alg».proof.Proof.Acts
import Idealize.ShloMosaic.Lib.ValueIdx
import Idealize.ShloMosaic.Lib.ValueLayout
import Idealize.ShloMosaic.Lib.Pipeline.Value
import Idealize.ShloMosaic.PureOps.Ideal.Laws
import Mathlib.Analysis.SpecialFunctions.Pow.Real
import Mathlib.Analysis.SpecialFunctions.Log.Basic
import Mathlib.Analysis.SpecialFunctions.Exp

noncomputable section

open scoped BigOperators

namespace Cert.KernelIdeal.Pay

open Idealize.ShloMosaic Idealize.ShloMosaic.ValueIdx Cert.KernelIdeal Cert.KernelIdeal.Gen

/-! ## The weighted sum over the eight corners -/

/-- The source index over `(ch, q)` with corner `k` inserted on the summed axis is `(k, ch, q)`. -/
theorem lift_eq (k : Fin 8) (ch : Fin 4) (q : Fin 32768) :
    Shape.Reduces.lift (s := S8x4x32768) (t := S4x32768) (a := 0) reduces_S8x4x32768_S4x32768 (ix2 ch q) k = ix3 k ch q := by
  funext a
  match a with
  | ⟨0, _⟩ => exact Fin.ext rfl
  | ⟨1, _⟩ => exact Fin.ext rfl
  | ⟨2, _⟩ => exact Fin.ext rfl

/-- The weights, given a unit channel axis and broadcast over the four channels, read `(k, q)` at `(k, ch, q)`. -/
theorem weights_apply (v2 : Vec Ideal S8x32768 .f32) (k : Fin 8) (ch : Fin 4) (q : Fin 32768) :
    broadcastTo S8x4x32768
        (shapeCast S8x1x32768 (shapeCast S8x32768 v2 shapeCasts_S8x32768_S8x32768) shapeCasts_S8x32768_S8x1x32768)
        broadcasts_S8x1x32768_S8x4x32768 (ix3 k ch q) = v2 (ix2 k q) := by
  rw [shapeCast_self]
  refine (broadcastTo_apply _ broadcasts_S8x1x32768_S8x4x32768 (ix3 k ch q) (ix3 k (0 : Fin 1) q) fun a => ?_).trans ?_
  · match a with
    | ⟨0, _⟩ => rfl
    | ⟨1, _⟩ => rfl
    | ⟨2, _⟩ => rfl
  · refine shapeCast_apply v2 shapeCasts_S8x32768_S8x1x32768 (ix3 k (0 : Fin 1) q) (ix2 k q) ?_
    rw [Shape.rowMajor_val_two, Shape.rowMajor_val_three]
    show k.val * 32768 + q.val = (k.val * 1 + 0) * 32768 + q.val
    omega

/-- The sum over the corners at `(ch, q)`, in the order of a left-nested chain of additions. -/
theorem pay1_apply (v0 : Vec Ideal S8x4x32768 .f32) (v2 : Vec Ideal S8x32768 .f32) (ch : Fin 4) (q : Fin 32768) :
    Gen.k0_pay1 (F := Ideal) v0 v2 (ix2 ch q) = Cert.Spec.nest8 (fun k => v0 (ix3 k ch q) * v2 (ix2 k q)) := by
  unfold Gen.k0_pay1
  refine (Ideal.multiReduction_add_single _ 0x00000000#32 reduces_S8x4x32768_S4x32768 (.inl rfl) rfl (ix2 ch q)).trans ?_
  have hterm : ∀ k : Fin 8, mulf (F := Ideal) (φ := .f32) (shapeCast S8x4x32768 v0 shapeCasts_S8x4x32768_S8x4x32768)
      (broadcastTo S8x4x32768
        (shapeCast S8x1x32768 (shapeCast S8x32768 v2 shapeCasts_S8x32768_S8x32768) shapeCasts_S8x32768_S8x1x32768)
        broadcasts_S8x1x32768_S8x4x32768)
      (Shape.Reduces.lift (s := S8x4x32768) (t := S4x32768) (a := 0) reduces_S8x4x32768_S4x32768 (ix2 ch q) k)
        = v0 (ix3 k ch q) * v2 (ix2 k q) := by
    intro k
    rw [lift_eq, mulf_apply, weights_apply, shapeCast_self]
  refine (Finset.sum_congr rfl fun k _ => hterm k).trans ?_
  refine (Fin.sum_univ_eight _).trans ?_
  rfl

/-! ## Constants -/

/-- The pattern of one denotes the real number one. -/
theorem one_f32 : Ideal.ofBits .f32 0x3F800000#32 = 1 := by
  simp [Ideal.ofBits, Ideal.ieee, -EReal.coe_mul]; norm_num

/-- A 32-bit pattern whose exponent field is not all ones denotes a real number. -/
theorem real_of_exponent_f32 (b : BitVec 32) (h : (b.extractLsb' 23 8).toNat ≠ 255) :
    ∃ r : ℝ, Ideal.ofBits .f32 b = (r : EReal) := by
  show ∃ r : ℝ, Ideal.ieee 8 23 b = (r : EReal)
  unfold Ideal.ieee
  simp only []
  rw [if_neg (by simpa using h)]
  split_ifs <;> exact ⟨_, rfl⟩

/-- The shift constant is a real number. -/
theorem shift_real : ∃ r : ℝ, Ideal.ofBits .f32 0xC15D0C54#32 = (r : EReal) :=
  real_of_exponent_f32 _ (by decide)

/-! ## The density -/

/-- Softplus in its stable form: `max (y, 0) + log (1 + exp (−|y|)) = log (1 + exp y)`. -/
theorem softplus_stable (y : ℝ) :
    max y 0 + Real.log (1 + Real.exp (0 - max (y - 0) (-(y - 0)))) = Real.log (1 + Real.exp y) := by
  rcases le_total 0 y with h | h
  · have h1 : max (y - 0) (-(y - 0)) = y := by rw [sub_zero]; exact max_eq_left (by linarith)
    have h2 : 1 + Real.exp y = Real.exp y * (1 + Real.exp (-y)) := by
      rw [mul_add, mul_one, ← Real.exp_add, add_neg_cancel, Real.exp_zero, add_comm]
    rw [h1, max_eq_left h, zero_sub, h2, Real.log_mul (Real.exp_pos y).ne' (by positivity), Real.log_exp]
  · have h1 : max (y - 0) (-(y - 0)) = -y := by rw [sub_zero]; exact max_eq_right (by linarith)
    rw [h1, max_eq_right h, zero_sub, neg_neg, zero_add]

/-- `exp (−I · softplus y) = (1 + exp y) ^ (−I)` for real `y` and `I`. -/
theorem exp_neg_mul_softplus (y i : ℝ) :
    Real.exp ((0 - i) * (max y 0 + Real.log (1 + Real.exp (0 - max (y - 0) (-(y - 0)))))) = (1 + Real.exp y) ^ (-i) := by
  have hpos : 0 < 1 + Real.exp y := by positivity
  rw [softplus_stable, Real.rpow_def_of_pos hpos, zero_sub, mul_comm]

/-- "Ordered and unequal" of a value with itself is false. -/
theorem cmp_one_self (x : EReal) : Ideal.cmp .one x x = 0#1 := by
  simp [Ideal.cmp]

/-- The kernel's density at one sample, as a scalar chain over the interval `I` and the raw density `s`. -/
def kdens (I s : Ideal .f32) : Ideal .f32 :=
  FloatOps.subf (F := Ideal) (φ := .f32) (FloatOps.ofBits .f32 0x3F800000#32)
    (FloatOps.exp (FloatOps.mulf (FloatOps.subf (FloatOps.ofBits .f32 0x00000000#32) I)
      (Scalar.select
        (FloatOps.cmpf .one
          (FloatOps.subf (FloatOps.addf s (FloatOps.ofBits .f32 0xC15D0C54#32)) (FloatOps.ofBits .f32 0x00000000#32))
          (FloatOps.subf (FloatOps.addf s (FloatOps.ofBits .f32 0xC15D0C54#32)) (FloatOps.ofBits .f32 0x00000000#32)))
        (FloatOps.addf (FloatOps.addf s (FloatOps.ofBits .f32 0xC15D0C54#32)) (FloatOps.ofBits .f32 0x00000000#32))
        (FloatOps.addf
          (FloatOps.maximumf (FloatOps.addf s (FloatOps.ofBits .f32 0xC15D0C54#32)) (FloatOps.ofBits .f32 0x00000000#32))
          (FloatOps.log1p (FloatOps.exp (FloatOps.subf (FloatOps.ofBits .f32 0x00000000#32)
            (FloatOps.absf (FloatOps.subf (FloatOps.addf s (FloatOps.ofBits .f32 0xC15D0C54#32))
              (FloatOps.ofBits .f32 0x00000000#32))))))))))

/-- The density payload at sample `q` is that chain of the interval at `q` and the sliced row 0 of the sum. -/
theorem pay2_read (v0 : Vec Ideal S8x4x32768 .f32) (v2 : Vec Ideal S8x32768 .f32) (v4 : Vec Ideal S1x32768 .f32)
    (q : Fin 32768) :
    Gen.k0_pay2 (F := Ideal) v0 v2 v4 (ix2 (0 : Fin 1) q)
      = kdens (v4 (ix2 (0 : Fin 1) q)) (Gen.k0_pay1 (F := Ideal) v0 v2 (ix2 (0 : Fin 4) q)) := by
  have hsl : extractStridedSlice S1x32768 ![0, 0] (Gen.k0_pay1 (F := Ideal) v0 v2) slices_S4x32768_o0_0_S1x32768
      (ix2 (0 : Fin 1) q) = Gen.k0_pay1 (F := Ideal) v0 v2 (ix2 (0 : Fin 4) q) :=
    slice2_axis0_apply 0 _ slices_S4x32768_o0_0_S1x32768 (0 : Fin 1) q (0 : Fin 4) rfl
  have hc : shapeCast S1x32768 v4 shapeCasts_S1x32768_S1x32768 (ix2 (0 : Fin 1) q) = v4 (ix2 (0 : Fin 1) q) :=
    congrFun (shapeCast_self v4 shapeCasts_S1x32768_S1x32768) _
  rw [← hsl, ← hc]
  rfl

/-- On real arguments the kernel's chain and the reference's are one number. -/
theorem kdens_eq (i r : ℝ) : kdens (i : EReal) (r : EReal) = Cert.Spec.REFDENS (i : EReal) (r : EReal) := by
  obtain ⟨c, hc⟩ := shift_real
  unfold kdens Cert.Spec.REFDENS
  simp only [Ideal.addf_def, Ideal.subf_def, Ideal.mulf_def, Ideal.maximumf_def, Ideal.exp_def, Ideal.log1p_def,
    Ideal.absf_def, Ideal.cmpf_def, Ideal.ofBits_def, Ideal.hostPowf_def, Ideal.hostUnary_exp_def, Ideal.hostNegf_def,
    Ideal.negf_def, Ideal.ofBits_zero_f32, one_f32, hc, cmp_one_self, select_zero, Ideal.log1p]
  rw [← EReal.coe_add r c]
  generalize r + c = y
  have hpos : ¬ (1 + Real.exp (0 - max (y - 0) (-(y - 0))) ≤ 0) := not_le.mpr (by positivity)
  have hmax : ∀ a b : ℝ, max (a : EReal) (b : EReal) = ((max a b : ℝ) : EReal) := fun a b =>
    (EReal.coe_strictMono.monotone.map_max).symm
  simp only [← EReal.coe_zero, ← EReal.coe_one, ← EReal.coe_sub, ← EReal.coe_neg, hmax, Ideal.exp_coe, ← EReal.coe_add,
    Ideal.log_coe, if_neg hpos, ← EReal.coe_mul, Ideal.pow_coe_coe, Real.rpow_eq_pow, exp_neg_mul_softplus]

/-- THE DENSITY at sample `q`: when the raw density and the interval are real numbers, the kernel's value is the
    reference's closed form of them. -/
theorem pay2_apply (v0 : Vec Ideal S8x4x32768 .f32) (v2 : Vec Ideal S8x32768 .f32) (v4 : Vec Ideal S1x32768 .f32)
    (q : Fin 32768)
    (hs : ∃ r : ℝ, Cert.Spec.nest8 (fun k => v0 (ix3 k (0 : Fin 4) q) * v2 (ix2 k q)) = (r : EReal))
    (hI : ∃ r : ℝ, v4 (ix2 (0 : Fin 1) q) = (r : EReal)) :
    Gen.k0_pay2 (F := Ideal) v0 v2 v4 (ix2 (0 : Fin 1) q)
      = Cert.Spec.REFDENS (v4 (ix2 (0 : Fin 1) q)) (Cert.Spec.nest8 (fun k => v0 (ix3 k (0 : Fin 4) q) * v2 (ix2 k q))) := by
  obtain ⟨r, hr⟩ := hs
  obtain ⟨i, hi⟩ := hI
  rw [pay2_read, pay1_apply, hr, hi]
  exact kdens_eq i r

/-! ## Real sums of real products -/

/-- A product of two real numbers is a real number. -/
theorem real_mul {a b : EReal} (ha : ∃ x : ℝ, a = (x : EReal)) (hb : ∃ y : ℝ, b = (y : EReal)) :
    ∃ z : ℝ, a * b = (z : EReal) := by
  obtain ⟨x, rfl⟩ := ha
  obtain ⟨y, rfl⟩ := hb
  exact ⟨x * y, (EReal.coe_mul x y).symm⟩

/-- A sum of two real numbers is a real number. -/
theorem real_add {a b : EReal} (ha : ∃ x : ℝ, a = (x : EReal)) (hb : ∃ y : ℝ, b = (y : EReal)) :
    ∃ z : ℝ, a + b = (z : EReal) := by
  obtain ⟨x, rfl⟩ := ha
  obtain ⟨y, rfl⟩ := hb
  exact ⟨x + y, (EReal.coe_add x y).symm⟩

/-- The eight-term sum of real numbers is a real number. -/
theorem nest8_real (f : Fin 8 → EReal) (hf : ∀ k, ∃ x : ℝ, f k = (x : EReal)) :
    ∃ r : ℝ, Cert.Spec.nest8 f = (r : EReal) := by
  unfold Cert.Spec.nest8
  exact real_add (real_add (real_add (real_add (real_add (real_add (real_add (hf 0) (hf 1)) (hf 2)) (hf 3)) (hf 4)) (hf 5))
    (hf 6)) (hf 7)

/-- With real corners and weights the weighted sum at `(ch, q)` is a real number. -/
theorem raw_real (v0 : Vec Ideal S8x4x32768 .f32) (v2 : Vec Ideal S8x32768 .f32)
    (h0 : ∀ i, ∃ r : ℝ, v0 i = (r : EReal)) (h2 : ∀ i, ∃ r : ℝ, v2 i = (r : EReal)) (ch : Fin 4) (q : Fin 32768) :
    ∃ r : ℝ, Cert.Spec.nest8 (fun k => v0 (ix3 k ch q) * v2 (ix2 k q)) = (r : EReal) :=
  nest8_real _ fun k => real_mul (h0 _) (h2 _)

/-- THE DENSITY at sample `q` for real corners, weights and intervals. -/
theorem pay2_apply_of_real (v0 : Vec Ideal S8x4x32768 .f32) (v2 : Vec Ideal S8x32768 .f32) (v4 : Vec Ideal S1x32768 .f32)
    (h0 : ∀ i, ∃ r : ℝ, v0 i = (r : EReal)) (h2 : ∀ i, ∃ r : ℝ, v2 i = (r : EReal))
    (h4 : ∀ i, ∃ r : ℝ, v4 i = (r : EReal)) (q : Fin 32768) :
    Gen.k0_pay2 (F := Ideal) v0 v2 v4 (ix2 (0 : Fin 1) q)
      = Cert.Spec.REFDENS (v4 (ix2 (0 : Fin 1) q)) (Cert.Spec.nest8 (fun k => v0 (ix3 k (0 : Fin 4) q) * v2 (ix2 k q))) :=
  pay2_apply v0 v2 v4 q (raw_real v0 v2 h0 h2 0 q) (h4 _)

/-! ## The colour -/

/-- THE COLOUR at channel `c` and sample `q`: the logistic of row `c + 1` of the sum, which is the reference's
    `1 / (1 + exp (−s))`. -/
theorem pay3_apply (v0 : Vec Ideal S8x4x32768 .f32) (v2 : Vec Ideal S8x32768 .f32) (c : Fin 3) (q : Fin 32768) :
    Gen.k0_pay3 (F := Ideal) v0 v2 (ix2 c q)
      = Cert.Spec.REFSIG (Cert.Spec.nest8 (fun k =>
          v0 (ix3 k (⟨c.val + 1, Nat.succ_lt_succ c.isLt⟩ : Fin 4) q) * v2 (ix2 k q))) := by
  have hsl : extractStridedSlice S3x32768 ![1, 0] (Gen.k0_pay1 (F := Ideal) v0 v2) slices_S4x32768_o1_0_S3x32768
      (ix2 c q) = Gen.k0_pay1 (F := Ideal) v0 v2 (ix2 (⟨c.val + 1, Nat.succ_lt_succ c.isLt⟩ : Fin 4) q) :=
    slice2_axis0_apply 1 _ slices_S4x32768_o1_0_S3x32768 c q (⟨c.val + 1, Nat.succ_lt_succ c.isLt⟩ : Fin 4)
      (Nat.add_comm _ _)
  have hlog : Gen.k0_pay3 (F := Ideal) v0 v2 (ix2 c q)
      = FloatOps.logistic (F := Ideal) (φ := .f32) (extractStridedSlice S3x32768 ![1, 0] (Gen.k0_pay1 (F := Ideal) v0 v2)
          slices_S4x32768_o1_0_S3x32768 (ix2 c q)) := rfl
  rw [hlog, hsl, pay1_apply]
  unfold Cert.Spec.REFSIG
  rw [Ideal.ofBits_def, one_f32]
  rfl

end Cert.KernelIdeal.Pay

end
-- ==== Proof.LibGather.lean ====
/-
  A column gather read at an index, and the arithmetic around it.

  A table `x : [C, M]` is read at a list of column numbers `idx : [N, 1]`: result element `(ch, n)` is
  `x[ch, idx[n]]`, the column number read as a signed integer and clamped into `[0, M − 1]`. Around that
  gather stand: the wrap of a negative column number (adding `M`), which is the identity on numbers already
  in range; the in-range mask, which is all ones on such numbers; and the flattening
  `(z · 160 + y) · 160 + x` of three coordinates below 160, which stays below `160³` without 32-bit overflow.
-/
import Idealize.ShloMosaic.PureOps.Ideal
import Idealize.ShloMosaic.PureOps.ShapeOps
import Idealize.ShloMosaic.PureOps.Dims
import Idealize.ShloMosaic.PureOps.Reduce
import Idealize.ShloMosaic.Lib.ValueIdx
import Idealize.ShloMosaic.Lib.StableHlo.Predicate
import Idealize.ShloMosaic.Lib.ReduceAll
import proofs.«123153_j77008763617691_1_alg».proof.Proof.Preds

noncomputable section

namespace Cert.Spec

open Idealize.ShloMosaic Idealize.ShloMosaic.ValueIdx

/-! ## The gather of columns -/

section Gather
variable {α : Type}

/-- A one-element list of axes read at a valid position gives its element. -/
theorem getElem_of_eq_singleton {β : Type} {l : List β} {b : β} (hl : l = [b]) (k : Nat) (hk : k < l.length) :
    l[k]'hk = b := by
  subst hl
  have : k = 0 := by simpa using hk
  subst this; rfl

/-- THE COLUMN GATHER READ AT `(ch, n)`. For an operand `[C, M]`, start indices `[N, 1]` and a result
    `[C, N]`, with the result's axis 0 the offset axis, the operand's axis 1 collapsed and start-indexed,
    no batching axes and the index vector on axis 1: the result at `(ch, n)` is the operand at row `ch` and
    the column `idx[n, 0]`, read signed and clamped into `[0, M − 1]`. -/
theorem gather_col_apply {C M N w : Nat} (hM : 0 < M)
    (d : GatherDims ⟨2, ![C, M]⟩ ⟨2, ![N, 1]⟩ ⟨2, ![C, N]⟩)
    (hoff : d.offsetDims = [0]) (hcoll : d.collapsedSliceDims = [1]) (hob : d.operandBatchingDims = [])
    (hsim : d.startIndexMap = [1]) (hivd : d.indexVectorDim = 1)
    (x : (⟨2, ![C, M]⟩ : Shape).Idx → α) (idx : IVec ⟨2, ![N, 1]⟩ w) (ch : Fin C) (n : Fin N) :
    Host.gather d x idx (ix2 ch n)
      = x (ix2 ch ⟨min (idx (ix2 n (0 : Fin 1))).toInt.toNat (M - 1), by omega⟩) := by
  unfold Host.gather
  congr 1
  funext a
  apply Fin.ext
  have hb : ∀ a : Fin 2, a ∉ d.operandBatchingDims := by intro a; rw [hob]; exact List.not_mem_nil
  match a with
  | ⟨0, _⟩ =>
    have hm : (⟨0, by show 0 < 2; omega⟩ : Fin 2) ∉ d.startIndexMap := by rw [hsim]; simp
    have hk : (⟨0, by show 0 < 2; omega⟩ : Fin 2) ∈ d.sKept := by rw [GatherDims.mem_sKept, hcoll, hob]; simp
    simp only [GatherDims.operandIdx, GatherDims.batchCoord_eq_zero _ _ _ (hb _), GatherDims.start, dif_neg hm,
      GatherDims.offCoord, dif_pos hk, Nat.add_zero, Nat.zero_add]
    rw [getElem_of_eq_singleton hoff]
    rfl
  | ⟨1, _⟩ =>
    have hm : (⟨1, by show 1 < 2; omega⟩ : Fin 2) ∈ d.startIndexMap := by rw [hsim]; simp
    have hk : (⟨1, by show 1 < 2; omega⟩ : Fin 2) ∉ d.sKept := by rw [GatherDims.mem_sKept, hcoll]; simp
    have hsl : d.sliceSizes ⟨1, by show 1 < 2; omega⟩ = 1 := d.slice_collapsed _ (by rw [hcoll]; simp)
    simp only [GatherDims.operandIdx, GatherDims.batchCoord_eq_zero _ _ _ (hb _), GatherDims.offCoord_eq_zero _ _ _ hk,
      Nat.add_zero, GatherDims.start, dif_pos hm]
    show min (idx _).toInt.toNat (M - d.sliceSizes ⟨1, by show 1 < 2; omega⟩) = min (idx (ix2 n (0 : Fin 1))).toInt.toNat (M - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have hbd : d.batchDims = [⟨1, by show 1 < 2; omega⟩] := by
        show (⟨2, ![C, N]⟩ : Shape).kept d.offsetDims = _
        rw [hoff]; rfl
      rw [getElem_of_eq_singleton hbd]
    | ⟨1, _⟩ =>
      unfold GatherDims.siIdx
      rw [dif_pos (by rw [hivd])]
      apply Fin.ext
      show List.idxOf (⟨1, by show 1 < 2; omega⟩ : Fin 2) d.startIndexMap = 0
      rw [hsim]; simp

/-- … and when the column number `idx[n, 0]`, read signed, already lies in `[0, M − 1]` the clamp does nothing:
    the result at `(ch, n)` is the operand at `(ch, idx[n, 0])`. -/
theorem gather_col_apply_of_mem {C M N w : Nat} (hM : 0 < M)
    (d : GatherDims ⟨2, ![C, M]⟩ ⟨2, ![N, 1]⟩ ⟨2, ![C, N]⟩)
    (hoff : d.offsetDims = [0]) (hcoll : d.collapsedSliceDims = [1]) (hob : d.operandBatchingDims = [])
    (hsim : d.startIndexMap = [1]) (hivd : d.indexVectorDim = 1)
    (x : (⟨2, ![C, M]⟩ : Shape).Idx → α) (idx : IVec ⟨2, ![N, 1]⟩ w) (ch : Fin C) (n : Fin N)
    (h0 : 0 ≤ (idx (ix2 n (0 : Fin 1))).toInt) (h1 : (idx (ix2 n (0 : Fin 1))).toInt ≤ (M : Int) - 1) :
    Host.gather d x idx (ix2 ch n) = x (ix2 ch ⟨(idx (ix2 n (0 : Fin 1))).toInt.toNat, by omega⟩) := by
  rw [gather_col_apply hM d hoff hcoll hob hsim hivd]
  have e : (⟨min (idx (ix2 n (0 : Fin 1))).toInt.toNat (M - 1), by omega⟩ : Fin M)
      = ⟨(idx (ix2 n (0 : Fin 1))).toInt.toNat, by omega⟩ := Fin.ext (Nat.min_eq_left (by omega))
  rw [e]

/-- A vector laid out as an `[N, 1]` column reads, at `(n, 0)`, the vector at `n`. -/
theorem bcast_col_apply {N : Nat} (h : (⟨1, ![N]⟩ : Shape).BroadcastsInDim ⟨2, ![N, 1]⟩ ![0])
    (v : (⟨1, ![N]⟩ : Shape).Idx → α) (n : Fin N) :
    broadcastInDim ⟨2, ![N, 1]⟩ ![0] h v (ix2 n (0 : Fin 1)) = v (ix1 n) := by
  simp only [broadcastInDim]
  congr 1
  funext a
  obtain rfl : a = 0 := Subsingleton.elim _ _
  apply Fin.ext
  have hn := n.isLt
  split
  · next h1 => change N = 1 at h1; show (0 : Nat) = n.val; omega
  · rfl

/-- THE GATHER AT A VECTOR OF COLUMN NUMBERS. With the start indices the `[N, 1]` column of a vector `lin`, at an entry
    `lin[n]` already in `[0, M − 1]` the result at `(ch, n)` is the operand at `(ch, lin[n])`. -/
theorem gather_col_bcast_apply {C M N w : Nat} (hM : 0 < M)
    (d : GatherDims ⟨2, ![C, M]⟩ ⟨2, ![N, 1]⟩ ⟨2, ![C, N]⟩)
    (hoff : d.offsetDims = [0]) (hcoll : d.collapsedSliceDims = [1]) (hob : d.operandBatchingDims = [])
    (hsim : d.startIndexMap = [1]) (hivd : d.indexVectorDim = 1)
    (hI : (⟨1, ![N]⟩ : Shape).BroadcastsInDim ⟨2, ![N, 1]⟩ ![0])
    (x : (⟨2, ![C, M]⟩ : Shape).Idx → α) (lin : IVec ⟨1, ![N]⟩ w) (ch : Fin C) (n : Fin N)
    (h0 : 0 ≤ (lin (ix1 n)).toInt) (h1 : (lin (ix1 n)).toInt ≤ (M : Int) - 1) :
    Host.gather d x (broadcastInDim ⟨2, ![N, 1]⟩ ![0] hI lin) (ix2 ch n)
      = x (ix2 ch ⟨(lin (ix1 n)).toInt.toNat, by omega⟩) := by
  have e : broadcastInDim ⟨2, ![N, 1]⟩ ![0] hI lin (ix2 n (0 : Fin 1)) = lin (ix1 n) := bcast_col_apply hI lin n
  rw [gather_col_apply_of_mem hM d hoff hcoll hob hsim hivd x _ ch n (by rw [e]; exact h0) (by rw [e]; exact h1)]
  simp only [e]

end Gather

/-! ## Signed compares of 32-bit words, and arithmetic that does not wrap -/

section Words

/-- A signed "less than" is the bit 0 when the left word is at least the right one. -/
theorem cmpi_slt_eq_zero {a b : BitVec 32} (h : b.toInt ≤ a.toInt) : IntOp.cmpi .slt a b = 0#1 := by
  have e : a.slt b = false := by
    rw [Bool.eq_false_iff]; intro h'; rw [BitVec.slt_iff_toInt_lt] at h'; omega
  show BitVec.ofBool (a.slt b) = 0#1
  rw [e]; rfl

/-- A signed "greater or equal" is the bit 1 when it holds of the words read signed. -/
theorem cmpi_sge_eq_one {a b : BitVec 32} (h : b.toInt ≤ a.toInt) : IntOp.cmpi .sge a b = 1#1 := by
  have e : b.sle a = true := by rw [BitVec.sle_iff_toInt_le]; exact h
  show BitVec.ofBool (b.sle a) = 1#1
  rw [e]; rfl

/-- A signed "less or equal" is the bit 1 when it holds of the words read signed. -/
theorem cmpi_sle_eq_one {a b : BitVec 32} (h : a.toInt ≤ b.toInt) : IntOp.cmpi .sle a b = 1#1 := by
  have e : a.sle b = true := by rw [BitVec.sle_iff_toInt_le]; exact h
  show BitVec.ofBool (a.sle b) = 1#1
  rw [e]; rfl

/-- The two in-range bits of a word `a` with `0 ≤ a ≤ hi` (signed), combined by `and`, are the bit 1. -/
theorem mask_bit {a hi : BitVec 32} (h0 : 0 ≤ a.toInt) (h1 : a.toInt ≤ hi.toInt) :
    IntOp.andi (IntOp.cmpi .sge a 0#32) (IntOp.cmpi .sle a hi) = 1#1 := by
  have hz : (0#32 : BitVec 32).toInt = 0 := by decide
  rw [cmpi_sge_eq_one (by rw [hz]; exact h0), cmpi_sle_eq_one h1]
  rfl

/-- A select on a condition that is 1 everywhere is its first operand. -/
theorem select_of_all_one {β : Type} {S : Shape} (c : IVec S 1) (hc : ∀ j, c j = 1#1) (g fill : S.Idx → β) :
    select c g fill = g := by
  funext j
  rw [select_apply, hc j]
  exact select_one _ _

/-- An integer in the signed 32-bit range is its own balanced remainder modulo `2³²`. -/
theorem bmod32_eq {n : Int} (h₁ : -2 ^ 31 ≤ n) (h₂ : n < 2 ^ 31) : n.bmod (2 ^ 32) = n :=
  Int.bmod_eq_of_le (by omega) (by omega)

/-- A 32-bit sum whose integer value fits reads as the integer sum. -/
theorem toInt_addi {a b : BitVec 32} (h₁ : -2 ^ 31 ≤ a.toInt + b.toInt) (h₂ : a.toInt + b.toInt < 2 ^ 31) :
    (IntOp.addi a b).toInt = a.toInt + b.toInt := by
  rw [IntOp.addi, BitVec.toInt_add, bmod32_eq h₁ h₂]

/-- A 32-bit product whose integer value fits reads as the integer product. -/
theorem toInt_muli {a b : BitVec 32} (h₁ : -2 ^ 31 ≤ a.toInt * b.toInt) (h₂ : a.toInt * b.toInt < 2 ^ 31) :
    (IntOp.muli a b).toInt = a.toInt * b.toInt := by
  rw [IntOp.muli, BitVec.toInt_mul, bmod32_eq h₁ h₂]

/-- A left fold by `and` over one-bit words that starts at 1 and meets only 1s ends at 1. -/
theorem foldl_andi_one {ι : Type} (g : ι → BitVec 1) (hg : ∀ n, g n = 1#1) :
    ∀ l : List ι, l.foldl (fun r n => IntOp.andi r (g n)) 1#1 = 1#1
  | [] => rfl
  | a :: l => by
    rw [List.foldl_cons, hg a]
    exact foldl_andi_one g hg l

end Words

/-! ## The wrap of a negative column number -/

/-- A scalar constant broadcast to any shape reads the constant everywhere. -/
theorem bcast_const_apply {S : Shape} {w : Nat} (h : (⟨0, ![]⟩ : Shape).BroadcastsInDim S ![]) (c : BitVec w) (i : S.Idx) :
    broadcastInDim S ![] h (constantI ⟨0, ![]⟩ w c) i = c := rfl

/-- THE WRAP IS THE IDENTITY ON NONNEGATIVE NUMBERS. `where(lin < 0, lin + m, lin)` is `lin` when every entry
    of `lin`, read signed, is nonnegative (whatever `m` is). -/
theorem wrap_id_of_nonneg {S : Shape} (m : BitVec 32) (lin : IVec S 32)
    (h0 h1 : (⟨0, ![]⟩ : Shape).BroadcastsInDim S ![]) (hlin : ∀ i, 0 ≤ (lin i).toInt) :
    select (cmpi .slt lin (broadcastInDim S ![] h0 (constantI ⟨0, ![]⟩ 32 0#32)))
      (addi lin (broadcastInDim S ![] h1 (constantI ⟨0, ![]⟩ 32 m))) lin = lin := by
  funext i
  show Scalar.select (IntOp.cmpi .slt (lin i) 0#32) _ (lin i) = lin i
  have hz : (0#32 : BitVec 32).toInt = 0 := by decide
  rw [cmpi_slt_eq_zero (by rw [hz]; exact hlin i)]
  exact select_zero _ _

/-- The wrap by the table's width 4096000 is the identity on column numbers in `[0, 4095999]`. -/
theorem wrap_id {S : Shape} (lin : IVec S 32) (h0 h1 : (⟨0, ![]⟩ : Shape).BroadcastsInDim S ![])
    (hlin : IntIn 0 4095999 lin) :
    select (cmpi .slt lin (broadcastInDim S ![] h0 (constantI ⟨0, ![]⟩ 32 0#32)))
      (addi lin (broadcastInDim S ![] h1 (constantI ⟨0, ![]⟩ 32 4096000#32))) lin = lin :=
  wrap_id_of_nonneg _ lin h0 h1 fun i => (hlin i).1

/-! ## The in-range mask -/

/-- THE IN-RANGE MASK IS ALL ONES. For a vector `lin` whose entries, read signed, lie in `[0, hi]`: lay it out
    under any broadcast as `ib`, compare `ib ≥ 0` and `ib ≤ hi` (the bound a one-element vector broadcast twice),
    and the two bits, reduce by `and` from 1 over any axes, and broadcast the result: every entry of the mask is 1. -/
theorem take_mask_eq_one {SL SI SB SC SR ST : Shape} {axes : List (Fin SI.rank)} (hi : BitVec 32)
    (dI : Fin SL.rank → Fin SI.rank) (hI : SL.BroadcastsInDim SI dI)
    (hz : (⟨0, ![]⟩ : Shape).BroadcastsInDim SI ![])
    (d1 : Fin SC.rank → Fin SB.rank) (h1 : SC.BroadcastsInDim SB d1)
    (d2 : Fin SB.rank → Fin SI.rank) (h2 : SB.BroadcastsInDim SI d2)
    (hred : SI.ReducesTo axes SR) (hS : 0 < (⟨0, ![]⟩ : Shape).numel)
    (dm : Fin SR.rank → Fin ST.rank) (hm : SR.BroadcastsInDim ST dm)
    (lin : IVec SL 32) (hlin : ∀ i, 0 ≤ (lin i).toInt ∧ (lin i).toInt ≤ hi.toInt) (j : ST.Idx) :
    broadcastInDim ST dm hm
      (Host.reduce IntOp.andi
        (andi (cmpi .sge (broadcastInDim SI dI hI lin) (broadcastInDim SI ![] hz (constantI ⟨0, ![]⟩ 32 0#32)))
          (cmpi .sle (broadcastInDim SI dI hI lin)
            (broadcastInDim SI d2 h2 (broadcastInDim SB d1 h1 (constantI SC 32 hi)))))
        (constantI ⟨0, ![]⟩ 1 1#1) hred hS) j = 1#1 := by
  have hin : ∀ i, andi (cmpi .sge (broadcastInDim SI dI hI lin) (broadcastInDim SI ![] hz (constantI ⟨0, ![]⟩ 32 0#32)))
      (cmpi .sle (broadcastInDim SI dI hI lin)
        (broadcastInDim SI d2 h2 (broadcastInDim SB d1 h1 (constantI SC 32 hi)))) i = 1#1 := by
    intro i
    show IntOp.andi (IntOp.cmpi .sge (lin _) 0#32) (IntOp.cmpi .sle (lin _) hi) = 1#1
    exact mask_bit (hlin _).1 (hlin _).2
  show Host.reduce IntOp.andi _ (constantI ⟨0, ![]⟩ 1 1#1) hred hS _ = 1#1
  unfold Host.reduce
  exact foldl_andi_one _ (fun n => hin _) _

/-- … hence a select on that mask is its first operand. -/
theorem take_mask_select {β : Type} {SL SI SB SC SR ST : Shape} {axes : List (Fin SI.rank)} (hi : BitVec 32)
    (dI : Fin SL.rank → Fin SI.rank) (hI : SL.BroadcastsInDim SI dI)
    (hz : (⟨0, ![]⟩ : Shape).BroadcastsInDim SI ![])
    (d1 : Fin SC.rank → Fin SB.rank) (h1 : SC.BroadcastsInDim SB d1)
    (d2 : Fin SB.rank → Fin SI.rank) (h2 : SB.BroadcastsInDim SI d2)
    (hred : SI.ReducesTo axes SR) (hS : 0 < (⟨0, ![]⟩ : Shape).numel)
    (dm : Fin SR.rank → Fin ST.rank) (hm : SR.BroadcastsInDim ST dm)
    (lin : IVec SL 32) (hlin : ∀ i, 0 ≤ (lin i).toInt ∧ (lin i).toInt ≤ hi.toInt) (g fill : ST.Idx → β) :
    select (broadcastInDim ST dm hm
      (Host.reduce IntOp.andi
        (andi (cmpi .sge (broadcastInDim SI dI hI lin) (broadcastInDim SI ![] hz (constantI ⟨0, ![]⟩ 32 0#32)))
          (cmpi .sle (broadcastInDim SI dI hI lin)
            (broadcastInDim SI d2 h2 (broadcastInDim SB d1 h1 (constantI SC 32 hi)))))
        (constantI ⟨0, ![]⟩ 1 1#1) hred hS)) g fill = g :=
  select_of_all_one _ (take_mask_eq_one hi dI hI hz d1 h1 d2 h2 hred hS dm hm lin hlin) g fill

/-- The mask of `jnp.take` into a `[C, 4096000]` table at `N` column numbers in `[0, 4095999]` is all ones: the
    select against the fill returns the gathered values. -/
theorem take_mask_true {β : Type} {C N : Nat}
    (hI : (⟨1, ![N]⟩ : Shape).BroadcastsInDim ⟨2, ![N, 1]⟩ ![0])
    (hz : (⟨0, ![]⟩ : Shape).BroadcastsInDim ⟨2, ![N, 1]⟩ ![])
    (h1 : (⟨1, ![1]⟩ : Shape).BroadcastsInDim ⟨2, ![1, 1]⟩ ![1])
    (h2 : (⟨2, ![1, 1]⟩ : Shape).BroadcastsInDim ⟨2, ![N, 1]⟩ ![0, 1])
    (hred : (⟨2, ![N, 1]⟩ : Shape).ReducesTo [1] ⟨1, ![N]⟩) (hS : 0 < (⟨0, ![]⟩ : Shape).numel)
    (hm : (⟨1, ![N]⟩ : Shape).BroadcastsInDim ⟨2, ![C, N]⟩ ![1])
    (lin : IVec ⟨1, ![N]⟩ 32) (hlin : IntIn 0 4095999 lin) (g fill : (⟨2, ![C, N]⟩ : Shape).Idx → β) :
    select (broadcastInDim ⟨2, ![C, N]⟩ ![1] hm
      (Host.reduce IntOp.andi
        (andi (cmpi .sge (broadcastInDim ⟨2, ![N, 1]⟩ ![0] hI lin) (broadcastInDim ⟨2, ![N, 1]⟩ ![] hz (constantI ⟨0, ![]⟩ 32 0#32)))
          (cmpi .sle (broadcastInDim ⟨2, ![N, 1]⟩ ![0] hI lin)
            (broadcastInDim ⟨2, ![N, 1]⟩ ![0, 1] h2 (broadcastInDim ⟨2, ![1, 1]⟩ ![1] h1 (constantI ⟨1, ![1]⟩ 32 4095999#32)))))
        (constantI ⟨0, ![]⟩ 1 1#1) hred hS)) g fill = g :=
  have h9 : (4095999#32 : BitVec 32).toInt = 4095999 := by decide
  take_mask_select (SL := ⟨1, ![N]⟩) (SI := ⟨2, ![N, 1]⟩) (SB := ⟨2, ![1, 1]⟩) (SC := ⟨1, ![1]⟩) (SR := ⟨1, ![N]⟩)
    (ST := ⟨2, ![C, N]⟩) (axes := [1]) 4095999#32 ![0] hI hz ![1] h1 ![0, 1] h2 hred hS ![1] hm lin
    (fun i => ⟨(hlin i).1, by rw [h9]; exact (hlin i).2⟩) g fill

/-! ## The flattened coordinate -/

/-- `(z · 160 + y) · 160 + x` for coordinates in `[0, 159]`: computed in 32-bit words it does not wrap, and lies in
    `[0, 160³ − 1]`. -/
theorem IntIn_lin {S : Shape} (z y x : IVec S 32) (ha hb : (⟨0, ![]⟩ : Shape).BroadcastsInDim S ![])
    (hz : IntIn 0 159 z) (hy : IntIn 0 159 y) (hx : IntIn 0 159 x) :
    IntIn 0 4095999
      (addi (muli (addi (muli z (broadcastInDim S ![] ha (constantI ⟨0, ![]⟩ 32 160#32))) y)
        (broadcastInDim S ![] hb (constantI ⟨0, ![]⟩ 32 160#32))) x) := by
  intro i
  obtain ⟨hz0, hz1⟩ := hz i
  obtain ⟨hy0, hy1⟩ := hy i
  obtain ⟨hx0, hx1⟩ := hx i
  have h160 : (160#32 : BitVec 32).toInt = 160 := by decide
  show 0 ≤ (IntOp.addi (IntOp.muli (IntOp.addi (IntOp.muli (z i) 160#32) (y i)) 160#32) (x i)).toInt
    ∧ (IntOp.addi (IntOp.muli (IntOp.addi (IntOp.muli (z i) 160#32) (y i)) 160#32) (x i)).toInt ≤ 4095999
  have e1 : (IntOp.muli (z i) 160#32).toInt = (z i).toInt * 160 := by
    rw [toInt_muli (by rw [h160]; omega) (by rw [h160]; omega), h160]
  have e2 : (IntOp.addi (IntOp.muli (z i) 160#32) (y i)).toInt = (z i).toInt * 160 + (y i).toInt := by
    rw [toInt_addi (by rw [e1]; omega) (by rw [e1]; omega), e1]
  have e3 : (IntOp.muli (IntOp.addi (IntOp.muli (z i) 160#32) (y i)) 160#32).toInt
      = ((z i).toInt * 160 + (y i).toInt) * 160 := by
    rw [toInt_muli (by rw [e2, h160]; omega) (by rw [e2, h160]; omega), e2, h160]
  rw [toInt_addi (by rw [e3]; omega) (by rw [e3]; omega), e3]
  omega

end Cert.Spec

end
-- ==== Proof.KIdx.lean ====
/-
  The host layouts of the kernel side, read at an index.

  The eight trilinear weights (vectors of length 4194304) are laid as the rows of one [8, 4194304] array, and
  the eight corner lookups ([4, 4194304] each) as the slabs of one [8, 4, 4194304] array: entry (k, n), respectively
  (k, ch, n), is the k-th operand at n, respectively (ch, n). The per-ray interval, a vector of 16384 values,
  is repeated over the 256 samples of its ray and flattened: position r · 256 + p reads ray r. The column
  lookup at linear indices that lie in [0, 160³ − 1] reads the table's column of that number. The table
  [4, 160³] has the density grid as its row 0 and the three color grids as its rows 1 … 3, each flattened
  row-major, (z · 160 + y) · 160 + x.
-/
import proofs.«123153_j77008763617691_1_alg».proof.Proof.KDefs
import proofs.«123153_j77008763617691_1_alg».proof.Proof.Preds
import proofs.«123153_j77008763617691_1_alg».proof.Proof.LibGather
import Idealize.ShloMosaic.Lib.ValueIdx
import Idealize.ShloMosaic.Lib.Pipeline.Value
import Idealize.ShloMosaic.PureOps.ShapeOps

noncomputable section

namespace Cert.KernelIdeal.Fr

open Idealize.ShloMosaic Idealize.ShloMosaic.TcCoe Idealize.ShloMosaic.ValueIdx
open Cert.KernelIdeal Cert.KernelIdeal.Gen

variable {F : FTy → Type} [FloatOps F]

/-! ## Eight unit slabs stacked along a new leading axis -/

section Stack
variable {α : Type}

/-- Eight rows `[1, N]` concatenated along axis 0: entry `(k, n)` is the `k`-th row at `(0, n)`. -/
theorem concat8_rows_apply {N : Nat} (u : Fin 8 → ((⟨2, ![1, N]⟩ : Shape).Idx → α))
    (h : Shape.Concatenates [(⟨2, ![1, N]⟩ : Shape), ⟨2, ![1, N]⟩, ⟨2, ![1, N]⟩, ⟨2, ![1, N]⟩, ⟨2, ![1, N]⟩, ⟨2, ![1, N]⟩,
      ⟨2, ![1, N]⟩, ⟨2, ![1, N]⟩] ⟨2, ![8, N]⟩ 0)
    (k : Fin 8) (n : Fin N) :
    concatenate ⟨2, ![8, N]⟩ 0 [⟨⟨2, ![1, N]⟩, u 0⟩, ⟨⟨2, ![1, N]⟩, u 1⟩, ⟨⟨2, ![1, N]⟩, u 2⟩, ⟨⟨2, ![1, N]⟩, u 3⟩,
      ⟨⟨2, ![1, N]⟩, u 4⟩, ⟨⟨2, ![1, N]⟩, u 5⟩, ⟨⟨2, ![1, N]⟩, u 6⟩, ⟨⟨2, ![1, N]⟩, u 7⟩] h (ix2 k n)
      = u k (ix2 (0 : Fin 1) n) :=
  concatenate_ofFn_unit_apply (t := ⟨2, ![8, N]⟩) (s₁ := ⟨2, ![1, N]⟩) (0 : Fin 2) u h rfl rfl (ix2 k n) k rfl
    (ix2 (0 : Fin 1) n) (fun b hb => match b, hb with
      | ⟨0, _⟩, hb => absurd rfl hb
      | ⟨1, _⟩, _ => rfl)

/-- Eight slabs `[1, C, N]` concatenated along axis 0: entry `(k, ch, n)` is the `k`-th slab at `(0, ch, n)`. -/
theorem concat8_slabs_apply {C N : Nat} (u : Fin 8 → ((⟨3, ![1, C, N]⟩ : Shape).Idx → α))
    (h : Shape.Concatenates [(⟨3, ![1, C, N]⟩ : Shape), ⟨3, ![1, C, N]⟩, ⟨3, ![1, C, N]⟩, ⟨3, ![1, C, N]⟩, ⟨3, ![1, C, N]⟩,
      ⟨3, ![1, C, N]⟩, ⟨3, ![1, C, N]⟩, ⟨3, ![1, C, N]⟩] ⟨3, ![8, C, N]⟩ 0)
    (k : Fin 8) (ch : Fin C) (n : Fin N) :
    concatenate ⟨3, ![8, C, N]⟩ 0 [⟨⟨3, ![1, C, N]⟩, u 0⟩, ⟨⟨3, ![1, C, N]⟩, u 1⟩, ⟨⟨3, ![1, C, N]⟩, u 2⟩,
      ⟨⟨3, ![1, C, N]⟩, u 3⟩, ⟨⟨3, ![1, C, N]⟩, u 4⟩, ⟨⟨3, ![1, C, N]⟩, u 5⟩, ⟨⟨3, ![1, C, N]⟩, u 6⟩,
      ⟨⟨3, ![1, C, N]⟩, u 7⟩] h (ix3 k ch n)
      = u k (ix3 (0 : Fin 1) ch n) :=
  concatenate_ofFn_unit_apply (t := ⟨3, ![8, C, N]⟩) (s₁ := ⟨3, ![1, C, N]⟩) (0 : Fin 3) u h rfl rfl (ix3 k ch n) k rfl
    (ix3 (0 : Fin 1) ch n) (fun b hb => match b, hb with
      | ⟨0, _⟩, hb => absurd rfl hb
      | ⟨1, _⟩, _ => rfl
      | ⟨2, _⟩, _ => rfl)

/-- A vector laid as the one row of a `[1, N]` array reads, at `(0, n)`, the vector at `n`. -/
theorem bcast_row_apply {N : Nat} (h : (⟨1, ![N]⟩ : Shape).BroadcastsInDim ⟨2, ![1, N]⟩ ![1])
    (v : (⟨1, ![N]⟩ : Shape).Idx → α) (n : Fin N) :
    broadcastInDim ⟨2, ![1, N]⟩ ![1] h v (ix2 (0 : Fin 1) n) = v (ix1 n) :=
  broadcastInDim_apply _ h v (ix2 (0 : Fin 1) n) (ix1 n) (fun a => match a with
    | ⟨0, _⟩ => by
      show n.val = if N = 1 then 0 else n.val
      have hn := n.isLt
      split
      · omega
      · rfl)

/-- An array `[C, N]` laid as the one slab of a `[1, C, N]` array reads, at `(0, ch, n)`, the array at `(ch, n)`. -/
theorem bcast_slab_apply {C N : Nat} (h : (⟨2, ![C, N]⟩ : Shape).BroadcastsInDim ⟨3, ![1, C, N]⟩ ![1, 2])
    (v : (⟨2, ![C, N]⟩ : Shape).Idx → α) (ch : Fin C) (n : Fin N) :
    broadcastInDim ⟨3, ![1, C, N]⟩ ![1, 2] h v (ix3 (0 : Fin 1) ch n) = v (ix2 ch n) :=
  broadcastInDim_apply _ h v (ix3 (0 : Fin 1) ch n) (ix2 ch n) (fun a => match a with
    | ⟨0, _⟩ => by
      show ch.val = if C = 1 then 0 else ch.val
      have hc := ch.isLt
      split
      · omega
      · rfl
    | ⟨1, _⟩ => by
      show n.val = if N = 1 then 0 else n.val
      have hn := n.isLt
      split
      · omega
      · rfl)

end Stack

/-! ## The weights and the corners, stacked -/

/-- Eight rows given as a family: entry `(k, n)` of the stack is the `k`-th row at `(0, n)`. -/
theorem weights_read_fn (u : Fin 8 → (⟨S1x4194304, .f32⟩ : BufTy).Contents (Elt F)) (k : Fin 8) (n : Fin 4194304) :
    concatenate S8x4194304 0 [⟨S1x4194304, u 0⟩, ⟨S1x4194304, u 1⟩, ⟨S1x4194304, u 2⟩, ⟨S1x4194304, u 3⟩,
      ⟨S1x4194304, u 4⟩, ⟨S1x4194304, u 5⟩, ⟨S1x4194304, u 6⟩, ⟨S1x4194304, u 7⟩]
      concatenates_S1x4194304_S1x4194304_S1x4194304_S1x4194304_S1x4194304_S1x4194304_S1x4194304_S1x4194304_S8x4194304_d0 (ix2 k n)
      = u k (ix2 (0 : Fin 1) n) :=
  concat8_rows_apply u _ k n

/-- THE WEIGHTS STACKED. Entry `(k, n)` of the eight weight vectors, each laid as a row and the rows concatenated,
    is the `k`-th vector at `n`. -/
theorem weights_read (w0 w1 w2 w3 w4 w5 w6 w7 : (⟨S4194304, .f32⟩ : BufTy).Contents (Elt F)) (k : Fin 8) (n : Fin 4194304) :
    concatenate S8x4194304 0
      [⟨S1x4194304, broadcastInDim S1x4194304 ![1] bcast_S4194304_S1x4194304_1 w0⟩,
       ⟨S1x4194304, broadcastInDim S1x4194304 ![1] bcast_S4194304_S1x4194304_1 w1⟩,
       ⟨S1x4194304, broadcastInDim S1x4194304 ![1] bcast_S4194304_S1x4194304_1 w2⟩,
       ⟨S1x4194304, broadcastInDim S1x4194304 ![1] bcast_S4194304_S1x4194304_1 w3⟩,
       ⟨S1x4194304, broadcastInDim S1x4194304 ![1] bcast_S4194304_S1x4194304_1 w4⟩,
       ⟨S1x4194304, broadcastInDim S1x4194304 ![1] bcast_S4194304_S1x4194304_1 w5⟩,
       ⟨S1x4194304, broadcastInDim S1x4194304 ![1] bcast_S4194304_S1x4194304_1 w6⟩,
       ⟨S1x4194304, broadcastInDim S1x4194304 ![1] bcast_S4194304_S1x4194304_1 w7⟩]
      concatenates_S1x4194304_S1x4194304_S1x4194304_S1x4194304_S1x4194304_S1x4194304_S1x4194304_S1x4194304_S8x4194304_d0 (ix2 k n)
      = (![w0, w1, w2, w3, w4, w5, w6, w7] k) (ix1 n) :=
  (weights_read_fn (F := F) (fun k => broadcastInDim S1x4194304 ![1] bcast_S4194304_S1x4194304_1 (![w0, w1, w2, w3, w4, w5, w6, w7] k)) k n).trans
    (bcast_row_apply bcast_S4194304_S1x4194304_1 _ n)

/-- Eight slabs given as a family: entry `(k, ch, n)` of the stack is the `k`-th slab at `(0, ch, n)`. -/
theorem corners_read_fn (u : Fin 8 → (⟨S1x4x4194304, .f32⟩ : BufTy).Contents (Elt F)) (k : Fin 8) (ch : Fin 4) (n : Fin 4194304) :
    concatenate S8x4x4194304 0 [⟨S1x4x4194304, u 0⟩, ⟨S1x4x4194304, u 1⟩, ⟨S1x4x4194304, u 2⟩, ⟨S1x4x4194304, u 3⟩,
      ⟨S1x4x4194304, u 4⟩, ⟨S1x4x4194304, u 5⟩, ⟨S1x4x4194304, u 6⟩, ⟨S1x4x4194304, u 7⟩]
      concatenates_S1x4x4194304_S1x4x4194304_S1x4x4194304_S1x4x4194304_S1x4x4194304_S1x4x4194304_S1x4x4194304_S1x4x4194304_S8x4x4194304_d0 (ix3 k ch n)
      = u k (ix3 (0 : Fin 1) ch n) :=
  concat8_slabs_apply u _ k ch n

/-- THE CORNERS STACKED. Entry `(k, ch, n)` of the eight corner lookups, each laid as a slab and the slabs
    concatenated, is the `k`-th lookup at `(ch, n)`. -/
theorem corners_read (t0 t1 t2 t3 t4 t5 t6 t7 : (⟨S4x4194304, .f32⟩ : BufTy).Contents (Elt F)) (k : Fin 8) (ch : Fin 4)
    (n : Fin 4194304) :
    concatenate S8x4x4194304 0
      [⟨S1x4x4194304, broadcastInDim S1x4x4194304 ![1, 2] bcast_S4x4194304_S1x4x4194304_1_2 t0⟩,
       ⟨S1x4x4194304, broadcastInDim S1x4x4194304 ![1, 2] bcast_S4x4194304_S1x4x4194304_1_2 t1⟩,
       ⟨S1x4x4194304, broadcastInDim S1x4x4194304 ![1, 2] bcast_S4x4194304_S1x4x4194304_1_2 t2⟩,
       ⟨S1x4x4194304, broadcastInDim S1x4x4194304 ![1, 2] bcast_S4x4194304_S1x4x4194304_1_2 t3⟩,
       ⟨S1x4x4194304, broadcastInDim S1x4x4194304 ![1, 2] bcast_S4x4194304_S1x4x4194304_1_2 t4⟩,
       ⟨S1x4x4194304, broadcastInDim S1x4x4194304 ![1, 2] bcast_S4x4194304_S1x4x4194304_1_2 t5⟩,
       ⟨S1x4x4194304, broadcastInDim S1x4x4194304 ![1, 2] bcast_S4x4194304_S1x4x4194304_1_2 t6⟩,
       ⟨S1x4x4194304, broadcastInDim S1x4x4194304 ![1, 2] bcast_S4x4194304_S1x4x4194304_1_2 t7⟩]
      concatenates_S1x4x4194304_S1x4x4194304_S1x4x4194304_S1x4x4194304_S1x4x4194304_S1x4x4194304_S1x4x4194304_S1x4x4194304_S8x4x4194304_d0 (ix3 k ch n)
      = (![t0, t1, t2, t3, t4, t5, t6, t7] k) (ix2 ch n) :=
  (corners_read_fn (F := F) (fun k => broadcastInDim S1x4x4194304 ![1, 2] bcast_S4x4194304_S1x4x4194304_1_2 (![t0, t1, t2, t3, t4, t5, t6, t7] k)) k ch n).trans
    (bcast_slab_apply bcast_S4x4194304_S1x4x4194304_1_2 _ ch n)

/-! ## The per-ray interval, repeated over the samples -/

/-- THE INTERVAL. A value per ray, repeated over the 256 samples of the ray and flattened to one row of 4194304:
    position `r · 256 + p` reads ray `r`. -/
theorem interval_read (v : (⟨S16384, .f32⟩ : BufTy).Contents (Elt F)) (r : Fin 16384) (p : Fin 256) :
    shapeCast _ (broadcastInDim S16384x256 ![0, 1] bcast_S16384x1_S16384x256_0_1
        (broadcastInDim S16384x1 ![0] bcast_S16384_S16384x1_0 v)) shapeCasts_S16384x256_S1x4194304
      (ix2 (0 : Fin 1) ⟨r.val * 256 + p.val, by have := r.isLt; have := p.isLt; omega⟩) = v (ix1 r) := by
  have hr := r.isLt
  have hp := p.isLt
  refine (shapeCast_apply _ shapeCasts_S16384x256_S1x4194304 _ (ix2 r p) ?_).trans ?_
  · rewrite [Shape.rowMajor_val_two, Shape.rowMajor_val_two]
    show r.val * 256 + p.val = 0 * 4194304 + (r.val * 256 + p.val)
    omega
  refine (broadcastInDim_apply _ bcast_S16384x1_S16384x256_0_1 _ (ix2 r p) (ix2 r (0 : Fin 1)) (fun a => match a with
    | ⟨0, _⟩ => by show r.val = if (16384 : Nat) = 1 then 0 else r.val; rw [if_neg (by decide)]
    | ⟨1, _⟩ => by show 0 = if (1 : Nat) = 1 then 0 else p.val; rw [if_pos rfl])).trans ?_
  exact broadcastInDim_apply _ bcast_S16384_S16384x1_0 v (ix2 r (0 : Fin 1)) (ix1 r) (fun a => match a with
    | ⟨0, _⟩ => by show r.val = if (16384 : Nat) = 1 then 0 else r.val; rw [if_neg (by decide)])

/-! ## The column lookup at indices in range -/

/-- THE LOOKUP. At linear indices in `[0, 160³ − 1]` the wrap does nothing, the in-range mask is all ones, and the
    gather's clamp does nothing: entry `(ch, n)` is the table at row `ch` and the column `lin n`. -/
theorem TAKE_apply (gf : (⟨S4x4096000, .f32⟩ : BufTy).Contents (Elt F)) (lin : (⟨S4194304, .i32⟩ : BufTy).Contents (Elt F))
    (h : Cert.Spec.IntIn 0 4095999 lin) (ch : Fin 4) (n : Fin 4194304) :
    TAKE (F := F) gf lin (ix2 ch n)
      = gf (ix2 ch ⟨(lin (ix1 n)).toInt.toNat, by have := h (ix1 n); omega⟩) := by
  have hw : WRAP (F := F) lin = lin := Cert.Spec.wrap_id lin bcast_S_S4194304 bcast_S_S4194304 h
  have hn := h (ix1 n)
  unfold TAKE
  rw [hw]
  refine (congrFun (Cert.Spec.take_mask_true (C := 4) (N := 4194304) bcast_S4194304_S4194304x1_0 bcast_S_S4194304x1
    bcast_S1_S1x1_1 bcast_S1x1_S4194304x1_0_1 reducesTo_S4194304x1_S4194304_d1 h_S_ bcast_S4194304_S4x4194304_1 lin h _ _)
    (ix2 ch n)).trans ?_
  exact Cert.Spec.gather_col_bcast_apply (C := 4) (M := 4096000) (N := 4194304) (by omega)
    gather_S4x4096000_S4194304x1_S4x4194304_0_1_n_n_1_1_41 rfl rfl rfl rfl rfl bcast_S4194304_S4194304x1_0 gf lin ch n
    hn.1 (by have := hn.2; omega)

/-! ## The table of the four channels -/

section Flat
variable {α : Type}

/-- `C` grids of 160³ voxels flattened to `[C, 160³]`: column `j` of row `c` is the voxel
    `(j / 160², j / 160 mod 160, j mod 160)` of grid `c`. -/
theorem flat_apply {C : Nat} (x : (⟨4, ![C, 160, 160, 160]⟩ : Shape).Idx → α)
    (h : (⟨4, ![C, 160, 160, 160]⟩ : Shape).ShapeCasts ⟨2, ![C, 4096000]⟩) (c : Fin C) (j : Fin 4096000) :
    shapeCast ⟨2, ![C, 4096000]⟩ x h (ix2 c j)
      = x (ix4 c ⟨j.val / 25600, by have := j.isLt; omega⟩ ⟨j.val / 160 % 160, by omega⟩ ⟨j.val % 160, by omega⟩) := by
  have hj := j.isLt
  refine shapeCast_apply x h (ix2 c j) _ ?_
  rewrite [Shape.rowMajor_val_four, Shape.rowMajor_val_two]
  show ((c.val * 160 + j.val / 25600) * 160 + j.val / 160 % 160) * 160 + j.val % 160 = c.val * 4096000 + j.val
  omega

/-- … and conversely the voxel `(z, y, x)` of grid `c` is column `(z · 160 + y) · 160 + x` of row `c`. -/
theorem flat_apply_zyx {C : Nat} (x : (⟨4, ![C, 160, 160, 160]⟩ : Shape).Idx → α)
    (h : (⟨4, ![C, 160, 160, 160]⟩ : Shape).ShapeCasts ⟨2, ![C, 4096000]⟩) (c : Fin C) (z y x' : Fin 160) :
    shapeCast ⟨2, ![C, 4096000]⟩ x h (ix2 c ⟨(z.val * 160 + y.val) * 160 + x'.val, by have := z.isLt; have := y.isLt; have := x'.isLt; omega⟩)
      = x (ix4 c z y x') := by
  have hz := z.isLt
  have hy := y.isLt
  have hx := x'.isLt
  refine shapeCast_apply x h _ (ix4 c z y x') ?_
  rewrite [Shape.rowMajor_val_four, Shape.rowMajor_val_two]
  show ((c.val * 160 + z.val) * 160 + y.val) * 160 + x'.val = c.val * 4096000 + ((z.val * 160 + y.val) * 160 + x'.val)
  omega

end Flat

/-- Row 0 of the table, at column `j`: the density grid's voxel `(j / 160², j / 160 mod 160, j mod 160)`. -/
theorem GF4_dens_voxel (x3 : (⟨S1x160x160x160, .f32⟩ : BufTy).Contents (Elt F)) (x4 : (⟨S3x160x160x160, .f32⟩ : BufTy).Contents (Elt F))
    (j : Fin 4096000) :
    GF4 (F := F) x3 x4 (ix2 (0 : Fin 4) j)
      = x3 (ix4 (0 : Fin 1) ⟨j.val / 25600, by have := j.isLt; omega⟩ ⟨j.val / 160 % 160, by omega⟩ ⟨j.val % 160, by omega⟩) := by
  unfold GF4
  refine (flat_apply (C := 4) _ shapeCasts_S4x160x160x160_S4x4096000 (0 : Fin 4) j).trans ?_
  exact concatenate_pair_apply_left (t := S4x160x160x160) (s₁ := S1x160x160x160) (s₂ := S3x160x160x160) (0 : Fin 4) x3 x4 concatenates_S1x160x160x160_S3x160x160x160_S4x160x160x160_d0 _ rfl
    (ix4 (0 : Fin 1) ⟨j.val / 25600, by have := j.isLt; omega⟩ ⟨j.val / 160 % 160, by omega⟩ ⟨j.val % 160, by omega⟩)
    (fun b => match b with
      | ⟨0, _⟩ => rfl
      | ⟨1, _⟩ => rfl
      | ⟨2, _⟩ => rfl
      | ⟨3, _⟩ => rfl)

/-- Row `cc + 1` of the table, at column `j`: color grid `cc`'s voxel `(j / 160², j / 160 mod 160, j mod 160)`. -/
theorem GF4_col_voxel (x3 : (⟨S1x160x160x160, .f32⟩ : BufTy).Contents (Elt F)) (x4 : (⟨S3x160x160x160, .f32⟩ : BufTy).Contents (Elt F))
    (cc : Fin 3) (j : Fin 4096000) :
    GF4 (F := F) x3 x4 (ix2 (⟨cc.val + 1, by have := cc.isLt; omega⟩ : Fin 4) j)
      = x4 (ix4 cc ⟨j.val / 25600, by have := j.isLt; omega⟩ ⟨j.val / 160 % 160, by omega⟩ ⟨j.val % 160, by omega⟩) := by
  unfold GF4
  refine (flat_apply (C := 4) _ shapeCasts_S4x160x160x160_S4x4096000 (⟨cc.val + 1, by have := cc.isLt; omega⟩ : Fin 4) j).trans ?_
  exact concatenate_pair_apply_right (t := S4x160x160x160) (s₁ := S1x160x160x160) (s₂ := S3x160x160x160) (0 : Fin 4) x3 x4 concatenates_S1x160x160x160_S3x160x160x160_S4x160x160x160_d0 _ rfl rfl
    (ix4 cc ⟨j.val / 25600, by have := j.isLt; omega⟩ ⟨j.val / 160 % 160, by omega⟩ ⟨j.val % 160, by omega⟩)
    (fun b hb => match b, hb with
      | ⟨0, _⟩, hb => absurd rfl hb
      | ⟨1, _⟩, _ => rfl
      | ⟨2, _⟩, _ => rfl
      | ⟨3, _⟩, _ => rfl)
    rfl

/-- THE TABLE'S ROW 0 IS THE DENSITY GRID FLATTENED ALONE (under any evidence for that flattening). -/
theorem GF4_dens (x3 : (⟨S1x160x160x160, .f32⟩ : BufTy).Contents (Elt F)) (x4 : (⟨S3x160x160x160, .f32⟩ : BufTy).Contents (Elt F))
    (h1 : (⟨4, ![1, 160, 160, 160]⟩ : Shape).ShapeCasts ⟨2, ![1, 4096000]⟩) (j : Fin 4096000) :
    GF4 (F := F) x3 x4 (ix2 (0 : Fin 4) j) = shapeCast ⟨2, ![1, 4096000]⟩ x3 h1 (ix2 (0 : Fin 1) j) :=
  (GF4_dens_voxel x3 x4 j).trans (flat_apply (C := 1) x3 h1 (0 : Fin 1) j).symm

/-- THE TABLE'S ROWS 1 … 3 ARE THE COLOR GRIDS FLATTENED ALONE (under any evidence for that flattening). -/
theorem GF4_col (x3 : (⟨S1x160x160x160, .f32⟩ : BufTy).Contents (Elt F)) (x4 : (⟨S3x160x160x160, .f32⟩ : BufTy).Contents (Elt F))
    (h3 : (⟨4, ![3, 160, 160, 160]⟩ : Shape).ShapeCasts ⟨2, ![3, 4096000]⟩) (cc : Fin 3) (j : Fin 4096000) :
    GF4 (F := F) x3 x4 (ix2 (⟨cc.val + 1, by have := cc.isLt; omega⟩ : Fin 4) j)
      = shapeCast ⟨2, ![3, 4096000]⟩ x4 h3 (ix2 cc j) :=
  (GF4_col_voxel x3 x4 cc j).trans (flat_apply (C := 3) x4 h3 cc j).symm

end Cert.KernelIdeal.Fr

end
-- ==== Proof.KIdxRef.lean ====
/-
  The kernel side's table of the four channels against the reference's two flattenings: its row 0 is the
  density grid flattened alone, its rows 1 … 3 are the three color grids flattened alone. Both flattenings are
  row-major, so each reads the voxel (j / 160², j / 160 mod 160, j mod 160) at column j.
-/
import proofs.«123153_j77008763617691_1_alg».proof.Proof.KIdx
import proofs.«123153_j77008763617691_1_alg».proof.Proof.RefRead

noncomputable section

namespace Cert.KernelIdeal.Fr

open Idealize.ShloMosaic Idealize.ShloMosaic.TcCoe Idealize.ShloMosaic.ValueIdx
open Cert.KernelIdeal Cert.KernelIdeal.Gen

variable {F : FTy → Type} [FloatOps F]

/-! ## Against the reference's two flattenings -/

/-- Row 0 of the kernel side's table is the reference's flattened density grid. -/
theorem GF4_dens_ref (x3 : (⟨S1x160x160x160, .f32⟩ : BufTy).Contents (Elt F)) (x4 : (⟨S3x160x160x160, .f32⟩ : BufTy).Contents (Elt F))
    (j : Fin 4096000) :
    GF4 (F := F) x3 x4 (ix2 (0 : Fin 4) j) = Cert.ReferenceIdeal.ReadP.val_main_v43 (F := F) x3 (ix2 (0 : Fin 1) j) :=
  GF4_dens x3 x4 _ j

/-- Rows 1 … 3 of the kernel side's table are the reference's flattened color grids. -/
theorem GF4_col_ref (x3 : (⟨S1x160x160x160, .f32⟩ : BufTy).Contents (Elt F)) (x4 : (⟨S3x160x160x160, .f32⟩ : BufTy).Contents (Elt F))
    (cc : Fin 3) (j : Fin 4096000) :
    GF4 (F := F) x3 x4 (ix2 (⟨cc.val + 1, by have := cc.isLt; omega⟩ : Fin 4) j)
      = Cert.ReferenceIdeal.ReadP.val_main_v243 (F := F) x4 (ix2 cc j) :=
  GF4_col x3 x4 _ cc j

end Cert.KernelIdeal.Fr

end
-- ==== Proof.LibClosure.lean ====
/-
  Two properties of whole arrays and the operations that keep them.

  AllReal v: every entry of a float array, read at the ideal instance (a float is an extended
  real), is a real number. IntIn lo hi v: every entry of a 32-bit integer array, read signed, lies
  in [lo, hi].

  A layout operation (broadcast, reshape, slice, transpose, gather, concatenate) only moves entries:
  each output entry IS some input entry, so it keeps any property of the form "every entry is ...".
  Sums, differences and products of reals are real; so is a quotient by a nonzero real, the floor of
  a real, a finite sum of reals, and the square root of a nonnegative real. A 32-bit pattern whose
  exponent field is not all ones denotes a real. Clamping to [0, 159] (a signed maximum with 0,
  then a signed minimum with 159) lands in [0, 159] whatever the operand; and min (v + 1) 159
  stays there when v is there.
-/
import Idealize.ShloMosaic.PureOps.Ideal
import Idealize.ShloMosaic.PureOps.Ideal.Laws
import proofs.«123153_j77008763617691_1_alg».proof.Proof.Preds

noncomputable section

namespace Cert.Spec

open Idealize.ShloMosaic

/-! ### Layout operations: every output entry is an input entry -/

section Reads
variable {s t : Shape} {α : Type}

/-- The array w reads the array v: every entry of w is some entry of v. -/
def Reads (w : t.Idx → α) (v : s.Idx → α) : Prop := ∀ i, ∃ j, w i = v j

/-- Reading is transitive. -/
theorem Reads.trans {u : Shape} {a : u.Idx → α} {b : t.Idx → α} {c : s.Idx → α}
    (h₁ : Reads a b) (h₂ : Reads b c) : Reads a c := fun i => by
  obtain ⟨j, hj⟩ := h₁ i
  obtain ⟨k, hk⟩ := h₂ j
  exact ⟨k, hj.trans hk⟩

/-- A broadcast reads its operand. -/
theorem reads_broadcastInDim (dims : Fin s.rank → Fin t.rank) (h : s.BroadcastsInDim t dims) (x : s.Idx → α) :
    Reads (broadcastInDim t dims h x) x := fun _ => ⟨_, rfl⟩

/-- A reshape reads its operand. -/
theorem reads_shapeCast (x : s.Idx → α) (h : s.ShapeCasts t) : Reads (shapeCast t x h) x := fun _ => ⟨_, rfl⟩

/-- A unit-stride slice reads its operand. -/
theorem reads_extractStridedSlice (off : Fin s.rank → Nat) (x : s.Idx → α) (h : s.Slices off t) :
    Reads (extractStridedSlice t off x h) x := fun _ => ⟨_, rfl⟩

/-- A strided slice reads its operand. -/
theorem reads_slice (start strides : Fin s.rank → Nat) (x : s.Idx → α) (h : s.SlicesBy start strides t) :
    Reads (Host.slice t start strides x h) x := fun _ => ⟨_, rfl⟩

/-- A transpose reads its operand. -/
theorem reads_transpose (perm : List (Fin s.rank)) (x : s.Idx → α) (h : s.Transposes perm t) :
    Reads (transpose t perm x h) x := fun _ => ⟨_, rfl⟩

/-- A gather reads its operand, whatever the start indices are (they are clamped into range). -/
theorem reads_gather {si : Shape} {w : Nat} (d : GatherDims s si t) (x : s.Idx → α) (idx : IVec si w) :
    Reads (Host.gather d x idx) x := fun _ => ⟨_, rfl⟩

/-- Every entry of a concatenation is an entry of one of its pieces. -/
theorem concatenate_reads (a : Fin t.rank) (xs : List ((s : Shape) × (s.Idx → α)))
    (h : Shape.Concatenates (xs.map (·.1)) t a) (j : t.Idx) :
    ∃ p ∈ xs, ∃ i : p.1.Idx, concatenate t a xs h j = p.2 i := by
  unfold concatenate
  exact ⟨_, List.getElem_mem _, _, rfl⟩

/-- A property every entry of every piece has, every entry of the concatenation has. -/
theorem concatenate_all (P : α → Prop) (a : Fin t.rank) (xs : List ((s : Shape) × (s.Idx → α)))
    (h : Shape.Concatenates (xs.map (·.1)) t a) (hP : ∀ p ∈ xs, ∀ i : p.1.Idx, P (p.2 i)) (j : t.Idx) :
    P (concatenate t a xs h j) := by
  obtain ⟨p, hp, i, hi⟩ := concatenate_reads a xs h j
  rw [hi]; exact hP p hp i

end Reads

/-! ### Real entries -/

section Real
variable {S T : Shape}

/-- What reads an array of reals is an array of reals. -/
theorem AllReal_of_reads {v : S.Idx → EReal} {w : T.Idx → EReal} (h : ∀ i, ∃ j, w i = v j) (hv : AllReal v) :
    AllReal w := fun i => by
  obtain ⟨j, hj⟩ := h i
  rw [hj]; exact hv j

/-- A broadcast of reals. -/
theorem AllReal_broadcastInDim (dims : Fin S.rank → Fin T.rank) (h : S.BroadcastsInDim T dims) {x : S.Idx → EReal}
    (hx : AllReal x) : AllReal (broadcastInDim T dims h x) := AllReal_of_reads (reads_broadcastInDim dims h x) hx

/-- A reshape of reals. -/
theorem AllReal_shapeCast {x : S.Idx → EReal} (h : S.ShapeCasts T) (hx : AllReal x) : AllReal (shapeCast T x h) :=
  AllReal_of_reads (reads_shapeCast x h) hx

/-- A slice of reals. -/
theorem AllReal_extractStridedSlice (off : Fin S.rank → Nat) {x : S.Idx → EReal} (h : S.Slices off T) (hx : AllReal x) :
    AllReal (extractStridedSlice T off x h) := AllReal_of_reads (reads_extractStridedSlice off x h) hx

/-- A transpose of reals. -/
theorem AllReal_transpose (perm : List (Fin S.rank)) {x : S.Idx → EReal} (h : S.Transposes perm T) (hx : AllReal x) :
    AllReal (transpose T perm x h) := AllReal_of_reads (reads_transpose perm x h) hx

/-- A gather from a table of reals, at any indices. -/
theorem AllReal_gather {si : Shape} {w : Nat} (d : GatherDims S si T) {x : S.Idx → EReal} (idx : IVec si w)
    (hx : AllReal x) : AllReal (Host.gather d x idx) := AllReal_of_reads (reads_gather d x idx) hx

/-- A concatenation of arrays of reals. -/
theorem AllReal_concatenate (a : Fin T.rank) (xs : List ((s : Shape) × (s.Idx → EReal)))
    (h : Shape.Concatenates (xs.map (·.1)) T a) (hP : ∀ p ∈ xs, AllReal p.2) : AllReal (concatenate T a xs h) :=
  fun j => concatenate_all (fun x => ∃ r : ℝ, x = (r : EReal)) a xs h hP j

/-- A concatenation of two arrays of reals. -/
theorem AllReal_concatenate2 (a : Fin T.rank) {S₀ S₁ : Shape} {v₀ : S₀.Idx → EReal} {v₁ : S₁.Idx → EReal}
    (h : Shape.Concatenates [S₀, S₁] T a) (h₀ : AllReal v₀) (h₁ : AllReal v₁) :
    AllReal (concatenate T a ([⟨S₀, v₀⟩, ⟨S₁, v₁⟩] : List ((s : Shape) × (s.Idx → EReal))) h) := by
  refine AllReal_concatenate a ([⟨S₀, v₀⟩, ⟨S₁, v₁⟩] : List ((s : Shape) × (s.Idx → EReal))) h fun p hp => ?_
  simp only [List.mem_cons, List.not_mem_nil, or_false] at hp
  rcases hp with rfl | rfl
  exacts [h₀, h₁]

/-- A concatenation of eight arrays of reals. -/
theorem AllReal_concatenate8 (a : Fin T.rank) {S₀ S₁ S₂ S₃ S₄ S₅ S₆ S₇ : Shape}
    {v₀ : S₀.Idx → EReal} {v₁ : S₁.Idx → EReal} {v₂ : S₂.Idx → EReal} {v₃ : S₃.Idx → EReal}
    {v₄ : S₄.Idx → EReal} {v₅ : S₅.Idx → EReal} {v₆ : S₆.Idx → EReal} {v₇ : S₇.Idx → EReal}
    (h : Shape.Concatenates [S₀, S₁, S₂, S₃, S₄, S₅, S₆, S₇] T a)
    (h₀ : AllReal v₀) (h₁ : AllReal v₁) (h₂ : AllReal v₂) (h₃ : AllReal v₃)
    (h₄ : AllReal v₄) (h₅ : AllReal v₅) (h₆ : AllReal v₆) (h₇ : AllReal v₇) :
    AllReal (concatenate T a ([⟨S₀, v₀⟩, ⟨S₁, v₁⟩, ⟨S₂, v₂⟩, ⟨S₃, v₃⟩, ⟨S₄, v₄⟩, ⟨S₅, v₅⟩, ⟨S₆, v₆⟩, ⟨S₇, v₇⟩] :
      List ((s : Shape) × (s.Idx → EReal))) h) := by
  refine AllReal_concatenate a ([⟨S₀, v₀⟩, ⟨S₁, v₁⟩, ⟨S₂, v₂⟩, ⟨S₃, v₃⟩, ⟨S₄, v₄⟩, ⟨S₅, v₅⟩, ⟨S₆, v₆⟩, ⟨S₇, v₇⟩] :
      List ((s : Shape) × (s.Idx → EReal))) h fun p hp => ?_
  simp only [List.mem_cons, List.not_mem_nil, or_false] at hp
  rcases hp with rfl | rfl | rfl | rfl | rfl | rfl | rfl | rfl
  exacts [h₀, h₁, h₂, h₃, h₄, h₅, h₆, h₇]

/-- The sum of two arrays of reals. -/
theorem AllReal_addf {a b : FVec Ideal S .f32} (ha : AllReal a) (hb : AllReal b) : AllReal (addf a b) := fun i => by
  obtain ⟨x, hx⟩ := ha i
  obtain ⟨y, hy⟩ := hb i
  exact ⟨x + y, by show a i + b i = _; rw [hx, hy, EReal.coe_add]⟩

/-- The difference of two arrays of reals. -/
theorem AllReal_subf {a b : FVec Ideal S .f32} (ha : AllReal a) (hb : AllReal b) : AllReal (subf a b) := fun i => by
  obtain ⟨x, hx⟩ := ha i
  obtain ⟨y, hy⟩ := hb i
  exact ⟨x - y, by show a i - b i = _; rw [hx, hy, EReal.coe_sub]⟩

/-- The product of two arrays of reals. -/
theorem AllReal_mulf {a b : FVec Ideal S .f32} (ha : AllReal a) (hb : AllReal b) : AllReal (mulf a b) := fun i => by
  obtain ⟨x, hx⟩ := ha i
  obtain ⟨y, hy⟩ := hb i
  exact ⟨x * y, by show a i * b i = _; rw [hx, hy, EReal.coe_mul]⟩

/-- The quotient of an array of reals by an array of nonzero reals. -/
theorem AllReal_divf {a b : FVec Ideal S .f32} (ha : AllReal a) (hb : ∀ i, ∃ r : ℝ, r ≠ 0 ∧ b i = (r : EReal)) :
    AllReal (Host.divf a b) := fun i => by
  obtain ⟨x, hx⟩ := ha i
  obtain ⟨y, hy0, hy⟩ := hb i
  refine ⟨x * (1 / y), ?_⟩
  show Ideal.div (a i) (b i) = _
  rw [hx, hy, Ideal.div_coe hy0, EReal.coe_mul]

/-- The floor of an array of reals. -/
theorem AllReal_floor {a : FVec Ideal S .f32} (ha : AllReal a) : AllReal (Host.floor a) := fun i => by
  obtain ⟨x, hx⟩ := ha i
  exact ⟨(⌊x⌋ : ℝ), by show Ideal.liftRound Int.floor (a i) = _; rw [hx, Ideal.liftRound_coe]⟩

/-- A finite sum of nonnegative reals, taken in the extended reals, is a nonnegative real. -/
theorem exists_real_sum_nonneg {ι : Type} (s : Finset ι) (g : ι → EReal)
    (hg : ∀ i ∈ s, ∃ r : ℝ, 0 ≤ r ∧ g i = (r : EReal)) : ∃ r : ℝ, 0 ≤ r ∧ ∑ i ∈ s, g i = (r : EReal) := by
  classical
  induction s using Finset.induction_on with
  | empty => exact ⟨0, le_refl _, by simp⟩
  | insert a s ha ih =>
    obtain ⟨x, hx0, hx⟩ := hg a (Finset.mem_insert_self a s)
    obtain ⟨y, hy0, hy⟩ := ih fun i hi => hg i (Finset.mem_insert_of_mem hi)
    exact ⟨x + y, add_nonneg hx0 hy0, by rw [Finset.sum_insert ha, hx, hy, EReal.coe_add]⟩

/-- A finite sum of reals, taken in the extended reals, is a real. -/
theorem exists_real_sum {ι : Type} (s : Finset ι) (g : ι → EReal)
    (hg : ∀ i ∈ s, ∃ r : ℝ, g i = (r : EReal)) : ∃ r : ℝ, ∑ i ∈ s, g i = (r : EReal) := by
  classical
  induction s using Finset.induction_on with
  | empty => exact ⟨0, by simp⟩
  | insert a s ha ih =>
    obtain ⟨x, hx⟩ := hg a (Finset.mem_insert_self a s)
    obtain ⟨y, hy⟩ := ih fun i hi => hg i (Finset.mem_insert_of_mem hi)
    exact ⟨x + y, by rw [Finset.sum_insert ha, hx, hy, EReal.coe_add]⟩

/-- The host's sum of an array of reals over any axes, from a real initial value, is an array of reals. -/
theorem AllReal_reduceAdd {axes : List (Fin S.rank)} {U : Shape} {a : FVec Ideal S .f32} {init : U.Idx → Ideal .f32}
    (hred : S.ReducesTo axes T) (hU : 0 < U.numel) (ha : AllReal a) (hinit : ∀ u, ∃ r : ℝ, init u = (r : EReal)) :
    AllReal (Host.reduceAdd a init hred hU) := fun j => by
  obtain ⟨x, hx⟩ := hinit (Shape.Idx.first hU)
  obtain ⟨y, hy⟩ := exists_real_sum (Finset.univ.filter fun i => hred.drop i = j) a fun i _ => ha i
  refine ⟨x + y, ?_⟩
  show init (Shape.Idx.first hU) + ∑ i ∈ Finset.univ.filter (fun i => hred.drop i = j), a i = _
  rw [hx, hy, EReal.coe_add]

/-- The square root of an array of nonnegative reals. -/
theorem AllReal_sqrt_of_nonneg {a : FVec Ideal S .f32} (ha : ∀ i, ∃ r : ℝ, 0 ≤ r ∧ a i = (r : EReal)) :
    AllReal (Host.sqrt a) := fun i => by
  obtain ⟨x, hx0, hx⟩ := ha i
  refine ⟨Real.sqrt x, ?_⟩
  show Ideal.sqrt (a i) = _
  rw [hx]
  show (if x < 0 then (⊥ : EReal) else (Real.sqrt x : EReal)) = _
  rw [if_neg (not_lt.mpr hx0)]

/-! ### Bit patterns that denote reals -/

/-- A 32-bit pattern whose exponent field is not all ones denotes a real number. -/
theorem real_ofBits_f32 (w : BitVec 32) (h : (w.extractLsb' 23 8).toNat ≠ 2 ^ 8 - 1) :
    ∃ r : ℝ, Ideal.ofBits .f32 w = (r : EReal) := by
  show ∃ r : ℝ, Ideal.ieee 8 23 w = (r : EReal)
  unfold Ideal.ieee
  simp only []
  rw [if_neg h]
  split_ifs <;> exact ⟨_, rfl⟩

/-- The pattern of 0.0 denotes 0. -/
theorem ofBits_f32_zero : Ideal.ofBits .f32 0x00000000#32 = ((0 : ℝ) : EReal) := by
  simp [Ideal.ofBits, Ideal.ieee]

/-- The pattern of 1.0 denotes 1. -/
theorem ofBits_f32_one : Ideal.ofBits .f32 0x3F800000#32 = ((1 : ℝ) : EReal) := by
  simp [Ideal.ofBits, Ideal.ieee]
  norm_cast
  norm_num

/-- The pattern of -1.0 denotes -1. -/
theorem ofBits_f32_negOne : Ideal.ofBits .f32 0xBF800000#32 = ((-1 : ℝ) : EReal) := by
  simp [Ideal.ofBits, Ideal.ieee]
  norm_cast
  norm_num

/-- The pattern of 2.0 denotes 2. -/
theorem ofBits_f32_two : Ideal.ofBits .f32 0x40000000#32 = ((2 : ℝ) : EReal) := by
  simp [Ideal.ofBits, Ideal.ieee]
  norm_cast
  norm_num

/-- The pattern of 160.0 denotes 160. -/
theorem ofBits_f32_160 : Ideal.ofBits .f32 0x43200000#32 = ((160 : ℝ) : EReal) := by
  simp [Ideal.ofBits, Ideal.ieee]
  norm_cast
  norm_num

/-- The splat of a pattern whose exponent field is not all ones is an array of reals. -/
theorem AllReal_constant (S : Shape) (w : BitVec 32) (h : (w.extractLsb' 23 8).toNat ≠ 2 ^ 8 - 1) :
    AllReal (constant (F := Ideal) S .f32 w) := fun _ => real_ofBits_f32 w h

/-- The splat of -1.0. -/
theorem AllReal_constant_negOne (S : Shape) : AllReal (constant (F := Ideal) S .f32 0xBF800000#32) :=
  AllReal_constant S _ (by decide)
/-- The splat of 2.0. -/
theorem AllReal_constant_two (S : Shape) : AllReal (constant (F := Ideal) S .f32 0x40000000#32) :=
  AllReal_constant S _ (by decide)
/-- The splat of 1.0. -/
theorem AllReal_constant_one (S : Shape) : AllReal (constant (F := Ideal) S .f32 0x3F800000#32) :=
  AllReal_constant S _ (by decide)
/-- The splat of 160.0. -/
theorem AllReal_constant_160 (S : Shape) : AllReal (constant (F := Ideal) S .f32 0x43200000#32) :=
  AllReal_constant S _ (by decide)
/-- The splat of 0.0. -/
theorem AllReal_constant_zero (S : Shape) : AllReal (constant (F := Ideal) S .f32 0x00000000#32) :=
  AllReal_constant S _ (by decide)

/-- The broadcast of the splat of a pattern whose exponent field is not all ones. -/
theorem AllReal_bcast_constant {S₀ : Shape} (d : Fin S₀.rank → Fin S.rank) (h : S₀.BroadcastsInDim S d) (w : BitVec 32)
    (hw : (w.extractLsb' 23 8).toNat ≠ 2 ^ 8 - 1) :
    AllReal (broadcastInDim S d h (constant (F := Ideal) S₀ .f32 w)) :=
  AllReal_broadcastInDim d h (AllReal_constant S₀ w hw)

/-- Halving: the quotient of an array of reals by the broadcast splat of 2.0. -/
theorem AllReal_divf_two {S₀ : Shape} (d : Fin S₀.rank → Fin S.rank) (h : S₀.BroadcastsInDim S d) {a : FVec Ideal S .f32}
    (ha : AllReal a) : AllReal (Host.divf a (broadcastInDim S d h (constant (F := Ideal) S₀ .f32 0x40000000#32))) :=
  AllReal_divf ha fun _ => ⟨2, two_ne_zero, ofBits_f32_two⟩

/-- The root of a sum of squares: the host's sum over any axes of the squares of an array of reals, from the splat
    of 0.0, then the square root, is an array of reals. -/
theorem AllReal_sqrt_sumsq {axes : List (Fin S.rank)} {U : Shape} {a : FVec Ideal S .f32}
    (hred : S.ReducesTo axes T) (hU : 0 < U.numel) (ha : AllReal a) :
    AllReal (Host.sqrt (Host.reduceAdd (mulf a a) (constant (F := Ideal) U .f32 0x00000000#32) hred hU)) := by
  refine AllReal_sqrt_of_nonneg fun j => ?_
  obtain ⟨y, hy0, hy⟩ := exists_real_sum_nonneg (Finset.univ.filter fun i => hred.drop i = j) (mulf a a) fun i _ => by
    obtain ⟨x, hx⟩ := ha i
    exact ⟨x * x, mul_self_nonneg x, by show a i * a i = _; rw [hx, EReal.coe_mul]⟩
  refine ⟨0 + y, add_nonneg le_rfl hy0, ?_⟩
  show Ideal.ofBits .f32 0x00000000#32 + ∑ i ∈ Finset.univ.filter (fun i => hred.drop i = j), mulf a a i = _
  rw [ofBits_f32_zero, hy, ← EReal.coe_add]

end Real

/-! ### Signed ranges -/

section Int
variable {S T : Shape}

/-- What reads an array with entries in a range has its entries in that range. -/
theorem IntIn_of_reads {lo hi : Int} {v : S.Idx → BitVec 32} {w : T.Idx → BitVec 32} (h : ∀ i, ∃ j, w i = v j)
    (hv : IntIn lo hi v) : IntIn lo hi w := fun i => by
  obtain ⟨j, hj⟩ := h i
  rw [hj]; exact hv j

/-- A broadcast keeps the range. -/
theorem IntIn_broadcastInDim {lo hi : Int} (dims : Fin S.rank → Fin T.rank) (h : S.BroadcastsInDim T dims)
    {x : S.Idx → BitVec 32} (hx : IntIn lo hi x) : IntIn lo hi (broadcastInDim T dims h x) :=
  IntIn_of_reads (reads_broadcastInDim dims h x) hx

/-- A reshape keeps the range. -/
theorem IntIn_shapeCast {lo hi : Int} {x : S.Idx → BitVec 32} (h : S.ShapeCasts T) (hx : IntIn lo hi x) :
    IntIn lo hi (shapeCast T x h) := IntIn_of_reads (reads_shapeCast x h) hx

/-- A slice keeps the range. -/
theorem IntIn_extractStridedSlice {lo hi : Int} (off : Fin S.rank → Nat) {x : S.Idx → BitVec 32} (h : S.Slices off T)
    (hx : IntIn lo hi x) : IntIn lo hi (extractStridedSlice T off x h) :=
  IntIn_of_reads (reads_extractStridedSlice off x h) hx

/-- A transpose keeps the range. -/
theorem IntIn_transpose {lo hi : Int} (perm : List (Fin S.rank)) {x : S.Idx → BitVec 32} (h : S.Transposes perm T)
    (hx : IntIn lo hi x) : IntIn lo hi (transpose T perm x h) := IntIn_of_reads (reads_transpose perm x h) hx

/-- A gather keeps the table's range. -/
theorem IntIn_gather {lo hi : Int} {si : Shape} {w : Nat} (d : GatherDims S si T) {x : S.Idx → BitVec 32} (idx : IVec si w)
    (hx : IntIn lo hi x) : IntIn lo hi (Host.gather d x idx) := IntIn_of_reads (reads_gather d x idx) hx

/-- A concatenation keeps a range all its pieces have. -/
theorem IntIn_concatenate {lo hi : Int} (a : Fin T.rank) (xs : List ((s : Shape) × (s.Idx → BitVec 32)))
    (h : Shape.Concatenates (xs.map (·.1)) T a) (hP : ∀ p ∈ xs, IntIn lo hi p.2) : IntIn lo hi (concatenate T a xs h) :=
  fun j => concatenate_all (fun x : BitVec 32 => lo ≤ x.toInt ∧ x.toInt ≤ hi) a xs h hP j

/-- One word clamped: the signed maximum with 0, then the signed minimum with 159, lies in [0, 159]. -/
theorem clip_range (x : BitVec 32) :
    0 ≤ (IntOp.minsi 159#32 (IntOp.maxsi 0#32 x)).toInt ∧ (IntOp.minsi 159#32 (IntOp.maxsi 0#32 x)).toInt ≤ 159 := by
  have h0 : (0#32 : BitVec 32).toInt = 0 := by decide
  have h159 : (159#32 : BitVec 32).toInt = 159 := by decide
  unfold IntOp.minsi IntOp.maxsi
  simp only [BitVec.slt_eq_decide, decide_eq_true_eq]
  split_ifs <;> omega

/-- Adding one to a word in [0, 159] does not wrap. -/
theorem toInt_succ_of_range (x : BitVec 32) (h0 : 0 ≤ x.toInt) (h1 : x.toInt ≤ 159) : (x + 1#32).toInt = x.toInt + 1 := by
  rw [BitVec.toInt_add, Int.bmod_def]
  have : (1#32 : BitVec 32).toInt = 1 := by decide
  rw [this]
  split_ifs <;> omega

/-- One word: the signed minimum of the successor of a word in [0, 159] with 159 lies in [0, 159]. -/
theorem succ_min_range (x : BitVec 32) (h0 : 0 ≤ x.toInt) (h1 : x.toInt ≤ 159) :
    0 ≤ (IntOp.minsi (IntOp.addi x 1#32) 159#32).toInt ∧ (IntOp.minsi (IntOp.addi x 1#32) 159#32).toInt ≤ 159 := by
  have hs := toInt_succ_of_range x h0 h1
  have h159 : (159#32 : BitVec 32).toInt = 159 := by decide
  unfold IntOp.minsi IntOp.addi
  simp only [BitVec.slt_eq_decide, decide_eq_true_eq]
  split_ifs <;> omega

/-- Clamping an array between an array that is 0 everywhere and one that is 159 everywhere. -/
theorem IntIn_clip_of {lo hi : IVec S 32} (hlo : ∀ i, lo i = 0#32) (hhi : ∀ i, hi i = 159#32) (v : IVec S 32) :
    IntIn 0 159 (minsi hi (maxsi lo v)) := fun i => by
  show 0 ≤ (IntOp.minsi (hi i) (IntOp.maxsi (lo i) (v i))).toInt ∧ (IntOp.minsi (hi i) (IntOp.maxsi (lo i) (v i))).toInt ≤ 159
  rw [hlo i, hhi i]; exact clip_range (v i)

/-- The clamp to [0, 159] as a host program writes it: the minimum of the twice-broadcast splat of 159 and the
    maximum of the broadcast splat of 0 and the operand, whatever the operand. -/
theorem IntIn_clip {S₁ S₂ S₀ : Shape} (d₁ : Fin S₁.rank → Fin S.rank) (h₁ : S₁.BroadcastsInDim S d₁)
    (d₂ : Fin S₂.rank → Fin S₁.rank) (h₂ : S₂.BroadcastsInDim S₁ d₂)
    (d₃ : Fin S₀.rank → Fin S.rank) (h₃ : S₀.BroadcastsInDim S d₃) (v : IVec S 32) :
    IntIn 0 159 (minsi (broadcastInDim S d₁ h₁ (broadcastInDim S₁ d₂ h₂ (constantI S₂ 32 159#32)))
      (maxsi (broadcastInDim S d₃ h₃ (id (constantI S₀ 32 0#32))) v)) :=
  IntIn_clip_of (fun _ => rfl) (fun _ => rfl) v

/-- The successor capped at 159, between an array that is 1 everywhere and one that is 159 everywhere. -/
theorem IntIn_succ_min_of {one hi : IVec S 32} (hone : ∀ i, one i = 1#32) (hhi : ∀ i, hi i = 159#32) {v : IVec S 32}
    (hv : IntIn 0 159 v) : IntIn 0 159 (minsi (addi v one) hi) := fun i => by
  show 0 ≤ (IntOp.minsi (IntOp.addi (v i) (one i)) (hi i)).toInt ∧ (IntOp.minsi (IntOp.addi (v i) (one i)) (hi i)).toInt ≤ 159
  rw [hone i, hhi i]; exact succ_min_range (v i) (hv i).1 (hv i).2

/-- The successor capped at 159 as a host program writes it: the minimum of the operand plus the broadcast splat
    of 1 and the twice-broadcast splat of 159 stays in [0, 159] when the operand is there. -/
theorem IntIn_succ_min {S₁ S₂ S₀ : Shape} (d₃ : Fin S₀.rank → Fin S.rank) (h₃ : S₀.BroadcastsInDim S d₃)
    (d₁ : Fin S₁.rank → Fin S.rank) (h₁ : S₁.BroadcastsInDim S d₁)
    (d₂ : Fin S₂.rank → Fin S₁.rank) (h₂ : S₂.BroadcastsInDim S₁ d₂) {v : IVec S 32} (hv : IntIn 0 159 v) :
    IntIn 0 159 (minsi (addi v (broadcastInDim S d₃ h₃ (constantI S₀ 32 1#32)))
      (broadcastInDim S d₁ h₁ (broadcastInDim S₁ d₂ h₂ (constantI S₂ 32 159#32)))) :=
  IntIn_succ_min_of (fun _ => rfl) (fun _ => rfl) hv

end Int

end Cert.Spec

end
-- ==== Proof.ClosureRef.lean ====
/-
  The reference program's stages: which of them hold only real numbers, which hold indices in range,
  and which stages of its color half are the same arrays as stages of its density half.

  The reference computes, for every sample point, a grid position p = ((x + 1) / 2) * 159, its floor,
  the fractional part f = p - floor p and 1 - f, the floor clamped to [0, 159] (the lower corner) and
  that plus one capped at 159 (the upper corner); from these the eight corner weights, each a product
  of three of the f / 1 - f columns, and the eight linear indices (z * 160 + y) * 160 + x of the
  corners. With real inputs every one of the float stages is an array of reals (sums, differences,
  products, a halving, a floor of reals); the corner coordinates lie in [0, 159] whatever the inputs,
  so the linear indices lie in [0, 160^3 - 1]. The color half of the program repeats the same
  computation under later stage numbers: stage by stage it is the same term.
-/
import proofs.«123153_j77008763617691_1_alg».proof.Proof.RefRead
import proofs.«123153_j77008763617691_1_alg».proof.Proof.LibClosure
import proofs.«123153_j77008763617691_1_alg».proof.Proof.LibGather

noncomputable section

namespace Cert.Spec

open Idealize.ShloMosaic Cert.ReferenceIdeal Cert.ReferenceIdeal.Gen Cert.ReferenceIdeal.ReadP

/-! ### The color half's coordinate stages are the density half's -/

section Eq
variable {F : FTy → Type} [FloatOps F]
variable (x0 x1 : FVec F S16384x3 .f32) (x2 : FVec F S16384x256 .f32)

/-- The splat of -1.0, again. -/
theorem v211_eq : val_main_v211 (F := F) = val_main_v11 (F := F) := rfl
/-- x - (-1), again. -/
theorem v212_eq : val_main_v212 (F := F) x0 x1 x2 = val_main_v12 (F := F) x0 x1 x2 := by
  unfold val_main_v212 val_main_v12; rw [v211_eq]
/-- The splat of 2.0, again. -/
theorem v213_eq : val_main_v213 (F := F) = val_main_v13 (F := F) := rfl
/-- (x + 1) / 2, again. -/
theorem v214_eq : val_main_v214 (F := F) x0 x1 x2 = val_main_v14 (F := F) x0 x1 x2 := by
  unfold val_main_v214 val_main_v14; rw [v212_eq, v213_eq]
/-- The row (160 - 1) broadcast over the points, again. -/
theorem v218_eq : val_main_v218 (F := F) = val_main_v18 (F := F) := rfl
/-- The grid position, again. -/
theorem v219_eq : val_main_v219 (F := F) x0 x1 x2 = val_main_v19 (F := F) x0 x1 x2 := by
  unfold val_main_v219 val_main_v19; rw [v214_eq, v218_eq]
/-- Its floor, again. -/
theorem v220_eq : val_main_v220 (F := F) x0 x1 x2 = val_main_v20 (F := F) x0 x1 x2 := by
  unfold val_main_v220 val_main_v20; rw [v219_eq]
/-- The fractional part, again. -/
theorem v221_eq : val_main_v221 (F := F) x0 x1 x2 = val_main_v21 (F := F) x0 x1 x2 := by
  unfold val_main_v221 val_main_v21; rw [v219_eq, v220_eq]
/-- The splat of 1.0, again. -/
theorem v222_eq : val_main_v222 (F := F) = val_main_v22 (F := F) := rfl
/-- One minus the fractional part, again. -/
theorem v223_eq : val_main_v223 (F := F) x0 x1 x2 = val_main_v23 (F := F) x0 x1 x2 := by
  unfold val_main_v223 val_main_v23; rw [v222_eq, v221_eq]
/-- The floor as an integer, again. -/
theorem v224_eq : val_main_v224 (F := F) x0 x1 x2 = val_main_v24 (F := F) x0 x1 x2 := by
  unfold val_main_v224 val_main_v24; rw [v220_eq]
/-- The splat of 0, again. -/
theorem call2_v1_eq : val_main_call2_v1 (F := F) = val_main_call1_v1 (F := F) := rfl
/-- The maximum with 0, again. -/
theorem call2_v2_eq : val_main_call2_v2 (F := F) x0 x1 x2 = val_main_call1_v2 (F := F) x0 x1 x2 := by
  unfold val_main_call2_v2 val_main_call1_v2; rw [call2_v1_eq, v224_eq]
/-- The row of 159s broadcast over the points, again. -/
theorem call2_v4_eq : val_main_call2_v4 (F := F) = val_main_call1_v4 (F := F) := rfl
/-- The lower corner, again. -/
theorem v225_eq : val_main_v225 (F := F) x0 x1 x2 = val_main_v25 (F := F) x0 x1 x2 := by
  unfold val_main_v225 val_main_v25; rw [call2_v4_eq, call2_v2_eq]
/-- The splat of 1, again. -/
theorem v226_eq : val_main_v226 (F := F) = val_main_v26 (F := F) := rfl
/-- The lower corner plus one, again. -/
theorem v227_eq : val_main_v227 (F := F) x0 x1 x2 = val_main_v27 (F := F) x0 x1 x2 := by
  unfold val_main_v227 val_main_v27; rw [v225_eq, v226_eq]
/-- The row of 159s broadcast over the points, once more. -/
theorem v229_eq : val_main_v229 (F := F) = val_main_v29 (F := F) := rfl
/-- The upper corner, again. -/
theorem v230_eq : val_main_v230 (F := F) x0 x1 x2 = val_main_v30 (F := F) x0 x1 x2 := by
  unfold val_main_v230 val_main_v30; rw [v227_eq, v229_eq]

/-- Column 0 of the lower corner, again. -/
theorem v232_eq : val_main_v232 (F := F) x0 x1 x2 = val_main_v32 (F := F) x0 x1 x2 := by
  unfold val_main_v232 val_main_v32 val_main_v231 val_main_v31; rw [v225_eq]
/-- Column 1 of the lower corner, again. -/
theorem v234_eq : val_main_v234 (F := F) x0 x1 x2 = val_main_v34 (F := F) x0 x1 x2 := by
  unfold val_main_v234 val_main_v34 val_main_v233 val_main_v33; rw [v225_eq]
/-- Column 2 of the lower corner, again. -/
theorem v236_eq : val_main_v236 (F := F) x0 x1 x2 = val_main_v36 (F := F) x0 x1 x2 := by
  unfold val_main_v236 val_main_v36 val_main_v235 val_main_v35; rw [v225_eq]
/-- Column 0 of the upper corner, again. -/
theorem v238_eq : val_main_v238 (F := F) x0 x1 x2 = val_main_v38 (F := F) x0 x1 x2 := by
  unfold val_main_v238 val_main_v38 val_main_v237 val_main_v37; rw [v230_eq]
/-- Column 1 of the upper corner, again. -/
theorem v240_eq : val_main_v240 (F := F) x0 x1 x2 = val_main_v40 (F := F) x0 x1 x2 := by
  unfold val_main_v240 val_main_v40 val_main_v239 val_main_v39; rw [v230_eq]
/-- Column 2 of the upper corner, again. -/
theorem v242_eq : val_main_v242 (F := F) x0 x1 x2 = val_main_v42 (F := F) x0 x1 x2 := by
  unfold val_main_v242 val_main_v42 val_main_v241 val_main_v41; rw [v230_eq]

/-- Column 0 of one minus the fractional part, again. -/
theorem v245_eq : val_main_v245 (F := F) x0 x1 x2 = val_main_v45 (F := F) x0 x1 x2 := by
  unfold val_main_v245 val_main_v45 val_main_v244 val_main_v44; rw [v223_eq]
/-- Column 1 of one minus the fractional part, again. -/
theorem v247_eq : val_main_v247 (F := F) x0 x1 x2 = val_main_v47 (F := F) x0 x1 x2 := by
  unfold val_main_v247 val_main_v47 val_main_v246 val_main_v46; rw [v223_eq]
/-- Column 2 of one minus the fractional part, again. -/
theorem v249_eq : val_main_v249 (F := F) x0 x1 x2 = val_main_v49 (F := F) x0 x1 x2 := by
  unfold val_main_v249 val_main_v49 val_main_v248 val_main_v48; rw [v223_eq]
/-- Column 0 of the fractional part, again. -/
theorem v251_eq : val_main_v251 (F := F) x0 x1 x2 = val_main_v51 (F := F) x0 x1 x2 := by
  unfold val_main_v251 val_main_v51 val_main_v250 val_main_v50; rw [v221_eq]
/-- Column 1 of the fractional part, again. -/
theorem v253_eq : val_main_v253 (F := F) x0 x1 x2 = val_main_v53 (F := F) x0 x1 x2 := by
  unfold val_main_v253 val_main_v53 val_main_v252 val_main_v52; rw [v221_eq]
/-- Column 2 of the fractional part, again. -/
theorem v255_eq : val_main_v255 (F := F) x0 x1 x2 = val_main_v55 (F := F) x0 x1 x2 := by
  unfold val_main_v255 val_main_v55 val_main_v254 val_main_v54; rw [v221_eq]

/-! The eight corner weights. -/

/-- Weight of corner (0,0,0): color stage 270 is density stage 70. -/
theorem v270_eq : val_main_v270 (F := F) x0 x1 x2 = val_main_v70 (F := F) x0 x1 x2 := by
  unfold val_main_v270 val_main_v70 val_main_v269 val_main_v69; rw [v249_eq, v247_eq, v245_eq]
/-- Weight of corner (0,0,1): color stage 288 is density stage 87. -/
theorem v288_eq : val_main_v288 (F := F) x0 x1 x2 = val_main_v87 (F := F) x0 x1 x2 := by
  unfold val_main_v288 val_main_v87 val_main_v287 val_main_v86; rw [v249_eq, v247_eq, v251_eq]
/-- Weight of corner (0,1,0): color stage 307 is density stage 105. -/
theorem v307_eq : val_main_v307 (F := F) x0 x1 x2 = val_main_v105 (F := F) x0 x1 x2 := by
  unfold val_main_v307 val_main_v105 val_main_v306 val_main_v104; rw [v249_eq, v253_eq, v245_eq]
/-- Weight of corner (0,1,1): color stage 326 is density stage 123. -/
theorem v326_eq : val_main_v326 (F := F) x0 x1 x2 = val_main_v123 (F := F) x0 x1 x2 := by
  unfold val_main_v326 val_main_v123 val_main_v325 val_main_v122; rw [v249_eq, v253_eq, v251_eq]
/-- Weight of corner (1,0,0): color stage 345 is density stage 141. -/
theorem v345_eq : val_main_v345 (F := F) x0 x1 x2 = val_main_v141 (F := F) x0 x1 x2 := by
  unfold val_main_v345 val_main_v141 val_main_v344 val_main_v140; rw [v255_eq, v247_eq, v245_eq]
/-- Weight of corner (1,0,1): color stage 364 is density stage 159. -/
theorem v364_eq : val_main_v364 (F := F) x0 x1 x2 = val_main_v159 (F := F) x0 x1 x2 := by
  unfold val_main_v364 val_main_v159 val_main_v363 val_main_v158; rw [v255_eq, v247_eq, v251_eq]
/-- Weight of corner (1,1,0): color stage 383 is density stage 177. -/
theorem v383_eq : val_main_v383 (F := F) x0 x1 x2 = val_main_v177 (F := F) x0 x1 x2 := by
  unfold val_main_v383 val_main_v177 val_main_v382 val_main_v176; rw [v255_eq, v253_eq, v245_eq]
/-- Weight of corner (1,1,1): color stage 402 is density stage 195. -/
theorem v402_eq : val_main_v402 (F := F) x0 x1 x2 = val_main_v195 (F := F) x0 x1 x2 := by
  unfold val_main_v402 val_main_v195 val_main_v401 val_main_v194; rw [v255_eq, v253_eq, v251_eq]

/-! The eight linear indices. Each multiplies by its own two splats of 160. -/

theorem v256_eq : val_main_v256 (F := F) = val_main_v56 (F := F) := rfl
theorem v259_eq : val_main_v259 (F := F) = val_main_v59 (F := F) := rfl
theorem v274_eq : val_main_v274 (F := F) = val_main_v73 (F := F) := rfl
theorem v277_eq : val_main_v277 (F := F) = val_main_v76 (F := F) := rfl
theorem v293_eq : val_main_v293 (F := F) = val_main_v91 (F := F) := rfl
theorem v296_eq : val_main_v296 (F := F) = val_main_v94 (F := F) := rfl
theorem v312_eq : val_main_v312 (F := F) = val_main_v109 (F := F) := rfl
theorem v315_eq : val_main_v315 (F := F) = val_main_v112 (F := F) := rfl
theorem v331_eq : val_main_v331 (F := F) = val_main_v127 (F := F) := rfl
theorem v334_eq : val_main_v334 (F := F) = val_main_v130 (F := F) := rfl
theorem v350_eq : val_main_v350 (F := F) = val_main_v145 (F := F) := rfl
theorem v353_eq : val_main_v353 (F := F) = val_main_v148 (F := F) := rfl
theorem v369_eq : val_main_v369 (F := F) = val_main_v163 (F := F) := rfl
theorem v372_eq : val_main_v372 (F := F) = val_main_v166 (F := F) := rfl
theorem v388_eq : val_main_v388 (F := F) = val_main_v181 (F := F) := rfl
theorem v391_eq : val_main_v391 (F := F) = val_main_v184 (F := F) := rfl

/-- Index of corner (0,0,0): color stage 261 is density stage 61. -/
theorem v261_eq : val_main_v261 (F := F) x0 x1 x2 = val_main_v61 (F := F) x0 x1 x2 := by
  unfold val_main_v261 val_main_v61 val_main_v260 val_main_v60 val_main_v258 val_main_v58 val_main_v257 val_main_v57
  rw [v236_eq, v234_eq, v232_eq, v256_eq, v259_eq]
/-- Index of corner (0,0,1): color stage 279 is density stage 78. -/
theorem v279_eq : val_main_v279 (F := F) x0 x1 x2 = val_main_v78 (F := F) x0 x1 x2 := by
  unfold val_main_v279 val_main_v78 val_main_v278 val_main_v77 val_main_v276 val_main_v75 val_main_v275 val_main_v74
  rw [v236_eq, v234_eq, v238_eq, v274_eq, v277_eq]
/-- Index of corner (0,1,0): color stage 298 is density stage 96. -/
theorem v298_eq : val_main_v298 (F := F) x0 x1 x2 = val_main_v96 (F := F) x0 x1 x2 := by
  unfold val_main_v298 val_main_v96 val_main_v297 val_main_v95 val_main_v295 val_main_v93 val_main_v294 val_main_v92
  rw [v236_eq, v240_eq, v232_eq, v293_eq, v296_eq]
/-- Index of corner (0,1,1): color stage 317 is density stage 114. -/
theorem v317_eq : val_main_v317 (F := F) x0 x1 x2 = val_main_v114 (F := F) x0 x1 x2 := by
  unfold val_main_v317 val_main_v114 val_main_v316 val_main_v113 val_main_v314 val_main_v111 val_main_v313 val_main_v110
  rw [v236_eq, v240_eq, v238_eq, v312_eq, v315_eq]
/-- Index of corner (1,0,0): color stage 336 is density stage 132. -/
theorem v336_eq : val_main_v336 (F := F) x0 x1 x2 = val_main_v132 (F := F) x0 x1 x2 := by
  unfold val_main_v336 val_main_v132 val_main_v335 val_main_v131 val_main_v333 val_main_v129 val_main_v332 val_main_v128
  rw [v242_eq, v234_eq, v232_eq, v331_eq, v334_eq]
/-- Index of corner (1,0,1): color stage 355 is density stage 150. -/
theorem v355_eq : val_main_v355 (F := F) x0 x1 x2 = val_main_v150 (F := F) x0 x1 x2 := by
  unfold val_main_v355 val_main_v150 val_main_v354 val_main_v149 val_main_v352 val_main_v147 val_main_v351 val_main_v146
  rw [v242_eq, v234_eq, v238_eq, v350_eq, v353_eq]
/-- Index of corner (1,1,0): color stage 374 is density stage 168. -/
theorem v374_eq : val_main_v374 (F := F) x0 x1 x2 = val_main_v168 (F := F) x0 x1 x2 := by
  unfold val_main_v374 val_main_v168 val_main_v373 val_main_v167 val_main_v371 val_main_v165 val_main_v370 val_main_v164
  rw [v242_eq, v240_eq, v232_eq, v369_eq, v372_eq]
/-- Index of corner (1,1,1): color stage 393 is density stage 186. -/
theorem v393_eq : val_main_v393 (F := F) x0 x1 x2 = val_main_v186 (F := F) x0 x1 x2 := by
  unfold val_main_v393 val_main_v186 val_main_v392 val_main_v185 val_main_v390 val_main_v183 val_main_v389 val_main_v182
  rw [v242_eq, v240_eq, v238_eq, v388_eq, v391_eq]

end Eq

/-! ### Real entries, from real inputs -/

section Real
variable {x0 x1 : FVec Ideal S16384x3 .f32} {x2 : FVec Ideal S16384x256 .f32}

/-- The ray origins, broadcast. -/
theorem real_v0 (h0 : AllReal x0) : AllReal (val_main_v0 (F := Ideal) x0) := by
  unfold val_main_v0; exact AllReal_broadcastInDim _ _ h0
/-- The ray directions, broadcast. -/
theorem real_v1 (h1 : AllReal x1) : AllReal (val_main_v1 (F := Ideal) x1) := by
  unfold val_main_v1; exact AllReal_broadcastInDim _ _ h1
/-- The sample distances, broadcast. -/
theorem real_v2 (h2 : AllReal x2) : AllReal (val_main_v2 (F := Ideal) x2) := by
  unfold val_main_v2; exact AllReal_broadcastInDim _ _ h2
theorem real_v3 (h1 : AllReal x1) : AllReal (val_main_v3 (F := Ideal) x1) := by
  unfold val_main_v3; exact AllReal_broadcastInDim _ _ (real_v1 h1)
theorem real_v4 (h2 : AllReal x2) : AllReal (val_main_v4 (F := Ideal) x2) := by
  unfold val_main_v4; exact AllReal_broadcastInDim _ _ (real_v2 h2)
/-- direction * distance. -/
theorem real_v5 (h1 : AllReal x1) (h2 : AllReal x2) : AllReal (val_main_v5 (F := Ideal) x1 x2) := by
  unfold val_main_v5; exact AllReal_mulf (real_v3 h1) (real_v4 h2)
theorem real_v6 (h0 : AllReal x0) : AllReal (val_main_v6 (F := Ideal) x0) := by
  unfold val_main_v6; exact AllReal_broadcastInDim _ _ (real_v0 h0)
/-- The sample points: origin + direction * distance. -/
theorem real_v7 (h0 : AllReal x0) (h1 : AllReal x1) (h2 : AllReal x2) : AllReal (val_main_v7 (F := Ideal) x0 x1 x2) := by
  unfold val_main_v7; exact AllReal_addf (real_v6 h0) (real_v5 h1 h2)
/-- The norm of each ray direction: the root of a sum of squares. -/
theorem real_v8 (h1 : AllReal x1) : AllReal (val_main_v8 (F := Ideal) x1) := by
  unfold val_main_v8 val_main_call0_v1 val_main_call0_v0 val_main_call0_cst
  exact AllReal_sqrt_sumsq _ _ h1
/-- The sample points as one list. -/
theorem real_v10 (h0 : AllReal x0) (h1 : AllReal x1) (h2 : AllReal x2) : AllReal (val_main_v10 (F := Ideal) x0 x1 x2) := by
  unfold val_main_v10; exact AllReal_shapeCast _ (real_v7 h0 h1 h2)
theorem real_v11 : AllReal (val_main_v11 (F := Ideal)) := by
  unfold val_main_v11 val_main_cst_2; exact AllReal_bcast_constant _ _ _ (by decide)
theorem real_v12 (h0 : AllReal x0) (h1 : AllReal x1) (h2 : AllReal x2) : AllReal (val_main_v12 (F := Ideal) x0 x1 x2) := by
  unfold val_main_v12; exact AllReal_subf (real_v10 h0 h1 h2) real_v11
/-- (x + 1) / 2. -/
theorem real_v14 (h0 : AllReal x0) (h1 : AllReal x1) (h2 : AllReal x2) : AllReal (val_main_v14 (F := Ideal) x0 x1 x2) := by
  unfold val_main_v14 val_main_v13 val_main_cst_3; exact AllReal_divf_two _ _ (real_v12 h0 h1 h2)
/-- The row 160 - 1. -/
theorem real_v16 : AllReal (val_main_v16 (F := Ideal)) := by
  unfold val_main_v16 val_main_cst val_main_v15 val_main_cst_4
  exact AllReal_subf (AllReal_constant _ _ (by decide)) (AllReal_bcast_constant _ _ _ (by decide))
theorem real_v18 : AllReal (val_main_v18 (F := Ideal)) := by
  unfold val_main_v18 val_main_v17; exact AllReal_broadcastInDim _ _ (AllReal_broadcastInDim _ _ real_v16)
/-- The grid position. -/
theorem real_v19 (h0 : AllReal x0) (h1 : AllReal x1) (h2 : AllReal x2) : AllReal (val_main_v19 (F := Ideal) x0 x1 x2) := by
  unfold val_main_v19; exact AllReal_mulf (real_v14 h0 h1 h2) real_v18
/-- Its floor. -/
theorem real_v20 (h0 : AllReal x0) (h1 : AllReal x1) (h2 : AllReal x2) : AllReal (val_main_v20 (F := Ideal) x0 x1 x2) := by
  unfold val_main_v20; exact AllReal_floor (real_v19 h0 h1 h2)
/-- The fractional part. -/
theorem real_v21 (h0 : AllReal x0) (h1 : AllReal x1) (h2 : AllReal x2) : AllReal (val_main_v21 (F := Ideal) x0 x1 x2) := by
  unfold val_main_v21; exact AllReal_subf (real_v19 h0 h1 h2) (real_v20 h0 h1 h2)
theorem real_v22 : AllReal (val_main_v22 (F := Ideal)) := by
  unfold val_main_v22 val_main_cst_5; exact AllReal_bcast_constant _ _ _ (by decide)
/-- One minus the fractional part. -/
theorem real_v23 (h0 : AllReal x0) (h1 : AllReal x1) (h2 : AllReal x2) : AllReal (val_main_v23 (F := Ideal) x0 x1 x2) := by
  unfold val_main_v23; exact AllReal_subf real_v22 (real_v21 h0 h1 h2)

/-- Column 0 of one minus the fractional part. -/
theorem real_v45 (h0 : AllReal x0) (h1 : AllReal x1) (h2 : AllReal x2) : AllReal (val_main_v45 (F := Ideal) x0 x1 x2) := by
  unfold val_main_v45 val_main_v44; exact AllReal_shapeCast _ (AllReal_extractStridedSlice _ _ (real_v23 h0 h1 h2))
/-- Column 1 of one minus the fractional part. -/
theorem real_v47 (h0 : AllReal x0) (h1 : AllReal x1) (h2 : AllReal x2) : AllReal (val_main_v47 (F := Ideal) x0 x1 x2) := by
  unfold val_main_v47 val_main_v46; exact AllReal_shapeCast _ (AllReal_extractStridedSlice _ _ (real_v23 h0 h1 h2))
/-- Column 2 of one minus the fractional part. -/
theorem real_v49 (h0 : AllReal x0) (h1 : AllReal x1) (h2 : AllReal x2) : AllReal (val_main_v49 (F := Ideal) x0 x1 x2) := by
  unfold val_main_v49 val_main_v48; exact AllReal_shapeCast _ (AllReal_extractStridedSlice _ _ (real_v23 h0 h1 h2))
/-- Column 0 of the fractional part. -/
theorem real_v51 (h0 : AllReal x0) (h1 : AllReal x1) (h2 : AllReal x2) : AllReal (val_main_v51 (F := Ideal) x0 x1 x2) := by
  unfold val_main_v51 val_main_v50; exact AllReal_shapeCast _ (AllReal_extractStridedSlice _ _ (real_v21 h0 h1 h2))
/-- Column 1 of the fractional part. -/
theorem real_v53 (h0 : AllReal x0) (h1 : AllReal x1) (h2 : AllReal x2) : AllReal (val_main_v53 (F := Ideal) x0 x1 x2) := by
  unfold val_main_v53 val_main_v52; exact AllReal_shapeCast _ (AllReal_extractStridedSlice _ _ (real_v21 h0 h1 h2))
/-- Column 2 of the fractional part. -/
theorem real_v55 (h0 : AllReal x0) (h1 : AllReal x1) (h2 : AllReal x2) : AllReal (val_main_v55 (F := Ideal) x0 x1 x2) := by
  unfold val_main_v55 val_main_v54; exact AllReal_shapeCast _ (AllReal_extractStridedSlice _ _ (real_v21 h0 h1 h2))

/-- Weight of corner (0,0,0). -/
theorem real_v70 (h0 : AllReal x0) (h1 : AllReal x1) (h2 : AllReal x2) : AllReal (val_main_v70 (F := Ideal) x0 x1 x2) := by
  unfold val_main_v70 val_main_v69
  exact AllReal_mulf (AllReal_mulf (real_v49 h0 h1 h2) (real_v47 h0 h1 h2)) (real_v45 h0 h1 h2)
/-- Weight of corner (0,0,1). -/
theorem real_v87 (h0 : AllReal x0) (h1 : AllReal x1) (h2 : AllReal x2) : AllReal (val_main_v87 (F := Ideal) x0 x1 x2) := by
  unfold val_main_v87 val_main_v86
  exact AllReal_mulf (AllReal_mulf (real_v49 h0 h1 h2) (real_v47 h0 h1 h2)) (real_v51 h0 h1 h2)
/-- Weight of corner (0,1,0). -/
theorem real_v105 (h0 : AllReal x0) (h1 : AllReal x1) (h2 : AllReal x2) : AllReal (val_main_v105 (F := Ideal) x0 x1 x2) := by
  unfold val_main_v105 val_main_v104
  exact AllReal_mulf (AllReal_mulf (real_v49 h0 h1 h2) (real_v53 h0 h1 h2)) (real_v45 h0 h1 h2)
/-- Weight of corner (0,1,1). -/
theorem real_v123 (h0 : AllReal x0) (h1 : AllReal x1) (h2 : AllReal x2) : AllReal (val_main_v123 (F := Ideal) x0 x1 x2) := by
  unfold val_main_v123 val_main_v122
  exact AllReal_mulf (AllReal_mulf (real_v49 h0 h1 h2) (real_v53 h0 h1 h2)) (real_v51 h0 h1 h2)
/-- Weight of corner (1,0,0). -/
theorem real_v141 (h0 : AllReal x0) (h1 : AllReal x1) (h2 : AllReal x2) : AllReal (val_main_v141 (F := Ideal) x0 x1 x2) := by
  unfold val_main_v141 val_main_v140
  exact AllReal_mulf (AllReal_mulf (real_v55 h0 h1 h2) (real_v47 h0 h1 h2)) (real_v45 h0 h1 h2)
/-- Weight of corner (1,0,1). -/
theorem real_v159 (h0 : AllReal x0) (h1 : AllReal x1) (h2 : AllReal x2) : AllReal (val_main_v159 (F := Ideal) x0 x1 x2) := by
  unfold val_main_v159 val_main_v158
  exact AllReal_mulf (AllReal_mulf (real_v55 h0 h1 h2) (real_v47 h0 h1 h2)) (real_v51 h0 h1 h2)
/-- Weight of corner (1,1,0). -/
theorem real_v177 (h0 : AllReal x0) (h1 : AllReal x1) (h2 : AllReal x2) : AllReal (val_main_v177 (F := Ideal) x0 x1 x2) := by
  unfold val_main_v177 val_main_v176
  exact AllReal_mulf (AllReal_mulf (real_v55 h0 h1 h2) (real_v53 h0 h1 h2)) (real_v45 h0 h1 h2)
/-- Weight of corner (1,1,1). -/
theorem real_v195 (h0 : AllReal x0) (h1 : AllReal x1) (h2 : AllReal x2) : AllReal (val_main_v195 (F := Ideal) x0 x1 x2) := by
  unfold val_main_v195 val_main_v194
  exact AllReal_mulf (AllReal_mulf (real_v55 h0 h1 h2) (real_v53 h0 h1 h2)) (real_v51 h0 h1 h2)

/-- The color half's eight weights, the same arrays. -/
theorem real_v270 (h0 : AllReal x0) (h1 : AllReal x1) (h2 : AllReal x2) : AllReal (val_main_v270 (F := Ideal) x0 x1 x2) := by
  rw [v270_eq]; exact real_v70 h0 h1 h2
theorem real_v288 (h0 : AllReal x0) (h1 : AllReal x1) (h2 : AllReal x2) : AllReal (val_main_v288 (F := Ideal) x0 x1 x2) := by
  rw [v288_eq]; exact real_v87 h0 h1 h2
theorem real_v307 (h0 : AllReal x0) (h1 : AllReal x1) (h2 : AllReal x2) : AllReal (val_main_v307 (F := Ideal) x0 x1 x2) := by
  rw [v307_eq]; exact real_v105 h0 h1 h2
theorem real_v326 (h0 : AllReal x0) (h1 : AllReal x1) (h2 : AllReal x2) : AllReal (val_main_v326 (F := Ideal) x0 x1 x2) := by
  rw [v326_eq]; exact real_v123 h0 h1 h2
theorem real_v345 (h0 : AllReal x0) (h1 : AllReal x1) (h2 : AllReal x2) : AllReal (val_main_v345 (F := Ideal) x0 x1 x2) := by
  rw [v345_eq]; exact real_v141 h0 h1 h2
theorem real_v364 (h0 : AllReal x0) (h1 : AllReal x1) (h2 : AllReal x2) : AllReal (val_main_v364 (F := Ideal) x0 x1 x2) := by
  rw [v364_eq]; exact real_v159 h0 h1 h2
theorem real_v383 (h0 : AllReal x0) (h1 : AllReal x1) (h2 : AllReal x2) : AllReal (val_main_v383 (F := Ideal) x0 x1 x2) := by
  rw [v383_eq]; exact real_v177 h0 h1 h2
theorem real_v402 (h0 : AllReal x0) (h1 : AllReal x1) (h2 : AllReal x2) : AllReal (val_main_v402 (F := Ideal) x0 x1 x2) := by
  rw [v402_eq]; exact real_v195 h0 h1 h2

/-- The density table as one row of 160^3 entries. -/
theorem real_v43 {x3 : FVec Ideal S1x160x160x160 .f32} (h3 : AllReal x3) : AllReal (val_main_v43 (F := Ideal) x3) := by
  unfold val_main_v43; exact AllReal_shapeCast _ h3
/-- The color table as three rows of 160^3 entries. -/
theorem real_v243 {x4 : FVec Ideal S3x160x160x160 .f32} (h4 : AllReal x4) : AllReal (val_main_v243 (F := Ideal) x4) := by
  unfold val_main_v243; exact AllReal_shapeCast _ h4

end Real

/-! ### Corner coordinates and linear indices in range, whatever the inputs -/

section Int
variable {F : FTy → Type} [FloatOps F]
variable (x0 x1 : FVec F S16384x3 .f32) (x2 : FVec F S16384x256 .f32)

/-- The lower corner: the floor clamped to [0, 159]. -/
theorem intIn_v25 : IntIn 0 159 (val_main_v25 (F := F) x0 x1 x2) := by
  unfold val_main_v25 val_main_call1_v4 val_main_call1_v3 val_main_c val_main_call1_v2 val_main_call1_v1
    val_main_call1_v0 val_main_c_6
  exact IntIn_clip _ _ _ _ _ _ _
/-- The upper corner: the lower corner plus one, capped at 159. -/
theorem intIn_v30 : IntIn 0 159 (val_main_v30 (F := F) x0 x1 x2) := by
  unfold val_main_v30 val_main_v27 val_main_v26 val_main_c_7 val_main_v29 val_main_v28 val_main_c
  exact IntIn_succ_min _ _ _ _ _ _ (intIn_v25 x0 x1 x2)

/-- Column 0 of the lower corner. -/
theorem intIn_v32 : IntIn 0 159 (val_main_v32 (F := F) x0 x1 x2) := by
  unfold val_main_v32 val_main_v31; exact IntIn_shapeCast _ (IntIn_extractStridedSlice _ _ (intIn_v25 x0 x1 x2))
/-- Column 1 of the lower corner. -/
theorem intIn_v34 : IntIn 0 159 (val_main_v34 (F := F) x0 x1 x2) := by
  unfold val_main_v34 val_main_v33; exact IntIn_shapeCast _ (IntIn_extractStridedSlice _ _ (intIn_v25 x0 x1 x2))
/-- Column 2 of the lower corner. -/
theorem intIn_v36 : IntIn 0 159 (val_main_v36 (F := F) x0 x1 x2) := by
  unfold val_main_v36 val_main_v35; exact IntIn_shapeCast _ (IntIn_extractStridedSlice _ _ (intIn_v25 x0 x1 x2))
/-- Column 0 of the upper corner. -/
theorem intIn_v38 : IntIn 0 159 (val_main_v38 (F := F) x0 x1 x2) := by
  unfold val_main_v38 val_main_v37; exact IntIn_shapeCast _ (IntIn_extractStridedSlice _ _ (intIn_v30 x0 x1 x2))
/-- Column 1 of the upper corner. -/
theorem intIn_v40 : IntIn 0 159 (val_main_v40 (F := F) x0 x1 x2) := by
  unfold val_main_v40 val_main_v39; exact IntIn_shapeCast _ (IntIn_extractStridedSlice _ _ (intIn_v30 x0 x1 x2))
/-- Column 2 of the upper corner. -/
theorem intIn_v42 : IntIn 0 159 (val_main_v42 (F := F) x0 x1 x2) := by
  unfold val_main_v42 val_main_v41; exact IntIn_shapeCast _ (IntIn_extractStridedSlice _ _ (intIn_v30 x0 x1 x2))

/-- Index of corner (0,0,0). -/
theorem intIn_v61 : IntIn 0 4095999 (val_main_v61 (F := F) x0 x1 x2) := by
  unfold val_main_v61 val_main_v60 val_main_v59 val_main_c_9 val_main_v58 val_main_v57 val_main_v56 val_main_c_8
  exact IntIn_lin _ _ _ _ _ (intIn_v36 x0 x1 x2) (intIn_v34 x0 x1 x2) (intIn_v32 x0 x1 x2)
/-- Index of corner (0,0,1). -/
theorem intIn_v78 : IntIn 0 4095999 (val_main_v78 (F := F) x0 x1 x2) := by
  unfold val_main_v78 val_main_v77 val_main_v76 val_main_c_13 val_main_v75 val_main_v74 val_main_v73 val_main_c_12
  exact IntIn_lin _ _ _ _ _ (intIn_v36 x0 x1 x2) (intIn_v34 x0 x1 x2) (intIn_v38 x0 x1 x2)
/-- Index of corner (0,1,0). -/
theorem intIn_v96 : IntIn 0 4095999 (val_main_v96 (F := F) x0 x1 x2) := by
  unfold val_main_v96 val_main_v95 val_main_v94 val_main_c_17 val_main_v93 val_main_v92 val_main_v91 val_main_c_16
  exact IntIn_lin _ _ _ _ _ (intIn_v36 x0 x1 x2) (intIn_v40 x0 x1 x2) (intIn_v32 x0 x1 x2)
/-- Index of corner (0,1,1). -/
theorem intIn_v114 : IntIn 0 4095999 (val_main_v114 (F := F) x0 x1 x2) := by
  unfold val_main_v114 val_main_v113 val_main_v112 val_main_c_21 val_main_v111 val_main_v110 val_main_v109 val_main_c_20
  exact IntIn_lin _ _ _ _ _ (intIn_v36 x0 x1 x2) (intIn_v40 x0 x1 x2) (intIn_v38 x0 x1 x2)
/-- Index of corner (1,0,0). -/
theorem intIn_v132 : IntIn 0 4095999 (val_main_v132 (F := F) x0 x1 x2) := by
  unfold val_main_v132 val_main_v131 val_main_v130 val_main_c_25 val_main_v129 val_main_v128 val_main_v127 val_main_c_24
  exact IntIn_lin _ _ _ _ _ (intIn_v42 x0 x1 x2) (intIn_v34 x0 x1 x2) (intIn_v32 x0 x1 x2)
/-- Index of corner (1,0,1). -/
theorem intIn_v150 : IntIn 0 4095999 (val_main_v150 (F := F) x0 x1 x2) := by
  unfold val_main_v150 val_main_v149 val_main_v148 val_main_c_29 val_main_v147 val_main_v146 val_main_v145 val_main_c_28
  exact IntIn_lin _ _ _ _ _ (intIn_v42 x0 x1 x2) (intIn_v34 x0 x1 x2) (intIn_v38 x0 x1 x2)
/-- Index of corner (1,1,0). -/
theorem intIn_v168 : IntIn 0 4095999 (val_main_v168 (F := F) x0 x1 x2) := by
  unfold val_main_v168 val_main_v167 val_main_v166 val_main_c_33 val_main_v165 val_main_v164 val_main_v163 val_main_c_32
  exact IntIn_lin _ _ _ _ _ (intIn_v42 x0 x1 x2) (intIn_v40 x0 x1 x2) (intIn_v32 x0 x1 x2)
/-- Index of corner (1,1,1). -/
theorem intIn_v186 : IntIn 0 4095999 (val_main_v186 (F := F) x0 x1 x2) := by
  unfold val_main_v186 val_main_v185 val_main_v184 val_main_c_37 val_main_v183 val_main_v182 val_main_v181 val_main_c_36
  exact IntIn_lin _ _ _ _ _ (intIn_v42 x0 x1 x2) (intIn_v40 x0 x1 x2) (intIn_v38 x0 x1 x2)

/-- The color half's eight indices, the same arrays. -/
theorem intIn_v261 : IntIn 0 4095999 (val_main_v261 (F := F) x0 x1 x2) := by rw [v261_eq]; exact intIn_v61 x0 x1 x2
theorem intIn_v279 : IntIn 0 4095999 (val_main_v279 (F := F) x0 x1 x2) := by rw [v279_eq]; exact intIn_v78 x0 x1 x2
theorem intIn_v298 : IntIn 0 4095999 (val_main_v298 (F := F) x0 x1 x2) := by rw [v298_eq]; exact intIn_v96 x0 x1 x2
theorem intIn_v317 : IntIn 0 4095999 (val_main_v317 (F := F) x0 x1 x2) := by rw [v317_eq]; exact intIn_v114 x0 x1 x2
theorem intIn_v336 : IntIn 0 4095999 (val_main_v336 (F := F) x0 x1 x2) := by rw [v336_eq]; exact intIn_v132 x0 x1 x2
theorem intIn_v355 : IntIn 0 4095999 (val_main_v355 (F := F) x0 x1 x2) := by rw [v355_eq]; exact intIn_v150 x0 x1 x2
theorem intIn_v374 : IntIn 0 4095999 (val_main_v374 (F := F) x0 x1 x2) := by rw [v374_eq]; exact intIn_v168 x0 x1 x2
theorem intIn_v393 : IntIn 0 4095999 (val_main_v393 (F := F) x0 x1 x2) := by rw [v393_eq]; exact intIn_v186 x0 x1 x2

end Int

end Cert.Spec

end
-- ==== Proof.GatherInst.lean ====
/-
  The column gather, the wrap, the in-range mask and the flattened coordinate at the two programs' own shape
  records and evidence terms: each statement is the general one of LibGather at the printed names.
-/
import proofs.«123153_j77008763617691_1_alg».proof.KernelIdeal
import proofs.«123153_j77008763617691_1_alg».proof.ReferenceIdeal
import proofs.«123153_j77008763617691_1_alg».proof.Proof.LibGather

noncomputable section

namespace Cert.Spec

open Idealize.ShloMosaic Idealize.ShloMosaic.ValueIdx

/-! ## At the kernel's program -/

section Kernel
open Cert.KernelIdeal Cert.KernelIdeal.Facts₀
variable [Cert.KernelIdeal.Facts₀]

/-- The column gather of the `[4, 4096000]` table read at `(ch, n)`: row `ch`, column `idx[n, 0]` read signed and
    clamped into `[0, 4095999]`. -/
theorem k_gather41_apply {α : Type} {w : Nat} (x : S4x4096000.Idx → α) (idx : IVec S4194304x1 w) (ch : Fin 4) (n : Fin 4194304) :
    Host.gather gather_S4x4096000_S4194304x1_S4x4194304_0_1_n_n_1_1_41 x idx (ix2 ch n)
      = x (ix2 ch ⟨min (idx (ix2 n (0 : Fin 1))).toInt.toNat 4095999, by omega⟩) :=
  gather_col_apply (by omega) gather_S4x4096000_S4194304x1_S4x4194304_0_1_n_n_1_1_41 rfl rfl rfl rfl rfl x idx ch n

/-- … and at a column number already in `[0, 4095999]`: row `ch`, column `idx[n, 0]`. -/
theorem k_gather41_apply_of_mem {α : Type} {w : Nat} (x : S4x4096000.Idx → α) (idx : IVec S4194304x1 w) (ch : Fin 4) (n : Fin 4194304)
    (h0 : 0 ≤ (idx (ix2 n (0 : Fin 1))).toInt) (h1 : (idx (ix2 n (0 : Fin 1))).toInt ≤ 4095999) :
    Host.gather gather_S4x4096000_S4194304x1_S4x4194304_0_1_n_n_1_1_41 x idx (ix2 ch n)
      = x (ix2 ch ⟨(idx (ix2 n (0 : Fin 1))).toInt.toNat, by omega⟩) :=
  gather_col_apply_of_mem (by omega) gather_S4x4096000_S4194304x1_S4x4194304_0_1_n_n_1_1_41 rfl rfl rfl rfl rfl x idx ch n h0 (by omega)

/-- … and with the start indices the column of a vector `lin` of column numbers in `[0, 4095999]`: row `ch`, column
    `lin[n]`. -/
theorem k_gather41_bcast_apply {α : Type} (x : S4x4096000.Idx → α) (lin : IVec S4194304 32) (hlin : IntIn 0 4095999 lin)
    (ch : Fin 4) (n : Fin 4194304) :
    Host.gather gather_S4x4096000_S4194304x1_S4x4194304_0_1_n_n_1_1_41 x (broadcastInDim S4194304x1 ![0] bcast_S4194304_S4194304x1_0 lin) (ix2 ch n)
      = x (ix2 ch ⟨(lin (ix1 n)).toInt.toNat, by have := hlin (ix1 n); omega⟩) :=
  gather_col_bcast_apply (by omega) gather_S4x4096000_S4194304x1_S4x4194304_0_1_n_n_1_1_41 rfl rfl rfl rfl rfl _ x lin ch n (hlin (ix1 n)).1
    (by have := (hlin (ix1 n)).2; omega)

/-- The column of start indices read at `(n, 0)` is the vector at `n`. -/
theorem k_bcast_col_apply {α : Type} (v : S4194304.Idx → α) (n : Fin 4194304) :
    broadcastInDim S4194304x1 ![0] bcast_S4194304_S4194304x1_0 v (ix2 n (0 : Fin 1)) = v (ix1 n) :=
  bcast_col_apply _ v n

/-- The wrap of a negative column number is the identity on column numbers in `[0, 4095999]`. -/
theorem k_wrap_id (lin : IVec S4194304 32) (hlin : IntIn 0 4095999 lin) :
    select (cmpi .slt lin (broadcastInDim S4194304 ![] bcast_S_S4194304 (constantI S_ 32 0#32)))
      (addi lin (broadcastInDim S4194304 ![] bcast_S_S4194304 (constantI S_ 32 4096000#32))) lin = lin :=
  wrap_id lin _ _ hlin

/-- The flattened coordinate `(z · 160 + y) · 160 + x` of coordinates in `[0, 159]` lies in `[0, 4095999]`. -/
theorem k_IntIn_lin (z y x : IVec S4194304 32) (hz : IntIn 0 159 z) (hy : IntIn 0 159 y) (hx : IntIn 0 159 x) :
    IntIn 0 4095999
      (addi (muli (addi (muli z (broadcastInDim S4194304 ![] bcast_S_S4194304 (constantI S_ 32 160#32))) y)
        (broadcastInDim S4194304 ![] bcast_S_S4194304 (constantI S_ 32 160#32))) x) :=
  IntIn_lin z y x _ _ hz hy hx

/-- The mask of the kernel's `jnp.take` is all ones on column numbers in `[0, 4095999]`: the select against the fill
    returns the gathered values. -/
theorem k_take_mask_true {β : Type} (lin : IVec S4194304 32) (hlin : IntIn 0 4095999 lin) (g fill : S4x4194304.Idx → β) :
    select (broadcastInDim S4x4194304 ![1] bcast_S4194304_S4x4194304_1
      (Host.reduce IntOp.andi
        (andi (cmpi .sge (broadcastInDim S4194304x1 ![0] bcast_S4194304_S4194304x1_0 lin)
            (broadcastInDim S4194304x1 ![] bcast_S_S4194304x1 (constantI S_ 32 0#32)))
          (cmpi .sle (broadcastInDim S4194304x1 ![0] bcast_S4194304_S4194304x1_0 lin)
            (broadcastInDim S4194304x1 ![0, 1] bcast_S1x1_S4194304x1_0_1
              (broadcastInDim S1x1 ![1] bcast_S1_S1x1_1 (constantI S1 32 4095999#32)))))
        (constantI S_ 1 1#1) reducesTo_S4194304x1_S4194304_d1 h_S_)) g fill = g :=
  take_mask_true _ _ _ _ _ _ _ lin hlin g fill

end Kernel

/-! ## At the reference program -/

section Reference
open Cert.ReferenceIdeal Cert.ReferenceIdeal.Facts₀
variable [Cert.ReferenceIdeal.Facts₀]

/-- The column gather of the `[1, 4096000]` table read at `(ch, n)`: row `ch`, column `idx[n, 0]` read signed and
    clamped into `[0, 4095999]`. -/
theorem r_gather11_apply {α : Type} {w : Nat} (x : S1x4096000.Idx → α) (idx : IVec S4194304x1 w) (ch : Fin 1) (n : Fin 4194304) :
    Host.gather gather_S1x4096000_S4194304x1_S1x4194304_0_1_n_n_1_1_11 x idx (ix2 ch n)
      = x (ix2 ch ⟨min (idx (ix2 n (0 : Fin 1))).toInt.toNat 4095999, by omega⟩) :=
  gather_col_apply (by omega) gather_S1x4096000_S4194304x1_S1x4194304_0_1_n_n_1_1_11 rfl rfl rfl rfl rfl x idx ch n

/-- … and at a column number already in `[0, 4095999]`: row `ch`, column `idx[n, 0]`. -/
theorem r_gather11_apply_of_mem {α : Type} {w : Nat} (x : S1x4096000.Idx → α) (idx : IVec S4194304x1 w) (ch : Fin 1) (n : Fin 4194304)
    (h0 : 0 ≤ (idx (ix2 n (0 : Fin 1))).toInt) (h1 : (idx (ix2 n (0 : Fin 1))).toInt ≤ 4095999) :
    Host.gather gather_S1x4096000_S4194304x1_S1x4194304_0_1_n_n_1_1_11 x idx (ix2 ch n)
      = x (ix2 ch ⟨(idx (ix2 n (0 : Fin 1))).toInt.toNat, by omega⟩) :=
  gather_col_apply_of_mem (by omega) gather_S1x4096000_S4194304x1_S1x4194304_0_1_n_n_1_1_11 rfl rfl rfl rfl rfl x idx ch n h0 (by omega)

/-- … and with the start indices the column of a vector `lin` of column numbers in `[0, 4095999]`: row `ch`, column
    `lin[n]`. -/
theorem r_gather11_bcast_apply {α : Type} (x : S1x4096000.Idx → α) (lin : IVec S4194304 32) (hlin : IntIn 0 4095999 lin)
    (ch : Fin 1) (n : Fin 4194304) :
    Host.gather gather_S1x4096000_S4194304x1_S1x4194304_0_1_n_n_1_1_11 x (broadcastInDim S4194304x1 ![0] bcast_S4194304_S4194304x1_0 lin) (ix2 ch n)
      = x (ix2 ch ⟨(lin (ix1 n)).toInt.toNat, by have := hlin (ix1 n); omega⟩) :=
  gather_col_bcast_apply (by omega) gather_S1x4096000_S4194304x1_S1x4194304_0_1_n_n_1_1_11 rfl rfl rfl rfl rfl _ x lin ch n (hlin (ix1 n)).1
    (by have := (hlin (ix1 n)).2; omega)

/-- The column gather of the `[3, 4096000]` table read at `(ch, n)`: row `ch`, column `idx[n, 0]` read signed and
    clamped into `[0, 4095999]`. -/
theorem r_gather31_apply {α : Type} {w : Nat} (x : S3x4096000.Idx → α) (idx : IVec S4194304x1 w) (ch : Fin 3) (n : Fin 4194304) :
    Host.gather gather_S3x4096000_S4194304x1_S3x4194304_0_1_n_n_1_1_31 x idx (ix2 ch n)
      = x (ix2 ch ⟨min (idx (ix2 n (0 : Fin 1))).toInt.toNat 4095999, by omega⟩) :=
  gather_col_apply (by omega) gather_S3x4096000_S4194304x1_S3x4194304_0_1_n_n_1_1_31 rfl rfl rfl rfl rfl x idx ch n

/-- … and at a column number already in `[0, 4095999]`: row `ch`, column `idx[n, 0]`. -/
theorem r_gather31_apply_of_mem {α : Type} {w : Nat} (x : S3x4096000.Idx → α) (idx : IVec S4194304x1 w) (ch : Fin 3) (n : Fin 4194304)
    (h0 : 0 ≤ (idx (ix2 n (0 : Fin 1))).toInt) (h1 : (idx (ix2 n (0 : Fin 1))).toInt ≤ 4095999) :
    Host.gather gather_S3x4096000_S4194304x1_S3x4194304_0_1_n_n_1_1_31 x idx (ix2 ch n)
      = x (ix2 ch ⟨(idx (ix2 n (0 : Fin 1))).toInt.toNat, by omega⟩) :=
  gather_col_apply_of_mem (by omega) gather_S3x4096000_S4194304x1_S3x4194304_0_1_n_n_1_1_31 rfl rfl rfl rfl rfl x idx ch n h0 (by omega)

/-- … and with the start indices the column of a vector `lin` of column numbers in `[0, 4095999]`: row `ch`, column
    `lin[n]`. -/
theorem r_gather31_bcast_apply {α : Type} (x : S3x4096000.Idx → α) (lin : IVec S4194304 32) (hlin : IntIn 0 4095999 lin)
    (ch : Fin 3) (n : Fin 4194304) :
    Host.gather gather_S3x4096000_S4194304x1_S3x4194304_0_1_n_n_1_1_31 x (broadcastInDim S4194304x1 ![0] bcast_S4194304_S4194304x1_0 lin) (ix2 ch n)
      = x (ix2 ch ⟨(lin (ix1 n)).toInt.toNat, by have := hlin (ix1 n); omega⟩) :=
  gather_col_bcast_apply (by omega) gather_S3x4096000_S4194304x1_S3x4194304_0_1_n_n_1_1_31 rfl rfl rfl rfl rfl _ x lin ch n (hlin (ix1 n)).1
    (by have := (hlin (ix1 n)).2; omega)

/-- The column of start indices read at `(n, 0)` is the vector at `n`. -/
theorem r_bcast_col_apply {α : Type} (v : S4194304.Idx → α) (n : Fin 4194304) :
    broadcastInDim S4194304x1 ![0] bcast_S4194304_S4194304x1_0 v (ix2 n (0 : Fin 1)) = v (ix1 n) :=
  bcast_col_apply _ v n

/-- The wrap of a negative column number is the identity on column numbers in `[0, 4095999]`. -/
theorem r_wrap_id (lin : IVec S4194304 32) (hlin : IntIn 0 4095999 lin) :
    select (cmpi .slt lin (broadcastInDim S4194304 ![] bcast_S_S4194304 (constantI S_ 32 0#32)))
      (addi lin (broadcastInDim S4194304 ![] bcast_S_S4194304 (constantI S_ 32 4096000#32))) lin = lin :=
  wrap_id lin _ _ hlin

/-- The flattened coordinate `(z · 160 + y) · 160 + x` of coordinates in `[0, 159]` lies in `[0, 4095999]`. -/
theorem r_IntIn_lin (z y x : IVec S4194304 32) (hz : IntIn 0 159 z) (hy : IntIn 0 159 y) (hx : IntIn 0 159 x) :
    IntIn 0 4095999
      (addi (muli (addi (muli z (broadcastInDim S4194304 ![] bcast_S_S4194304 (constantI S_ 32 160#32))) y)
        (broadcastInDim S4194304 ![] bcast_S_S4194304 (constantI S_ 32 160#32))) x) :=
  IntIn_lin z y x _ _ hz hy hx

end Reference

end Cert.Spec

end
-- ==== Proof.WrapRef.lean ====
/-
  On the reference's side a corner's linear voxel index is wrapped (a negative value has the voxel count
  160³ added) before the gather reads it. For an index already in [0, 160³ − 1] the wrap does nothing:
  stated here for each of the eight corners, in the density half and in the color half.
-/
import proofs.«123153_j77008763617691_1_alg».proof.Proof.Stages
import proofs.«123153_j77008763617691_1_alg».proof.Proof.GatherInst

noncomputable section

namespace Cert.Spec

open Idealize.ShloMosaic Cert.ReferenceIdeal Cert.ReferenceIdeal.ReadP

variable {F : FTy → Type} [FloatOps F]

theorem IDXst_0 (x0 x1 : (⟨S16384x3, .f32⟩ : BufTy).Contents (Elt F)) (x2 : (⟨S16384x256, .f32⟩ : BufTy).Contents (Elt F))
    (h : IntIn 0 4095999 (val_main_v61 (F := F) x0 x1 x2)) : val_main_v66 (F := F) x0 x1 x2 = val_main_v61 (F := F) x0 x1 x2 := by
  unfold val_main_v66 val_main_v63 val_main_v65 val_main_v62 val_main_v64 val_main_c_10 val_main_c_11
  exact r_wrap_id _ h

theorem IDXst_1 (x0 x1 : (⟨S16384x3, .f32⟩ : BufTy).Contents (Elt F)) (x2 : (⟨S16384x256, .f32⟩ : BufTy).Contents (Elt F))
    (h : IntIn 0 4095999 (val_main_v78 (F := F) x0 x1 x2)) : val_main_v83 (F := F) x0 x1 x2 = val_main_v78 (F := F) x0 x1 x2 := by
  unfold val_main_v83 val_main_v80 val_main_v82 val_main_v79 val_main_v81 val_main_c_14 val_main_c_15
  exact r_wrap_id _ h

theorem IDXst_2 (x0 x1 : (⟨S16384x3, .f32⟩ : BufTy).Contents (Elt F)) (x2 : (⟨S16384x256, .f32⟩ : BufTy).Contents (Elt F))
    (h : IntIn 0 4095999 (val_main_v96 (F := F) x0 x1 x2)) : val_main_v101 (F := F) x0 x1 x2 = val_main_v96 (F := F) x0 x1 x2 := by
  unfold val_main_v101 val_main_v98 val_main_v100 val_main_v97 val_main_v99 val_main_c_18 val_main_c_19
  exact r_wrap_id _ h

theorem IDXst_3 (x0 x1 : (⟨S16384x3, .f32⟩ : BufTy).Contents (Elt F)) (x2 : (⟨S16384x256, .f32⟩ : BufTy).Contents (Elt F))
    (h : IntIn 0 4095999 (val_main_v114 (F := F) x0 x1 x2)) : val_main_v119 (F := F) x0 x1 x2 = val_main_v114 (F := F) x0 x1 x2 := by
  unfold val_main_v119 val_main_v116 val_main_v118 val_main_v115 val_main_v117 val_main_c_22 val_main_c_23
  exact r_wrap_id _ h

theorem IDXst_4 (x0 x1 : (⟨S16384x3, .f32⟩ : BufTy).Contents (Elt F)) (x2 : (⟨S16384x256, .f32⟩ : BufTy).Contents (Elt F))
    (h : IntIn 0 4095999 (val_main_v132 (F := F) x0 x1 x2)) : val_main_v137 (F := F) x0 x1 x2 = val_main_v132 (F := F) x0 x1 x2 := by
  unfold val_main_v137 val_main_v134 val_main_v136 val_main_v133 val_main_v135 val_main_c_26 val_main_c_27
  exact r_wrap_id _ h

theorem IDXst_5 (x0 x1 : (⟨S16384x3, .f32⟩ : BufTy).Contents (Elt F)) (x2 : (⟨S16384x256, .f32⟩ : BufTy).Contents (Elt F))
    (h : IntIn 0 4095999 (val_main_v150 (F := F) x0 x1 x2)) : val_main_v155 (F := F) x0 x1 x2 = val_main_v150 (F := F) x0 x1 x2 := by
  unfold val_main_v155 val_main_v152 val_main_v154 val_main_v151 val_main_v153 val_main_c_30 val_main_c_31
  exact r_wrap_id _ h

theorem IDXst_6 (x0 x1 : (⟨S16384x3, .f32⟩ : BufTy).Contents (Elt F)) (x2 : (⟨S16384x256, .f32⟩ : BufTy).Contents (Elt F))
    (h : IntIn 0 4095999 (val_main_v168 (F := F) x0 x1 x2)) : val_main_v173 (F := F) x0 x1 x2 = val_main_v168 (F := F) x0 x1 x2 := by
  unfold val_main_v173 val_main_v170 val_main_v172 val_main_v169 val_main_v171 val_main_c_34 val_main_c_35
  exact r_wrap_id _ h

theorem IDXst_7 (x0 x1 : (⟨S16384x3, .f32⟩ : BufTy).Contents (Elt F)) (x2 : (⟨S16384x256, .f32⟩ : BufTy).Contents (Elt F))
    (h : IntIn 0 4095999 (val_main_v186 (F := F) x0 x1 x2)) : val_main_v191 (F := F) x0 x1 x2 = val_main_v186 (F := F) x0 x1 x2 := by
  unfold val_main_v191 val_main_v188 val_main_v190 val_main_v187 val_main_v189 val_main_c_38 val_main_c_39
  exact r_wrap_id _ h

theorem IDXc_0 (x0 x1 : (⟨S16384x3, .f32⟩ : BufTy).Contents (Elt F)) (x2 : (⟨S16384x256, .f32⟩ : BufTy).Contents (Elt F))
    (h : IntIn 0 4095999 (val_main_v261 (F := F) x0 x1 x2)) : val_main_v266 (F := F) x0 x1 x2 = val_main_v261 (F := F) x0 x1 x2 := by
  unfold val_main_v266 val_main_v263 val_main_v265 val_main_v262 val_main_v264 val_main_c_51 val_main_c_52
  exact r_wrap_id _ h

theorem IDXc_1 (x0 x1 : (⟨S16384x3, .f32⟩ : BufTy).Contents (Elt F)) (x2 : (⟨S16384x256, .f32⟩ : BufTy).Contents (Elt F))
    (h : IntIn 0 4095999 (val_main_v279 (F := F) x0 x1 x2)) : val_main_v284 (F := F) x0 x1 x2 = val_main_v279 (F := F) x0 x1 x2 := by
  unfold val_main_v284 val_main_v281 val_main_v283 val_main_v280 val_main_v282 val_main_c_55 val_main_c_56
  exact r_wrap_id _ h

theorem IDXc_2 (x0 x1 : (⟨S16384x3, .f32⟩ : BufTy).Contents (Elt F)) (x2 : (⟨S16384x256, .f32⟩ : BufTy).Contents (Elt F))
    (h : IntIn 0 4095999 (val_main_v298 (F := F) x0 x1 x2)) : val_main_v303 (F := F) x0 x1 x2 = val_main_v298 (F := F) x0 x1 x2 := by
  unfold val_main_v303 val_main_v300 val_main_v302 val_main_v299 val_main_v301 val_main_c_59 val_main_c_60
  exact r_wrap_id _ h

theorem IDXc_3 (x0 x1 : (⟨S16384x3, .f32⟩ : BufTy).Contents (Elt F)) (x2 : (⟨S16384x256, .f32⟩ : BufTy).Contents (Elt F))
    (h : IntIn 0 4095999 (val_main_v317 (F := F) x0 x1 x2)) : val_main_v322 (F := F) x0 x1 x2 = val_main_v317 (F := F) x0 x1 x2 := by
  unfold val_main_v322 val_main_v319 val_main_v321 val_main_v318 val_main_v320 val_main_c_63 val_main_c_64
  exact r_wrap_id _ h

theorem IDXc_4 (x0 x1 : (⟨S16384x3, .f32⟩ : BufTy).Contents (Elt F)) (x2 : (⟨S16384x256, .f32⟩ : BufTy).Contents (Elt F))
    (h : IntIn 0 4095999 (val_main_v336 (F := F) x0 x1 x2)) : val_main_v341 (F := F) x0 x1 x2 = val_main_v336 (F := F) x0 x1 x2 := by
  unfold val_main_v341 val_main_v338 val_main_v340 val_main_v337 val_main_v339 val_main_c_67 val_main_c_68
  exact r_wrap_id _ h

theorem IDXc_5 (x0 x1 : (⟨S16384x3, .f32⟩ : BufTy).Contents (Elt F)) (x2 : (⟨S16384x256, .f32⟩ : BufTy).Contents (Elt F))
    (h : IntIn 0 4095999 (val_main_v355 (F := F) x0 x1 x2)) : val_main_v360 (F := F) x0 x1 x2 = val_main_v355 (F := F) x0 x1 x2 := by
  unfold val_main_v360 val_main_v357 val_main_v359 val_main_v356 val_main_v358 val_main_c_71 val_main_c_72
  exact r_wrap_id _ h

theorem IDXc_6 (x0 x1 : (⟨S16384x3, .f32⟩ : BufTy).Contents (Elt F)) (x2 : (⟨S16384x256, .f32⟩ : BufTy).Contents (Elt F))
    (h : IntIn 0 4095999 (val_main_v374 (F := F) x0 x1 x2)) : val_main_v379 (F := F) x0 x1 x2 = val_main_v374 (F := F) x0 x1 x2 := by
  unfold val_main_v379 val_main_v376 val_main_v378 val_main_v375 val_main_v377 val_main_c_75 val_main_c_76
  exact r_wrap_id _ h

theorem IDXc_7 (x0 x1 : (⟨S16384x3, .f32⟩ : BufTy).Contents (Elt F)) (x2 : (⟨S16384x256, .f32⟩ : BufTy).Contents (Elt F))
    (h : IntIn 0 4095999 (val_main_v393 (F := F) x0 x1 x2)) : val_main_v398 (F := F) x0 x1 x2 = val_main_v393 (F := F) x0 x1 x2 := by
  unfold val_main_v398 val_main_v395 val_main_v397 val_main_v394 val_main_v396 val_main_c_79 val_main_c_80
  exact r_wrap_id _ h

/-- Corner `k`'s wrapped index is the index itself when that lies in `[0, 160³ − 1]` (density half). -/
theorem IDXst_eq (k : Fin 8) (x0 x1 : (⟨S16384x3, .f32⟩ : BufTy).Contents (Elt F)) (x2 : (⟨S16384x256, .f32⟩ : BufTy).Contents (Elt F)) :
    IntIn 0 4095999 (LINst (F := F) k x0 x1 x2) → IDXst (F := F) k x0 x1 x2 = LINst (F := F) k x0 x1 x2 :=
  match k with
  | ⟨0, _⟩ => IDXst_0 x0 x1 x2
  | ⟨1, _⟩ => IDXst_1 x0 x1 x2
  | ⟨2, _⟩ => IDXst_2 x0 x1 x2
  | ⟨3, _⟩ => IDXst_3 x0 x1 x2
  | ⟨4, _⟩ => IDXst_4 x0 x1 x2
  | ⟨5, _⟩ => IDXst_5 x0 x1 x2
  | ⟨6, _⟩ => IDXst_6 x0 x1 x2
  | ⟨7, _⟩ => IDXst_7 x0 x1 x2
  | ⟨_ + 8, hk⟩ => absurd hk (Nat.not_lt.2 (Nat.le_add_left _ _))

/-- Corner `k`'s wrapped index is the index itself when that lies in `[0, 160³ − 1]` (color half). -/
theorem IDXc_eq (k : Fin 8) (x0 x1 : (⟨S16384x3, .f32⟩ : BufTy).Contents (Elt F)) (x2 : (⟨S16384x256, .f32⟩ : BufTy).Contents (Elt F)) :
    IntIn 0 4095999 (LINc (F := F) k x0 x1 x2) → IDXc (F := F) k x0 x1 x2 = LINc (F := F) k x0 x1 x2 :=
  match k with
  | ⟨0, _⟩ => IDXc_0 x0 x1 x2
  | ⟨1, _⟩ => IDXc_1 x0 x1 x2
  | ⟨2, _⟩ => IDXc_2 x0 x1 x2
  | ⟨3, _⟩ => IDXc_3 x0 x1 x2
  | ⟨4, _⟩ => IDXc_4 x0 x1 x2
  | ⟨5, _⟩ => IDXc_5 x0 x1 x2
  | ⟨6, _⟩ => IDXc_6 x0 x1 x2
  | ⟨7, _⟩ => IDXc_7 x0 x1 x2
  | ⟨_ + 8, hk⟩ => absurd hk (Nat.not_lt.2 (Nat.le_add_left _ _))

end Cert.Spec

end
-- ==== Proof.FamFacts.lean ====
/-
  The facts about the eight corners' weights and linear indices, as statements over the corner's number:
  each linear index lies in [0, 160³ − 1] (so the wrap before the gather does nothing), each weight is an
  array of reals when the three point inputs are, and the color half's copies are the density half's arrays.
-/
import proofs.«123153_j77008763617691_1_alg».proof.Proof.Stages
import proofs.«123153_j77008763617691_1_alg».proof.Proof.ClosureRef
import proofs.«123153_j77008763617691_1_alg».proof.Proof.WrapRef

noncomputable section

namespace Cert.Spec

open Idealize.ShloMosaic Cert.ReferenceIdeal Cert.ReferenceIdeal.ReadP

section
variable {F : FTy → Type} [FloatOps F]

/-- Corner k's linear index lies in [0, 160³ − 1]. -/
theorem intIn_LINst (k : Fin 8) (x0 x1 : (⟨S16384x3, .f32⟩ : BufTy).Contents (Elt F)) (x2 : (⟨S16384x256, .f32⟩ : BufTy).Contents (Elt F)) :
    IntIn 0 4095999 (LINst (F := F) k x0 x1 x2) :=
  match k with
  | ⟨0, _⟩ => intIn_v61 x0 x1 x2
  | ⟨1, _⟩ => intIn_v78 x0 x1 x2
  | ⟨2, _⟩ => intIn_v96 x0 x1 x2
  | ⟨3, _⟩ => intIn_v114 x0 x1 x2
  | ⟨4, _⟩ => intIn_v132 x0 x1 x2
  | ⟨5, _⟩ => intIn_v150 x0 x1 x2
  | ⟨6, _⟩ => intIn_v168 x0 x1 x2
  | ⟨7, _⟩ => intIn_v186 x0 x1 x2
  | ⟨_ + 8, hk⟩ => absurd hk (Nat.not_lt.2 (Nat.le_add_left _ _))

/-- The color half's linear index of corner k is the density half's. -/
theorem LINc_eq (k : Fin 8) (x0 x1 : (⟨S16384x3, .f32⟩ : BufTy).Contents (Elt F)) (x2 : (⟨S16384x256, .f32⟩ : BufTy).Contents (Elt F)) :
    LINc (F := F) k x0 x1 x2 = LINst (F := F) k x0 x1 x2 :=
  match k with
  | ⟨0, _⟩ => v261_eq x0 x1 x2
  | ⟨1, _⟩ => v279_eq x0 x1 x2
  | ⟨2, _⟩ => v298_eq x0 x1 x2
  | ⟨3, _⟩ => v317_eq x0 x1 x2
  | ⟨4, _⟩ => v336_eq x0 x1 x2
  | ⟨5, _⟩ => v355_eq x0 x1 x2
  | ⟨6, _⟩ => v374_eq x0 x1 x2
  | ⟨7, _⟩ => v393_eq x0 x1 x2
  | ⟨_ + 8, hk⟩ => absurd hk (Nat.not_lt.2 (Nat.le_add_left _ _))

/-- The color half's weight of corner k is the density half's. -/
theorem Wc_eq (k : Fin 8) (x0 x1 : (⟨S16384x3, .f32⟩ : BufTy).Contents (Elt F)) (x2 : (⟨S16384x256, .f32⟩ : BufTy).Contents (Elt F)) :
    Wc (F := F) k x0 x1 x2 = Wst (F := F) k x0 x1 x2 :=
  match k with
  | ⟨0, _⟩ => v270_eq x0 x1 x2
  | ⟨1, _⟩ => v288_eq x0 x1 x2
  | ⟨2, _⟩ => v307_eq x0 x1 x2
  | ⟨3, _⟩ => v326_eq x0 x1 x2
  | ⟨4, _⟩ => v345_eq x0 x1 x2
  | ⟨5, _⟩ => v364_eq x0 x1 x2
  | ⟨6, _⟩ => v383_eq x0 x1 x2
  | ⟨7, _⟩ => v402_eq x0 x1 x2
  | ⟨_ + 8, hk⟩ => absurd hk (Nat.not_lt.2 (Nat.le_add_left _ _))

/-- The wrap does nothing to corner k's index (density half). -/
theorem IDXst_LIN (k : Fin 8) (x0 x1 : (⟨S16384x3, .f32⟩ : BufTy).Contents (Elt F)) (x2 : (⟨S16384x256, .f32⟩ : BufTy).Contents (Elt F)) : IDXst (F := F) k x0 x1 x2 = LINst (F := F) k x0 x1 x2 :=
  IDXst_eq k x0 x1 x2 (intIn_LINst k x0 x1 x2)

/-- The wrapped index of the color half is the density half's plain index. -/
theorem IDXc_LIN (k : Fin 8) (x0 x1 : (⟨S16384x3, .f32⟩ : BufTy).Contents (Elt F)) (x2 : (⟨S16384x256, .f32⟩ : BufTy).Contents (Elt F)) : IDXc (F := F) k x0 x1 x2 = LINst (F := F) k x0 x1 x2 :=
  (IDXc_eq k x0 x1 x2 (by rw [LINc_eq]; exact intIn_LINst k x0 x1 x2)).trans (LINc_eq k x0 x1 x2)

end

/-- Corner k's weight is an array of reals when the origins, directions and lengths are. -/
theorem real_Wst (k : Fin 8) {x0 x1 : (⟨S16384x3, .f32⟩ : BufTy).Contents (Elt Ideal)} {x2 : (⟨S16384x256, .f32⟩ : BufTy).Contents (Elt Ideal)} (h0 : AllReal x0) (h1 : AllReal x1) (h2 : AllReal x2) :
    AllReal (Wst (F := Ideal) k x0 x1 x2) :=
  match k with
  | ⟨0, _⟩ => real_v70 h0 h1 h2
  | ⟨1, _⟩ => real_v87 h0 h1 h2
  | ⟨2, _⟩ => real_v105 h0 h1 h2
  | ⟨3, _⟩ => real_v123 h0 h1 h2
  | ⟨4, _⟩ => real_v141 h0 h1 h2
  | ⟨5, _⟩ => real_v159 h0 h1 h2
  | ⟨6, _⟩ => real_v177 h0 h1 h2
  | ⟨7, _⟩ => real_v195 h0 h1 h2
  | ⟨_ + 8, hk⟩ => absurd hk (Nat.not_lt.2 (Nat.le_add_left _ _))

end Cert.Spec

end
-- ==== Proof.BridgeK.lean ====
/-
  The kernel program's output array, entry by entry, in the reference's terms. Sample point n = r·256 + p of
  ray r lies in block n / 32768 of the pipeline; there the kernel's body forms, for each channel, the sum over
  the eight corners of (table entry at the corner's voxel) × (corner's weight) and applies the density
  activation (channel 0, with the ray's interval) or the sigmoid (channels 1 … 3). The table entries, weights
  and interval are what the host code left in the three arrays the pipeline reads: the corner's voxel of the
  stacked grids (the bounds mask of the lookup is all ones because every linear index lies in [0, 160³ − 1]),
  the reference's own weight stage, the ray's norm. With finite inputs all of these are real numbers, which is
  what the one law joining the two density formulas needs.
-/
import proofs.«123153_j77008763617691_1_alg».proof.Proof.KValue
import proofs.«123153_j77008763617691_1_alg».proof.Proof.KOut
import proofs.«123153_j77008763617691_1_alg».proof.Proof.KPay
import proofs.«123153_j77008763617691_1_alg».proof.Proof.KIdxRef
import proofs.«123153_j77008763617691_1_alg».proof.Proof.FamFacts

set_option maxRecDepth 16384

noncomputable section

namespace Cert.Bridge

open Idealize.ShloMosaic Idealize.ShloMosaic.TcCoe Idealize.ShloMosaic.ValueIdx Idealize.SL.Sem
open Cert.Spec
open Cert.KernelIdeal Cert.KernelIdeal.Gen Cert.KernelIdeal.Fr Cert.KernelIdeal.KVal Cert.KernelIdeal.Pay

/-- A family of eight read at `k` through the eight-entry vector notation. -/
theorem vec8_fam {α : Type} (f : Fin 8 → α) (k : Fin 8) : (![f 0, f 1, f 2, f 3, f 4, f 5, f 6, f 7] k) = f k := by
  match k with
  | ⟨0, _⟩ => rfl | ⟨1, _⟩ => rfl | ⟨2, _⟩ => rfl | ⟨3, _⟩ => rfl
  | ⟨4, _⟩ => rfl | ⟨5, _⟩ => rfl | ⟨6, _⟩ => rfl | ⟨7, _⟩ => rfl
  | ⟨_ + 8, h⟩ => exact absurd h (Nat.not_lt.2 (Nat.le_add_left _ _))

variable (m : (ℓ : Loc nD τ sig) → Buf (Elt Ideal) ℓ) (c : Dev nD)

/-- The five argument arrays of core `c`. -/
abbrev a0 : FVec Ideal S16384x3 .f32 := m ((c : Thread nD τ).loc main_arg0)
abbrev a1 : FVec Ideal S16384x3 .f32 := m ((c : Thread nD τ).loc main_arg1)
abbrev a2 : FVec Ideal S16384x256 .f32 := m ((c : Thread nD τ).loc main_arg2)
abbrev a3 : FVec Ideal S1x160x160x160 .f32 := m ((c : Thread nD τ).loc main_arg3)
abbrev a4 : FVec Ideal S3x160x160x160 .f32 := m ((c : Thread nD τ).loc main_arg4)

/-- What the host code leaves in the three arrays the pipeline reads: the ray norms repeated over the samples; the
    eight weights stacked; the eight corner lookups stacked. -/
structure HostFacts : Prop where
  hI : V m c main_v12 = shapeCast _ (broadcastInDim S16384x256 ![0, 1] bcast_S16384x1_S16384x256_0_1
        (broadcastInDim S16384x1 ![0] bcast_S16384_S16384x1_0 (Cert.ReferenceIdeal.ReadP.val_main_v8 (F := Ideal) (a1 m c))))
        shapeCasts_S16384x256_S1x4194304
  hW : V m c main_v148 = concatenate S8x4194304 0
        [⟨S1x4194304, broadcastInDim S1x4194304 ![1] bcast_S4194304_S1x4194304_1 (Wst (F := Ideal) 0 (a0 m c) (a1 m c) (a2 m c))⟩,
         ⟨S1x4194304, broadcastInDim S1x4194304 ![1] bcast_S4194304_S1x4194304_1 (Wst (F := Ideal) 1 (a0 m c) (a1 m c) (a2 m c))⟩,
         ⟨S1x4194304, broadcastInDim S1x4194304 ![1] bcast_S4194304_S1x4194304_1 (Wst (F := Ideal) 2 (a0 m c) (a1 m c) (a2 m c))⟩,
         ⟨S1x4194304, broadcastInDim S1x4194304 ![1] bcast_S4194304_S1x4194304_1 (Wst (F := Ideal) 3 (a0 m c) (a1 m c) (a2 m c))⟩,
         ⟨S1x4194304, broadcastInDim S1x4194304 ![1] bcast_S4194304_S1x4194304_1 (Wst (F := Ideal) 4 (a0 m c) (a1 m c) (a2 m c))⟩,
         ⟨S1x4194304, broadcastInDim S1x4194304 ![1] bcast_S4194304_S1x4194304_1 (Wst (F := Ideal) 5 (a0 m c) (a1 m c) (a2 m c))⟩,
         ⟨S1x4194304, broadcastInDim S1x4194304 ![1] bcast_S4194304_S1x4194304_1 (Wst (F := Ideal) 6 (a0 m c) (a1 m c) (a2 m c))⟩,
         ⟨S1x4194304, broadcastInDim S1x4194304 ![1] bcast_S4194304_S1x4194304_1 (Wst (F := Ideal) 7 (a0 m c) (a1 m c) (a2 m c))⟩]
        concatenates_S1x4194304_S1x4194304_S1x4194304_S1x4194304_S1x4194304_S1x4194304_S1x4194304_S1x4194304_S8x4194304_d0
  hC : V m c main_v139 = concatenate S8x4x4194304 0
        [⟨S1x4x4194304, broadcastInDim S1x4x4194304 ![1, 2] bcast_S4x4194304_S1x4x4194304_1_2 (TAKE (F := Ideal) (GF4 (a3 m c) (a4 m c)) (LINst (F := Ideal) 0 (a0 m c) (a1 m c) (a2 m c)))⟩,
         ⟨S1x4x4194304, broadcastInDim S1x4x4194304 ![1, 2] bcast_S4x4194304_S1x4x4194304_1_2 (TAKE (F := Ideal) (GF4 (a3 m c) (a4 m c)) (LINst (F := Ideal) 1 (a0 m c) (a1 m c) (a2 m c)))⟩,
         ⟨S1x4x4194304, broadcastInDim S1x4x4194304 ![1, 2] bcast_S4x4194304_S1x4x4194304_1_2 (TAKE (F := Ideal) (GF4 (a3 m c) (a4 m c)) (LINst (F := Ideal) 2 (a0 m c) (a1 m c) (a2 m c)))⟩,
         ⟨S1x4x4194304, broadcastInDim S1x4x4194304 ![1, 2] bcast_S4x4194304_S1x4x4194304_1_2 (TAKE (F := Ideal) (GF4 (a3 m c) (a4 m c)) (LINst (F := Ideal) 3 (a0 m c) (a1 m c) (a2 m c)))⟩,
         ⟨S1x4x4194304, broadcastInDim S1x4x4194304 ![1, 2] bcast_S4x4194304_S1x4x4194304_1_2 (TAKE (F := Ideal) (GF4 (a3 m c) (a4 m c)) (LINst (F := Ideal) 4 (a0 m c) (a1 m c) (a2 m c)))⟩,
         ⟨S1x4x4194304, broadcastInDim S1x4x4194304 ![1, 2] bcast_S4x4194304_S1x4x4194304_1_2 (TAKE (F := Ideal) (GF4 (a3 m c) (a4 m c)) (LINst (F := Ideal) 5 (a0 m c) (a1 m c) (a2 m c)))⟩,
         ⟨S1x4x4194304, broadcastInDim S1x4x4194304 ![1, 2] bcast_S4x4194304_S1x4x4194304_1_2 (TAKE (F := Ideal) (GF4 (a3 m c) (a4 m c)) (LINst (F := Ideal) 6 (a0 m c) (a1 m c) (a2 m c)))⟩,
         ⟨S1x4x4194304, broadcastInDim S1x4x4194304 ![1, 2] bcast_S4x4194304_S1x4x4194304_1_2 (TAKE (F := Ideal) (GF4 (a3 m c) (a4 m c)) (LINst (F := Ideal) 7 (a0 m c) (a1 m c) (a2 m c)))⟩]
        concatenates_S1x4x4194304_S1x4x4194304_S1x4x4194304_S1x4x4194304_S1x4x4194304_S1x4x4194304_S1x4x4194304_S1x4x4194304_S8x4x4194304_d0

variable {m c}

/-- The voxel corner `k` of sample `n` reads: its linear index as a column number of the table. -/
abbrev vox (m : (ℓ : Loc nD τ sig) → Buf (Elt Ideal) ℓ) (c : Dev nD) (k : Fin 8) (n : Fin 4194304) : Fin 4096000 :=
  ⟨(LINst (F := Ideal) k (a0 m c) (a1 m c) (a2 m c) (ix1 n)).toInt.toNat, by
    have := intIn_LINst (F := Ideal) k (a0 m c) (a1 m c) (a2 m c) (ix1 n); omega⟩

/-! ## The three arrays, entry by entry -/

theorem wts_at (H : HostFacts m c) (k : Fin 8) (n : Fin 4194304) :
    V m c main_v148 (ix2 k n) = Wst (F := Ideal) k (a0 m c) (a1 m c) (a2 m c) (ix1 n) := by
  rw [H.hW, weights_read]
  exact congrFun (vec8_fam (fun k => Wst (F := Ideal) k (a0 m c) (a1 m c) (a2 m c)) k) (ix1 n)

theorem int_at (H : HostFacts m c) (r : Fin 16384) (p : Fin 256) :
    V m c main_v12 (ix2 (0 : Fin 1) (col r p)) = Cert.ReferenceIdeal.ReadP.val_main_v8 (F := Ideal) (a1 m c) (ix1 r) := by
  rw [H.hI]
  exact interval_read _ r p

theorem cor_at (H : HostFacts m c) (k : Fin 8) (ch : Fin 4) (n : Fin 4194304) :
    V m c main_v139 (ix3 k ch n) = GF4 (F := Ideal) (a3 m c) (a4 m c) (ix2 ch (vox m c k n)) := by
  rw [H.hC, corners_read]
  refine (congrFun (vec8_fam (fun k => TAKE (F := Ideal) (GF4 (a3 m c) (a4 m c)) (LINst (F := Ideal) k (a0 m c) (a1 m c) (a2 m c))) k) (ix2 ch n)).trans ?_
  exact TAKE_apply _ _ (intIn_LINst (F := Ideal) k (a0 m c) (a1 m c) (a2 m c)) ch n

/-! ## The output array, in the reference's terms -/

/-- Column `q` is column `q % 32768` of block `q / 32768`. -/
theorem gcol_split (q : Fin 4194304) : gcol (blkOf q) (inBlk q) = q :=
  Fin.ext (by show q.val / 32768 * 32768 + q.val % 32768 = q.val; omega)

theorem B0_at (k : Fin 8) (ch : Fin 4) (q : Fin 4194304) :
    B0 m c (blkOf q) (ix3 k ch (inBlk q)) = V m c main_v139 (ix3 k ch q) := by
  show V m c main_v139 (ix3 k ch (gcol (blkOf q) (inBlk q))) = _
  rw [gcol_split]

theorem B1_at (k : Fin 8) (q : Fin 4194304) : B1 m c (blkOf q) (ix2 k (inBlk q)) = V m c main_v148 (ix2 k q) := by
  show V m c main_v148 (ix2 k (gcol (blkOf q) (inBlk q))) = _
  rw [gcol_split]

theorem B2_at (q : Fin 4194304) : B2 m c (blkOf q) (ix2 (0 : Fin 1) (inBlk q)) = V m c main_v12 (ix2 (0 : Fin 1) q) := by
  show V m c main_v12 (ix2 (0 : Fin 1) (gcol (blkOf q) (inBlk q))) = _
  rw [gcol_split]

/-- THE COLOR ROWS of the output array at sample (r, p), channel `cc`. -/
theorem out_col (H : HostFacts m c) (r : Fin 16384) (p : Fin 256) (cc : Fin 3) :
    OUT m c (ix2 (⟨cc.val + 1, Nat.succ_lt_succ cc.isLt⟩ : Fin 4) (col r p))
      = REFSIG (nest8 fun k => Cert.ReferenceIdeal.ReadP.val_main_v243 (F := Ideal) (a4 m c) (ix2 cc (vox m c k (col r p)))
            * Wst (F := Ideal) k (a0 m c) (a1 m c) (a2 m c) (ix1 (col r p))) := by
  rw [OUT_apply, outBlock_col, pay3_apply]
  refine congrArg REFSIG (congrArg nest8 (funext fun k => ?_))
  rw [B0_at, B1_at, cor_at H, wts_at H, GF4_col_ref]

/-! ## With finite inputs the three arrays hold real numbers -/

section Real
variable (h0 : AllReal (a0 m c)) (h1 : AllReal (a1 m c)) (h2 : AllReal (a2 m c)) (h3 : AllReal (a3 m c)) (h4 : AllReal (a4 m c))
include h0 h1 h2 h3 h4

theorem real_table : AllReal (GF4 (F := Ideal) (a3 m c) (a4 m c)) := by
  unfold GF4
  exact AllReal_shapeCast _ (AllReal_concatenate2 _ _ h3 h4)

theorem real_int (H : HostFacts m c) : ∀ i, ∃ r : ℝ, A2 m c i = (r : EReal) := by
  show AllReal (S := S1x4194304) (V m c main_v12)
  rw [H.hI]
  exact AllReal_shapeCast _ (AllReal_broadcastInDim _ _ (AllReal_broadcastInDim _ _ (real_v8 h1)))

theorem real_wts (H : HostFacts m c) : ∀ i, ∃ r : ℝ, A1 m c i = (r : EReal) := by
  intro i
  obtain ⟨k, n, rfl⟩ : ∃ (k : Fin 8) (n : Fin 4194304), i = ix2 k n := ⟨i 0, i 1, eq_ix2 i⟩
  show ∃ r : ℝ, V m c main_v148 (ix2 k n) = (r : EReal)
  rw [wts_at H]
  exact real_Wst k h0 h1 h2 _

theorem real_cor (H : HostFacts m c) : ∀ i, ∃ r : ℝ, A0 m c i = (r : EReal) := by
  intro i
  obtain ⟨k, ch, n, rfl⟩ : ∃ (k : Fin 8) (ch : Fin 4) (n : Fin 4194304), i = ix3 k ch n := ⟨i 0, i 1, i 2, eq_ix3 i⟩
  show ∃ r : ℝ, V m c main_v139 (ix3 k ch n) = (r : EReal)
  rw [cor_at H]
  exact real_table h0 h1 h2 h3 h4 _

/-- THE DENSITY ROW of the output array at sample (r, p). -/
theorem out_dens (H : HostFacts m c) (r : Fin 16384) (p : Fin 256) :
    OUT m c (ix2 (0 : Fin 4) (col r p))
      = REFDENS (Cert.ReferenceIdeal.ReadP.val_main_v8 (F := Ideal) (a1 m c) (ix1 r))
          (nest8 fun k => Cert.ReferenceIdeal.ReadP.val_main_v43 (F := Ideal) (a3 m c) (ix2 (0 : Fin 1) (vox m c k (col r p)))
            * Wst (F := Ideal) k (a0 m c) (a1 m c) (a2 m c) (ix1 (col r p))) := by
  rw [OUT_apply, outBlock_dens,
    pay2_apply_of_real (B0 m c (blkOf (col r p))) (B1 m c (blkOf (col r p))) (B2 m c (blkOf (col r p)))
      (fun i => real_cor h0 h1 h2 h3 h4 H (ix3 (i 0) (i 1) (gcol (blkOf (col r p)) (i 2))))
      (fun i => real_wts h0 h1 h2 h3 h4 H (ix2 (i 0) (gcol (blkOf (col r p)) (i 1))))
      (fun i => real_int h0 h1 h2 h3 h4 H (ix2 (i 0) (gcol (blkOf (col r p)) (i 1)))) (inBlk (col r p)),
    B2_at, int_at H]
  refine congrArg (REFDENS _) (congrArg nest8 (funext fun k => ?_))
  rw [B0_at, B1_at, cor_at H, wts_at H, GF4_dens_ref]

end Real

end Cert.Bridge

end
-- ==== Proof.RefValue.lean ====
/-
  The reference's two results read at one index, at the ideal instance (a float is an extended real).

  Result 0 at (r, p, 0) is the density activation of ray r's interval and of the eight-corner trilinear
  sum of the flattened density grid at sample n = r·256 + p; result 1 at (r, p, c) is the sigmoid of the
  same sum over channel c of the flattened color grids. Each corner's term is the grid's entry at the
  corner's wrapped linear index (read signed and clamped into the table) times the corner's weight, and
  the eight terms are added left-nested in corner order.
-/
import proofs.«123153_j77008763617691_1_alg».proof.Proof.RefRead
import proofs.«123153_j77008763617691_1_alg».proof.Proof.Stages
import proofs.«123153_j77008763617691_1_alg».proof.Proof.Acts
import proofs.«123153_j77008763617691_1_alg».proof.Proof.Preds
import proofs.«123153_j77008763617691_1_alg».proof.Proof.LibGather

noncomputable section

namespace Cert.ReferenceIdeal.RV

open Idealize.ShloMosaic Idealize.ShloMosaic.ValueIdx Cert.ReferenceIdeal Cert.ReferenceIdeal.Gen Cert.ReferenceIdeal.ReadP Cert.Spec

/-- Sample `p` of ray `r` is element `r·256 + p` of the flattened sample list. -/
abbrev smp (r : Fin 16384) (p : Fin 256) : Fin 4194304 := ⟨r.val * 256 + p.val, by omega⟩

/-! ## A column gather whose column numbers are a vector laid out as a column -/

/-- The table `x : [C, 4096000]` gathered at the column numbers `v : [4194304]` (laid out `[4194304, 1]`):
    the result at `(ch, n)` is `x[ch, v[n]]`, the number read signed and clamped into `[0, 4095999]`. -/
theorem gather_bcast_apply {α : Type} {C : Nat}
    (d : GatherDims ⟨2, ![C, 4096000]⟩ ⟨2, ![4194304, 1]⟩ ⟨2, ![C, 4194304]⟩)
    (hoff : d.offsetDims = [0]) (hcoll : d.collapsedSliceDims = [1]) (hob : d.operandBatchingDims = [])
    (hsim : d.startIndexMap = [1]) (hivd : d.indexVectorDim = 1)
    (x : (⟨2, ![C, 4096000]⟩ : Shape).Idx → α) (v : (⟨1, ![4194304]⟩ : Shape).Idx → BitVec 32)
    (h : (⟨1, ![4194304]⟩ : Shape).BroadcastsInDim ⟨2, ![4194304, 1]⟩ ![0]) (ch : Fin C) (n : Fin 4194304) :
    Host.gather d x (broadcastInDim ⟨2, ![4194304, 1]⟩ ![0] h v) (ix2 ch n)
      = x (ix2 ch ⟨min (v (ix1 n)).toInt.toNat 4095999, by omega⟩) := by
  refine (gather_col_apply (by omega) d hoff hcoll hob hsim hivd x _ ch n).trans ?_
  apply congrArg x
  apply congrArg (ix2 ch)
  apply Fin.ext
  show min _ (4096000 - 1) = min _ 4095999
  rw [bcast_col_apply]

/-! ## The density half: each corner's gathered entry and weight at (0, n), the eight-term sum, the activation -/

section Density
variable (x0 x1 : (⟨S16384x3, .f32⟩ : BufTy).Contents (Elt Ideal)) (x2 : (⟨S16384x256, .f32⟩ : BufTy).Contents (Elt Ideal))
  (x3 : (⟨S1x160x160x160, .f32⟩ : BufTy).Contents (Elt Ideal)) (n : Fin 4194304)

/-- The flattened density grid's entry at corner `k`'s wrapped index, clamped into the table. -/
abbrev gd (k : Fin 8) : EReal :=
  val_main_v43 (F := Ideal) x3 (ix2 (0 : Fin 1) ⟨min (IDXst k x0 x1 x2 (ix1 n)).toInt.toNat 4095999, by omega⟩)

/-- Corner 0: the gathered entry at (0, n). -/
theorem gd0_apply : val_main_v68 (F := Ideal) x0 x1 x2 x3 (ix2 (0 : Fin 1) n) = gd x0 x1 x2 x3 n 0 := by
  unfold val_main_v68 val_main_v67
  exact gather_bcast_apply _ rfl rfl rfl rfl rfl _ _ _ _ _
/-- Corner 0: the weight laid out as a row, at (0, n). -/
theorem wd0_apply : val_main_v71 (F := Ideal) x0 x1 x2 (ix2 (0 : Fin 1) n) = Wst 0 x0 x1 x2 (ix1 n) :=
  (val_main_v71_apply x0 x1 x2 _).trans
    (congrArg (val_main_v70 (F := Ideal) x0 x1 x2) (funext fun a => match a with | ⟨0, _⟩ => rfl))
/-- Corner 1: the gathered entry at (0, n). -/
theorem gd1_apply : val_main_v85 (F := Ideal) x0 x1 x2 x3 (ix2 (0 : Fin 1) n) = gd x0 x1 x2 x3 n 1 := by
  unfold val_main_v85 val_main_v84
  exact gather_bcast_apply _ rfl rfl rfl rfl rfl _ _ _ _ _
/-- Corner 1: the weight laid out as a row, at (0, n). -/
theorem wd1_apply : val_main_v88 (F := Ideal) x0 x1 x2 (ix2 (0 : Fin 1) n) = Wst 1 x0 x1 x2 (ix1 n) :=
  (val_main_v88_apply x0 x1 x2 _).trans
    (congrArg (val_main_v87 (F := Ideal) x0 x1 x2) (funext fun a => match a with | ⟨0, _⟩ => rfl))
/-- Corner 2: the gathered entry at (0, n). -/
theorem gd2_apply : val_main_v103 (F := Ideal) x0 x1 x2 x3 (ix2 (0 : Fin 1) n) = gd x0 x1 x2 x3 n 2 := by
  unfold val_main_v103 val_main_v102
  exact gather_bcast_apply _ rfl rfl rfl rfl rfl _ _ _ _ _
/-- Corner 2: the weight laid out as a row, at (0, n). -/
theorem wd2_apply : val_main_v106 (F := Ideal) x0 x1 x2 (ix2 (0 : Fin 1) n) = Wst 2 x0 x1 x2 (ix1 n) :=
  (val_main_v106_apply x0 x1 x2 _).trans
    (congrArg (val_main_v105 (F := Ideal) x0 x1 x2) (funext fun a => match a with | ⟨0, _⟩ => rfl))
/-- Corner 3: the gathered entry at (0, n). -/
theorem gd3_apply : val_main_v121 (F := Ideal) x0 x1 x2 x3 (ix2 (0 : Fin 1) n) = gd x0 x1 x2 x3 n 3 := by
  unfold val_main_v121 val_main_v120
  exact gather_bcast_apply _ rfl rfl rfl rfl rfl _ _ _ _ _
/-- Corner 3: the weight laid out as a row, at (0, n). -/
theorem wd3_apply : val_main_v124 (F := Ideal) x0 x1 x2 (ix2 (0 : Fin 1) n) = Wst 3 x0 x1 x2 (ix1 n) :=
  (val_main_v124_apply x0 x1 x2 _).trans
    (congrArg (val_main_v123 (F := Ideal) x0 x1 x2) (funext fun a => match a with | ⟨0, _⟩ => rfl))
/-- Corner 4: the gathered entry at (0, n). -/
theorem gd4_apply : val_main_v139 (F := Ideal) x0 x1 x2 x3 (ix2 (0 : Fin 1) n) = gd x0 x1 x2 x3 n 4 := by
  unfold val_main_v139 val_main_v138
  exact gather_bcast_apply _ rfl rfl rfl rfl rfl _ _ _ _ _
/-- Corner 4: the weight laid out as a row, at (0, n). -/
theorem wd4_apply : val_main_v142 (F := Ideal) x0 x1 x2 (ix2 (0 : Fin 1) n) = Wst 4 x0 x1 x2 (ix1 n) :=
  (val_main_v142_apply x0 x1 x2 _).trans
    (congrArg (val_main_v141 (F := Ideal) x0 x1 x2) (funext fun a => match a with | ⟨0, _⟩ => rfl))
/-- Corner 5: the gathered entry at (0, n). -/
theorem gd5_apply : val_main_v157 (F := Ideal) x0 x1 x2 x3 (ix2 (0 : Fin 1) n) = gd x0 x1 x2 x3 n 5 := by
  unfold val_main_v157 val_main_v156
  exact gather_bcast_apply _ rfl rfl rfl rfl rfl _ _ _ _ _
/-- Corner 5: the weight laid out as a row, at (0, n). -/
theorem wd5_apply : val_main_v160 (F := Ideal) x0 x1 x2 (ix2 (0 : Fin 1) n) = Wst 5 x0 x1 x2 (ix1 n) :=
  (val_main_v160_apply x0 x1 x2 _).trans
    (congrArg (val_main_v159 (F := Ideal) x0 x1 x2) (funext fun a => match a with | ⟨0, _⟩ => rfl))
/-- Corner 6: the gathered entry at (0, n). -/
theorem gd6_apply : val_main_v175 (F := Ideal) x0 x1 x2 x3 (ix2 (0 : Fin 1) n) = gd x0 x1 x2 x3 n 6 := by
  unfold val_main_v175 val_main_v174
  exact gather_bcast_apply _ rfl rfl rfl rfl rfl _ _ _ _ _
/-- Corner 6: the weight laid out as a row, at (0, n). -/
theorem wd6_apply : val_main_v178 (F := Ideal) x0 x1 x2 (ix2 (0 : Fin 1) n) = Wst 6 x0 x1 x2 (ix1 n) :=
  (val_main_v178_apply x0 x1 x2 _).trans
    (congrArg (val_main_v177 (F := Ideal) x0 x1 x2) (funext fun a => match a with | ⟨0, _⟩ => rfl))
/-- Corner 7: the gathered entry at (0, n). -/
theorem gd7_apply : val_main_v193 (F := Ideal) x0 x1 x2 x3 (ix2 (0 : Fin 1) n) = gd x0 x1 x2 x3 n 7 := by
  unfold val_main_v193 val_main_v192
  exact gather_bcast_apply _ rfl rfl rfl rfl rfl _ _ _ _ _
/-- Corner 7: the weight laid out as a row, at (0, n). -/
theorem wd7_apply : val_main_v196 (F := Ideal) x0 x1 x2 (ix2 (0 : Fin 1) n) = Wst 7 x0 x1 x2 (ix1 n) :=
  (val_main_v196_apply x0 x1 x2 _).trans
    (congrArg (val_main_v195 (F := Ideal) x0 x1 x2) (funext fun a => match a with | ⟨0, _⟩ => rfl))

/-- THE RAW DENSITY at (0, n): the eight corners' entries times weights, added left-nested in corner order. -/
theorem raw0_apply : val_main_v198 (F := Ideal) x0 x1 x2 x3 (ix2 (0 : Fin 1) n)
    = nest8 fun k => gd x0 x1 x2 x3 n k * Wst k x0 x1 x2 (ix1 n) := by
  rw [val_main_v198_apply, val_main_v180_apply, val_main_v162_apply, val_main_v144_apply, val_main_v126_apply,
    val_main_v108_apply, val_main_v90_apply,
    val_main_v72_apply, val_main_v89_apply, val_main_v107_apply, val_main_v125_apply, val_main_v143_apply,
    val_main_v161_apply, val_main_v179_apply, val_main_v197_apply,
    gd0_apply, gd1_apply, gd2_apply, gd3_apply, gd4_apply, gd5_apply, gd6_apply, gd7_apply,
    wd0_apply, wd1_apply, wd2_apply, wd3_apply, wd4_apply, wd5_apply, wd6_apply, wd7_apply]
  rfl

/-- RESULT 0 at (r, p, 0): the density activation of ray r's interval and the raw density of sample r·256 + p. -/
theorem ref0_apply (r : Fin 16384) (p : Fin 256) :
    val_main_v210 (F := Ideal) x0 x1 x2 x3 (ix3 r p (0 : Fin 1))
      = REFDENS (val_main_v8 (F := Ideal) x1 (ix1 r))
          (nest8 fun k => val_main_v43 (F := Ideal) x3 (ix2 (0 : Fin 1)
              ⟨min (IDXst k x0 x1 x2 (ix1 (smp r p))).toInt.toNat 4095999, by omega⟩)
            * Wst k x0 x1 x2 (ix1 (smp r p))) := by
  have e1 : idx_main_v199 (idx_main_v200 (ix3 r p (0 : Fin 1))) = ix2 (0 : Fin 1) (smp r p) :=
    funext fun a => match a with
      | ⟨0, _⟩ => rfl
      | ⟨1, _⟩ => Fin.ext (by show ((r.val * 256 + p.val) * 1 + 0) / 1 = r.val * 256 + p.val; omega)
  have e2 : idx_main_v9 (idx_main_v207 (ix3 r p (0 : Fin 1))) = ix1 r :=
    funext fun a => match a with | ⟨0, _⟩ => rfl
  rw [val_main_v210_apply, val_main_v209_apply, val_main_cst_42_apply, val_main_v208_apply,
    val_main_v205_apply, val_main_v204_apply, val_main_cst_41_apply, val_main_v203_apply,
    val_main_v202_apply, val_main_v201_apply, val_main_cst_40_apply, val_main_v200_apply,
    val_main_v199_apply, e1, raw0_apply, val_main_v207_apply, val_main_v206_apply, val_main_v9_apply, e2]
  rfl

end Density

/-! ## The color half: each corner's gathered entry and weight at (c, n), the eight-term sum, the sigmoid -/

section Color
variable (x0 x1 : (⟨S16384x3, .f32⟩ : BufTy).Contents (Elt Ideal)) (x2 : (⟨S16384x256, .f32⟩ : BufTy).Contents (Elt Ideal))
  (x4 : (⟨S3x160x160x160, .f32⟩ : BufTy).Contents (Elt Ideal)) (cc : Fin 3) (n : Fin 4194304)

/-- Channel `cc` of the flattened color grids at corner `k`'s wrapped index, clamped into the table. -/
abbrev gc (k : Fin 8) : EReal :=
  val_main_v243 (F := Ideal) x4 (ix2 cc ⟨min (IDXc k x0 x1 x2 (ix1 n)).toInt.toNat 4095999, by omega⟩)

/-- Corner 0: the gathered entry at (c, n). -/
theorem gc0_apply : val_main_v268 (F := Ideal) x0 x1 x2 x4 (ix2 cc n) = gc x0 x1 x2 x4 cc n 0 := by
  unfold val_main_v268 val_main_v267
  exact gather_bcast_apply _ rfl rfl rfl rfl rfl _ _ _ _ _
/-- Corner 0: the weight laid out as a row and repeated over the channels, at (c, n). -/
theorem wc0_apply : val_main_v272 (F := Ideal) x0 x1 x2 (ix2 cc n) = Wc 0 x0 x1 x2 (ix1 n) :=
  (val_main_v272_apply x0 x1 x2 _).trans ((val_main_v271_apply x0 x1 x2 _).trans
    (congrArg (val_main_v270 (F := Ideal) x0 x1 x2) (funext fun a => match a with | ⟨0, _⟩ => rfl)))
/-- Corner 1: the gathered entry at (c, n). -/
theorem gc1_apply : val_main_v286 (F := Ideal) x0 x1 x2 x4 (ix2 cc n) = gc x0 x1 x2 x4 cc n 1 := by
  unfold val_main_v286 val_main_v285
  exact gather_bcast_apply _ rfl rfl rfl rfl rfl _ _ _ _ _
/-- Corner 1: the weight laid out as a row and repeated over the channels, at (c, n). -/
theorem wc1_apply : val_main_v290 (F := Ideal) x0 x1 x2 (ix2 cc n) = Wc 1 x0 x1 x2 (ix1 n) :=
  (val_main_v290_apply x0 x1 x2 _).trans ((val_main_v289_apply x0 x1 x2 _).trans
    (congrArg (val_main_v288 (F := Ideal) x0 x1 x2) (funext fun a => match a with | ⟨0, _⟩ => rfl)))
/-- Corner 2: the gathered entry at (c, n). -/
theorem gc2_apply : val_main_v305 (F := Ideal) x0 x1 x2 x4 (ix2 cc n) = gc x0 x1 x2 x4 cc n 2 := by
  unfold val_main_v305 val_main_v304
  exact gather_bcast_apply _ rfl rfl rfl rfl rfl _ _ _ _ _
/-- Corner 2: the weight laid out as a row and repeated over the channels, at (c, n). -/
theorem wc2_apply : val_main_v309 (F := Ideal) x0 x1 x2 (ix2 cc n) = Wc 2 x0 x1 x2 (ix1 n) :=
  (val_main_v309_apply x0 x1 x2 _).trans ((val_main_v308_apply x0 x1 x2 _).trans
    (congrArg (val_main_v307 (F := Ideal) x0 x1 x2) (funext fun a => match a with | ⟨0, _⟩ => rfl)))
/-- Corner 3: the gathered entry at (c, n). -/
theorem gc3_apply : val_main_v324 (F := Ideal) x0 x1 x2 x4 (ix2 cc n) = gc x0 x1 x2 x4 cc n 3 := by
  unfold val_main_v324 val_main_v323
  exact gather_bcast_apply _ rfl rfl rfl rfl rfl _ _ _ _ _
/-- Corner 3: the weight laid out as a row and repeated over the channels, at (c, n). -/
theorem wc3_apply : val_main_v328 (F := Ideal) x0 x1 x2 (ix2 cc n) = Wc 3 x0 x1 x2 (ix1 n) :=
  (val_main_v328_apply x0 x1 x2 _).trans ((val_main_v327_apply x0 x1 x2 _).trans
    (congrArg (val_main_v326 (F := Ideal) x0 x1 x2) (funext fun a => match a with | ⟨0, _⟩ => rfl)))
/-- Corner 4: the gathered entry at (c, n). -/
theorem gc4_apply : val_main_v343 (F := Ideal) x0 x1 x2 x4 (ix2 cc n) = gc x0 x1 x2 x4 cc n 4 := by
  unfold val_main_v343 val_main_v342
  exact gather_bcast_apply _ rfl rfl rfl rfl rfl _ _ _ _ _
/-- Corner 4: the weight laid out as a row and repeated over the channels, at (c, n). -/
theorem wc4_apply : val_main_v347 (F := Ideal) x0 x1 x2 (ix2 cc n) = Wc 4 x0 x1 x2 (ix1 n) :=
  (val_main_v347_apply x0 x1 x2 _).trans ((val_main_v346_apply x0 x1 x2 _).trans
    (congrArg (val_main_v345 (F := Ideal) x0 x1 x2) (funext fun a => match a with | ⟨0, _⟩ => rfl)))
/-- Corner 5: the gathered entry at (c, n). -/
theorem gc5_apply : val_main_v362 (F := Ideal) x0 x1 x2 x4 (ix2 cc n) = gc x0 x1 x2 x4 cc n 5 := by
  unfold val_main_v362 val_main_v361
  exact gather_bcast_apply _ rfl rfl rfl rfl rfl _ _ _ _ _
/-- Corner 5: the weight laid out as a row and repeated over the channels, at (c, n). -/
theorem wc5_apply : val_main_v366 (F := Ideal) x0 x1 x2 (ix2 cc n) = Wc 5 x0 x1 x2 (ix1 n) :=
  (val_main_v366_apply x0 x1 x2 _).trans ((val_main_v365_apply x0 x1 x2 _).trans
    (congrArg (val_main_v364 (F := Ideal) x0 x1 x2) (funext fun a => match a with | ⟨0, _⟩ => rfl)))
/-- Corner 6: the gathered entry at (c, n). -/
theorem gc6_apply : val_main_v381 (F := Ideal) x0 x1 x2 x4 (ix2 cc n) = gc x0 x1 x2 x4 cc n 6 := by
  unfold val_main_v381 val_main_v380
  exact gather_bcast_apply _ rfl rfl rfl rfl rfl _ _ _ _ _
/-- Corner 6: the weight laid out as a row and repeated over the channels, at (c, n). -/
theorem wc6_apply : val_main_v385 (F := Ideal) x0 x1 x2 (ix2 cc n) = Wc 6 x0 x1 x2 (ix1 n) :=
  (val_main_v385_apply x0 x1 x2 _).trans ((val_main_v384_apply x0 x1 x2 _).trans
    (congrArg (val_main_v383 (F := Ideal) x0 x1 x2) (funext fun a => match a with | ⟨0, _⟩ => rfl)))
/-- Corner 7: the gathered entry at (c, n). -/
theorem gc7_apply : val_main_v400 (F := Ideal) x0 x1 x2 x4 (ix2 cc n) = gc x0 x1 x2 x4 cc n 7 := by
  unfold val_main_v400 val_main_v399
  exact gather_bcast_apply _ rfl rfl rfl rfl rfl _ _ _ _ _
/-- Corner 7: the weight laid out as a row and repeated over the channels, at (c, n). -/
theorem wc7_apply : val_main_v404 (F := Ideal) x0 x1 x2 (ix2 cc n) = Wc 7 x0 x1 x2 (ix1 n) :=
  (val_main_v404_apply x0 x1 x2 _).trans ((val_main_v403_apply x0 x1 x2 _).trans
    (congrArg (val_main_v402 (F := Ideal) x0 x1 x2) (funext fun a => match a with | ⟨0, _⟩ => rfl)))

/-- THE RAW COLOR at (c, n): the eight corners' entries times weights, added left-nested in corner order. -/
theorem raw1_apply : val_main_v406 (F := Ideal) x0 x1 x2 x4 (ix2 cc n)
    = nest8 fun k => gc x0 x1 x2 x4 cc n k * Wc k x0 x1 x2 (ix1 n) := by
  rw [val_main_v406_apply, val_main_v387_apply, val_main_v368_apply, val_main_v349_apply, val_main_v330_apply,
    val_main_v311_apply, val_main_v292_apply,
    val_main_v273_apply, val_main_v291_apply, val_main_v310_apply, val_main_v329_apply, val_main_v348_apply,
    val_main_v367_apply, val_main_v386_apply, val_main_v405_apply,
    gc0_apply, gc1_apply, gc2_apply, gc3_apply, gc4_apply, gc5_apply, gc6_apply, gc7_apply,
    wc0_apply, wc1_apply, wc2_apply, wc3_apply, wc4_apply, wc5_apply, wc6_apply, wc7_apply]
  rfl

/-- RESULT 1 at (r, p, c): the sigmoid of channel c's raw color of sample r·256 + p. -/
theorem ref1_apply (r : Fin 16384) (p : Fin 256) :
    val_main_v414 (F := Ideal) x0 x1 x2 x4 (ix3 r p cc)
      = REFSIG (nest8 fun k => val_main_v243 (F := Ideal) x4 (ix2 cc
              ⟨min (IDXc k x0 x1 x2 (ix1 (smp r p))).toInt.toNat 4095999, by omega⟩)
            * Wc k x0 x1 x2 (ix1 (smp r p))) := by
  have e1 : idx_main_v407 (idx_main_v408 (ix3 r p cc)) = ix2 cc (smp r p) :=
    funext fun a => match a with
      | ⟨0, _⟩ => Fin.ext (by
          have hc : cc.val < 3 := cc.isLt
          show ((r.val * 256 + p.val) * 3 + cc.val) % 3 = cc.val; omega)
      | ⟨1, _⟩ => Fin.ext (by
          have hc : cc.val < 3 := cc.isLt
          show ((r.val * 256 + p.val) * 3 + cc.val) / 3 = r.val * 256 + p.val; omega)
  rw [val_main_v414_apply, val_main_v413_apply, val_main_cst_82_apply, val_main_v412_apply,
    val_main_v411_apply, val_main_cst_81_apply, val_main_v410_apply, val_main_v409_apply,
    val_main_v408_apply, val_main_v407_apply, e1, raw1_apply]
  rfl

end Color

end Cert.ReferenceIdeal.RV

end
-- ==== Proof.Bridge.lean ====
/-
  The two results of the kernel program are the reference's two results: entry (r, p, ·) of either is, on both
  sides, the same activation of the same eight-corner sum — the reference gathers at the wrapped and clamped
  linear index, which for an index in [0, 160³ − 1] is the index itself, and its color half recomputes the
  density half's weights and indices.
-/
import proofs.«123153_j77008763617691_1_alg».proof.Proof.BridgeK
import proofs.«123153_j77008763617691_1_alg».proof.Proof.RefValue

set_option maxRecDepth 16384

noncomputable section

namespace Cert.Bridge

open Idealize.ShloMosaic Idealize.ShloMosaic.TcCoe Idealize.ShloMosaic.ValueIdx Idealize.SL.Sem
open Cert.Spec
open Cert.KernelIdeal Cert.KernelIdeal.Gen Cert.KernelIdeal.Fr Cert.KernelIdeal.KVal

variable {m : (ℓ : Loc nD τ sig) → Buf (Elt Ideal) ℓ} {c : Dev nD}
variable (h0 : AllReal (a0 m c)) (h1 : AllReal (a1 m c)) (h2 : AllReal (a2 m c)) (h3 : AllReal (a3 m c)) (h4 : AllReal (a4 m c))

/-- The clamp of an index already in range, as a column number. -/
theorem vox_clamp (k : Fin 8) (n : Fin 4194304) (hlt : min (LINst (F := Ideal) k (a0 m c) (a1 m c) (a2 m c) (ix1 n)).toInt.toNat 4095999 < 4096000) :
    (⟨min (LINst (F := Ideal) k (a0 m c) (a1 m c) (a2 m c) (ix1 n)).toInt.toNat 4095999, hlt⟩ : Fin 4096000) = vox m c k n :=
  Fin.ext (by
    have := intIn_LINst (F := Ideal) k (a0 m c) (a1 m c) (a2 m c) (ix1 n)
    show min (LINst (F := Ideal) k (a0 m c) (a1 m c) (a2 m c) (ix1 n)).toInt.toNat 4095999
      = (LINst (F := Ideal) k (a0 m c) (a1 m c) (a2 m c) (ix1 n)).toInt.toNat
    omega)

include h0 h1 h2 h3 h4

/-- THE DENSITY RESULT. -/
theorem res0_eq (H : HostFacts m c) :
    Cert.ReferenceIdeal.ReadP.val_main_v210 (F := Ideal) (a0 m c) (a1 m c) (a2 m c) (a3 m c) = RES0 (OUT m c) := by
  funext i
  obtain ⟨r, p, z, rfl⟩ : ∃ (r : Fin 16384) (p : Fin 256) (z : Fin 1), i = ix3 r p z := ⟨i 0, i 1, i 2, eq_ix3 i⟩
  obtain rfl : z = 0 := Subsingleton.elim _ _
  rw [RES0_apply, out_dens h0 h1 h2 h3 h4 H, Cert.ReferenceIdeal.RV.ref0_apply]
  refine congrArg (REFDENS _) (congrArg nest8 (funext fun k => ?_))
  show Cert.ReferenceIdeal.ReadP.val_main_v43 (F := Ideal) (a3 m c) (ix2 (0 : Fin 1) ⟨min (IDXst (F := Ideal) k (a0 m c) (a1 m c) (a2 m c) (ix1 (col r p))).toInt.toNat 4095999, _⟩) * _ = _
  simp only [IDXst_LIN, vox_clamp]

/-- THE COLOR RESULT. -/
theorem res1_eq (H : HostFacts m c) :
    Cert.ReferenceIdeal.ReadP.val_main_v414 (F := Ideal) (a0 m c) (a1 m c) (a2 m c) (a4 m c) = RES1 (OUT m c) := by
  funext i
  obtain ⟨r, p, cc, rfl⟩ : ∃ (r : Fin 16384) (p : Fin 256) (cc : Fin 3), i = ix3 r p cc := ⟨i 0, i 1, i 2, eq_ix3 i⟩
  rw [RES1_apply, out_col H, Cert.ReferenceIdeal.RV.ref1_apply]
  refine congrArg REFSIG (congrArg nest8 (funext fun k => ?_))
  show Cert.ReferenceIdeal.ReadP.val_main_v243 (F := Ideal) (a4 m c) (ix2 cc ⟨min (IDXc (F := Ideal) k (a0 m c) (a1 m c) (a2 m c) (ix1 (col r p))).toInt.toNat 4095999, _⟩) * _ = _
  simp only [IDXc_LIN, Wc_eq, vox_clamp]

end Cert.Bridge

end
-- ==== Proof.PreReal.lean ====
/-
  From the precondition "every input is finite" to "every entry of every input is a real number".

  The precondition computes, for each of the five inputs x, the conjunction over all entries of
  |x| < +inf, and the conjunction of the five. Read at the ideal instance, where a float is an
  extended real and |x| is max x (-x), the comparison |x| < +inf fails exactly at the two
  infinities; so an entry that passes it is a real number.
-/
import proofs.«123153_j77008763617691_1_alg».proof.Pre_finite_inputs
import proofs.«123153_j77008763617691_1_alg».proof.Proof.Gen.Pre_finite_inputs
import proofs.«123153_j77008763617691_1_alg».proof.Proof.Preds
import Idealize.ShloMosaic.Lib.ReduceAll
import Idealize.ShloMosaic.Lib.ValueIdx

noncomputable section

namespace Cert.Spec

open Idealize.ShloMosaic

/-- The shape of rank zero has one index. -/
instance subsingleton_rank0_idx : Subsingleton (⟨0, ![]⟩ : Shape).Idx := ⟨fun _ _ => funext fun d => d.elim0⟩

/-- The pattern 0x7F800000 denotes +inf. -/
theorem ofBits_f32_inf : Ideal.ofBits .f32 0x7F800000#32 = ⊤ := by simp [Ideal.ofBits, Ideal.ieee]

/-- An extended real whose absolute value is strictly below +inf is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_f32_inf] at h
  simp only [Ideal.cmp] at h
  induction x using EReal.rec with
  | bot => simp at h
  | top => simp at h
  | coe r => exact ⟨r, rfl⟩

/-- An array every entry of which passes |x| < +inf is an array of reals. -/
theorem AllReal_of_all_lt_inf {S S₀ : Shape} (d : Fin S₀.rank → Fin S.rank) (hb : S₀.BroadcastsInDim S d)
    (a : FVec Ideal S .f32)
    (h : ∀ i, cmpf .olt (Host.absf a) (broadcastInDim S d hb (constant (F := Ideal) S₀ .f32 0x7F800000#32)) i = 1#1) :
    AllReal a := fun i => real_of_abs_lt_inf (a i) (h i)

open Cert.Pre_finite_inputs in
/-- The precondition gives: every entry of each of the five inputs is a real number. -/
theorem inputs_real [Cert.Pre_finite_inputs.Facts]
    (a0 a1 : FVec Ideal S16384x3 .f32) (a2 : FVec Ideal S16384x256 .f32)
    (a3 : FVec Ideal S1x160x160x160 .f32) (a4 : FVec Ideal S3x160x160x160 .f32)
    (h : Cert.Pre_finite_inputs.fn (F := Ideal) a0 a1 a2 a3 a4 = fun _ => 1#1) :
    AllReal a0 ∧ AllReal a1 ∧ AllReal a2 ∧ AllReal a3 ∧ AllReal a4 := by
  have h0 := congrFun h ValueIdx.ix0
  simp only [Cert.Pre_finite_inputs.fn, Cert.Pre_finite_inputs.fn_part1, andi, IntOp.andi_eq_one] at h0
  obtain ⟨⟨⟨⟨e0, e1⟩, e2⟩, e3⟩, e4⟩ := h0
  exact ⟨AllReal_of_all_lt_inf _ _ a0 (Host.reduce_andi_all _ _ _ _ _ e0),
    AllReal_of_all_lt_inf _ _ a1 (Host.reduce_andi_all _ _ _ _ _ e1),
    AllReal_of_all_lt_inf _ _ a2 (Host.reduce_andi_all _ _ _ _ _ e2),
    AllReal_of_all_lt_inf _ _ a3 (Host.reduce_andi_all _ _ _ _ _ e3),
    AllReal_of_all_lt_inf _ _ a4 (Host.reduce_andi_all _ _ _ _ _ e4)⟩

end Cert.Spec

end
-- ==== Proof.RefRunInv.lean ====
/- The reference's run, window by window: what holds at each boundary between two windows of @main. `InvK V x0 … x4`
   says of contents `V` that every buffer written before window K and read at or after it (or returned) holds its stage
   of Proof/RefRead.lean at the arguments `x0 … x4`, and that argument I holds `xI`. -/
import proofs.«123153_j77008763617691_1_alg».proof.Proof.RefRead

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The congruence lemmas of the gather records and of a typed reference's constructor, stated once here, upstream of every
    window: each window's simplification step rewrites under them. -/
theorem congr_simp_realized : True := by
  have := @gather_S1x4096000_S4194304x1_S1x4194304_0_1_n_n_1_1_11.congr_simp
  have := @gather_S3x4096000_S4194304x1_S3x4194304_0_1_n_n_1_1_31.congr_simp
  have := @TRef.of.congr_simp
  trivial

/-- The 5 buffers live before window 0 (operation 0 of 513), each at its stage. -/
structure Inv0 (V : Valuation τ sig (Elt F)) (x0 x1 : (⟨S16384x3, .f32⟩ : BufTy).Contents (Elt F)) (x2 : (⟨S16384x256, .f32⟩ : BufTy).Contents (Elt F)) (x3 : (⟨S1x160x160x160, .f32⟩ : BufTy).Contents (Elt F)) (x4 : (⟨S3x160x160x160, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4

/-- The 20 buffers live between windows 0 and 1 (operation 68 of 513), each at its stage. -/
structure Inv1 (V : Valuation τ sig (Elt F)) (x0 x1 : (⟨S16384x3, .f32⟩ : BufTy).Contents (Elt F)) (x2 : (⟨S16384x256, .f32⟩ : BufTy).Contents (Elt F)) (x3 : (⟨S1x160x160x160, .f32⟩ : BufTy).Contents (Elt F)) (x4 : (⟨S3x160x160x160, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_cst_0 : V (Proc.devRef .tc main_cst_0) = ReadP.val_main_cst_0 (F := F)
  h_main_c_1 : V (Proc.devRef .tc main_c_1) = ReadP.val_main_c_1 (F := F)
  h_main_v9 : V (Proc.devRef .tc main_v9) = ReadP.val_main_v9 (F := F) x1
  h_main_v10 : V (Proc.devRef .tc main_v10) = ReadP.val_main_v10 (F := F) x0 x1 x2
  h_main_v21 : V (Proc.devRef .tc main_v21) = ReadP.val_main_v21 (F := F) x0 x1 x2
  h_main_v32 : V (Proc.devRef .tc main_v32) = ReadP.val_main_v32 (F := F) x0 x1 x2
  h_main_v34 : V (Proc.devRef .tc main_v34) = ReadP.val_main_v34 (F := F) x0 x1 x2
  h_main_v36 : V (Proc.devRef .tc main_v36) = ReadP.val_main_v36 (F := F) x0 x1 x2
  h_main_v38 : V (Proc.devRef .tc main_v38) = ReadP.val_main_v38 (F := F) x0 x1 x2
  h_main_v40 : V (Proc.devRef .tc main_v40) = ReadP.val_main_v40 (F := F) x0 x1 x2
  h_main_v42 : V (Proc.devRef .tc main_v42) = ReadP.val_main_v42 (F := F) x0 x1 x2
  h_main_v43 : V (Proc.devRef .tc main_v43) = ReadP.val_main_v43 (F := F) x3
  h_main_v45 : V (Proc.devRef .tc main_v45) = ReadP.val_main_v45 (F := F) x0 x1 x2
  h_main_v47 : V (Proc.devRef .tc main_v47) = ReadP.val_main_v47 (F := F) x0 x1 x2
  h_main_v49 : V (Proc.devRef .tc main_v49) = ReadP.val_main_v49 (F := F) x0 x1 x2

/-- The 25 buffers live between windows 1 and 2 (operation 128 of 513), each at its stage. -/
structure Inv2 (V : Valuation τ sig (Elt F)) (x0 x1 : (⟨S16384x3, .f32⟩ : BufTy).Contents (Elt F)) (x2 : (⟨S16384x256, .f32⟩ : BufTy).Contents (Elt F)) (x3 : (⟨S1x160x160x160, .f32⟩ : BufTy).Contents (Elt F)) (x4 : (⟨S3x160x160x160, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_cst_0 : V (Proc.devRef .tc main_cst_0) = ReadP.val_main_cst_0 (F := F)
  h_main_c_1 : V (Proc.devRef .tc main_c_1) = ReadP.val_main_c_1 (F := F)
  h_main_v9 : V (Proc.devRef .tc main_v9) = ReadP.val_main_v9 (F := F) x1
  h_main_v10 : V (Proc.devRef .tc main_v10) = ReadP.val_main_v10 (F := F) x0 x1 x2
  h_main_v32 : V (Proc.devRef .tc main_v32) = ReadP.val_main_v32 (F := F) x0 x1 x2
  h_main_v34 : V (Proc.devRef .tc main_v34) = ReadP.val_main_v34 (F := F) x0 x1 x2
  h_main_v36 : V (Proc.devRef .tc main_v36) = ReadP.val_main_v36 (F := F) x0 x1 x2
  h_main_v38 : V (Proc.devRef .tc main_v38) = ReadP.val_main_v38 (F := F) x0 x1 x2
  h_main_v40 : V (Proc.devRef .tc main_v40) = ReadP.val_main_v40 (F := F) x0 x1 x2
  h_main_v42 : V (Proc.devRef .tc main_v42) = ReadP.val_main_v42 (F := F) x0 x1 x2
  h_main_v43 : V (Proc.devRef .tc main_v43) = ReadP.val_main_v43 (F := F) x3
  h_main_v45 : V (Proc.devRef .tc main_v45) = ReadP.val_main_v45 (F := F) x0 x1 x2
  h_main_v47 : V (Proc.devRef .tc main_v47) = ReadP.val_main_v47 (F := F) x0 x1 x2
  h_main_v49 : V (Proc.devRef .tc main_v49) = ReadP.val_main_v49 (F := F) x0 x1 x2
  h_main_v51 : V (Proc.devRef .tc main_v51) = ReadP.val_main_v51 (F := F) x0 x1 x2
  h_main_v53 : V (Proc.devRef .tc main_v53) = ReadP.val_main_v53 (F := F) x0 x1 x2
  h_main_v55 : V (Proc.devRef .tc main_v55) = ReadP.val_main_v55 (F := F) x0 x1 x2
  h_main_v90 : V (Proc.devRef .tc main_v90) = ReadP.val_main_v90 (F := F) x0 x1 x2 x3
  h_main_v96 : V (Proc.devRef .tc main_v96) = ReadP.val_main_v96 (F := F) x0 x1 x2
  h_main_v98 : V (Proc.devRef .tc main_v98) = ReadP.val_main_v98 (F := F) x0 x1 x2

/-- The 22 buffers live between windows 2 and 3 (operation 188 of 513), each at its stage. -/
structure Inv3 (V : Valuation τ sig (Elt F)) (x0 x1 : (⟨S16384x3, .f32⟩ : BufTy).Contents (Elt F)) (x2 : (⟨S16384x256, .f32⟩ : BufTy).Contents (Elt F)) (x3 : (⟨S1x160x160x160, .f32⟩ : BufTy).Contents (Elt F)) (x4 : (⟨S3x160x160x160, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_cst_0 : V (Proc.devRef .tc main_cst_0) = ReadP.val_main_cst_0 (F := F)
  h_main_c_1 : V (Proc.devRef .tc main_c_1) = ReadP.val_main_c_1 (F := F)
  h_main_v9 : V (Proc.devRef .tc main_v9) = ReadP.val_main_v9 (F := F) x1
  h_main_v10 : V (Proc.devRef .tc main_v10) = ReadP.val_main_v10 (F := F) x0 x1 x2
  h_main_v32 : V (Proc.devRef .tc main_v32) = ReadP.val_main_v32 (F := F) x0 x1 x2
  h_main_v38 : V (Proc.devRef .tc main_v38) = ReadP.val_main_v38 (F := F) x0 x1 x2
  h_main_v40 : V (Proc.devRef .tc main_v40) = ReadP.val_main_v40 (F := F) x0 x1 x2
  h_main_v42 : V (Proc.devRef .tc main_v42) = ReadP.val_main_v42 (F := F) x0 x1 x2
  h_main_v43 : V (Proc.devRef .tc main_v43) = ReadP.val_main_v43 (F := F) x3
  h_main_v45 : V (Proc.devRef .tc main_v45) = ReadP.val_main_v45 (F := F) x0 x1 x2
  h_main_v47 : V (Proc.devRef .tc main_v47) = ReadP.val_main_v47 (F := F) x0 x1 x2
  h_main_v51 : V (Proc.devRef .tc main_v51) = ReadP.val_main_v51 (F := F) x0 x1 x2
  h_main_v53 : V (Proc.devRef .tc main_v53) = ReadP.val_main_v53 (F := F) x0 x1 x2
  h_main_v55 : V (Proc.devRef .tc main_v55) = ReadP.val_main_v55 (F := F) x0 x1 x2
  h_main_v144 : V (Proc.devRef .tc main_v144) = ReadP.val_main_v144 (F := F) x0 x1 x2 x3
  h_main_v147 : V (Proc.devRef .tc main_v147) = ReadP.val_main_v147 (F := F) x0 x1 x2
  h_main_c_29 : V (Proc.devRef .tc main_c_29) = ReadP.val_main_c_29 (F := F)

/-- The 11 buffers live between windows 3 and 4 (operation 248 of 513), each at its stage. -/
structure Inv4 (V : Valuation τ sig (Elt F)) (x0 x1 : (⟨S16384x3, .f32⟩ : BufTy).Contents (Elt F)) (x2 : (⟨S16384x256, .f32⟩ : BufTy).Contents (Elt F)) (x3 : (⟨S1x160x160x160, .f32⟩ : BufTy).Contents (Elt F)) (x4 : (⟨S3x160x160x160, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_cst_0 : V (Proc.devRef .tc main_cst_0) = ReadP.val_main_cst_0 (F := F)
  h_main_c_1 : V (Proc.devRef .tc main_c_1) = ReadP.val_main_c_1 (F := F)
  h_main_v9 : V (Proc.devRef .tc main_v9) = ReadP.val_main_v9 (F := F) x1
  h_main_v10 : V (Proc.devRef .tc main_v10) = ReadP.val_main_v10 (F := F) x0 x1 x2
  h_main_v180 : V (Proc.devRef .tc main_v180) = ReadP.val_main_v180 (F := F) x0 x1 x2 x3
  h_main_v197 : V (Proc.devRef .tc main_v197) = ReadP.val_main_v197 (F := F) x0 x1 x2 x3

/-- The 17 buffers live between windows 4 and 5 (operation 313 of 513), each at its stage. -/
structure Inv5 (V : Valuation τ sig (Elt F)) (x0 x1 : (⟨S16384x3, .f32⟩ : BufTy).Contents (Elt F)) (x2 : (⟨S16384x256, .f32⟩ : BufTy).Contents (Elt F)) (x3 : (⟨S1x160x160x160, .f32⟩ : BufTy).Contents (Elt F)) (x4 : (⟨S3x160x160x160, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_v210 : V (Proc.devRef .tc main_v210) = ReadP.val_main_v210 (F := F) x0 x1 x2 x3
  h_main_v221 : V (Proc.devRef .tc main_v221) = ReadP.val_main_v221 (F := F) x0 x1 x2
  h_main_v232 : V (Proc.devRef .tc main_v232) = ReadP.val_main_v232 (F := F) x0 x1 x2
  h_main_v234 : V (Proc.devRef .tc main_v234) = ReadP.val_main_v234 (F := F) x0 x1 x2
  h_main_v236 : V (Proc.devRef .tc main_v236) = ReadP.val_main_v236 (F := F) x0 x1 x2
  h_main_v238 : V (Proc.devRef .tc main_v238) = ReadP.val_main_v238 (F := F) x0 x1 x2
  h_main_v240 : V (Proc.devRef .tc main_v240) = ReadP.val_main_v240 (F := F) x0 x1 x2
  h_main_v242 : V (Proc.devRef .tc main_v242) = ReadP.val_main_v242 (F := F) x0 x1 x2
  h_main_v243 : V (Proc.devRef .tc main_v243) = ReadP.val_main_v243 (F := F) x4
  h_main_v245 : V (Proc.devRef .tc main_v245) = ReadP.val_main_v245 (F := F) x0 x1 x2
  h_main_v247 : V (Proc.devRef .tc main_v247) = ReadP.val_main_v247 (F := F) x0 x1 x2
  h_main_v248 : V (Proc.devRef .tc main_v248) = ReadP.val_main_v248 (F := F) x0 x1 x2

/-- The 21 buffers live between windows 5 and 6 (operation 373 of 513), each at its stage. -/
structure Inv6 (V : Valuation τ sig (Elt F)) (x0 x1 : (⟨S16384x3, .f32⟩ : BufTy).Contents (Elt F)) (x2 : (⟨S16384x256, .f32⟩ : BufTy).Contents (Elt F)) (x3 : (⟨S1x160x160x160, .f32⟩ : BufTy).Contents (Elt F)) (x4 : (⟨S3x160x160x160, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_v210 : V (Proc.devRef .tc main_v210) = ReadP.val_main_v210 (F := F) x0 x1 x2 x3
  h_main_v232 : V (Proc.devRef .tc main_v232) = ReadP.val_main_v232 (F := F) x0 x1 x2
  h_main_v234 : V (Proc.devRef .tc main_v234) = ReadP.val_main_v234 (F := F) x0 x1 x2
  h_main_v236 : V (Proc.devRef .tc main_v236) = ReadP.val_main_v236 (F := F) x0 x1 x2
  h_main_v238 : V (Proc.devRef .tc main_v238) = ReadP.val_main_v238 (F := F) x0 x1 x2
  h_main_v240 : V (Proc.devRef .tc main_v240) = ReadP.val_main_v240 (F := F) x0 x1 x2
  h_main_v242 : V (Proc.devRef .tc main_v242) = ReadP.val_main_v242 (F := F) x0 x1 x2
  h_main_v243 : V (Proc.devRef .tc main_v243) = ReadP.val_main_v243 (F := F) x4
  h_main_v245 : V (Proc.devRef .tc main_v245) = ReadP.val_main_v245 (F := F) x0 x1 x2
  h_main_v247 : V (Proc.devRef .tc main_v247) = ReadP.val_main_v247 (F := F) x0 x1 x2
  h_main_v249 : V (Proc.devRef .tc main_v249) = ReadP.val_main_v249 (F := F) x0 x1 x2
  h_main_v251 : V (Proc.devRef .tc main_v251) = ReadP.val_main_v251 (F := F) x0 x1 x2
  h_main_v253 : V (Proc.devRef .tc main_v253) = ReadP.val_main_v253 (F := F) x0 x1 x2
  h_main_v255 : V (Proc.devRef .tc main_v255) = ReadP.val_main_v255 (F := F) x0 x1 x2
  h_main_v292 : V (Proc.devRef .tc main_v292) = ReadP.val_main_v292 (F := F) x0 x1 x2 x4
  h_main_v298 : V (Proc.devRef .tc main_v298) = ReadP.val_main_v298 (F := F) x0 x1 x2

/-- The 19 buffers live between windows 6 and 7 (operation 433 of 513), each at its stage. -/
structure Inv7 (V : Valuation τ sig (Elt F)) (x0 x1 : (⟨S16384x3, .f32⟩ : BufTy).Contents (Elt F)) (x2 : (⟨S16384x256, .f32⟩ : BufTy).Contents (Elt F)) (x3 : (⟨S1x160x160x160, .f32⟩ : BufTy).Contents (Elt F)) (x4 : (⟨S3x160x160x160, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_v210 : V (Proc.devRef .tc main_v210) = ReadP.val_main_v210 (F := F) x0 x1 x2 x3
  h_main_v232 : V (Proc.devRef .tc main_v232) = ReadP.val_main_v232 (F := F) x0 x1 x2
  h_main_v234 : V (Proc.devRef .tc main_v234) = ReadP.val_main_v234 (F := F) x0 x1 x2
  h_main_v238 : V (Proc.devRef .tc main_v238) = ReadP.val_main_v238 (F := F) x0 x1 x2
  h_main_v240 : V (Proc.devRef .tc main_v240) = ReadP.val_main_v240 (F := F) x0 x1 x2
  h_main_v242 : V (Proc.devRef .tc main_v242) = ReadP.val_main_v242 (F := F) x0 x1 x2
  h_main_v243 : V (Proc.devRef .tc main_v243) = ReadP.val_main_v243 (F := F) x4
  h_main_v245 : V (Proc.devRef .tc main_v245) = ReadP.val_main_v245 (F := F) x0 x1 x2
  h_main_v247 : V (Proc.devRef .tc main_v247) = ReadP.val_main_v247 (F := F) x0 x1 x2
  h_main_v251 : V (Proc.devRef .tc main_v251) = ReadP.val_main_v251 (F := F) x0 x1 x2
  h_main_v253 : V (Proc.devRef .tc main_v253) = ReadP.val_main_v253 (F := F) x0 x1 x2
  h_main_v255 : V (Proc.devRef .tc main_v255) = ReadP.val_main_v255 (F := F) x0 x1 x2
  h_main_v330 : V (Proc.devRef .tc main_v330) = ReadP.val_main_v330 (F := F) x0 x1 x2 x4
  h_main_v348 : V (Proc.devRef .tc main_v348) = ReadP.val_main_v348 (F := F) x0 x1 x2 x4

/-- The 14 buffers live between windows 7 and 8 (operation 493 of 513), each at its stage. -/
structure Inv8 (V : Valuation τ sig (Elt F)) (x0 x1 : (⟨S16384x3, .f32⟩ : BufTy).Contents (Elt F)) (x2 : (⟨S16384x256, .f32⟩ : BufTy).Contents (Elt F)) (x3 : (⟨S1x160x160x160, .f32⟩ : BufTy).Contents (Elt F)) (x4 : (⟨S3x160x160x160, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_v210 : V (Proc.devRef .tc main_v210) = ReadP.val_main_v210 (F := F) x0 x1 x2 x3
  h_main_v243 : V (Proc.devRef .tc main_v243) = ReadP.val_main_v243 (F := F) x4
  h_main_v251 : V (Proc.devRef .tc main_v251) = ReadP.val_main_v251 (F := F) x0 x1 x2
  h_main_v253 : V (Proc.devRef .tc main_v253) = ReadP.val_main_v253 (F := F) x0 x1 x2
  h_main_v255 : V (Proc.devRef .tc main_v255) = ReadP.val_main_v255 (F := F) x0 x1 x2
  h_main_v387 : V (Proc.devRef .tc main_v387) = ReadP.val_main_v387 (F := F) x0 x1 x2 x4
  h_main_v393 : V (Proc.devRef .tc main_v393) = ReadP.val_main_v393 (F := F) x0 x1 x2
  h_main_v395 : V (Proc.devRef .tc main_v395) = ReadP.val_main_v395 (F := F) x0 x1 x2
  h_main_v396 : V (Proc.devRef .tc main_v396) = ReadP.val_main_v396 (F := F)

/-- The 7 buffers live after the last window (operation 513 of 513), each at its stage. -/
structure Inv9 (V : Valuation τ sig (Elt F)) (x0 x1 : (⟨S16384x3, .f32⟩ : BufTy).Contents (Elt F)) (x2 : (⟨S16384x256, .f32⟩ : BufTy).Contents (Elt F)) (x3 : (⟨S1x160x160x160, .f32⟩ : BufTy).Contents (Elt F)) (x4 : (⟨S3x160x160x160, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_v210 : V (Proc.devRef .tc main_v210) = ReadP.val_main_v210 (F := F) x0 x1 x2 x3
  h_main_v414 : V (Proc.devRef .tc main_v414) = ReadP.val_main_v414 (F := F) x0 x1 x2 x4

end Cert.ReferenceIdeal.RunH

end
-- ==== Proof.RefRunH.lean ====
/- The run of the reference program: @main is its nine windows' operation lists one after the other, and from any memory
   with zero counters every weakly fair execution ends with each returned buffer at its stage (Proof/RefRead.lean) of the
   arguments' launch contents, the arguments unchanged. Each window carries the facts about the buffers live at its start to
   those live at its end (RefRunW0 … RefRunW8, over the boundary facts of RefRunInv); here they are chained. -/
import proofs.«123153_j77008763617691_1_alg».proof.Proof.RefRunW0
import proofs.«123153_j77008763617691_1_alg».proof.Proof.RefRunW1
import proofs.«123153_j77008763617691_1_alg».proof.Proof.RefRunW2
import proofs.«123153_j77008763617691_1_alg».proof.Proof.RefRunW3
import proofs.«123153_j77008763617691_1_alg».proof.Proof.RefRunW4
import proofs.«123153_j77008763617691_1_alg».proof.Proof.RefRunW5
import proofs.«123153_j77008763617691_1_alg».proof.Proof.RefRunW6
import proofs.«123153_j77008763617691_1_alg».proof.Proof.RefRunW7
import proofs.«123153_j77008763617691_1_alg».proof.Proof.RefRunW8
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- @main's 513 operations, in order: the nine windows' lists one after the other. -/
abbrev ops : List (HloOp τ sig (Elt F)) :=
  ops0 ++ (ops1 ++ (ops2 ++ (ops3 ++ (ops4 ++ (ops5 ++ (ops6 ++ (ops7 ++ ops8)))))))

set_option maxRecDepth 8192 in
theorem main_eq (c : Dev nD) : main (F := F) c = seq ops := by
  simp only [ops, seq_append, ← main_part0_eq c, ← main_part1_eq c, ← main_part2_eq c, ← main_part3_eq c, ← main_part4_eq c,
    ← main_part5_eq c, ← main_part6_eq c, ← main_part7_eq c, ← main_part8_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h,
      List.forall_iff_forall_mem.mp ops6_sub op h, List.forall_iff_forall_mem.mp ops7_sub op h,
      List.forall_iff_forall_mem.mp ops8_sub op h]

/-- Every operation of @main determines its results. -/
theorem ops_fresh : ∀ op ∈ (ops : List (HloOp τ sig (Elt F))), op.fresh = ∅ := fun op h => by
  simp only [ops, List.mem_append] at h
  rcases h with h | h | h | h | h | h | h | h | h
  exacts [List.forall_iff_forall_mem.mp ops0_fresh op h, List.forall_iff_forall_mem.mp ops1_fresh op h,
    List.forall_iff_forall_mem.mp ops2_fresh op h, List.forall_iff_forall_mem.mp ops3_fresh op h,
    List.forall_iff_forall_mem.mp ops4_fresh op h, List.forall_iff_forall_mem.mp ops5_fresh op h,
    List.forall_iff_forall_mem.mp ops6_fresh op h, List.forall_iff_forall_mem.mp ops7_fresh op h,
    List.forall_iff_forall_mem.mp ops8_fresh op h]

/-- After all of @main's operations, from any contents `V`: each returned buffer holds its stage of the arguments as `V`
    has them, and the arguments are as in `V`. -/
theorem after_ops (V : Valuation τ sig (Elt F)) :
    Inv9 (after ops V) (V (Proc.devRef .tc main_arg0)) (V (Proc.devRef .tc main_arg1)) (V (Proc.devRef .tc main_arg2))
      (V (Proc.devRef .tc main_arg3)) (V (Proc.devRef .tc main_arg4)) := by
  simp only [ops, after_append]
  exact step8 _ _ _ _ _ _ (step7 _ _ _ _ _ _ (step6 _ _ _ _ _ _ (step5 _ _ _ _ _ _ (step4 _ _ _ _ _ _
    (step3 _ _ _ _ _ _ (step2 _ _ _ _ _ _ (step1 _ _ _ _ _ _ (step0 V _ _ _ _ _ ⟨rfl, rfl, rfl, rfl, rfl⟩))))))))

/-- On every device, for any float values, from any memory with zero counters: every weakly fair execution of
    @main terminates with each result at its stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v210) = ReadP.val_main_v210 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v414) = ReadP.val_main_v414 (F := F) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      have I := after_ops (F := F) (launchContents m c)
      ⟨(h c main_v210).trans I.h_main_v210, (h c main_v414).trans I.h_main_v414,
        (h c main_arg0).trans I.h_main_arg0, (h c main_arg1).trans I.h_main_arg1, (h c main_arg2).trans I.h_main_arg2,
        (h c main_arg3).trans I.h_main_arg3, (h c main_arg4).trans I.h_main_arg4⟩)
    (run_seq scopedRefs_eq scopedSems_eq defs main (fun _ => ops) main_eq (fun _ => ops_sub) m ρ (fun _ => ops_fresh))

end Cert.ReferenceIdeal.RunH

end
-- ==== Proof.lean ====
/-
  The certificate of a trilinear voxel-grid lookup fused with its activations, against its reference.

  Both programs take ray origins and directions [16384, 3], sample lengths [16384, 256], a density grid
  [1, 160³] and three color grids [3, 160³]. For each of the 16384 · 256 sample points x = o + d·ℓ they form the
  grid position ((x + 1) / 2) · 159 per axis, its floor, the fractional part f and 1 − f, the lower corner (the
  floor clamped to [0, 159]) and the upper corner (that plus one, capped at 159), hence eight corners, each with
  a weight (a product of three of the f / 1 − f) and a linear voxel index (z·160 + y)·160 + x. The reference sums
  grid value × weight over the corners, once for the density channel and once for the three color channels, and
  returns  1 − (1 + e^(s + shift))^(−‖d‖)  and  1 / (1 + e^(−s)).  The kernel program stacks the four channels
  into one table, looks every corner up with a bounds mask, stacks lookups, weights and the per-sample ‖d‖ into
  three arrays, and a pipelined kernel over 128 blocks of 32768 samples forms the same sums and applies
  1 − exp(−‖d‖ · softplus(s + shift))  and the logistic.

  Frames: the kernel program's run is the library's frame run of its one pipeline (the body's two stores tile
  the output block), the arguments untouched by the host lines around it; the reference's run is its nine
  windows of host operations read back onto its stages. Values: every linear index lies in [0, 160³ − 1], so
  the kernel's bounds mask is all ones and the reference's wrap and clamp do nothing; the host code of both
  programs computes the same weights and indices; with finite inputs every quantity is a real number, where
  exp(−I · (max(y, 0) + log(1 + e^(−|y|)))) = (1 + e^y)^(−I)  joins the two density formulas, and the logistic is
  the reference's quotient. The idealization rewrote nothing, so its conjunct is trivial.
-/
import proofs.«123153_j77008763617691_1_alg».proof.Defs
import proofs.«123153_j77008763617691_1_alg».proof.Proof.Gen.Kernel
import proofs.«123153_j77008763617691_1_alg».proof.Proof.Gen.KernelIdeal
import proofs.«123153_j77008763617691_1_alg».proof.Proof.Gen.ReferenceIdeal
import proofs.«123153_j77008763617691_1_alg».proof.Proof.Gen.Pre_finite_inputs
import proofs.«123153_j77008763617691_1_alg».proof.Proof.KFrameB
import proofs.«123153_j77008763617691_1_alg».proof.Proof.KHost
import proofs.«123153_j77008763617691_1_alg».proof.Proof.Bridge
import proofs.«123153_j77008763617691_1_alg».proof.Proof.PreReal
import proofs.«123153_j77008763617691_1_alg».proof.Proof.RefRunH
import Idealize.ShloMosaic.Adequacy
import Idealize.ShloMosaic.Init

set_option maxRecDepth 16384

noncomputable section

namespace Cert.Proof

open Idealize.ShloMosaic Idealize.ShloMosaic.TcCoe Idealize.SL.Sem

/-- The kernel program at the word level runs and leaves its arguments as launched. -/
theorem frame_k : Cert.frame_Kernel := fun m ρ _ => Cert.Kernel.Fr.frame m ρ

/-- So does its idealization (the same text read at the ideal instance). -/
theorem frame_ki : Cert.frame_KernelIdeal := fun m ρ _ => Cert.KernelIdeal.Fr.frame m ρ

/-- The reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.RunH.run (F := Ideal) m ρ)

/-- What the host code of the kernel program leaves in the three arrays its pipeline reads. -/
theorem hostFacts (m : (ℓ : Loc Cert.KernelIdeal.nD Cert.KernelIdeal.τ Cert.KernelIdeal.sig) → Buf (Elt Ideal) ℓ)
    (c : Dev Cert.KernelIdeal.nD) : Cert.Bridge.HostFacts m c where
  hI := Cert.KernelIdeal.Fr.V_interval m c
  hW := by
    rw [Cert.KernelIdeal.Fr.V_weights m c]
    rw [Cert.KernelIdeal.Fr.V_weight_0 m c, Cert.KernelIdeal.Fr.V_weight_1 m c, Cert.KernelIdeal.Fr.V_weight_2 m c, Cert.KernelIdeal.Fr.V_weight_3 m c, Cert.KernelIdeal.Fr.V_weight_4 m c, Cert.KernelIdeal.Fr.V_weight_5 m c, Cert.KernelIdeal.Fr.V_weight_6 m c, Cert.KernelIdeal.Fr.V_weight_7 m c]
  hC := by
    rw [Cert.KernelIdeal.Fr.V_corners m c]
    rw [Cert.KernelIdeal.Fr.V_take_0 m c, Cert.KernelIdeal.Fr.V_take_1 m c, Cert.KernelIdeal.Fr.V_take_2 m c, Cert.KernelIdeal.Fr.V_take_3 m c, Cert.KernelIdeal.Fr.V_take_4 m c, Cert.KernelIdeal.Fr.V_take_5 m c, Cert.KernelIdeal.Fr.V_take_6 m c, Cert.KernelIdeal.Fr.V_take_7 m c]

/-- From memories agreeing on the arguments, the two idealized programs end with equal results. -/
theorem algebraic : Cert.algebraic_KernelIdeal_ReferenceIdeal := by
  intro m ρ m' ρ' hpre hagree
  refine ⟨fun c => Cert.KernelIdeal.KVal.RES0 (Cert.KernelIdeal.KVal.OUT m c),
    fun c => Cert.KernelIdeal.KVal.RES1 (Cert.KernelIdeal.KVal.OUT m c), Cert.KernelIdeal.KVal.kernel_run m ρ, ?_⟩
  refine (θ_run Cert.ReferenceIdeal.defs _ _).mono (fun r h c => ?_) (Cert.ReferenceIdeal.RunH.run (F := Ideal) m' ρ')
  obtain ⟨e0, e1, k0, k1, k2, k3, k4⟩ := h c
  obtain ⟨g0, g1, g2, g3, g4⟩ := hagree c
  obtain ⟨r0, r1, r2, r3, r4⟩ := Cert.Spec.inputs_real _ _ _ _ _ (hpre c)
  refine ⟨e0.trans ?_, e1.trans ?_, k0, k1, k2, k3, k4⟩
  · rw [g0, g1, g2, g3]
    exact Cert.Bridge.res0_eq r0 r1 r2 r3 r4 (hostFacts m c)
  · rw [g0, g1, g2, g4]
    exact Cert.Bridge.res1_eq r0 r1 r2 r3 r4 (hostFacts m c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
